-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v24)) (v2 : (c : Dev Cert.KernelIdeal.nD) → Buf (Elt Ideal) ((c.tc : Thread Cert.KernelIdeal.nD Cert.KernelIdeal.τ).loc Cert.KernelIdeal.main_v10_1)) (v3 : (c : Dev Cert.KernelIdeal.nD) → Buf (Elt Ideal) ((c.tc : Thread Cert.KernelIdeal.nD Cert.KernelIdeal.τ).loc Cert.KernelIdeal.main_v10_2)) (v4 : (c : Dev Cert.KernelIdeal.nD) → Buf (Elt Ideal) ((c.tc : Thread Cert.KernelIdeal.nD Cert.KernelIdeal.τ).loc Cert.KernelIdeal.main_v10_3)) (v5 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v24) = v1 c
          ∧ r.2.mem ((c.tc : Thread Cert.KernelIdeal.nD Cert.KernelIdeal.τ).loc Cert.KernelIdeal.main_v10_1) = v2 c
          ∧ r.2.mem ((c.tc : Thread Cert.KernelIdeal.nD Cert.KernelIdeal.τ).loc Cert.KernelIdeal.main_v10_2) = v3 c
          ∧ r.2.mem ((c.tc : Thread Cert.KernelIdeal.nD Cert.KernelIdeal.τ).loc Cert.KernelIdeal.main_v10_3) = v4 c
          ∧ r.2.mem ((c.tc : Thread Cert.KernelIdeal.nD Cert.KernelIdeal.τ).loc Cert.KernelIdeal.main_v25) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_v111) = v1 c
          ∧ r.2.mem ((c.tc : Thread Cert.ReferenceIdeal.nD Cert.ReferenceIdeal.τ).loc Cert.ReferenceIdeal.main_v72) = v2 c
          ∧ r.2.mem ((c.tc : Thread Cert.ReferenceIdeal.nD Cert.ReferenceIdeal.τ).loc Cert.ReferenceIdeal.main_v76) = v3 c
          ∧ r.2.mem ((c.tc : Thread Cert.ReferenceIdeal.nD Cert.ReferenceIdeal.τ).loc Cert.ReferenceIdeal.main_v68) = v4 c
          ∧ r.2.mem ((c.tc : Thread Cert.ReferenceIdeal.nD Cert.ReferenceIdeal.τ).loc Cert.ReferenceIdeal.main_v64) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x11 : Shape := ⟨2, ![262144, 11]⟩
abbrev S262144 : Shape := ⟨1, ![262144]⟩
abbrev S5x16 : Shape := ⟨2, ![5, 16]⟩
abbrev S5x32x11 : Shape := ⟨3, ![5, 32, 11]⟩
abbrev S5x32 : Shape := ⟨2, ![5, 32]⟩
abbrev S48x512 : Shape := ⟨2, ![48, 512]⟩
abbrev S512 : Shape := ⟨1, ![512]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x128 : Shape := ⟨2, ![128, 128]⟩
abbrev S128x4 : Shape := ⟨2, ![128, 4]⟩
abbrev S4 : Shape := ⟨1, ![4]⟩
abbrev S4x128 : Shape := ⟨2, ![4, 128]⟩
abbrev S144x256 : Shape := ⟨2, ![144, 256]⟩
abbrev S256x512 : Shape := ⟨2, ![256, 512]⟩
abbrev S512x32 : Shape := ⟨2, ![512, 32]⟩
abbrev S32 : Shape := ⟨1, ![32]⟩
abbrev S128x5 : Shape := ⟨2, ![128, 5]⟩
abbrev S5 : Shape := ⟨1, ![5]⟩
abbrev S128x2 : Shape := ⟨2, ![128, 2]⟩
abbrev S2 : Shape := ⟨1, ![2]⟩
abbrev S5x11x32 : Shape := ⟨3, ![5, 11, 32]⟩
abbrev S5x11 : Shape := ⟨2, ![5, 11]⟩
abbrev S_ : Shape := ⟨0, ![]⟩

class Facts : Prop where
  bcast_S_S262144x11 : S_.BroadcastsInDim S262144x11 (![] : Fin 0 → Fin S262144x11.rank)
  reducesTo_S262144x11_S_d0_1 : S262144x11.ReducesTo [0, 1] S_
  h_S_ : 0 < S_.numel
  bcast_S_S5x16 : S_.BroadcastsInDim S5x16 (![] : Fin 0 → Fin S5x16.rank)
  reducesTo_S5x16_S_d0_1 : S5x16.ReducesTo [0, 1] S_
  bcast_S_S5x32x11 : S_.BroadcastsInDim S5x32x11 (![] : Fin 0 → Fin S5x32x11.rank)
  reducesTo_S5x32x11_S_d0_1_2 : S5x32x11.ReducesTo [0, 1, 2] S_
  bcast_S_S5x32 : S_.BroadcastsInDim S5x32 (![] : Fin 0 → Fin S5x32.rank)
  reducesTo_S5x32_S_d0_1 : S5x32.ReducesTo [0, 1] S_
  bcast_S_S48x512 : S_.BroadcastsInDim S48x512 (![] : Fin 0 → Fin S48x512.rank)
  reducesTo_S48x512_S_d0_1 : S48x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x4 : S_.BroadcastsInDim S128x4 (![] : Fin 0 → Fin S128x4.rank)
  reducesTo_S128x4_S_d0_1 : S128x4.ReducesTo [0, 1] S_
  bcast_S_S4 : S_.BroadcastsInDim S4 (![] : Fin 0 → Fin S4.rank)
  reducesTo_S4_S_d0 : S4.ReducesTo [0] S_
  bcast_S_S4x128 : S_.BroadcastsInDim S4x128 (![] : Fin 0 → Fin S4x128.rank)
  reducesTo_S4x128_S_d0_1 : S4x128.ReducesTo [0, 1] S_
  bcast_S_S144x256 : S_.BroadcastsInDim S144x256 (![] : Fin 0 → Fin S144x256.rank)
  reducesTo_S144x256_S_d0_1 : S144x256.ReducesTo [0, 1] S_
  bcast_S_S256x512 : S_.BroadcastsInDim S256x512 (![] : Fin 0 → Fin S256x512.rank)
  reducesTo_S256x512_S_d0_1 : S256x512.ReducesTo [0, 1] S_
  bcast_S_S512x32 : S_.BroadcastsInDim S512x32 (![] : Fin 0 → Fin S512x32.rank)
  reducesTo_S512x32_S_d0_1 : S512x32.ReducesTo [0, 1] S_
  bcast_S_S32 : S_.BroadcastsInDim S32 (![] : Fin 0 → Fin S32.rank)
  reducesTo_S32_S_d0 : S32.ReducesTo [0] S_
  bcast_S_S128x5 : S_.BroadcastsInDim S128x5 (![] : Fin 0 → Fin S128x5.rank)
  reducesTo_S128x5_S_d0_1 : S128x5.ReducesTo [0, 1] S_
  bcast_S_S5 : S_.BroadcastsInDim S5 (![] : Fin 0 → Fin S5.rank)
  reducesTo_S5_S_d0 : S5.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_
  bcast_S_S5x11x32 : S_.BroadcastsInDim S5x11x32 (![] : Fin 0 → Fin S5x11x32.rank)
  reducesTo_S5x11x32_S_d0_1_2 : S5x11x32.ReducesTo [0, 1, 2] S_
  bcast_S_S5x11 : S_.BroadcastsInDim S5x11 (![] : Fin 0 → Fin S5x11.rank)
  reducesTo_S5x11_S_d0_1 : S5x11.ReducesTo [0, 1] S_
  bcast_S_S262144 : S_.BroadcastsInDim S262144 (![] : Fin 0 → Fin S262144.rank)
  reducesTo_S262144_S_d0 : S262144.ReducesTo [0] S_

variable [Facts]

def fn_part8 {F : FTy → Type} [FloatOps F] (main_arg1 : IVec S262144 32) (main_v133 : IVec S_ 1) (main_v136 : IVec S5x11 1) : IVec S_ 1 :=
  let main_c_53 : IVec S_ 1 := constantI S_ 1 1#1
  let main_v137 : IVec S_ 1 := (fun x v => Host.reduce IntOp.andi x v reducesTo_S5x11_S_d0_1 h_S_) main_v136 main_c_53
  let main_v138 : IVec S_ 1 := andi main_v133 main_v137
  let main_c_54 : IVec S_ 32 := constantI S_ 32 0#32
  let main_v139 : IVec S262144 32 := broadcastInDim S262144 ![] bcast_S_S262144 main_c_54
  let main_v140 : IVec S262144 1 := cmpi .sge main_arg1 main_v139
  let main_c_55 : IVec S_ 32 := constantI S_ 32 5#32
  let main_v141 : IVec S262144 32 := broadcastInDim S262144 ![] bcast_S_S262144 main_c_55
  let main_v142 : IVec S262144 1 := cmpi .slt main_arg1 main_v141
  let main_v143 : IVec S262144 1 := andi main_v140 main_v142
  let main_c_56 : IVec S_ 1 := constantI S_ 1 1#1
  let main_v144 : IVec S_ 1 := (fun x v => Host.reduce IntOp.andi x v reducesTo_S262144_S_d0 h_S_) main_v143 main_c_56
  let main_v145 : IVec S_ 1 := andi main_v138 main_v144
  main_v145

def fn_part7 {F : FTy → Type} [FloatOps F] (main_arg1 : IVec S262144 32) (main_arg26 : FVec F S2 .f32) (main_arg27 : FVec F S5x11x32 .f32) (main_arg28 : FVec F S5x11 .f32) (main_v118 : IVec S_ 1) (main_v119 : FVec F S128x2 .f32) : IVec S_ 1 :=
  let main_cst_46 : FVec F S_ .f32 := constant S_ .f32 0x7F800000#32
  let main_v120 : FVec F S128x2 .f32 := broadcastInDim S128x2 ![] bcast_S_S128x2 main_cst_46
  let main_v121 : IVec S128x2 1 := cmpf .olt main_v119 main_v120
  let main_c_47 : IVec S_ 1 := constantI S_ 1 1#1
  let main_v122 : IVec S_ 1 := (fun x v => Host.reduce IntOp.andi x v reducesTo_S128x2_S_d0_1 h_S_) main_v121 main_c_47
  let main_v123 : IVec S_ 1 := andi main_v118 main_v122
  let main_v124 : FVec F S2 .f32 := Host.absf main_arg26
  let main_cst_48 : FVec F S_ .f32 := constant S_ .f32 0x7F800000#32
  let main_v125 : FVec F S2 .f32 := broadcastInDim S2 ![] bcast_S_S2 main_cst_48
  let main_v126 : IVec S2 1 := cmpf .olt main_v124 main_v125
  let main_c_49 : IVec S_ 1 := constantI S_ 1 1#1
  let main_v127 : IVec S_ 1 := (fun x v => Host.reduce IntOp.andi x v reducesTo_S2_S_d0 h_S_) main_v126 main_c_49
  let main_v128 : IVec S_ 1 := andi main_v123 main_v127
  let main_v129 : FVec F S5x11x32 .f32 := Host.absf main_arg27
  let main_cst_50 : FVec F S_ .f32 := constant S_ .f32 0x7F800000#32
  let main_v130 : FVec F S5x11x32 .f32 := broadcastInDim S5x11x32 ![] bcast_S_S5x11x32 main_cst_50
  let main_v131 : IVec S5x11x32 1 := cmpf .olt main_v129 main_v130
  let main_c_51 : IVec S_ 1 := constantI S_ 1 1#1
  let main_v132 : IVec S_ 1 := (fun x v => Host.reduce IntOp.andi x v reducesTo_S5x11x32_S_d0_1_2 h_S_) main_v131 main_c_51
  let main_v133 : IVec S_ 1 := andi main_v128 main_v132
  let main_v134 : FVec F S5x11 .f32 := Host.absf main_arg28
  let main_cst_52 : FVec F S_ .f32 := constant S_ .f32 0x7F800000#32
  let main_v135 : FVec F S5x11 .f32 := broadcastInDim S5x11 ![] bcast_S_S5x11 main_cst_52
  let main_v136 : IVec S5x11 1 := cmpf .olt main_v134 main_v135
  fn_part8 (F := F) main_arg1 main_v133 main_v136

def fn_part6 {F : FTy → Type} [FloatOps F] (main_arg1 : IVec S262144 32) (main_arg22 : FVec F S32 .f32) (main_arg23 : FVec F S128x5 .f32) (main_arg24 : FVec F S5 .f32) (main_arg25 : FVec F S128x2 .f32) (main_arg26 : FVec F S2 .f32) (main_arg27 : FVec F S5x11x32 .f32) (main_arg28 : FVec F S5x11 .f32) (main_v98 : IVec S_ 1) (main_v101 : IVec S512x32 1) (main_c_39 : IVec S_ 1) : IVec S_ 1 :=
  let main_v102 : IVec S_ 1 := (fun x v => Host.reduce IntOp.andi x v reducesTo_S512x32_S_d0_1 h_S_) main_v101 main_c_39
  let main_v103 : IVec S_ 1 := andi main_v98 main_v102
  let main_v104 : FVec F S32 .f32 := Host.absf main_arg22
  let main_cst_40 : FVec F S_ .f32 := constant S_ .f32 0x7F800000#32
  let main_v105 : FVec F S32 .f32 := broadcastInDim S32 ![] bcast_S_S32 main_cst_40
  let main_v106 : IVec S32 1 := cmpf .olt main_v104 main_v105
  let main_c_41 : IVec S_ 1 := constantI S_ 1 1#1
  let main_v107 : IVec S_ 1 := (fun x v => Host.reduce IntOp.andi x v reducesTo_S32_S_d0 h_S_) main_v106 main_c_41
  let main_v108 : IVec S_ 1 := andi main_v103 main_v107
  let main_v109 : FVec F S128x5 .f32 := Host.absf main_arg23
  let main_cst_42 : FVec F S_ .f32 := constant S_ .f32 0x7F800000#32
  let main_v110 : FVec F S128x5 .f32 := broadcastInDim S128x5 ![] bcast_S_S128x5 main_cst_42
  let main_v111 : IVec S128x5 1 := cmpf .olt main_v109 main_v110
  let main_c_43 : IVec S_ 1 := constantI S_ 1 1#1
  let main_v112 : IVec S_ 1 := (fun x v => Host.reduce IntOp.andi x v reducesTo_S128x5_S_d0_1 h_S_) main_v111 main_c_43
  let main_v113 : IVec S_ 1 := andi main_v108 main_v112
  let main_v114 : FVec F S5 .f32 := Host.absf main_arg24
  let main_cst_44 : FVec F S_ .f32 := constant S_ .f32 0x7F800000#32
  let main_v115 : FVec F S5 .f32 := broadcastInDim S5 ![] bcast_S_S5 main_cst_44
  let main_v116 : IVec S5 1 := cmpf .olt main_v114 main_v115
  let main_c_45 : IVec S_ 1 := constantI S_ 1 1#1
  let main_v117 : IVec S_ 1 := (fun x v => Host.reduce IntOp.andi x v reducesTo_S5_S_d0 h_S_) main_v116 main_c_45
  let main_v118 : IVec S_ 1 := andi main_v113 main_v117
  let main_v119 : FVec F S128x2 .f32 := Host.absf main_arg25
  fn_part7 (F := F) main_arg1 main_arg26 main_arg27 main_arg28 main_v118 main_v119

def fn_part5 {F : FTy → Type} [FloatOps F] (main_arg1 : IVec S262144 32) (main_arg19 : FVec F S256x512 .f32) (main_arg20 : FVec F S512 .f32) (main_arg21 : FVec F S512x32 .f32) (main_arg22 : FVec F S32 .f32) (main_arg23 : FVec F S128x5 .f32) (main_arg24 : FVec F S5 .f32) (main_arg25 : FVec F S128x2 .f32) (main_arg26 : FVec F S2 .f32) (main_arg27 : FVec F S5x11x32 .f32) (main_arg28 : FVec F S5x11 .f32) (main_v83 : IVec S_ 1) (main_v84 : FVec F S256 .f32) (main_cst_32 : FVec F S_ .f32) : IVec S_ 1 :=
  let main_v85 : FVec F S256 .f32 := broadcastInDim S256 ![] bcast_S_S256 main_cst_32
  let main_v86 : IVec S256 1 := cmpf .olt main_v84 main_v85
  let main_c_33 : IVec S_ 1 := constantI S_ 1 1#1
  let main_v87 : IVec S_ 1 := (fun x v => Host.reduce IntOp.andi x v reducesTo_S256_S_d0 h_S_) main_v86 main_c_33
  let main_v88 : IVec S_ 1 := andi main_v83 main_v87
  let main_v89 : FVec F S256x512 .f32 := Host.absf main_arg19
  let main_cst_34 : FVec F S_ .f32 := constant S_ .f32 0x7F800000#32
  let main_v90 : FVec F S256x512 .f32 := broadcastInDim S256x512 ![] bcast_S_S256x512 main_cst_34
  let main_v91 : IVec S256x512 1 := cmpf .olt main_v89 main_v90
  let main_c_35 : IVec S_ 1 := constantI S_ 1 1#1
  let main_v92 : IVec S_ 1 := (fun x v => Host.reduce IntOp.andi x v reducesTo_S256x512_S_d0_1 h_S_) main_v91 main_c_35
  let main_v93 : IVec S_ 1 := andi main_v88 main_v92
  let main_v94 : FVec F S512 .f32 := Host.absf main_arg20
  let main_cst_36 : FVec F S_ .f32 := constant S_ .f32 0x7F800000#32
  let main_v95 : FVec F S512 .f32 := broadcastInDim S512 ![] bcast_S_S512 main_cst_36
  let main_v96 : IVec S512 1 := cmpf .olt main_v94 main_v95
  let main_c_37 : IVec S_ 1 := constantI S_ 1 1#1
  let main_v97 : IVec S_ 1 := (fun x v => Host.reduce IntOp.andi x v reducesTo_S512_S_d0 h_S_) main_v96 main_c_37
  let main_v98 : IVec S_ 1 := andi main_v93 main_v97
  let main_v99 : FVec F S512x32 .f32 := Host.absf main_arg21
  let main_cst_38 : FVec F S_ .f32 := constant S_ .f32 0x7F800000#32
  let main_v100 : FVec F S512x32 .f32 := broadcastInDim S512x32 ![] bcast_S_S512x32 main_cst_38
  let main_v101 : IVec S512x32 1 := cmpf .olt main_v99 main_v100
  let main_c_39 : IVec S_ 1 := constantI S_ 1 1#1
  fn_part6 (F := F) main_arg1 main_arg22 main_arg23 main_arg24 main_arg25 main_arg26 main_arg27 main_arg28 main_v98 main_v101 main_c_39

def fn_part4 {F : FTy → Type} [FloatOps F] (main_arg1 : IVec S262144 32) (main_arg15 : FVec F S4x128 .f32) (main_arg16 : FVec F S128 .f32) (main_arg17 : FVec F S144x256 .f32) (main_arg18 : FVec F S256 .f32) (main_arg19 : FVec F S256x512 .f32) (main_arg20 : FVec F S512 .f32) (main_arg21 : FVec F S512x32 .f32) (main_arg22 : FVec F S32 .f32) (main_arg23 : FVec F S128x5 .f32) (main_arg24 : FVec F S5 .f32) (main_arg25 : FVec F S128x2 .f32) (main_arg26 : FVec F S2 .f32) (main_arg27 : FVec F S5x11x32 .f32) (main_arg28 : FVec F S5x11 .f32) (main_v63 : IVec S_ 1) (main_v67 : IVec S_ 1) : IVec S_ 1 :=
  let main_v68 : IVec S_ 1 := andi main_v63 main_v67
  let main_v69 : FVec F S4x128 .f32 := Host.absf main_arg15
  let main_cst_26 : FVec F S_ .f32 := constant S_ .f32 0x7F800000#32
  let main_v70 : FVec F S4x128 .f32 := broadcastInDim S4x128 ![] bcast_S_S4x128 main_cst_26
  let main_v71 : IVec S4x128 1 := cmpf .olt main_v69 main_v70
  let main_c_27 : IVec S_ 1 := constantI S_ 1 1#1
  let main_v72 : IVec S_ 1 := (fun x v => Host.reduce IntOp.andi x v reducesTo_S4x128_S_d0_1 h_S_) main_v71 main_c_27
  let main_v73 : IVec S_ 1 := andi main_v68 main_v72
  let main_v74 : FVec F S128 .f32 := Host.absf main_arg16
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S144x256 .f32 := Host.absf main_arg17
  let main_cst_30 : FVec F S_ .f32 := constant S_ .f32 0x7F800000#32
  let main_v80 : FVec F S144x256 .f32 := broadcastInDim S144x256 ![] bcast_S_S144x256 main_cst_30
  let main_v81 : IVec S144x256 1 := cmpf .olt main_v79 main_v80
  let main_c_31 : IVec S_ 1 := constantI S_ 1 1#1
  let main_v82 : IVec S_ 1 := (fun x v => Host.reduce IntOp.andi x v reducesTo_S144x256_S_d0_1 h_S_) main_v81 main_c_31
  let main_v83 : IVec S_ 1 := andi main_v78 main_v82
  let main_v84 : FVec F S256 .f32 := Host.absf main_arg18
  let main_cst_32 : FVec F S_ .f32 := constant S_ .f32 0x7F800000#32
  fn_part5 (F := F) main_arg1 main_arg19 main_arg20 main_arg21 main_arg22 main_arg23 main_arg24 main_arg25 main_arg26 main_arg27 main_arg28 main_v83 main_v84 main_cst_32

def fn_part3 {F : FTy → Type} [FloatOps F] (main_arg1 : IVec S262144 32) (main_arg12 : FVec F S128 .f32) (main_arg13 : FVec F S128x4 .f32) (main_arg14 : FVec F S4 .f32) (main_arg15 : FVec F S4x128 .f32) (main_arg16 : FVec F S128 .f32) (main_arg17 : FVec F S144x256 .f32) (main_arg18 : FVec F S256 .f32) (main_arg19 : FVec F S256x512 .f32) (main_arg20 : FVec F S512 .f32) (main_arg21 : FVec F S512x32 .f32) (main_arg22 : FVec F S32 .f32) (main_arg23 : FVec F S128x5 .f32) (main_arg24 : FVec F S5 .f32) (main_arg25 : FVec F S128x2 .f32) (main_arg26 : FVec F S2 .f32) (main_arg27 : FVec F S5x11x32 .f32) (main_arg28 : FVec F S5x11 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x4 .f32 := Host.absf main_arg13
  let main_cst_22 : FVec F S_ .f32 := constant S_ .f32 0x7F800000#32
  let main_v60 : FVec F S128x4 .f32 := broadcastInDim S128x4 ![] bcast_S_S128x4 main_cst_22
  let main_v61 : IVec S128x4 1 := cmpf .olt main_v59 main_v60
  let main_c_23 : IVec S_ 1 := constantI S_ 1 1#1
  let main_v62 : IVec S_ 1 := (fun x v => Host.reduce IntOp.andi x v reducesTo_S128x4_S_d0_1 h_S_) main_v61 main_c_23
  let main_v63 : IVec S_ 1 := andi main_v58 main_v62
  let main_v64 : FVec F S4 .f32 := Host.absf main_arg14
  let main_cst_24 : FVec F S_ .f32 := constant S_ .f32 0x7F800000#32
  let main_v65 : FVec F S4 .f32 := broadcastInDim S4 ![] bcast_S_S4 main_cst_24
  let main_v66 : IVec S4 1 := cmpf .olt main_v64 main_v65
  let main_c_25 : IVec S_ 1 := constantI S_ 1 1#1
  let main_v67 : IVec S_ 1 := (fun x v => Host.reduce IntOp.andi x v reducesTo_S4_S_d0 h_S_) main_v66 main_c_25
  fn_part4 (F := F) main_arg1 main_arg15 main_arg16 main_arg17 main_arg18 main_arg19 main_arg20 main_arg21 main_arg22 main_arg23 main_arg24 main_arg25 main_arg26 main_arg27 main_arg28 main_v63 main_v67

def fn_part2 {F : FTy → Type} [FloatOps F] (main_arg1 : IVec S262144 32) (main_arg8 : FVec F S256 .f32) (main_arg9 : FVec F S256x128 .f32) (main_arg10 : FVec F S128 .f32) (main_arg11 : FVec F S128x128 .f32) (main_arg12 : FVec F S128 .f32) (main_arg13 : FVec F S128x4 .f32) (main_arg14 : FVec F S4 .f32) (main_arg15 : FVec F S4x128 .f32) (main_arg16 : FVec F S128 .f32) (main_arg17 : FVec F S144x256 .f32) (main_arg18 : FVec F S256 .f32) (main_arg19 : FVec F S256x512 .f32) (main_arg20 : FVec F S512 .f32) (main_arg21 : FVec F S512x32 .f32) (main_arg22 : FVec F S32 .f32) (main_arg23 : FVec F S128x5 .f32) (main_arg24 : FVec F S5 .f32) (main_arg25 : FVec F S128x2 .f32) (main_arg26 : FVec F S2 .f32) (main_arg27 : FVec F S5x11x32 .f32) (main_arg28 : FVec F S5x11 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x128 .f32 := Host.absf main_arg9
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg1 main_arg12 main_arg13 main_arg14 main_arg15 main_arg16 main_arg17 main_arg18 main_arg19 main_arg20 main_arg21 main_arg22 main_arg23 main_arg24 main_arg25 main_arg26 main_arg27 main_arg28 main_v48 main_v49 main_v50

def fn_part1 {F : FTy → Type} [FloatOps F] (main_arg1 : IVec S262144 32) (main_arg5 : FVec F S48x512 .f32) (main_arg6 : FVec F S512 .f32) (main_arg7 : FVec F S512x256 .f32) (main_arg8 : FVec F S256 .f32) (main_arg9 : FVec F S256x128 .f32) (main_arg10 : FVec F S128 .f32) (main_arg11 : FVec F S128x128 .f32) (main_arg12 : FVec F S128 .f32) (main_arg13 : FVec F S128x4 .f32) (main_arg14 : FVec F S4 .f32) (main_arg15 : FVec F S4x128 .f32) (main_arg16 : FVec F S128 .f32) (main_arg17 : FVec F S144x256 .f32) (main_arg18 : FVec F S256 .f32) (main_arg19 : FVec F S256x512 .f32) (main_arg20 : FVec F S512 .f32) (main_arg21 : FVec F S512x32 .f32) (main_arg22 : FVec F S32 .f32) (main_arg23 : FVec F S128x5 .f32) (main_arg24 : FVec F S5 .f32) (main_arg25 : FVec F S128x2 .f32) (main_arg26 : FVec F S2 .f32) (main_arg27 : FVec F S5x11x32 .f32) (main_arg28 : FVec F S5x11 .f32) (main_v13 : IVec S_ 1) (main_v16 : IVec S5x32 1) : IVec S_ 1 :=
  let main_c_5 : IVec S_ 1 := constantI S_ 1 1#1
  let main_v17 : IVec S_ 1 := (fun x v => Host.reduce IntOp.andi x v reducesTo_S5x32_S_d0_1 h_S_) main_v16 main_c_5
  let main_v18 : IVec S_ 1 := andi main_v13 main_v17
  let main_v19 : FVec F S48x512 .f32 := Host.absf main_arg5
  let main_cst_6 : FVec F S_ .f32 := constant S_ .f32 0x7F800000#32
  let main_v20 : FVec F S48x512 .f32 := broadcastInDim S48x512 ![] bcast_S_S48x512 main_cst_6
  let main_v21 : IVec S48x512 1 := cmpf .olt main_v19 main_v20
  let main_c_7 : IVec S_ 1 := constantI S_ 1 1#1
  let main_v22 : IVec S_ 1 := (fun x v => Host.reduce IntOp.andi x v reducesTo_S48x512_S_d0_1 h_S_) main_v21 main_c_7
  let main_v23 : IVec S_ 1 := andi main_v18 main_v22
  let main_v24 : FVec F S512 .f32 := Host.absf main_arg6
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x256 .f32 := Host.absf main_arg7
  let main_cst_10 : FVec F S_ .f32 := constant S_ .f32 0x7F800000#32
  let main_v30 : FVec F S512x256 .f32 := broadcastInDim S512x256 ![] bcast_S_S512x256 main_cst_10
  let main_v31 : IVec S512x256 1 := cmpf .olt main_v29 main_v30
  let main_c_11 : IVec S_ 1 := constantI S_ 1 1#1
  let main_v32 : IVec S_ 1 := (fun x v => Host.reduce IntOp.andi x v reducesTo_S512x256_S_d0_1 h_S_) main_v31 main_c_11
  let main_v33 : IVec S_ 1 := andi main_v28 main_v32
  fn_part2 (F := F) main_arg1 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_v33

def fn {F : FTy → Type} [FloatOps F] (main_arg0 : FVec F S262144x11 .f32) (main_arg1 : IVec S262144 32) (main_arg2 : FVec F S5x16 .f32) (main_arg3 : FVec F S5x32x11 .f32) (main_arg4 : FVec F S5x32 .f32) (main_arg5 : FVec F S48x512 .f32) (main_arg6 : FVec F S512 .f32) (main_arg7 : FVec F S512x256 .f32) (main_arg8 : FVec F S256 .f32) (main_arg9 : FVec F S256x128 .f32) (main_arg10 : FVec F S128 .f32) (main_arg11 : FVec F S128x128 .f32) (main_arg12 : FVec F S128 .f32) (main_arg13 : FVec F S128x4 .f32) (main_arg14 : FVec F S4 .f32) (main_arg15 : FVec F S4x128 .f32) (main_arg16 : FVec F S128 .f32) (main_arg17 : FVec F S144x256 .f32) (main_arg18 : FVec F S256 .f32) (main_arg19 : FVec F S256x512 .f32) (main_arg20 : FVec F S512 .f32) (main_arg21 : FVec F S512x32 .f32) (main_arg22 : FVec F S32 .f32) (main_arg23 : FVec F S128x5 .f32) (main_arg24 : FVec F S5 .f32) (main_arg25 : FVec F S128x2 .f32) (main_arg26 : FVec F S2 .f32) (main_arg27 : FVec F S5x11x32 .f32) (main_arg28 : FVec F S5x11 .f32) : IVec S_ 1 :=
  let main_v0 : FVec F S262144x11 .f32 := Host.absf main_arg0
  let main_cst : FVec F S_ .f32 := constant S_ .f32 0x7F800000#32
  let main_v1 : FVec F S262144x11 .f32 := broadcastInDim S262144x11 ![] bcast_S_S262144x11 main_cst
  let main_v2 : IVec S262144x11 1 := cmpf .olt main_v0 main_v1
  let main_c : IVec S_ 1 := constantI S_ 1 1#1
  let main_v3 : IVec S_ 1 := (fun x v => Host.reduce IntOp.andi x v reducesTo_S262144x11_S_d0_1 h_S_) main_v2 main_c
  let main_v4 : FVec F S5x16 .f32 := Host.absf main_arg2
  let main_cst_0 : FVec F S_ .f32 := constant S_ .f32 0x7F800000#32
  let main_v5 : FVec F S5x16 .f32 := broadcastInDim S5x16 ![] bcast_S_S5x16 main_cst_0
  let main_v6 : IVec S5x16 1 := cmpf .olt main_v4 main_v5
  let main_c_1 : IVec S_ 1 := constantI S_ 1 1#1
  let main_v7 : IVec S_ 1 := (fun x v => Host.reduce IntOp.andi x v reducesTo_S5x16_S_d0_1 h_S_) main_v6 main_c_1
  let main_v8 : IVec S_ 1 := andi main_v3 main_v7
  let main_v9 : FVec F S5x32x11 .f32 := Host.absf main_arg3
  let main_cst_2 : FVec F S_ .f32 := constant S_ .f32 0x7F800000#32
  let main_v10 : FVec F S5x32x11 .f32 := broadcastInDim S5x32x11 ![] bcast_S_S5x32x11 main_cst_2
  let main_v11 : IVec S5x32x11 1 := cmpf .olt main_v9 main_v10
  let main_c_3 : IVec S_ 1 := constantI S_ 1 1#1
  let main_v12 : IVec S_ 1 := (fun x v => Host.reduce IntOp.andi x v reducesTo_S5x32x11_S_d0_1_2 h_S_) main_v11 main_c_3
  let main_v13 : IVec S_ 1 := andi main_v8 main_v12
  let main_v14 : FVec F S5x32 .f32 := Host.absf main_arg4
  let main_cst_4 : FVec F S_ .f32 := constant S_ .f32 0x7F800000#32
  let main_v15 : FVec F S5x32 .f32 := broadcastInDim S5x32 ![] bcast_S_S5x32 main_cst_4
  let main_v16 : IVec S5x32 1 := cmpf .olt main_v14 main_v15
  fn_part1 (F := F) main_arg1 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_v13 main_v16
-- ==== Kernel.lean ====
abbrev S262144x11 : Shape := ⟨2, ![262144, 11]⟩
abbrev S262144 : Shape := ⟨1, ![262144]⟩
abbrev S5x16 : Shape := ⟨2, ![5, 16]⟩
abbrev S5x32x11 : Shape := ⟨3, ![5, 32, 11]⟩
abbrev S5x32 : Shape := ⟨2, ![5, 32]⟩
abbrev S48x512 : Shape := ⟨2, ![48, 512]⟩
abbrev S512 : Shape := ⟨1, ![512]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x128 : Shape := ⟨2, ![128, 128]⟩
abbrev S128x4 : Shape := ⟨2, ![128, 4]⟩
abbrev S4 : Shape := ⟨1, ![4]⟩
abbrev S4x128 : Shape := ⟨2, ![4, 128]⟩
abbrev S144x256 : Shape := ⟨2, ![144, 256]⟩
abbrev S256x512 : Shape := ⟨2, ![256, 512]⟩
abbrev S512x32 : Shape := ⟨2, ![512, 32]⟩
abbrev S32 : Shape := ⟨1, ![32]⟩
abbrev S128x5 : Shape := ⟨2, ![128, 5]⟩
abbrev S5 : Shape := ⟨1, ![5]⟩
abbrev S128x2 : Shape := ⟨2, ![128, 2]⟩
abbrev S2 : Shape := ⟨1, ![2]⟩
abbrev S5x11x32 : Shape := ⟨3, ![5, 11, 32]⟩
abbrev S5x11 : Shape := ⟨2, ![5, 11]⟩
abbrev S262144x1 : Shape := ⟨2, ![262144, 1]⟩
abbrev S32x512 : Shape := ⟨2, ![32, 512]⟩
abbrev S16x512 : Shape := ⟨2, ![16, 512]⟩
abbrev S128x256 : Shape := ⟨2, ![128, 256]⟩
abbrev S16x256 : Shape := ⟨2, ![16, 256]⟩
abbrev S1x4 : Shape := ⟨2, ![1, 4]⟩
abbrev S262144x5 : Shape := ⟨2, ![262144, 5]⟩
abbrev S262144x2 : Shape := ⟨2, ![262144, 2]⟩
abbrev S262144x128 : Shape := ⟨2, ![262144, 128]⟩
abbrev S1024x11 : Shape := ⟨2, ![1024, 11]⟩
abbrev S1024x1 : Shape := ⟨2, ![1024, 1]⟩
abbrev S1024x5 : Shape := ⟨2, ![1024, 5]⟩
abbrev S1024x2 : Shape := ⟨2, ![1024, 2]⟩
abbrev S1024x128 : Shape := ⟨2, ![1024, 128]⟩
abbrev S1024x16 : Shape := ⟨2, ![1024, 16]⟩
abbrev S1024x32 : Shape := ⟨2, ![1024, 32]⟩
abbrev S1x32x11 : Shape := ⟨3, ![1, 32, 11]⟩
abbrev S32x11 : Shape := ⟨2, ![32, 11]⟩
abbrev S1x32 : Shape := ⟨2, ![1, 32]⟩
abbrev S1024x512 : Shape := ⟨2, ![1024, 512]⟩
abbrev S1x512 : Shape := ⟨2, ![1, 512]⟩
abbrev S1024x256 : Shape := ⟨2, ![1024, 256]⟩
abbrev S1x256 : Shape := ⟨2, ![1, 256]⟩
abbrev S1x128 : Shape := ⟨2, ![1, 128]⟩
abbrev S1024x4 : Shape := ⟨2, ![1024, 4]⟩
abbrev S1024 : Shape := ⟨1, ![1024]⟩
abbrev S1x5 : Shape := ⟨2, ![1, 5]⟩
abbrev S1x2 : Shape := ⟨2, ![1, 2]⟩
abbrev S1x11x32 : Shape := ⟨3, ![1, 11, 32]⟩
abbrev S11x32 : Shape := ⟨2, ![11, 32]⟩
abbrev S1x11 : Shape := ⟨2, ![1, 11]⟩
abbrev S11 : Shape := ⟨1, ![11]⟩
abbrev S_ : Shape := ⟨0, ![]⟩

abbrev nBuf : Space → Nat
  | .hbm => 67
  | .vmem => 48
  | .smem => 0
  | _ => 0

abbrev bufTy : (tb : Table) → Fin (tcTables nBuf tb) → BufTy
  | .hbm, ⟨0, _⟩ => ⟨S262144x11, .f32⟩
  | .hbm, ⟨1, _⟩ => ⟨S262144, .i32⟩
  | .hbm, ⟨2, _⟩ => ⟨S5x16, .f32⟩
  | .hbm, ⟨3, _⟩ => ⟨S5x32x11, .f32⟩
  | .hbm, ⟨4, _⟩ => ⟨S5x32, .f32⟩
  | .hbm, ⟨5, _⟩ => ⟨S48x512, .f32⟩
  | .hbm, ⟨6, _⟩ => ⟨S512, .f32⟩
  | .hbm, ⟨7, _⟩ => ⟨S512x256, .f32⟩
  | .hbm, ⟨8, _⟩ => ⟨S256, .f32⟩
  | .hbm, ⟨9, _⟩ => ⟨S256x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x4, .f32⟩
  | .hbm, ⟨14, _⟩ => ⟨S4, .f32⟩
  | .hbm, ⟨15, _⟩ => ⟨S4x128, .f32⟩
  | .hbm, ⟨16, _⟩ => ⟨S128, .f32⟩
  | .hbm, ⟨17, _⟩ => ⟨S144x256, .f32⟩
  | .hbm, ⟨18, _⟩ => ⟨S256, .f32⟩
  | .hbm, ⟨19, _⟩ => ⟨S256x512, .f32⟩
  | .hbm, ⟨20, _⟩ => ⟨S512, .f32⟩
  | .hbm, ⟨21, _⟩ => ⟨S512x32, .f32⟩
  | .hbm, ⟨22, _⟩ => ⟨S32, .f32⟩
  | .hbm, ⟨23, _⟩ => ⟨S128x5, .f32⟩
  | .hbm, ⟨24, _⟩ => ⟨S5, .f32⟩
  | .hbm, ⟨25, _⟩ => ⟨S128x2, .f32⟩
  | .hbm, ⟨26, _⟩ => ⟨S2, .f32⟩
  | .hbm, ⟨27, _⟩ => ⟨S5x11x32, .f32⟩
  | .hbm, ⟨28, _⟩ => ⟨S5x11, .f32⟩
  | .hbm, ⟨29, _⟩ => ⟨S4, .f32⟩
  | .hbm, ⟨30, _⟩ => ⟨S4, .f32⟩
  | .hbm, ⟨31, _⟩ => ⟨S4, .f32⟩
  | .hbm, ⟨32, _⟩ => ⟨S4, .f32⟩
  | .hbm, ⟨33, _⟩ => ⟨S4, .f32⟩
  | .hbm, ⟨34, _⟩ => ⟨S5, .i32⟩
  | .hbm, ⟨35, _⟩ => ⟨S262144x1, .i32⟩
  | .hbm, ⟨36, _⟩ => ⟨S32x512, .f32⟩
  | .hbm, ⟨37, _⟩ => ⟨S16x512, .f32⟩
  | .hbm, ⟨38, _⟩ => ⟨S128x256, .f32⟩
  | .hbm, ⟨39, _⟩ => ⟨S16x256, .f32⟩
  | .hbm, ⟨40, _⟩ => ⟨S1x4, .f32⟩
  | .hbm, ⟨41, _⟩ => ⟨S1x4, .f32⟩
  | .hbm, ⟨42, _⟩ => ⟨S1x4, .f32⟩
  | .hbm, ⟨43, _⟩ => ⟨S1x4, .f32⟩
  | .hbm, ⟨44, _⟩ => ⟨S1x4, .f32⟩
  | .hbm, ⟨45, _⟩ => ⟨S262144x11, .f32⟩
  | .hbm, ⟨46, _⟩ => ⟨S262144x5, .f32⟩
  | .hbm, ⟨47, _⟩ => ⟨S262144x2, .f32⟩
  | .hbm, ⟨48, _⟩ => ⟨S262144x128, .f32⟩
  | .hbm, ⟨49, _⟩ => ⟨S262144x1, .i32⟩
  | .hbm, ⟨50, _⟩ => ⟨S262144, .i32⟩
  | .hbm, ⟨51, _⟩ => ⟨S_, .i32⟩
  | .hbm, ⟨52, _⟩ => ⟨S262144, .i32⟩
  | .hbm, ⟨53, _⟩ => ⟨S262144, .i1⟩
  | .hbm, ⟨54, _⟩ => ⟨S_, .i32⟩
  | .hbm, ⟨55, _⟩ => ⟨S262144, .i32⟩
  | .hbm, ⟨56, _⟩ => ⟨S262144, .i32⟩
  | .hbm, ⟨57, _⟩ => ⟨S262144, .i32⟩
  | .hbm, ⟨58, _⟩ => ⟨S262144x1, .i32⟩
  | .hbm, ⟨59, _⟩ => ⟨S262144, .i32⟩
  | .hbm, ⟨60, _⟩ => ⟨S11, .i32⟩
  | .hbm, ⟨61, _⟩ => ⟨S1x11, .i32⟩
  | .hbm, ⟨62, _⟩ => ⟨S262144x1, .i32⟩
  | .hbm, ⟨63, _⟩ => ⟨S262144x11, .i32⟩
  | .hbm, ⟨64, _⟩ => ⟨S262144x11, .i32⟩
  | .hbm, ⟨65, _⟩ => ⟨S262144x11, .i1⟩
  | .hbm, ⟨66, _⟩ => ⟨S262144, .i32⟩
  | .local _ .vmem, ⟨0, _⟩ => ⟨S1024x11, .f32⟩
  | .local _ .vmem, ⟨1, _⟩ => ⟨S1024x11, .f32⟩
  | .local _ .vmem, ⟨2, _⟩ => ⟨S1024x1, .i32⟩
  | .local _ .vmem, ⟨3, _⟩ => ⟨S1024x1, .i32⟩
  | .local _ .vmem, ⟨4, _⟩ => ⟨S5x16, .f32⟩
  | .local _ .vmem, ⟨5, _⟩ => ⟨S5x32x11, .f32⟩
  | .local _ .vmem, ⟨6, _⟩ => ⟨S5x32, .f32⟩
  | .local _ .vmem, ⟨7, _⟩ => ⟨S32x512, .f32⟩
  | .local _ .vmem, ⟨8, _⟩ => ⟨S16x512, .f32⟩
  | .local _ .vmem, ⟨9, _⟩ => ⟨S512, .f32⟩
  | .local _ .vmem, ⟨10, _⟩ => ⟨S512x256, .f32⟩
  | .local _ .vmem, ⟨11, _⟩ => ⟨S256, .f32⟩
  | .local _ .vmem, ⟨12, _⟩ => ⟨S256x128, .f32⟩
  | .local _ .vmem, ⟨13, _⟩ => ⟨S128, .f32⟩
  | .local _ .vmem, ⟨14, _⟩ => ⟨S128x128, .f32⟩
  | .local _ .vmem, ⟨15, _⟩ => ⟨S128, .f32⟩
  | .local _ .vmem, ⟨16, _⟩ => ⟨S128x4, .f32⟩
  | .local _ .vmem, ⟨17, _⟩ => ⟨S4, .f32⟩
  | .local _ .vmem, ⟨18, _⟩ => ⟨S4x128, .f32⟩
  | .local _ .vmem, ⟨19, _⟩ => ⟨S128, .f32⟩
  | .local _ .vmem, ⟨20, _⟩ => ⟨S128x256, .f32⟩
  | .local _ .vmem, ⟨21, _⟩ => ⟨S16x256, .f32⟩
  | .local _ .vmem, ⟨22, _⟩ => ⟨S256, .f32⟩
  | .local _ .vmem, ⟨23, _⟩ => ⟨S256x512, .f32⟩
  | .local _ .vmem, ⟨24, _⟩ => ⟨S512, .f32⟩
  | .local _ .vmem, ⟨25, _⟩ => ⟨S512x32, .f32⟩
  | .local _ .vmem, ⟨26, _⟩ => ⟨S32, .f32⟩
  | .local _ .vmem, ⟨27, _⟩ => ⟨S128x5, .f32⟩
  | .local _ .vmem, ⟨28, _⟩ => ⟨S5, .f32⟩
  | .local _ .vmem, ⟨29, _⟩ => ⟨S128x2, .f32⟩
  | .local _ .vmem, ⟨30, _⟩ => ⟨S2, .f32⟩
  | .local _ .vmem, ⟨31, _⟩ => ⟨S5x11x32, .f32⟩
  | .local _ .vmem, ⟨32, _⟩ => ⟨S5x11, .f32⟩
  | .local _ .vmem, ⟨33, _⟩ => ⟨S1x4, .f32⟩
  | .local _ .vmem, ⟨34, _⟩ => ⟨S1x4, .f32⟩
  | .local _ .vmem, ⟨35, _⟩ => ⟨S1x4, .f32⟩
  | .local _ .vmem, ⟨36, _⟩ => ⟨S1x4, .f32⟩
  | .local _ .vmem, ⟨37, _⟩ => ⟨S1x4, .f32⟩
  | .local _ .vmem, ⟨38, _⟩ => ⟨S1024x11, .f32⟩
  | .local _ .vmem, ⟨39, _⟩ => ⟨S1024x11, .f32⟩
  | .local _ .vmem, ⟨40, _⟩ => ⟨S1024x5, .f32⟩
  | .local _ .vmem, ⟨41, _⟩ => ⟨S1024x5, .f32⟩
  | .local _ .vmem, ⟨42, _⟩ => ⟨S1024x2, .f32⟩
  | .local _ .vmem, ⟨43, _⟩ => ⟨S1024x2, .f32⟩
  | .local _ .vmem, ⟨44, _⟩ => ⟨S1024x128, .f32⟩
  | .local _ .vmem, ⟨45, _⟩ => ⟨S1024x128, .f32⟩
  | .local _ .vmem, ⟨46, _⟩ => ⟨S1024x1, .i32⟩
  | .local _ .vmem, ⟨47, _⟩ => ⟨S1024x1, .i32⟩
  | _, _ => ⟨S262144x11, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_cst : Ref sig .tc := ⟨.hbm, 29, rfl⟩
abbrev main_cst_0 : Ref sig .tc := ⟨.hbm, 30, rfl⟩
abbrev main_cst_1 : Ref sig .tc := ⟨.hbm, 31, rfl⟩
abbrev main_cst_2 : Ref sig .tc := ⟨.hbm, 32, rfl⟩
abbrev main_cst_3 : Ref sig .tc := ⟨.hbm, 33, rfl⟩
abbrev main_c : Ref sig .tc := ⟨.hbm, 34, rfl⟩
abbrev main_v0 : Ref sig .tc := ⟨.hbm, 35, rfl⟩
abbrev main_v1 : Ref sig .tc := ⟨.hbm, 36, rfl⟩
abbrev main_v2 : Ref sig .tc := ⟨.hbm, 37, rfl⟩
abbrev main_v3 : Ref sig .tc := ⟨.hbm, 38, rfl⟩
abbrev main_v4 : Ref sig .tc := ⟨.hbm, 39, rfl⟩
abbrev main_v5 : Ref sig .tc := ⟨.hbm, 40, rfl⟩
abbrev main_v6 : Ref sig .tc := ⟨.hbm, 41, rfl⟩
abbrev main_v7 : Ref sig .tc := ⟨.hbm, 42, rfl⟩
abbrev main_v8 : Ref sig .tc := ⟨.hbm, 43, rfl⟩
abbrev main_v9 : Ref sig .tc := ⟨.hbm, 44, rfl⟩
abbrev main_v10_0 : Ref sig .tc := ⟨.hbm, 45, rfl⟩
abbrev main_v10_1 : Ref sig .tc := ⟨.hbm, 46, rfl⟩
abbrev main_v10_2 : Ref sig .tc := ⟨.hbm, 47, rfl⟩
abbrev main_v10_3 : Ref sig .tc := ⟨.hbm, 48, rfl⟩
abbrev main_v10_4 : Ref sig .tc := ⟨.hbm, 49, rfl⟩
abbrev main_v11 : Ref sig .tc := ⟨.hbm, 50, rfl⟩
abbrev main_c_4 : Ref sig .tc := ⟨.hbm, 51, rfl⟩
abbrev main_v12 : Ref sig .tc := ⟨.hbm, 52, rfl⟩
abbrev main_v13 : Ref sig .tc := ⟨.hbm, 53, rfl⟩
abbrev main_c_5 : Ref sig .tc := ⟨.hbm, 54, rfl⟩
abbrev main_v14 : Ref sig .tc := ⟨.hbm, 55, rfl⟩
abbrev main_v15 : Ref sig .tc := ⟨.hbm, 56, rfl⟩
abbrev main_v16 : Ref sig .tc := ⟨.hbm, 57, rfl⟩
abbrev main_v17 : Ref sig .tc := ⟨.hbm, 58, rfl⟩
abbrev main_v18 : Ref sig .tc := ⟨.hbm, 59, rfl⟩
abbrev main_v19 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg19_0 : Ref sig .tc := ⟨.vmem, 21, rfl⟩
abbrev cc0_stg20_0 : Ref sig .tc := ⟨.vmem, 22, rfl⟩
abbrev cc0_stg21_0 : Ref sig .tc := ⟨.vmem, 23, rfl⟩
abbrev cc0_stg22_0 : Ref sig .tc := ⟨.vmem, 24, rfl⟩
abbrev cc0_stg23_0 : Ref sig .tc := ⟨.vmem, 25, rfl⟩
abbrev cc0_stg24_0 : Ref sig .tc := ⟨.vmem, 26, rfl⟩
abbrev cc0_stg25_0 : Ref sig .tc := ⟨.vmem, 27, rfl⟩
abbrev cc0_stg26_0 : Ref sig .tc := ⟨.vmem, 28, rfl⟩
abbrev cc0_stg27_0 : Ref sig .tc := ⟨.vmem, 29, rfl⟩
abbrev cc0_stg28_0 : Ref sig .tc := ⟨.vmem, 30, rfl⟩
abbrev cc0_stg29_0 : Ref sig .tc := ⟨.vmem, 31, rfl⟩
abbrev cc0_stg30_0 : Ref sig .tc := ⟨.vmem, 32, rfl⟩
abbrev cc0_stg31_0 : Ref sig .tc := ⟨.vmem, 33, rfl⟩
abbrev cc0_stg32_0 : Ref sig .tc := ⟨.vmem, 34, rfl⟩
abbrev cc0_stg33_0 : Ref sig .tc := ⟨.vmem, 35, rfl⟩
abbrev cc0_stg34_0 : Ref sig .tc := ⟨.vmem, 36, rfl⟩
abbrev cc0_stg35_0 : Ref sig .tc := ⟨.vmem, 37, rfl⟩
abbrev cc0_stg36_0 : Ref sig .tc := ⟨.vmem, 38, rfl⟩
abbrev cc0_stg36_1 : Ref sig .tc := ⟨.vmem, 39, rfl⟩
abbrev cc0_stg37_0 : Ref sig .tc := ⟨.vmem, 40, rfl⟩
abbrev cc0_stg37_1 : Ref sig .tc := ⟨.vmem, 41, rfl⟩
abbrev cc0_stg38_0 : Ref sig .tc := ⟨.vmem, 42, rfl⟩
abbrev cc0_stg38_1 : Ref sig .tc := ⟨.vmem, 43, rfl⟩
abbrev cc0_stg39_0 : Ref sig .tc := ⟨.vmem, 44, rfl⟩
abbrev cc0_stg39_1 : Ref sig .tc := ⟨.vmem, 45, rfl⟩
abbrev cc0_stg40_0 : Ref sig .tc := ⟨.vmem, 46, rfl⟩
abbrev cc0_stg40_1 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem19_0 : DmaSem sig := 21
abbrev cc0_sem20_0 : DmaSem sig := 22
abbrev cc0_sem21_0 : DmaSem sig := 23
abbrev cc0_sem22_0 : DmaSem sig := 24
abbrev cc0_sem23_0 : DmaSem sig := 25
abbrev cc0_sem24_0 : DmaSem sig := 26
abbrev cc0_sem25_0 : DmaSem sig := 27
abbrev cc0_sem26_0 : DmaSem sig := 28
abbrev cc0_sem27_0 : DmaSem sig := 29
abbrev cc0_sem28_0 : DmaSem sig := 30
abbrev cc0_sem29_0 : DmaSem sig := 31
abbrev cc0_sem30_0 : DmaSem sig := 32
abbrev cc0_sem31_0 : DmaSem sig := 33
abbrev cc0_sem32_0 : DmaSem sig := 34
abbrev cc0_sem33_0 : DmaSem sig := 35
abbrev cc0_sem34_0 : DmaSem sig := 36
abbrev cc0_sem35_0 : DmaSem sig := 37
abbrev cc0_sem36_0 : DmaSem sig := 38
abbrev cc0_sem36_1 : DmaSem sig := 39
abbrev cc0_sem37_0 : DmaSem sig := 40
abbrev cc0_sem37_1 : DmaSem sig := 41
abbrev cc0_sem38_0 : DmaSem sig := 42
abbrev cc0_sem38_1 : DmaSem sig := 43
abbrev cc0_sem39_0 : DmaSem sig := 44
abbrev cc0_sem39_1 : DmaSem sig := 45
abbrev cc0_sem40_0 : DmaSem sig := 46
abbrev cc0_sem40_1 : DmaSem sig := 47

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_27 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_28 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_29 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_30 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_31 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_32 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_33 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_34 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_35 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_36 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_37 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_38 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_39 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_40 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x11 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S5x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S5x32x11 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S5x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x4 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S4 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S4x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S128x256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S16x256 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S256 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S256x512 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S512 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S512x32 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S32 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S128x5 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S5 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 1 → Memref sig .tc .vmem S128x2 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]

abbrev stage0_28 : Fin 1 → Memref sig .tc .vmem S2 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false]

abbrev stage0_29 : Fin 1 → Memref sig .tc .vmem S5x11x32 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))
abbrev reads0_29 : Fin grid0.rank → Bool := ![false]

abbrev stage0_30 : Fin 1 → Memref sig .tc .vmem S5x11 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))
abbrev reads0_30 : Fin grid0.rank → Bool := ![false]

abbrev stage0_31 : Fin 1 → Memref sig .tc .vmem S1x4 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))
abbrev reads0_31 : Fin grid0.rank → Bool := ![false]

abbrev stage0_32 : Fin 1 → Memref sig .tc .vmem S1x4 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))
abbrev reads0_32 : Fin grid0.rank → Bool := ![false]

abbrev stage0_33 : Fin 1 → Memref sig .tc .vmem S1x4 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))
abbrev reads0_33 : Fin grid0.rank → Bool := ![false]

abbrev stage0_34 : Fin 1 → Memref sig .tc .vmem S1x4 .f32 := fun | 0 => Memref.whole cc0_stg34_0 | ⟨_ + 1, h⟩ => absurd h (Nat.not_lt.2 (Nat.le_add_left _ _))
abbrev sem0_34 : Fin 1 → DmaSem sig := fun | 0 => cc0_sem34_0 | ⟨_ + 1, h⟩ => absurd h (Nat.not_lt.2 (Nat.le_add_left _ _))
abbrev reads0_34 : Fin grid0.rank → Bool := ![false]

abbrev stage0_35 : Fin 1 → Memref sig .tc .vmem S1x4 .f32 := fun | 0 => Memref.whole cc0_stg35_0 | ⟨_ + 1, h⟩ => absurd h (Nat.not_lt.2 (Nat.le_add_left _ _))
abbrev sem0_35 : Fin 1 → DmaSem sig := fun | 0 => cc0_sem35_0 | ⟨_ + 1, h⟩ => absurd h (Nat.not_lt.2 (Nat.le_add_left _ _))
abbrev reads0_35 : Fin grid0.rank → Bool := ![false]

abbrev stage0_36 : Fin 2 → Memref sig .tc .vmem S1024x11 .f32 := fun | 0 => Memref.whole cc0_stg36_0 | 1 => Memref.whole cc0_stg36_1 | ⟨_ + 2, h⟩ => absurd h (Nat.not_lt.2 (Nat.le_add_left _ _))
abbrev sem0_36 : Fin 2 → DmaSem sig := fun | 0 => cc0_sem36_0 | 1 => cc0_sem36_1 | ⟨_ + 2, h⟩ => absurd h (Nat.not_lt.2 (Nat.le_add_left _ _))
abbrev reads0_36 : Fin grid0.rank → Bool := ![true]

abbrev stage0_37 : Fin 2 → Memref sig .tc .vmem S1024x5 .f32 := fun | 0 => Memref.whole cc0_stg37_0 | 1 => Memref.whole cc0_stg37_1 | ⟨_ + 2, h⟩ => absurd h (Nat.not_lt.2 (Nat.le_add_left _ _))
abbrev sem0_37 : Fin 2 → DmaSem sig := fun | 0 => cc0_sem37_0 | 1 => cc0_sem37_1 | ⟨_ + 2, h⟩ => absurd h (Nat.not_lt.2 (Nat.le_add_left _ _))
abbrev reads0_37 : Fin grid0.rank → Bool := ![true]

abbrev stage0_38 : Fin 2 → Memref sig .tc .vmem S1024x2 .f32 := fun | 0 => Memref.whole cc0_stg38_0 | 1 => Memref.whole cc0_stg38_1 | ⟨_ + 2, h⟩ => absurd h (Nat.not_lt.2 (Nat.le_add_left _ _))
abbrev sem0_38 : Fin 2 → DmaSem sig := fun | 0 => cc0_sem38_0 | 1 => cc0_sem38_1 | ⟨_ + 2, h⟩ => absurd h (Nat.not_lt.2 (Nat.le_add_left _ _))
abbrev reads0_38 : Fin grid0.rank → Bool := ![true]

abbrev stage0_39 : Fin 2 → Memref sig .tc .vmem S1024x128 .f32 := fun | 0 => Memref.whole cc0_stg39_0 | 1 => Memref.whole cc0_stg39_1 | ⟨_ + 2, h⟩ => absurd h (Nat.not_lt.2 (Nat.le_add_left _ _))
abbrev sem0_39 : Fin 2 → DmaSem sig := fun | 0 => cc0_sem39_0 | 1 => cc0_sem39_1 | ⟨_ + 2, h⟩ => absurd h (Nat.not_lt.2 (Nat.le_add_left _ _))
abbrev reads0_39 : Fin grid0.rank → Bool := ![true]

abbrev stage0_40 : Fin 2 → Memref sig .tc .vmem S1024x1 .i32 := fun | 0 => Memref.whole cc0_stg40_0 | 1 => Memref.whole cc0_stg40_1 | ⟨_ + 2, h⟩ => absurd h (Nat.not_lt.2 (Nat.le_add_left _ _))
abbrev sem0_40 : Fin 2 → DmaSem sig := fun | 0 => cc0_sem40_0 | 1 => cc0_sem40_1 | ⟨_ + 2, h⟩ => absurd h (Nat.not_lt.2 (Nat.le_add_left _ _))
abbrev reads0_40 : Fin grid0.rank → Bool := ![true]

class Facts₀ : Prop where
  shapeCasts_S262144_S262144x1 : S262144.ShapeCasts S262144x1
  slices_S48x512_S32x512_0_0 : S48x512.Slices ![0, 0] S32x512
  slices_S48x512_S16x512_32_0 : S48x512.Slices ![32, 0] S16x512
  slices_S144x256_S128x256_0_0 : S144x256.Slices ![0, 0] S128x256
  slices_S144x256_S16x256_128_0 : S144x256.Slices ![128, 0] S16x256
  shapeCasts_S4_S1x4 : S4.ShapeCasts S1x4
  inb_S1024x11_S1024x11_0_0 : ∀ a, (![0, 0] : Fin 2 → Nat) a + S1024x11.size a ≤ S1024x11.size a
  h_S1024x11 : 0 < S1024x11.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  iota_S1024x5_d1_w32 : S1024x5.Iotas .tc 32 [1]
  broadcasts_S1024x1_S1024x5 : S1024x1.Broadcasts S1024x5
  natLt_1_32 : 1 < 32
  inb_S5x16_S5x16_0_0 : ∀ a, (![0, 0] : Fin 2 → Nat) a + S5x16.size a ≤ S5x16.size a
  h_S5x16 : 0 < S5x16.numel
  inb_S5x32x11_S1x32x11_0_0_0 : ∀ a, (![0, 0, 0] : Fin 3 → Nat) a + S1x32x11.size a ≤ S5x32x11.size a
  h_S1x32x11 : 0 < S1x32x11.numel
  shapeCasts_S1x32x11_S32x11 : S1x32x11.ShapeCasts S32x11
  inb_S5x32_S1x32_0_0 : ∀ a, (![0, 0] : Fin 2 → Nat) a + S1x32.size a ≤ S5x32.size a
  h_S1x32 : 0 < S1x32.numel
  shapeCasts_S1x32_S32 : S1x32.ShapeCasts S32
  shapeCasts_S32_S1x32 : S32.ShapeCasts S1x32
  broadcasts_S1x32_S1024x32 : S1x32.Broadcasts S1024x32
  slices_S1024x5_o0_0_S1024x1 : S1024x5.Slices ![0, 0] S1024x1
  broadcasts_S1024x1_S1024x32 : S1024x1.Broadcasts S1024x32
  inb_S5x32x11_S1x32x11_1_0_0 : ∀ a, (![1, 0, 0] : Fin 3 → Nat) a + S1x32x11.size a ≤ S5x32x11.size a
  inb_S5x32_S1x32_1_0 : ∀ a, (![1, 0] : Fin 2 → Nat) a + S1x32.size a ≤ S5x32.size a
  slices_S1024x5_o0_1_S1024x1 : S1024x5.Slices ![0, 1] S1024x1
  inb_S5x32x11_S1x32x11_2_0_0 : ∀ a, (![2, 0, 0] : Fin 3 → Nat) a + S1x32x11.size a ≤ S5x32x11.size a
  inb_S5x32_S1x32_2_0 : ∀ a, (![2, 0] : Fin 2 → Nat) a + S1x32.size a ≤ S5x32.size a
  slices_S1024x5_o0_2_S1024x1 : S1024x5.Slices ![0, 2] S1024x1
  inb_S5x32x11_S1x32x11_3_0_0 : ∀ a, (![3, 0, 0] : Fin 3 → Nat) a + S1x32x11.size a ≤ S5x32x11.size a
  inb_S5x32_S1x32_3_0 : ∀ a, (![3, 0] : Fin 2 → Nat) a + S1x32.size a ≤ S5x32.size a
  slices_S1024x5_o0_3_S1024x1 : S1024x5.Slices ![0, 3] S1024x1
  inb_S5x32x11_S1x32x11_4_0_0 : ∀ a, (![4, 0, 0] : Fin 3 → Nat) a + S1x32x11.size a ≤ S5x32x11.size a
  inb_S5x32_S1x32_4_0 : ∀ a, (![4, 0] : Fin 2 → Nat) a + S1x32.size a ≤ S5x32.size a
  slices_S1024x5_o0_4_S1024x1 : S1024x5.Slices ![0, 4] S1024x1
  inb_S32x512_S32x512_0_0 : ∀ a, (![0, 0] : Fin 2 → Nat) a + S32x512.size a ≤ S32x512.size a
  h_S32x512 : 0 < S32x512.numel
  shapeCasts_S32x512_S32x512 : S32x512.ShapeCasts S32x512
  inb_S16x512_S16x512_0_0 : ∀ a, (![0, 0] : Fin 2 → Nat) a + S16x512.size a ≤ S16x512.size a
  h_S16x512 : 0 < S16x512.numel
  shapeCasts_S16x512_S16x512 : S16x512.ShapeCasts S16x512
  inb_S512_S512_0 : ∀ a, (![0] : Fin 1 → Nat) a + S512.size a ≤ S512.size a
  h_S512 : 0 < S512.numel
  shapeCasts_S512_S1x512 : S512.ShapeCasts S1x512
  broadcasts_S1x512_S1024x512 : S1x512.Broadcasts S1024x512
  inb_S512x256_S512x256_0_0 : ∀ a, (![0, 0] : Fin 2 → Nat) a + S512x256.size a ≤ S512x256.size a
  h_S512x256 : 0 < S512x256.numel
  inb_S256_S256_0 : ∀ a, (![0] : Fin 1 → Nat) a + S256.size a ≤ S256.size a
  h_S256 : 0 < S256.numel
  shapeCasts_S256_S1x256 : S256.ShapeCasts S1x256
  broadcasts_S1x256_S1024x256 : S1x256.Broadcasts S1024x256
  inb_S256x128_S256x128_0_0 : ∀ a, (![0, 0] : Fin 2 → Nat) a + S256x128.size a ≤ S256x128.size a
  h_S256x128 : 0 < S256x128.numel
  inb_S128_S128_0 : ∀ a, (![0] : Fin 1 → Nat) a + S128.size a ≤ S128.size a
  h_S128 : 0 < S128.numel
  shapeCasts_S128_S1x128 : S128.ShapeCasts S1x128
  broadcasts_S1x128_S1024x128 : S1x128.Broadcasts S1024x128
  inb_S128x128_S128x128_0_0 : ∀ a, (![0, 0] : Fin 2 → Nat) a + S128x128.size a ≤ S128x128.size a
  h_S128x128 : 0 < S128x128.numel
  inb_S128x4_S128x4_0_0 : ∀ a, (![0, 0] : Fin 2 → Nat) a + S128x4.size a ≤ S128x4.size a
  h_S128x4 : 0 < S128x4.numel
  inb_S4_S4_0 : ∀ a, (![0] : Fin 1 → Nat) a + S4.size a ≤ S4.size a
  h_S4 : 0 < S4.numel
  broadcasts_S1x4_S1024x4 : S1x4.Broadcasts S1024x4
  inb_S1x4_S1x4_0_0 : ∀ a, (![0, 0] : Fin 2 → Nat) a + S1x4.size a ≤ S1x4.size a
  h_S1x4 : 0 < S1x4.numel
  shapeCasts_S1x4_S1x4 : S1x4.ShapeCasts S1x4
  reduces_S1024x4_S1024 : S1024x4.Reduces [1] S1024
  shapeCasts_S1024_S1024x1 : S1024.ShapeCasts S1024x1
  inb_S4x128_S4x128_0_0 : ∀ a, (![0, 0] : Fin 2 → Nat) a + S4x128.size a ≤ S4x128.size a
  h_S4x128 : 0 < S4x128.numel
  inb_S128x5_S128x5_0_0 : ∀ a, (![0, 0] : Fin 2 → Nat) a + S128x5.size a ≤ S128x5.size a
  h_S128x5 : 0 < S128x5.numel
  inb_S5_S5_0 : ∀ a, (![0] : Fin 1 → Nat) a + S5.size a ≤ S5.size a
  h_S5 : 0 < S5.numel
  shapeCasts_S5_S1x5 : S5.ShapeCasts S1x5
  broadcasts_S1x5_S1024x5 : S1x5.Broadcasts S1024x5
  inb_S128x2_S128x2_0_0 : ∀ a, (![0, 0] : Fin 2 → Nat) a + S128x2.size a ≤ S128x2.size a
  h_S128x2 : 0 < S128x2.numel
  inb_S2_S2_0 : ∀ a, (![0] : Fin 1 → Nat) a + S2.size a ≤ S2.size a
  h_S2 : 0 < S2.numel
  shapeCasts_S2_S1x2 : S2.ShapeCasts S1x2
  broadcasts_S1x2_S1024x2 : S1x2.Broadcasts S1024x2
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S16x256_S16x256_0_0 : ∀ a, (![0, 0] : Fin 2 → Nat) a + S16x256.size a ≤ S16x256.size a
  h_S16x256 : 0 < S16x256.numel
  shapeCasts_S16x256_S16x256 : S16x256.ShapeCasts S16x256
  inb_S256x512_S256x512_0_0 : ∀ a, (![0, 0] : Fin 2 → Nat) a + S256x512.size a ≤ S256x512.size a
  h_S256x512 : 0 < S256x512.numel
  inb_S512x32_S512x32_0_0 : ∀ a, (![0, 0] : Fin 2 → Nat) a + S512x32.size a ≤ S512x32.size a
  h_S512x32 : 0 < S512x32.numel
  inb_S32_S32_0 : ∀ a, (![0] : Fin 1 → Nat) a + S32.size a ≤ S32.size a
  h_S32 : 0 < S32.numel
  inb_S5x11x32_S1x11x32_0_0_0 : ∀ a, (![0, 0, 0] : Fin 3 → Nat) a + S1x11x32.size a ≤ S5x11x32.size a
  h_S1x11x32 : 0 < S1x11x32.numel
  shapeCasts_S1x11x32_S11x32 : S1x11x32.ShapeCasts S11x32
  inb_S5x11_S1x11_0_0 : ∀ a, (![0, 0] : Fin 2 → Nat) a + S1x11.size a ≤ S5x11.size a
  h_S1x11 : 0 < S1x11.numel
  shapeCasts_S1x11_S11 : S1x11.ShapeCasts S11
  shapeCasts_S11_S1x11 : S11.ShapeCasts S1x11
  broadcasts_S1x11_S1024x11 : S1x11.Broadcasts S1024x11
  broadcasts_S1024x1_S1024x11 : S1024x1.Broadcasts S1024x11
  inb_S5x11x32_S1x11x32_1_0_0 : ∀ a, (![1, 0, 0] : Fin 3 → Nat) a + S1x11x32.size a ≤ S5x11x32.size a
  inb_S5x11_S1x11_1_0 : ∀ a, (![1, 0] : Fin 2 → Nat) a + S1x11.size a ≤ S5x11.size a
  inb_S5x11x32_S1x11x32_2_0_0 : ∀ a, (![2, 0, 0] : Fin 3 → Nat) a + S1x11x32.size a ≤ S5x11x32.size a
  inb_S5x11_S1x11_2_0 : ∀ a, (![2, 0] : Fin 2 → Nat) a + S1x11.size a ≤ S5x11.size a
  inb_S5x11x32_S1x11x32_3_0_0 : ∀ a, (![3, 0, 0] : Fin 3 → Nat) a + S1x11x32.size a ≤ S5x11x32.size a
  inb_S5x11_S1x11_3_0 : ∀ a, (![3, 0] : Fin 2 → Nat) a + S1x11.size a ≤ S5x11.size a
  inb_S5x11x32_S1x11x32_4_0_0 : ∀ a, (![4, 0, 0] : Fin 3 → Nat) a + S1x11x32.size a ≤ S5x11x32.size a
  inb_S5x11_S1x11_4_0 : ∀ a, (![4, 0] : Fin 2 → Nat) a + S1x11.size a ≤ S5x11.size a
  inb_S1024x5_S1024x5_0_0 : ∀ a, (![0, 0] : Fin 2 → Nat) a + S1024x5.size a ≤ S1024x5.size a
  h_S1024x5 : 0 < S1024x5.numel
  inb_S1024x2_S1024x2_0_0 : ∀ a, (![0, 0] : Fin 2 → Nat) a + S1024x2.size a ≤ S1024x2.size a
  h_S1024x2 : 0 < S1024x2.numel
  inb_S1024x128_S1024x128_0_0 : ∀ a, (![0, 0] : Fin 2 → Nat) a + S1024x128.size a ≤ S1024x128.size a
  h_S1024x128 : 0 < S1024x128.numel
  shapeCasts_S262144x1_S262144 : S262144x1.ShapeCasts S262144
  bcast_S_S262144 : S_.BroadcastsInDim S262144 (![] : Fin 0 → Fin S262144.rank)
  bcast_S262144_S262144x1_0 : S262144.BroadcastsInDim S262144x1 (![0] : Fin 1 → Fin S262144x1.rank)
  bcast_S11_S1x11_1 : S11.BroadcastsInDim S1x11 (![1] : Fin 1 → Fin S1x11.rank)
  bcast_S1x11_S262144x11_0_1 : S1x11.BroadcastsInDim S262144x11 (![0, 1] : Fin 2 → Fin S262144x11.rank)
  bcast_S262144x1_S262144x11_0_1 : S262144x1.BroadcastsInDim S262144x11 (![0, 1] : Fin 2 → Fin S262144x11.rank)
  dot_S1024x5_S5x16_S1024x16_1_0_0_1_n_n_wf : DotDims.WF S1024x5 S5x16 S1024x16 [1] [0] [0] [1] [] []
  dot_S1024x11_S32x11_S1024x32_1_1_0_0_n_n_wf : DotDims.WF S1024x11 S32x11 S1024x32 [1] [1] [0] [0] [] []
  dot_S1024x32_S32x512_S1024x512_1_0_0_1_n_n_wf : DotDims.WF S1024x32 S32x512 S1024x512 [1] [0] [0] [1] [] []
  dot_S1024x16_S16x512_S1024x512_1_0_0_1_n_n_wf : DotDims.WF S1024x16 S16x512 S1024x512 [1] [0] [0] [1] [] []
  dot_S1024x512_S512x256_S1024x256_1_0_0_1_n_n_wf : DotDims.WF S1024x512 S512x256 S1024x256 [1] [0] [0] [1] [] []
  dot_S1024x256_S256x128_S1024x128_1_0_0_1_n_n_wf : DotDims.WF S1024x256 S256x128 S1024x128 [1] [0] [0] [1] [] []
  dot_S1024x128_S128x128_S1024x128_1_0_0_1_n_n_wf : DotDims.WF S1024x128 S128x128 S1024x128 [1] [0] [0] [1] [] []
  dot_S1024x128_S128x4_S1024x4_1_0_0_1_n_n_wf : DotDims.WF S1024x128 S128x4 S1024x4 [1] [0] [0] [1] [] []
  dot_S1024x4_S4x128_S1024x128_1_0_0_1_n_n_wf : DotDims.WF S1024x4 S4x128 S1024x128 [1] [0] [0] [1] [] []
  dot_S1024x128_S128x5_S1024x5_1_0_0_1_n_n_wf : DotDims.WF S1024x128 S128x5 S1024x5 [1] [0] [0] [1] [] []
  dot_S1024x128_S128x2_S1024x2_1_0_0_1_n_n_wf : DotDims.WF S1024x128 S128x2 S1024x2 [1] [0] [0] [1] [] []
  dot_S1024x128_S128x256_S1024x256_1_0_0_1_n_n_wf : DotDims.WF S1024x128 S128x256 S1024x256 [1] [0] [0] [1] [] []
  dot_S1024x16_S16x256_S1024x256_1_0_0_1_n_n_wf : DotDims.WF S1024x16 S16x256 S1024x256 [1] [0] [0] [1] [] []
  dot_S1024x256_S256x512_S1024x512_1_0_0_1_n_n_wf : DotDims.WF S1024x256 S256x512 S1024x512 [1] [0] [0] [1] [] []
  dot_S1024x512_S512x32_S1024x32_1_0_0_1_n_n_wf : DotDims.WF S1024x512 S512x32 S1024x32 [1] [0] [0] [1] [] []
  dot_S1024x32_S11x32_S1024x11_1_1_0_0_n_n_wf : DotDims.WF S1024x32 S11x32 S1024x11 [1] [1] [0] [0] [] []
  gather_S5_S262144x1_S262144_n_0_n_n_0_1_1_wf : GatherDims.WF S5 S262144x1 S262144 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x11.size a ≤ S262144x11.size a
  hwx0_0 : ∀ i : grid0.Coords, EltTy.bits .f32 = 32 ∨ (Rect.block (s := S262144x11) S1024x11.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S262144x1.size a
  hwx0_1 : ∀ i : grid0.Coords, EltTy.bits .i32 = 32 ∨ (Rect.block (s := S262144x1) S1024x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S5x16.size a ≤ S5x16.size a
  hwx0_2 : ∀ i : grid0.Coords, EltTy.bits .f32 = 32 ∨ (Rect.block (s := S5x16) S5x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S5x32x11.size a ≤ S5x32x11.size a
  hwx0_3 : ∀ i : grid0.Coords, EltTy.bits .f32 = 32 ∨ (Rect.block (s := S5x32x11) S5x32x11.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S5x32.size a ≤ S5x32.size a
  hwx0_4 : ∀ i : grid0.Coords, EltTy.bits .f32 = 32 ∨ (Rect.block (s := S5x32) S5x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x512.size a ≤ S32x512.size a
  hwx0_5 : ∀ i : grid0.Coords, EltTy.bits .f32 = 32 ∨ (Rect.block (s := S32x512) S32x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S16x512.size a ≤ S16x512.size a
  hwx0_6 : ∀ i : grid0.Coords, EltTy.bits .f32 = 32 ∨ (Rect.block (s := S16x512) S16x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512.size a ≤ S512.size a
  hwx0_7 : ∀ i : grid0.Coords, EltTy.bits .f32 = 32 ∨ (Rect.block (s := S512) S512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512x256.size a ≤ S512x256.size a
  hwx0_8 : ∀ i : grid0.Coords, EltTy.bits .f32 = 32 ∨ (Rect.block (s := S512x256) S512x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256.size a ≤ S256.size a
  hwx0_9 : ∀ i : grid0.Coords, EltTy.bits .f32 = 32 ∨ (Rect.block (s := S256) S256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256x128.size a ≤ S256x128.size a
  hwx0_10 : ∀ i : grid0.Coords, EltTy.bits .f32 = 32 ∨ (Rect.block (s := S256x128) S256x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128.size a ≤ S128.size a
  hwx0_11 : ∀ i : grid0.Coords, EltTy.bits .f32 = 32 ∨ (Rect.block (s := S128) S128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128x128.size a ≤ S128x128.size a
  hwx0_12 : ∀ i : grid0.Coords, EltTy.bits .f32 = 32 ∨ (Rect.block (s := S128x128) S128x128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S128.size a ≤ S128.size a
  hwx0_13 : ∀ i : grid0.Coords, EltTy.bits .f32 = 32 ∨ (Rect.block (s := S128) S128.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S128x4.size a ≤ S128x4.size a
  hwx0_14 : ∀ i : grid0.Coords, EltTy.bits .f32 = 32 ∨ (Rect.block (s := S128x4) S128x4.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S4.size a ≤ S4.size a
  hwx0_15 : ∀ i : grid0.Coords, EltTy.bits .f32 = 32 ∨ (Rect.block (s := S4) S4.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S4x128.size a ≤ S4x128.size a
  hwx0_16 : ∀ i : grid0.Coords, EltTy.bits .f32 = 32 ∨ (Rect.block (s := S4x128) S4x128.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S128.size a ≤ S128.size a
  hwx0_17 : ∀ i : grid0.Coords, EltTy.bits .f32 = 32 ∨ (Rect.block (s := S128) S128.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S128x256.size a ≤ S128x256.size a
  hwx0_18 : ∀ i : grid0.Coords, EltTy.bits .f32 = 32 ∨ (Rect.block (s := S128x256) S128x256.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S16x256.size a ≤ S16x256.size a
  hwx0_19 : ∀ i : grid0.Coords, EltTy.bits .f32 = 32 ∨ (Rect.block (s := S16x256) S16x256.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S256.size a ≤ S256.size a
  hwx0_20 : ∀ i : grid0.Coords, EltTy.bits .f32 = 32 ∨ (Rect.block (s := S256) S256.size (cc0_transform_20 i) (hinb0_20 i)).WholeWords (EltTy.packing .f32)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S256x512.size a ≤ S256x512.size a
  hwx0_21 : ∀ i : grid0.Coords, EltTy.bits .f32 = 32 ∨ (Rect.block (s := S256x512) S256x512.size (cc0_transform_21 i) (hinb0_21 i)).WholeWords (EltTy.packing .f32)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S512.size a ≤ S512.size a
  hwx0_22 : ∀ i : grid0.Coords, EltTy.bits .f32 = 32 ∨ (Rect.block (s := S512) S512.size (cc0_transform_22 i) (hinb0_22 i)).WholeWords (EltTy.packing .f32)
  hstage0_23 : ∀ j, (stage0_23 j).IsWhole
  nbuf0_23 : grid0.bufCount reads0_23 true = 1
  hreads0_23 : ∀ i i' : grid0.Coords, (∀ a, reads0_23 a = true → i a = i' a) → cc0_transform_23 i = cc0_transform_23 i'
  hinb0_23 : ∀ (i : grid0.Coords) a, (cc0_transform_23 i a + 1) * S512x32.size a ≤ S512x32.size a
  hwx0_23 : ∀ i : grid0.Coords, EltTy.bits .f32 = 32 ∨ (Rect.block (s := S512x32) S512x32.size (cc0_transform_23 i) (hinb0_23 i)).WholeWords (EltTy.packing .f32)
  hstage0_24 : ∀ j, (stage0_24 j).IsWhole
  nbuf0_24 : grid0.bufCount reads0_24 true = 1
  hreads0_24 : ∀ i i' : grid0.Coords, (∀ a, reads0_24 a = true → i a = i' a) → cc0_transform_24 i = cc0_transform_24 i'
  hinb0_24 : ∀ (i : grid0.Coords) a, (cc0_transform_24 i a + 1) * S32.size a ≤ S32.size a
  hwx0_24 : ∀ i : grid0.Coords, EltTy.bits .f32 = 32 ∨ (Rect.block (s := S32) S32.size (cc0_transform_24 i) (hinb0_24 i)).WholeWords (EltTy.packing .f32)
  hstage0_25 : ∀ j, (stage0_25 j).IsWhole
  nbuf0_25 : grid0.bufCount reads0_25 true = 1
  hreads0_25 : ∀ i i' : grid0.Coords, (∀ a, reads0_25 a = true → i a = i' a) → cc0_transform_25 i = cc0_transform_25 i'
  hinb0_25 : ∀ (i : grid0.Coords) a, (cc0_transform_25 i a + 1) * S128x5.size a ≤ S128x5.size a
  hwx0_25 : ∀ i : grid0.Coords, EltTy.bits .f32 = 32 ∨ (Rect.block (s := S128x5) S128x5.size (cc0_transform_25 i) (hinb0_25 i)).WholeWords (EltTy.packing .f32)
  hstage0_26 : ∀ j, (stage0_26 j).IsWhole
  nbuf0_26 : grid0.bufCount reads0_26 true = 1
  hreads0_26 : ∀ i i' : grid0.Coords, (∀ a, reads0_26 a = true → i a = i' a) → cc0_transform_26 i = cc0_transform_26 i'
  hinb0_26 : ∀ (i : grid0.Coords) a, (cc0_transform_26 i a + 1) * S5.size a ≤ S5.size a
  hwx0_26 : ∀ i : grid0.Coords, EltTy.bits .f32 = 32 ∨ (Rect.block (s := S5) S5.size (cc0_transform_26 i) (hinb0_26 i)).WholeWords (EltTy.packing .f32)
  hstage0_27 : ∀ j, (stage0_27 j).IsWhole
  nbuf0_27 : grid0.bufCount reads0_27 true = 1
  hreads0_27 : ∀ i i' : grid0.Coords, (∀ a, reads0_27 a = true → i a = i' a) → cc0_transform_27 i = cc0_transform_27 i'
  hinb0_27 : ∀ (i : grid0.Coords) a, (cc0_transform_27 i a + 1) * S128x2.size a ≤ S128x2.size a
  hwx0_27 : ∀ i : grid0.Coords, EltTy.bits .f32 = 32 ∨ (Rect.block (s := S128x2) S128x2.size (cc0_transform_27 i) (hinb0_27 i)).WholeWords (EltTy.packing .f32)
  hstage0_28 : ∀ j, (stage0_28 j).IsWhole
  nbuf0_28 : grid0.bufCount reads0_28 true = 1
  hreads0_28 : ∀ i i' : grid0.Coords, (∀ a, reads0_28 a = true → i a = i' a) → cc0_transform_28 i = cc0_transform_28 i'
  hinb0_28 : ∀ (i : grid0.Coords) a, (cc0_transform_28 i a + 1) * S2.size a ≤ S2.size a
  hwx0_28 : ∀ i : grid0.Coords, EltTy.bits .f32 = 32 ∨ (Rect.block (s := S2) S2.size (cc0_transform_28 i) (hinb0_28 i)).WholeWords (EltTy.packing .f32)
  hstage0_29 : ∀ j, (stage0_29 j).IsWhole
  nbuf0_29 : grid0.bufCount reads0_29 true = 1
  hreads0_29 : ∀ i i' : grid0.Coords, (∀ a, reads0_29 a = true → i a = i' a) → cc0_transform_29 i = cc0_transform_29 i'
  hinb0_29 : ∀ (i : grid0.Coords) a, (cc0_transform_29 i a + 1) * S5x11x32.size a ≤ S5x11x32.size a
  hwx0_29 : ∀ i : grid0.Coords, EltTy.bits .f32 = 32 ∨ (Rect.block (s := S5x11x32) S5x11x32.size (cc0_transform_29 i) (hinb0_29 i)).WholeWords (EltTy.packing .f32)
  hstage0_30 : ∀ j, (stage0_30 j).IsWhole
  nbuf0_30 : grid0.bufCount reads0_30 true = 1
  hreads0_30 : ∀ i i' : grid0.Coords, (∀ a, reads0_30 a = true → i a = i' a) → cc0_transform_30 i = cc0_transform_30 i'
  hinb0_30 : ∀ (i : grid0.Coords) a, (cc0_transform_30 i a + 1) * S5x11.size a ≤ S5x11.size a
  hwx0_30 : ∀ i : grid0.Coords, EltTy.bits .f32 = 32 ∨ (Rect.block (s := S5x11) S5x11.size (cc0_transform_30 i) (hinb0_30 i)).WholeWords (EltTy.packing .f32)
  hstage0_31 : ∀ j, (stage0_31 j).IsWhole
  nbuf0_31 : grid0.bufCount reads0_31 true = 1
  hreads0_31 : ∀ i i' : grid0.Coords, (∀ a, reads0_31 a = true → i a = i' a) → cc0_transform_31 i = cc0_transform_31 i'
  hinb0_31 : ∀ (i : grid0.Coords) a, (cc0_transform_31 i a + 1) * S1x4.size a ≤ S1x4.size a
  hwx0_31 : ∀ i : grid0.Coords, EltTy.bits .f32 = 32 ∨ (Rect.block (s := S1x4) S1x4.size (cc0_transform_31 i) (hinb0_31 i)).WholeWords (EltTy.packing .f32)
  hstage0_32 : ∀ j, (stage0_32 j).IsWhole
  nbuf0_32 : grid0.bufCount reads0_32 true = 1
  hreads0_32 : ∀ i i' : grid0.Coords, (∀ a, reads0_32 a = true → i a = i' a) → cc0_transform_32 i = cc0_transform_32 i'
  hinb0_32 : ∀ (i : grid0.Coords) a, (cc0_transform_32 i a + 1) * S1x4.size a ≤ S1x4.size a
  hwx0_32 : ∀ i : grid0.Coords, EltTy.bits .f32 = 32 ∨ (Rect.block (s := S1x4) S1x4.size (cc0_transform_32 i) (hinb0_32 i)).WholeWords (EltTy.packing .f32)
  hstage0_33 : ∀ j, (stage0_33 j).IsWhole
  nbuf0_33 : grid0.bufCount reads0_33 true = 1
  hreads0_33 : ∀ i i' : grid0.Coords, (∀ a, reads0_33 a = true → i a = i' a) → cc0_transform_33 i = cc0_transform_33 i'
  hinb0_33 : ∀ (i : grid0.Coords) a, (cc0_transform_33 i a + 1) * S1x4.size a ≤ S1x4.size a
  hwx0_33 : ∀ i : grid0.Coords, EltTy.bits .f32 = 32 ∨ (Rect.block (s := S1x4) S1x4.size (cc0_transform_33 i) (hinb0_33 i)).WholeWords (EltTy.packing .f32)
  hstage0_34 : ∀ j, (stage0_34 j).IsWhole
  nbuf0_34 : grid0.bufCount reads0_34 true = 1
  hreads0_34 : ∀ i i' : grid0.Coords, (∀ a, reads0_34 a = true → i a = i' a) → cc0_transform_34 i = cc0_transform_34 i'
  hinb0_34 : ∀ (i : grid0.Coords) a, (cc0_transform_34 i a + 1) * S1x4.size a ≤ S1x4.size a
  hwx0_34 : ∀ i : grid0.Coords, EltTy.bits .f32 = 32 ∨ (Rect.block (s := S1x4) S1x4.size (cc0_transform_34 i) (hinb0_34 i)).WholeWords (EltTy.packing .f32)
  hstage0_35 : ∀ j, (stage0_35 j).IsWhole
  nbuf0_35 : grid0.bufCount reads0_35 true = 1
  hreads0_35 : ∀ i i' : grid0.Coords, (∀ a, reads0_35 a = true → i a = i' a) → cc0_transform_35 i = cc0_transform_35 i'
  hinb0_35 : ∀ (i : grid0.Coords) a, (cc0_transform_35 i a + 1) * S1x4.size a ≤ S1x4.size a
  hwx0_35 : ∀ i : grid0.Coords, EltTy.bits .f32 = 32 ∨ (Rect.block (s := S1x4) S1x4.size (cc0_transform_35 i) (hinb0_35 i)).WholeWords (EltTy.packing .f32)
  hstage0_36 : ∀ j, (stage0_36 j).IsWhole
  nbuf0_36 : grid0.bufCount reads0_36 false = 2
  hreads0_36 : ∀ i i' : grid0.Coords, (∀ a, reads0_36 a = true → i a = i' a) → cc0_transform_36 i = cc0_transform_36 i'
  hinb0_36 : ∀ (i : grid0.Coords) a, (cc0_transform_36 i a + 1) * S1024x11.size a ≤ S262144x11.size a
  hwx0_36 : ∀ i : grid0.Coords, EltTy.bits .f32 = 32 ∨ (Rect.block (s := S262144x11) S1024x11.size (cc0_transform_36 i) (hinb0_36 i)).WholeWords (EltTy.packing .f32)
  hstage0_37 : ∀ j, (stage0_37 j).IsWhole
  nbuf0_37 : grid0.bufCount reads0_37 false = 2
  hreads0_37 : ∀ i i' : grid0.Coords, (∀ a, reads0_37 a = true → i a = i' a) → cc0_transform_37 i = cc0_transform_37 i'
  hinb0_37 : ∀ (i : grid0.Coords) a, (cc0_transform_37 i a + 1) * S1024x5.size a ≤ S262144x5.size a
  hwx0_37 : ∀ i : grid0.Coords, EltTy.bits .f32 = 32 ∨ (Rect.block (s := S262144x5) S1024x5.size (cc0_transform_37 i) (hinb0_37 i)).WholeWords (EltTy.packing .f32)
  hstage0_38 : ∀ j, (stage0_38 j).IsWhole
  nbuf0_38 : grid0.bufCount reads0_38 false = 2
  hreads0_38 : ∀ i i' : grid0.Coords, (∀ a, reads0_38 a = true → i a = i' a) → cc0_transform_38 i = cc0_transform_38 i'
  hinb0_38 : ∀ (i : grid0.Coords) a, (cc0_transform_38 i a + 1) * S1024x2.size a ≤ S262144x2.size a
  hwx0_38 : ∀ i : grid0.Coords, EltTy.bits .f32 = 32 ∨ (Rect.block (s := S262144x2) S1024x2.size (cc0_transform_38 i) (hinb0_38 i)).WholeWords (EltTy.packing .f32)
  hstage0_39 : ∀ j, (stage0_39 j).IsWhole
  nbuf0_39 : grid0.bufCount reads0_39 false = 2
  hreads0_39 : ∀ i i' : grid0.Coords, (∀ a, reads0_39 a = true → i a = i' a) → cc0_transform_39 i = cc0_transform_39 i'
  hinb0_39 : ∀ (i : grid0.Coords) a, (cc0_transform_39 i a + 1) * S1024x128.size a ≤ S262144x128.size a
  hwx0_39 : ∀ i : grid0.Coords, EltTy.bits .f32 = 32 ∨ (Rect.block (s := S262144x128) S1024x128.size (cc0_transform_39 i) (hinb0_39 i)).WholeWords (EltTy.packing .f32)
  hstage0_40 : ∀ j, (stage0_40 j).IsWhole
  nbuf0_40 : grid0.bufCount reads0_40 false = 2
  hreads0_40 : ∀ i i' : grid0.Coords, (∀ a, reads0_40 a = true → i a = i' a) → cc0_transform_40 i = cc0_transform_40 i'
  hinb0_40 : ∀ (i : grid0.Coords) a, (cc0_transform_40 i a + 1) * S1024x1.size a ≤ S262144x1.size a
  hwx0_40 : ∀ i : grid0.Coords, EltTy.bits .i32 = 32 ∨ (Rect.block (s := S262144x1) S1024x1.size (cc0_transform_40 i) (hinb0_40 i)).WholeWords (EltTy.packing .i32)

variable [Facts₀]

def dot_S1024x5_S5x16_S1024x16_1_0_0_1_n_n : DotDims S1024x5 S5x16 S1024x16 where
  lhsContracting := [1]
  rhsContracting := [0]
  lhsNonContracting := [0]
  rhsNonContracting := [1]
  lhsBatch := []
  rhsBatch := []
  wf := dot_S1024x5_S5x16_S1024x16_1_0_0_1_n_n_wf
def dot_S1024x11_S32x11_S1024x32_1_1_0_0_n_n : DotDims S1024x11 S32x11 S1024x32 where
  lhsContracting := [1]
  rhsContracting := [1]
  lhsNonContracting := [0]
  rhsNonContracting := [0]
  lhsBatch := []
  rhsBatch := []
  wf := dot_S1024x11_S32x11_S1024x32_1_1_0_0_n_n_wf
def dot_S1024x32_S32x512_S1024x512_1_0_0_1_n_n : DotDims S1024x32 S32x512 S1024x512 where
  lhsContracting := [1]
  rhsContracting := [0]
  lhsNonContracting := [0]
  rhsNonContracting := [1]
  lhsBatch := []
  rhsBatch := []
  wf := dot_S1024x32_S32x512_S1024x512_1_0_0_1_n_n_wf
def dot_S1024x16_S16x512_S1024x512_1_0_0_1_n_n : DotDims S1024x16 S16x512 S1024x512 where
  lhsContracting := [1]
  rhsContracting := [0]
  lhsNonContracting := [0]
  rhsNonContracting := [1]
  lhsBatch := []
  rhsBatch := []
  wf := dot_S1024x16_S16x512_S1024x512_1_0_0_1_n_n_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x128_S128x4_S1024x4_1_0_0_1_n_n : DotDims S1024x128 S128x4 S1024x4 where
  lhsContracting := [1]
  rhsContracting := [0]
  lhsNonContracting := [0]
  rhsNonContracting := [1]
  lhsBatch := []
  rhsBatch := []
  wf := dot_S1024x128_S128x4_S1024x4_1_0_0_1_n_n_wf
def dot_S1024x4_S4x128_S1024x128_1_0_0_1_n_n : DotDims S1024x4 S4x128 S1024x128 where
  lhsContracting := [1]
  rhsContracting := [0]
  lhsNonContracting := [0]
  rhsNonContracting := [1]
  lhsBatch := []
  rhsBatch := []
  wf := dot_S1024x4_S4x128_S1024x128_1_0_0_1_n_n_wf
def dot_S1024x128_S128x5_S1024x5_1_0_0_1_n_n : DotDims S1024x128 S128x5 S1024x5 where
  lhsContracting := [1]
  rhsContracting := [0]
  lhsNonContracting := [0]
  rhsNonContracting := [1]
  lhsBatch := []
  rhsBatch := []
  wf := dot_S1024x128_S128x5_S1024x5_1_0_0_1_n_n_wf
def dot_S1024x128_S128x2_S1024x2_1_0_0_1_n_n : DotDims S1024x128 S128x2 S1024x2 where
  lhsContracting := [1]
  rhsContracting := [0]
  lhsNonContracting := [0]
  rhsNonContracting := [1]
  lhsBatch := []
  rhsBatch := []
  wf := dot_S1024x128_S128x2_S1024x2_1_0_0_1_n_n_wf
def dot_S1024x128_S128x256_S1024x256_1_0_0_1_n_n : DotDims S1024x128 S128x256 S1024x256 where
  lhsContracting := [1]
  rhsContracting := [0]
  lhsNonContracting := [0]
  rhsNonContracting := [1]
  lhsBatch := []
  rhsBatch := []
  wf := dot_S1024x128_S128x256_S1024x256_1_0_0_1_n_n_wf
def dot_S1024x16_S16x256_S1024x256_1_0_0_1_n_n : DotDims S1024x16 S16x256 S1024x256 where
  lhsContracting := [1]
  rhsContracting := [0]
  lhsNonContracting := [0]
  rhsNonContracting := [1]
  lhsBatch := []
  rhsBatch := []
  wf := dot_S1024x16_S16x256_S1024x256_1_0_0_1_n_n_wf
def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf
def dot_S1024x512_S512x32_S1024x32_1_0_0_1_n_n : DotDims S1024x512 S512x32 S1024x32 where
  lhsContracting := [1]
  rhsContracting := [0]
  lhsNonContracting := [0]
  rhsNonContracting := [1]
  lhsBatch := []
  rhsBatch := []
  wf := dot_S1024x512_S512x32_S1024x32_1_0_0_1_n_n_wf
def dot_S1024x32_S11x32_S1024x11_1_1_0_0_n_n : DotDims S1024x32 S11x32 S1024x11 where
  lhsContracting := [1]
  rhsContracting := [1]
  lhsNonContracting := [0]
  rhsNonContracting := [0]
  lhsBatch := []
  rhsBatch := []
  wf := dot_S1024x32_S11x32_S1024x11_1_1_0_0_n_n_wf
def gather_S5_S262144x1_S262144_n_0_n_n_0_1_1 : GatherDims S5 S262144x1 S262144 where
  offsetDims := []
  collapsedSliceDims := [0]
  operandBatchingDims := []
  startIndicesBatchingDims := []
  startIndexMap := [0]
  indexVectorDim := 1
  sliceSizes := ![1]
  wf := gather_S5_S262144x1_S262144_n_0_n_n_0_1_1_wf

abbrev win0_0 : Pipeline.Window sig grid0 :=
  Pipeline.Window.ofSpec (Memref.whole main_arg0) S1024x11.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S5x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S5x32x11.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S5x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S32x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S16x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg7) S512x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg8) S256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg9) S256x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg10) S128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg11) S128x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg12) S128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg13) S128x4.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg14) S4.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg15) S4x128.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg16) S128.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v3) S128x256.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v4) S16x256.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_arg18) S256.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_arg19) S256x512.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_arg20) S512.size cc0_transform_22 reads0_22 false true 1 stage0_22 sem0_22
    hrank0 hreads0_22 hinb0_22 nbuf0_22 (Memref.isWhole_whole _) hwx0_22 hstage0_22

abbrev win0_23 : Pipeline.Window sig grid0 :=
  Pipeline.Window.ofSpec (Memref.whole main_arg21) S512x32.size cc0_transform_23 reads0_23 false true 1 stage0_23 sem0_23
    hrank0 hreads0_23 hinb0_23 nbuf0_23 (Memref.isWhole_whole _) hwx0_23 hstage0_23

abbrev win0_24 : Pipeline.Window sig grid0 :=
  Pipeline.Window.ofSpec (Memref.whole main_arg22) S32.size cc0_transform_24 reads0_24 false true 1 stage0_24 sem0_24
    hrank0 hreads0_24 hinb0_24 nbuf0_24 (Memref.isWhole_whole _) hwx0_24 hstage0_24

abbrev win0_25 : Pipeline.Window sig grid0 :=
  Pipeline.Window.ofSpec (Memref.whole main_arg23) S128x5.size cc0_transform_25 reads0_25 false true 1 stage0_25 sem0_25
    hrank0 hreads0_25 hinb0_25 nbuf0_25 (Memref.isWhole_whole _) hwx0_25 hstage0_25

abbrev win0_26 : Pipeline.Window sig grid0 :=
  Pipeline.Window.ofSpec (Memref.whole main_arg24) S5.size cc0_transform_26 reads0_26 false true 1 stage0_26 sem0_26
    hrank0 hreads0_26 hinb0_26 nbuf0_26 (Memref.isWhole_whole _) hwx0_26 hstage0_26

abbrev win0_27 : Pipeline.Window sig grid0 :=
  Pipeline.Window.ofSpec (Memref.whole main_arg25) S128x2.size cc0_transform_27 reads0_27 false true 1 stage0_27 sem0_27
    hrank0 hreads0_27 hinb0_27 nbuf0_27 (Memref.isWhole_whole _) hwx0_27 hstage0_27

abbrev win0_28 : Pipeline.Window sig grid0 :=
  Pipeline.Window.ofSpec (Memref.whole main_arg26) S2.size cc0_transform_28 reads0_28 false true 1 stage0_28 sem0_28
    hrank0 hreads0_28 hinb0_28 nbuf0_28 (Memref.isWhole_whole _) hwx0_28 hstage0_28

abbrev win0_29 : Pipeline.Window sig grid0 :=
  Pipeline.Window.ofSpec (Memref.whole main_arg27) S5x11x32.size cc0_transform_29 reads0_29 false true 1 stage0_29 sem0_29
    hrank0 hreads0_29 hinb0_29 nbuf0_29 (Memref.isWhole_whole _) hwx0_29 hstage0_29

abbrev win0_30 : Pipeline.Window sig grid0 :=
  Pipeline.Window.ofSpec (Memref.whole main_arg28) S5x11.size cc0_transform_30 reads0_30 false true 1 stage0_30 sem0_30
    hrank0 hreads0_30 hinb0_30 nbuf0_30 (Memref.isWhole_whole _) hwx0_30 hstage0_30

abbrev win0_31 : Pipeline.Window sig grid0 :=
  Pipeline.Window.ofSpec (Memref.whole main_v5) S1x4.size cc0_transform_31 reads0_31 false true 1 stage0_31 sem0_31
    hrank0 hreads0_31 hinb0_31 nbuf0_31 (Memref.isWhole_whole _) hwx0_31 hstage0_31

abbrev win0_32 : Pipeline.Window sig grid0 :=
  Pipeline.Window.ofSpec (Memref.whole main_v6) S1x4.size cc0_transform_32 reads0_32 false true 1 stage0_32 sem0_32
    hrank0 hreads0_32 hinb0_32 nbuf0_32 (Memref.isWhole_whole _) hwx0_32 hstage0_32

abbrev win0_33 : Pipeline.Window sig grid0 :=
  Pipeline.Window.ofSpec (Memref.whole main_v7) S1x4.size cc0_transform_33 reads0_33 false true 1 stage0_33 sem0_33
    hrank0 hreads0_33 hinb0_33 nbuf0_33 (Memref.isWhole_whole _) hwx0_33 hstage0_33

abbrev win0_34 : Pipeline.Window sig grid0 :=
  Pipeline.Window.ofSpec (Memref.whole main_v8) S1x4.size cc0_transform_34 reads0_34 false true 1 stage0_34 sem0_34
    hrank0 hreads0_34 hinb0_34 nbuf0_34 (Memref.isWhole_whole _) hwx0_34 hstage0_34

abbrev win0_35 : Pipeline.Window sig grid0 :=
  Pipeline.Window.ofSpec (Memref.whole main_v9) S1x4.size cc0_transform_35 reads0_35 false true 1 stage0_35 sem0_35
    hrank0 hreads0_35 hinb0_35 nbuf0_35 (Memref.isWhole_whole _) hwx0_35 hstage0_35

abbrev win0_36 : Pipeline.Window sig grid0 :=
  Pipeline.Window.ofSpec (Memref.whole main_v10_0) S1024x11.size cc0_transform_36 reads0_36 true false 2 stage0_36 sem0_36
    hrank0 hreads0_36 hinb0_36 nbuf0_36 (Memref.isWhole_whole _) hwx0_36 hstage0_36

abbrev win0_37 : Pipeline.Window sig grid0 :=
  Pipeline.Window.ofSpec (Memref.whole main_v10_1) S1024x5.size cc0_transform_37 reads0_37 true false 2 stage0_37 sem0_37
    hrank0 hreads0_37 hinb0_37 nbuf0_37 (Memref.isWhole_whole _) hwx0_37 hstage0_37

abbrev win0_38 : Pipeline.Window sig grid0 :=
  Pipeline.Window.ofSpec (Memref.whole main_v10_2) S1024x2.size cc0_transform_38 reads0_38 true false 2 stage0_38 sem0_38
    hrank0 hreads0_38 hinb0_38 nbuf0_38 (Memref.isWhole_whole _) hwx0_38 hstage0_38

abbrev win0_39 : Pipeline.Window sig grid0 :=
  Pipeline.Window.ofSpec (Memref.whole main_v10_3) S1024x128.size cc0_transform_39 reads0_39 true false 2 stage0_39 sem0_39
    hrank0 hreads0_39 hinb0_39 nbuf0_39 (Memref.isWhole_whole _) hwx0_39 hstage0_39

abbrev win0_40 : Pipeline.Window sig grid0 :=
  Pipeline.Window.ofSpec (Memref.whole main_v10_4) S1024x1.size cc0_transform_40 reads0_40 true false 2 stage0_40 sem0_40
    hrank0 hreads0_40 hinb0_40 nbuf0_40 (Memref.isWhole_whole _) hwx0_40 hstage0_40

abbrev win0 : Fin 41 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | 25 => win0_25 | 26 => win0_26 | 27 => win0_27 | 28 => win0_28 | 29 => win0_29 | 30 => win0_30 | 31 => win0_31 | 32 => win0_32 | 33 => win0_33 | 34 => win0_34 | 35 => win0_35 | 36 => win0_36 | 37 => win0_37 | 38 => win0_38 | 39 => win0_39 | 40 => win0_40 | ⟨_ + 41, h⟩ => absurd h (Nat.not_lt.2 (Nat.le_add_left _ _))
abbrev spec0 : Fin 41 → Pipeline.WinSpec sig grid0.rank := fun w => (win0 w).toWinSpec

class Facts : Prop extends Facts₀ where

variable [Facts]
-- ==== ReferenceIdeal.lean ====
abbrev S262144x11 : Shape := ⟨2, ![262144, 11]⟩
abbrev S262144 : Shape := ⟨1, ![262144]⟩
abbrev S5x16 : Shape := ⟨2, ![5, 16]⟩
abbrev S5x32x11 : Shape := ⟨3, ![5, 32, 11]⟩
abbrev S5x32 : Shape := ⟨2, ![5, 32]⟩
abbrev S48x512 : Shape := ⟨2, ![48, 512]⟩
abbrev S512 : Shape := ⟨1, ![512]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x128 : Shape := ⟨2, ![128, 128]⟩
abbrev S128x4 : Shape := ⟨2, ![128, 4]⟩
abbrev S4 : Shape := ⟨1, ![4]⟩
abbrev S4x128 : Shape := ⟨2, ![4, 128]⟩
abbrev S144x256 : Shape := ⟨2, ![144, 256]⟩
abbrev S256x512 : Shape := ⟨2, ![256, 512]⟩
abbrev S512x32 : Shape := ⟨2, ![512, 32]⟩
abbrev S32 : Shape := ⟨1, ![32]⟩
abbrev S128x5 : Shape := ⟨2, ![128, 5]⟩
abbrev S5 : Shape := ⟨1, ![5]⟩
abbrev S128x2 : Shape := ⟨2, ![128, 2]⟩
abbrev S2 : Shape := ⟨1, ![2]⟩
abbrev S5x11x32 : Shape := ⟨3, ![5, 11, 32]⟩
abbrev S5x11 : Shape := ⟨2, ![5, 11]⟩
abbrev S_ : Shape := ⟨0, ![]⟩
abbrev S262144x1 : Shape := ⟨2, ![262144, 1]⟩
abbrev S262144x16 : Shape := ⟨2, ![262144, 16]⟩
abbrev S262144x5x32 : Shape := ⟨3, ![262144, 5, 32]⟩
abbrev S1x5x32 : Shape := ⟨3, ![1, 5, 32]⟩
abbrev S262144x1x1 : Shape := ⟨3, ![262144, 1, 1]⟩
abbrev S1 : Shape := ⟨1, ![1]⟩
abbrev S1x1x1 : Shape := ⟨3, ![1, 1, 1]⟩
abbrev S262144x1x32 : Shape := ⟨3, ![262144, 1, 32]⟩
abbrev S262144x32 : Shape := ⟨2, ![262144, 32]⟩
abbrev S262144x48 : Shape := ⟨2, ![262144, 48]⟩
abbrev S262144x512 : Shape := ⟨2, ![262144, 512]⟩
abbrev S1x512 : Shape := ⟨2, ![1, 512]⟩
abbrev S262144x256 : Shape := ⟨2, ![262144, 256]⟩
abbrev S1x256 : Shape := ⟨2, ![1, 256]⟩
abbrev S262144x128 : Shape := ⟨2, ![262144, 128]⟩
abbrev S1x128 : Shape := ⟨2, ![1, 128]⟩
abbrev S262144x4 : Shape := ⟨2, ![262144, 4]⟩
abbrev S1x4 : Shape := ⟨2, ![1, 4]⟩
abbrev S262144x5 : Shape := ⟨2, ![262144, 5]⟩
abbrev S1x5 : Shape := ⟨2, ![1, 5]⟩
abbrev S262144x2 : Shape := ⟨2, ![262144, 2]⟩
abbrev S1x2 : Shape := ⟨2, ![1, 2]⟩
abbrev S262144x144 : Shape := ⟨2, ![262144, 144]⟩
abbrev S1x32 : Shape := ⟨2, ![1, 32]⟩
abbrev S262144x5x11 : Shape := ⟨3, ![262144, 5, 11]⟩
abbrev S1x5x11 : Shape := ⟨3, ![1, 5, 11]⟩
abbrev S262144x1x11 : Shape := ⟨3, ![262144, 1, 11]⟩
abbrev S11 : Shape := ⟨1, ![11]⟩
abbrev S1x11 : Shape := ⟨2, ![1, 11]⟩

abbrev nBuf : Space → Nat
  | .hbm => 204
  | .vmem => 0
  | .smem => 0
  | _ => 0

abbrev hbmTy0_0 (i : Nat) : BufTy := match i % 128 with
  | 0 => ⟨S262144x11, .f32⟩
  | 1 => ⟨S262144, .i32⟩
  | 2 => ⟨S5x16, .f32⟩
  | 3 => ⟨S5x32x11, .f32⟩
  | 4 => ⟨S5x32, .f32⟩
  | 5 => ⟨S48x512, .f32⟩
  | 6 => ⟨S512, .f32⟩
  | 7 => ⟨S512x256, .f32⟩
  | 8 => ⟨S256, .f32⟩
  | 9 => ⟨S256x128, .f32⟩
  | 10 => ⟨S128, .f32⟩
  | 11 => ⟨S128x128, .f32⟩
  | 12 => ⟨S128, .f32⟩
  | 13 => ⟨S128x4, .f32⟩
  | 14 => ⟨S4, .f32⟩
  | 15 => ⟨S4x128, .f32⟩
  | 16 => ⟨S128, .f32⟩
  | 17 => ⟨S144x256, .f32⟩
  | 18 => ⟨S256, .f32⟩
  | 19 => ⟨S256x512, .f32⟩
  | 20 => ⟨S512, .f32⟩
  | 21 => ⟨S512x32, .f32⟩
  | 22 => ⟨S32, .f32⟩
  | 23 => ⟨S128x5, .f32⟩
  | 24 => ⟨S5, .f32⟩
  | 25 => ⟨S128x2, .f32⟩
  | 26 => ⟨S2, .f32⟩
  | 27 => ⟨S5x11x32, .f32⟩
  | 28 => ⟨S5x11, .f32⟩
  | 29 => ⟨S4, .f32⟩
  | 30 => ⟨S4, .f32⟩
  | 31 => ⟨S4, .f32⟩
  | 32 => ⟨S4, .f32⟩
  | 33 => ⟨S4, .f32⟩
  | 34 => ⟨S5, .i32⟩
  | 35 => ⟨S_, .i32⟩
  | 36 => ⟨S262144, .i32⟩
  | 37 => ⟨S262144, .i1⟩
  | 38 => ⟨S_, .i32⟩
  | 39 => ⟨S262144, .i32⟩
  | 40 => ⟨S262144, .i32⟩
  | 41 => ⟨S262144, .i32⟩
  | 42 => ⟨S262144x1, .i32⟩
  | 43 => ⟨S262144x16, .f32⟩
  | 44 => ⟨S262144x5x32, .f32⟩
  | 45 => ⟨S1x5x32, .f32⟩
  | 46 => ⟨S262144x5x32, .f32⟩
  | 47 => ⟨S262144x5x32, .f32⟩
  | 48 => ⟨S262144x1x1, .i32⟩
  | 49 => ⟨S_, .i32⟩
  | 50 => ⟨S262144x1x1, .i32⟩
  | 51 => ⟨S262144x1x1, .i1⟩
  | 52 => ⟨S_, .i32⟩
  | 53 => ⟨S262144x1x1, .i32⟩
  | 54 => ⟨S262144x1x1, .i32⟩
  | 55 => ⟨S262144x1x1, .i32⟩
  | 56 => ⟨S1, .i32⟩
  | 57 => ⟨S_, .i32⟩
  | 58 => ⟨S262144x1x1, .i32⟩
  | 59 => ⟨S262144x1x1, .i1⟩
  | 60 => ⟨S1x1x1, .i32⟩
  | 61 => ⟨S262144x1x1, .i32⟩
  | 62 => ⟨S262144x1x1, .i1⟩
  | 63 => ⟨S262144x1x1, .i1⟩
  | 64 => ⟨S_, .i1⟩
  | 65 => ⟨S262144x1, .i1⟩
  | 66 => ⟨S262144x1x32, .f32⟩
  | 67 => ⟨S262144x1x32, .i1⟩
  | 68 => ⟨S_, .f32⟩
  | 69 => ⟨S262144x1x32, .f32⟩
  | 70 => ⟨S262144x1x32, .f32⟩
  | 71 => ⟨S262144x32, .f32⟩
  | 72 => ⟨S262144x48, .f32⟩
  | 73 => ⟨S262144x512, .f32⟩
  | 74 => ⟨S1x512, .f32⟩
  | 75 => ⟨S262144x512, .f32⟩
  | 76 => ⟨S262144x512, .f32⟩
  | 77 => ⟨S_, .f32⟩
  | 78 => ⟨S262144x512, .f32⟩
  | 79 => ⟨S262144x512, .f32⟩
  | 80 => ⟨S262144x256, .f32⟩
  | 81 => ⟨S1x256, .f32⟩
  | 82 => ⟨S262144x256, .f32⟩
  | 83 => ⟨S262144x256, .f32⟩
  | 84 => ⟨S_, .f32⟩
  | 85 => ⟨S262144x256, .f32⟩
  | 86 => ⟨S262144x256, .f32⟩
  | 87 => ⟨S262144x128, .f32⟩
  | 88 => ⟨S1x128, .f32⟩
  | 89 => ⟨S262144x128, .f32⟩
  | 90 => ⟨S262144x128, .f32⟩
  | 91 => ⟨S_, .f32⟩
  | 92 => ⟨S262144x128, .f32⟩
  | 93 => ⟨S262144x128, .f32⟩
  | 94 => ⟨S262144x128, .f32⟩
  | 95 => ⟨S1x128, .f32⟩
  | 96 => ⟨S262144x128, .f32⟩
  | 97 => ⟨S262144x128, .f32⟩
  | 98 => ⟨S262144x4, .f32⟩
  | 99 => ⟨S1x4, .f32⟩
  | 100 => ⟨S262144x4, .f32⟩
  | 101 => ⟨S262144x4, .f32⟩
  | 102 => ⟨S1x4, .f32⟩
  | 103 => ⟨S262144x4, .f32⟩
  | 104 => ⟨S262144x4, .f32⟩
  | 105 => ⟨S262144x4, .f32⟩
  | 106 => ⟨S1x4, .f32⟩
  | 107 => ⟨S262144x4, .f32⟩
  | 108 => ⟨S262144x4, .f32⟩
  | 109 => ⟨S1x4, .f32⟩
  | 110 => ⟨S262144x4, .f32⟩
  | 111 => ⟨S262144x4, .f32⟩
  | 112 => ⟨S262144x4, .f32⟩
  | 113 => ⟨S262144x4, .f32⟩
  | 114 => ⟨S262144x4, .f32⟩
  | 115 => ⟨S1x4, .f32⟩
  | 116 => ⟨S262144x4, .f32⟩
  | 117 => ⟨S262144x4, .f32⟩
  | 118 => ⟨S1x4, .f32⟩
  | 119 => ⟨S262144x4, .f32⟩
  | 120 => ⟨S262144x4, .f32⟩
  | 121 => ⟨S1x4, .f32⟩
  | 122 => ⟨S262144x4, .f32⟩
  | 123 => ⟨S262144x4, .f32⟩
  | 124 => ⟨S1x4, .f32⟩
  | 125 => ⟨S262144x4, .f32⟩
  | 126 => ⟨S262144x4, .f32⟩
  | 127 => ⟨S_, .f32⟩
  | _ => ⟨S262144x11, .f32⟩

abbrev hbmTy0_1 (i : Nat) : BufTy := match i % 128 with
  | 0 => ⟨S262144, .f32⟩
  | 1 => ⟨S262144, .i32⟩
  | 2 => ⟨S262144x128, .f32⟩
  | 3 => ⟨S1x128, .f32⟩
  | 4 => ⟨S262144x128, .f32⟩
  | 5 => ⟨S262144x128, .f32⟩
  | 6 => ⟨S262144x5, .f32⟩
  | 7 => ⟨S1x5, .f32⟩
  | 8 => ⟨S262144x5, .f32⟩
  | 9 => ⟨S262144x5, .f32⟩
  | 10 => ⟨S262144x2, .f32⟩
  | 11 => ⟨S1x2, .f32⟩
  | 12 => ⟨S262144x2, .f32⟩
  | 13 => ⟨S262144x2, .f32⟩
  | 14 => ⟨S262144x144, .f32⟩
  | 15 => ⟨S262144x256, .f32⟩
  | 16 => ⟨S1x256, .f32⟩
  | 17 => ⟨S262144x256, .f32⟩
  | 18 => ⟨S262144x256, .f32⟩
  | 19 => ⟨S_, .f32⟩
  | 20 => ⟨S262144x256, .f32⟩
  | 21 => ⟨S262144x256, .f32⟩
  | 22 => ⟨S262144x512, .f32⟩
  | 23 => ⟨S1x512, .f32⟩
  | 24 => ⟨S262144x512, .f32⟩
  | 25 => ⟨S262144x512, .f32⟩
  | 26 => ⟨S_, .f32⟩
  | 27 => ⟨S262144x512, .f32⟩
  | 28 => ⟨S262144x512, .f32⟩
  | 29 => ⟨S262144x32, .f32⟩
  | 30 => ⟨S1x32, .f32⟩
  | 31 => ⟨S262144x32, .f32⟩
  | 32 => ⟨S262144x32, .f32⟩
  | 33 => ⟨S262144x5x11, .f32⟩
  | 34 => ⟨S1x5x11, .f32⟩
  | 35 => ⟨S262144x5x11, .f32⟩
  | 36 => ⟨S262144x5x11, .f32⟩
  | 37 => ⟨S262144x1x1, .i32⟩
  | 38 => ⟨S_, .i32⟩
  | 39 => ⟨S262144x1x1, .i32⟩
  | 40 => ⟨S262144x1x1, .i1⟩
  | 41 => ⟨S_, .i32⟩
  | 42 => ⟨S262144x1x1, .i32⟩
  | 43 => ⟨S262144x1x1, .i32⟩
  | 44 => ⟨S262144x1x1, .i32⟩
  | 45 => ⟨S1, .i32⟩
  | 46 => ⟨S_, .i32⟩
  | 47 => ⟨S262144x1x1, .i32⟩
  | 48 => ⟨S262144x1x1, .i1⟩
  | 49 => ⟨S1x1x1, .i32⟩
  | 50 => ⟨S262144x1x1, .i32⟩
  | 51 => ⟨S262144x1x1, .i1⟩
  | 52 => ⟨S262144x1x1, .i1⟩
  | 53 => ⟨S_, .i1⟩
  | 54 => ⟨S262144x1, .i1⟩
  | 55 => ⟨S262144x1x11, .f32⟩
  | 56 => ⟨S262144x1x11, .i1⟩
  | 57 => ⟨S_, .f32⟩
  | 58 => ⟨S262144x1x11, .f32⟩
  | 59 => ⟨S262144x1x11, .f32⟩
  | 60 => ⟨S262144x11, .f32⟩
  | 61 => ⟨S11, .i32⟩
  | 62 => ⟨S1x11, .i32⟩
  | 63 => ⟨S_, .i32⟩
  | 64 => ⟨S262144, .i32⟩
  | 65 => ⟨S262144, .i1⟩
  | 66 => ⟨S_, .i32⟩
  | 67 => ⟨S262144, .i32⟩
  | 68 => ⟨S262144, .i32⟩
  | 69 => ⟨S262144, .i32⟩
  | 70 => ⟨S262144x1, .i32⟩
  | 71 => ⟨S262144, .i32⟩
  | 72 => ⟨S262144x1, .i32⟩
  | 73 => ⟨S262144x11, .i32⟩
  | 74 => ⟨S262144x11, .i32⟩
  | 75 => ⟨S262144x11, .i1⟩
  | _ => ⟨S262144x11, .f32⟩

abbrev hbmTy (i : Nat) : BufTy := match i / 128 with
  | 0 => hbmTy0_0 i
  | 1 => hbmTy0_1 i
  | _ => ⟨S262144x11, .f32⟩

abbrev bufTy : (tb : Table) → Fin (tcTables nBuf tb) → BufTy
  | .hbm, ⟨i, _⟩ => hbmTy i
  | _, _ => ⟨S262144x11, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_cst : Ref sig .tc := ⟨.hbm, 29, rfl⟩
abbrev main_cst_0 : Ref sig .tc := ⟨.hbm, 30, rfl⟩
abbrev main_cst_1 : Ref sig .tc := ⟨.hbm, 31, rfl⟩
abbrev main_cst_2 : Ref sig .tc := ⟨.hbm, 32, rfl⟩
abbrev main_cst_3 : Ref sig .tc := ⟨.hbm, 33, rfl⟩
abbrev main_c : Ref sig .tc := ⟨.hbm, 34, rfl⟩
abbrev main_c_4 : Ref sig .tc := ⟨.hbm, 35, rfl⟩
abbrev main_v0 : Ref sig .tc := ⟨.hbm, 36, rfl⟩
abbrev main_v1 : Ref sig .tc := ⟨.hbm, 37, rfl⟩
abbrev main_c_5 : Ref sig .tc := ⟨.hbm, 38, rfl⟩
abbrev main_v2 : Ref sig .tc := ⟨.hbm, 39, rfl⟩
abbrev main_v3 : Ref sig .tc := ⟨.hbm, 40, rfl⟩
abbrev main_v4 : Ref sig .tc := ⟨.hbm, 41, rfl⟩
abbrev main_v5 : Ref sig .tc := ⟨.hbm, 42, rfl⟩
abbrev main_v6 : Ref sig .tc := ⟨.hbm, 43, rfl⟩
abbrev main_v7 : Ref sig .tc := ⟨.hbm, 44, rfl⟩
abbrev main_v8 : Ref sig .tc := ⟨.hbm, 45, rfl⟩
abbrev main_v9 : Ref sig .tc := ⟨.hbm, 46, rfl⟩
abbrev main_v10 : Ref sig .tc := ⟨.hbm, 47, rfl⟩
abbrev main_v11 : Ref sig .tc := ⟨.hbm, 48, rfl⟩
abbrev main_call0_c : Ref sig .tc := ⟨.hbm, 49, rfl⟩
abbrev main_call0_v0 : Ref sig .tc := ⟨.hbm, 50, rfl⟩
abbrev main_call0_v1 : Ref sig .tc := ⟨.hbm, 51, rfl⟩
abbrev main_call0_c_0 : Ref sig .tc := ⟨.hbm, 52, rfl⟩
abbrev main_call0_v2 : Ref sig .tc := ⟨.hbm, 53, rfl⟩
abbrev main_call0_v3 : Ref sig .tc := ⟨.hbm, 54, rfl⟩
abbrev main_call0_v4 : Ref sig .tc := ⟨.hbm, 55, rfl⟩
abbrev main_call0_c_1 : Ref sig .tc := ⟨.hbm, 56, rfl⟩
abbrev main_call0_c_2 : Ref sig .tc := ⟨.hbm, 57, rfl⟩
abbrev main_call0_v5 : Ref sig .tc := ⟨.hbm, 58, rfl⟩
abbrev main_call0_v6 : Ref sig .tc := ⟨.hbm, 59, rfl⟩
abbrev main_call0_v7 : Ref sig .tc := ⟨.hbm, 60, rfl⟩
abbrev main_call0_v8 : Ref sig .tc := ⟨.hbm, 61, rfl⟩
abbrev main_call0_v9 : Ref sig .tc := ⟨.hbm, 62, rfl⟩
abbrev main_call0_v10 : Ref sig .tc := ⟨.hbm, 63, rfl⟩
abbrev main_call0_c_3 : Ref sig .tc := ⟨.hbm, 64, rfl⟩
abbrev main_call0_v11 : Ref sig .tc := ⟨.hbm, 65, rfl⟩
abbrev main_call0_v12 : Ref sig .tc := ⟨.hbm, 66, rfl⟩
abbrev main_call0_v13 : Ref sig .tc := ⟨.hbm, 67, rfl⟩
abbrev main_call0_cst : Ref sig .tc := ⟨.hbm, 68, rfl⟩
abbrev main_call0_v14 : Ref sig .tc := ⟨.hbm, 69, rfl⟩
abbrev main_v12 : Ref sig .tc := ⟨.hbm, 70, rfl⟩
abbrev main_v13 : Ref sig .tc := ⟨.hbm, 71, rfl⟩
abbrev main_v14 : Ref sig .tc := ⟨.hbm, 72, rfl⟩
abbrev main_v15 : Ref sig .tc := ⟨.hbm, 73, rfl⟩
abbrev main_v16 : Ref sig .tc := ⟨.hbm, 74, rfl⟩
abbrev main_v17 : Ref sig .tc := ⟨.hbm, 75, rfl⟩
abbrev main_v18 : Ref sig .tc := ⟨.hbm, 76, rfl⟩
abbrev main_call1_cst : Ref sig .tc := ⟨.hbm, 77, rfl⟩
abbrev main_call1_v0 : Ref sig .tc := ⟨.hbm, 78, rfl⟩
abbrev main_v19 : Ref sig .tc := ⟨.hbm, 79, rfl⟩
abbrev main_v20 : Ref sig .tc := ⟨.hbm, 80, rfl⟩
abbrev main_v21 : Ref sig .tc := ⟨.hbm, 81, rfl⟩
abbrev main_v22 : Ref sig .tc := ⟨.hbm, 82, rfl⟩
abbrev main_v23 : Ref sig .tc := ⟨.hbm, 83, rfl⟩
abbrev main_call2_cst : Ref sig .tc := ⟨.hbm, 84, rfl⟩
abbrev main_call2_v0 : Ref sig .tc := ⟨.hbm, 85, rfl⟩
abbrev main_v24 : Ref sig .tc := ⟨.hbm, 86, rfl⟩
abbrev main_v25 : Ref sig .tc := ⟨.hbm, 87, rfl⟩
abbrev main_v26 : Ref sig .tc := ⟨.hbm, 88, rfl⟩
abbrev main_v27 : Ref sig .tc := ⟨.hbm, 89, rfl⟩
abbrev main_v28 : Ref sig .tc := ⟨.hbm, 90, rfl⟩
abbrev main_call3_cst : Ref sig .tc := ⟨.hbm, 91, rfl⟩
abbrev main_call3_v0 : Ref sig .tc := ⟨.hbm, 92, rfl⟩
abbrev main_v29 : Ref sig .tc := ⟨.hbm, 93, rfl⟩
abbrev main_v30 : Ref sig .tc := ⟨.hbm, 94, rfl⟩
abbrev main_v31 : Ref sig .tc := ⟨.hbm, 95, rfl⟩
abbrev main_v32 : Ref sig .tc := ⟨.hbm, 96, rfl⟩
abbrev main_v33 : Ref sig .tc := ⟨.hbm, 97, rfl⟩
abbrev main_v34 : Ref sig .tc := ⟨.hbm, 98, rfl⟩
abbrev main_v35 : Ref sig .tc := ⟨.hbm, 99, rfl⟩
abbrev main_v36 : Ref sig .tc := ⟨.hbm, 100, rfl⟩
abbrev main_v37 : Ref sig .tc := ⟨.hbm, 101, rfl⟩
abbrev main_v38 : Ref sig .tc := ⟨.hbm, 102, rfl⟩
abbrev main_v39 : Ref sig .tc := ⟨.hbm, 103, rfl⟩
abbrev main_v40 : Ref sig .tc := ⟨.hbm, 104, rfl⟩
abbrev main_v41 : Ref sig .tc := ⟨.hbm, 105, rfl⟩
abbrev main_v42 : Ref sig .tc := ⟨.hbm, 106, rfl⟩
abbrev main_v43 : Ref sig .tc := ⟨.hbm, 107, rfl⟩
abbrev main_v44 : Ref sig .tc := ⟨.hbm, 108, rfl⟩
abbrev main_v45 : Ref sig .tc := ⟨.hbm, 109, rfl⟩
abbrev main_v46 : Ref sig .tc := ⟨.hbm, 110, rfl⟩
abbrev main_v47 : Ref sig .tc := ⟨.hbm, 111, rfl⟩
abbrev main_v48 : Ref sig .tc := ⟨.hbm, 112, rfl⟩
abbrev main_v49 : Ref sig .tc := ⟨.hbm, 113, rfl⟩
abbrev main_v50 : Ref sig .tc := ⟨.hbm, 114, rfl⟩
abbrev main_v51 : Ref sig .tc := ⟨.hbm, 115, rfl⟩
abbrev main_v52 : Ref sig .tc := ⟨.hbm, 116, rfl⟩
abbrev main_v53 : Ref sig .tc := ⟨.hbm, 117, rfl⟩
abbrev main_v54 : Ref sig .tc := ⟨.hbm, 118, rfl⟩
abbrev main_v55 : Ref sig .tc := ⟨.hbm, 119, rfl⟩
abbrev main_v56 : Ref sig .tc := ⟨.hbm, 120, rfl⟩
abbrev main_v57 : Ref sig .tc := ⟨.hbm, 121, rfl⟩
abbrev main_v58 : Ref sig .tc := ⟨.hbm, 122, rfl⟩
abbrev main_v59 : Ref sig .tc := ⟨.hbm, 123, rfl⟩
abbrev main_v60 : Ref sig .tc := ⟨.hbm, 124, rfl⟩
abbrev main_v61 : Ref sig .tc := ⟨.hbm, 125, rfl⟩
abbrev main_v62 : Ref sig .tc := ⟨.hbm, 126, rfl⟩
abbrev main_cst_6 : Ref sig .tc := ⟨.hbm, 127, rfl⟩
abbrev main_v63 : Ref sig .tc := ⟨.hbm, 128, rfl⟩
abbrev main_v64 : Ref sig .tc := ⟨.hbm, 129, rfl⟩
abbrev main_v65 : Ref sig .tc := ⟨.hbm, 130, rfl⟩
abbrev main_v66 : Ref sig .tc := ⟨.hbm, 131, rfl⟩
abbrev main_v67 : Ref sig .tc := ⟨.hbm, 132, rfl⟩
abbrev main_v68 : Ref sig .tc := ⟨.hbm, 133, rfl⟩
abbrev main_v69 : Ref sig .tc := ⟨.hbm, 134, rfl⟩
abbrev main_v70 : Ref sig .tc := ⟨.hbm, 135, rfl⟩
abbrev main_v71 : Ref sig .tc := ⟨.hbm, 136, rfl⟩
abbrev main_v72 : Ref sig .tc := ⟨.hbm, 137, rfl⟩
abbrev main_v73 : Ref sig .tc := ⟨.hbm, 138, rfl⟩
abbrev main_v74 : Ref sig .tc := ⟨.hbm, 139, rfl⟩
abbrev main_v75 : Ref sig .tc := ⟨.hbm, 140, rfl⟩
abbrev main_v76 : Ref sig .tc := ⟨.hbm, 141, rfl⟩
abbrev main_v77 : Ref sig .tc := ⟨.hbm, 142, rfl⟩
abbrev main_v78 : Ref sig .tc := ⟨.hbm, 143, rfl⟩
abbrev main_v79 : Ref sig .tc := ⟨.hbm, 144, rfl⟩
abbrev main_v80 : Ref sig .tc := ⟨.hbm, 145, rfl⟩
abbrev main_v81 : Ref sig .tc := ⟨.hbm, 146, rfl⟩
abbrev main_call5_cst : Ref sig .tc := ⟨.hbm, 147, rfl⟩
abbrev main_call5_v0 : Ref sig .tc := ⟨.hbm, 148, rfl⟩
abbrev main_v82 : Ref sig .tc := ⟨.hbm, 149, rfl⟩
abbrev main_v83 : Ref sig .tc := ⟨.hbm, 150, rfl⟩
abbrev main_v84 : Ref sig .tc := ⟨.hbm, 151, rfl⟩
abbrev main_v85 : Ref sig .tc := ⟨.hbm, 152, rfl⟩
abbrev main_v86 : Ref sig .tc := ⟨.hbm, 153, rfl⟩
abbrev main_call6_cst : Ref sig .tc := ⟨.hbm, 154, rfl⟩
abbrev main_call6_v0 : Ref sig .tc := ⟨.hbm, 155, rfl⟩
abbrev main_v87 : Ref sig .tc := ⟨.hbm, 156, rfl⟩
abbrev main_v88 : Ref sig .tc := ⟨.hbm, 157, rfl⟩
abbrev main_v89 : Ref sig .tc := ⟨.hbm, 158, rfl⟩
abbrev main_v90 : Ref sig .tc := ⟨.hbm, 159, rfl⟩
abbrev main_v91 : Ref sig .tc := ⟨.hbm, 160, rfl⟩
abbrev main_v92 : Ref sig .tc := ⟨.hbm, 161, rfl⟩
abbrev main_v93 : Ref sig .tc := ⟨.hbm, 162, rfl⟩
abbrev main_v94 : Ref sig .tc := ⟨.hbm, 163, rfl⟩
abbrev main_v95 : Ref sig .tc := ⟨.hbm, 164, rfl⟩
abbrev main_v96 : Ref sig .tc := ⟨.hbm, 165, rfl⟩
abbrev main_call7_c : Ref sig .tc := ⟨.hbm, 166, rfl⟩
abbrev main_call7_v0 : Ref sig .tc := ⟨.hbm, 167, rfl⟩
abbrev main_call7_v1 : Ref sig .tc := ⟨.hbm, 168, rfl⟩
abbrev main_call7_c_0 : Ref sig .tc := ⟨.hbm, 169, rfl⟩
abbrev main_call7_v2 : Ref sig .tc := ⟨.hbm, 170, rfl⟩
abbrev main_call7_v3 : Ref sig .tc := ⟨.hbm, 171, rfl⟩
abbrev main_call7_v4 : Ref sig .tc := ⟨.hbm, 172, rfl⟩
abbrev main_call7_c_1 : Ref sig .tc := ⟨.hbm, 173, rfl⟩
abbrev main_call7_c_2 : Ref sig .tc := ⟨.hbm, 174, rfl⟩
abbrev main_call7_v5 : Ref sig .tc := ⟨.hbm, 175, rfl⟩
abbrev main_call7_v6 : Ref sig .tc := ⟨.hbm, 176, rfl⟩
abbrev main_call7_v7 : Ref sig .tc := ⟨.hbm, 177, rfl⟩
abbrev main_call7_v8 : Ref sig .tc := ⟨.hbm, 178, rfl⟩
abbrev main_call7_v9 : Ref sig .tc := ⟨.hbm, 179, rfl⟩
abbrev main_call7_v10 : Ref sig .tc := ⟨.hbm, 180, rfl⟩
abbrev main_call7_c_3 : Ref sig .tc := ⟨.hbm, 181, rfl⟩
abbrev main_call7_v11 : Ref sig .tc := ⟨.hbm, 182, rfl⟩
abbrev main_call7_v12 : Ref sig .tc := ⟨.hbm, 183, rfl⟩
abbrev main_call7_v13 : Ref sig .tc := ⟨.hbm, 184, rfl⟩
abbrev main_call7_cst : Ref sig .tc := ⟨.hbm, 185, rfl⟩
abbrev main_call7_v14 : Ref sig .tc := ⟨.hbm, 186, rfl⟩
abbrev main_v97 : Ref sig .tc := ⟨.hbm, 187, rfl⟩
abbrev main_v98 : Ref sig .tc := ⟨.hbm, 188, rfl⟩
abbrev main_v99 : Ref sig .tc := ⟨.hbm, 189, rfl⟩
abbrev main_v100 : Ref sig .tc := ⟨.hbm, 190, rfl⟩
abbrev main_c_7 : Ref sig .tc := ⟨.hbm, 191, rfl⟩
abbrev main_v101 : Ref sig .tc := ⟨.hbm, 192, rfl⟩
abbrev main_v102 : Ref sig .tc := ⟨.hbm, 193, rfl⟩
abbrev main_c_8 : Ref sig .tc := ⟨.hbm, 194, rfl⟩
abbrev main_v103 : Ref sig .tc := ⟨.hbm, 195, rfl⟩
abbrev main_v104 : Ref sig .tc := ⟨.hbm, 196, rfl⟩
abbrev main_v105 : Ref sig .tc := ⟨.hbm, 197, rfl⟩
abbrev main_v106 : Ref sig .tc := ⟨.hbm, 198, rfl⟩
abbrev main_v107 : Ref sig .tc := ⟨.hbm, 199, rfl⟩
abbrev main_v108 : Ref sig .tc := ⟨.hbm, 200, rfl⟩
abbrev main_v109 : Ref sig .tc := ⟨.hbm, 201, rfl⟩
abbrev main_v110 : Ref sig .tc := ⟨.hbm, 202, rfl⟩
abbrev main_v111 : Ref sig .tc := ⟨.hbm, 203, rfl⟩

abbrev nD : Nat := 1
abbrev τ : Topo := Topo.v7x

variable {F : FTy → Type} [FloatOps F]

class Facts₀ : Prop where
  bcast_S_S262144 : S_.BroadcastsInDim S262144 (![] : Fin 0 → Fin S262144.rank)
  bcast_S262144_S262144x1_0 : S262144.BroadcastsInDim S262144x1 (![0] : Fin 1 → Fin S262144x1.rank)
  bcast_S5x32_S1x5x32_1_2 : S5x32.BroadcastsInDim S1x5x32 (![1, 2] : Fin 2 → Fin S1x5x32.rank)
  bcast_S1x5x32_S262144x5x32_0_1_2 : S1x5x32.BroadcastsInDim S262144x5x32 (![0, 1, 2] : Fin 3 → Fin S262144x5x32.rank)
  bcast_S262144_S262144x1x1_0 : S262144.BroadcastsInDim S262144x1x1 (![0] : Fin 1 → Fin S262144x1x1.rank)
  bcast_S_S262144x1x1 : S_.BroadcastsInDim S262144x1x1 (![] : Fin 0 → Fin S262144x1x1.rank)
  bcast_S1_S1x1x1_2 : S1.BroadcastsInDim S1x1x1 (![2] : Fin 1 → Fin S1x1x1.rank)
  bcast_S1x1x1_S262144x1x1_0_1_2 : S1x1x1.BroadcastsInDim S262144x1x1 (![0, 1, 2] : Fin 3 → Fin S262144x1x1.rank)
  reducesTo_S262144x1x1_S262144x1_d2 : S262144x1x1.ReducesTo [2] S262144x1
  h_S_ : 0 < S_.numel
  bcast_S262144x1_S262144x1x32_0_1 : S262144x1.BroadcastsInDim S262144x1x32 (![0, 1] : Fin 2 → Fin S262144x1x32.rank)
  bcast_S_S262144x1x32 : S_.BroadcastsInDim S262144x1x32 (![] : Fin 0 → Fin S262144x1x32.rank)
  shapeCasts_S262144x1x32_S262144x32 : S262144x1x32.ShapeCasts S262144x32
  concatenates_S262144x32_S262144x16_S262144x48_d1 : Shape.Concatenates [S262144x32, S262144x16] S262144x48 1
  bcast_S512_S1x512_1 : S512.BroadcastsInDim S1x512 (![1] : Fin 1 → Fin S1x512.rank)
  bcast_S1x512_S262144x512_0_1 : S1x512.BroadcastsInDim S262144x512 (![0, 1] : Fin 2 → Fin S262144x512.rank)
  bcast_S_S262144x512 : S_.BroadcastsInDim S262144x512 (![] : Fin 0 → Fin S262144x512.rank)
  bcast_S256_S1x256_1 : S256.BroadcastsInDim S1x256 (![1] : Fin 1 → Fin S1x256.rank)
  bcast_S1x256_S262144x256_0_1 : S1x256.BroadcastsInDim S262144x256 (![0, 1] : Fin 2 → Fin S262144x256.rank)
  bcast_S_S262144x256 : S_.BroadcastsInDim S262144x256 (![] : Fin 0 → Fin S262144x256.rank)
  bcast_S128_S1x128_1 : S128.BroadcastsInDim S1x128 (![1] : Fin 1 → Fin S1x128.rank)
  bcast_S1x128_S262144x128_0_1 : S1x128.BroadcastsInDim S262144x128 (![0, 1] : Fin 2 → Fin S262144x128.rank)
  bcast_S_S262144x128 : S_.BroadcastsInDim S262144x128 (![] : Fin 0 → Fin S262144x128.rank)
  bcast_S4_S1x4_1 : S4.BroadcastsInDim S1x4 (![1] : Fin 1 → Fin S1x4.rank)
  bcast_S1x4_S262144x4_0_1 : S1x4.BroadcastsInDim S262144x4 (![0, 1] : Fin 2 → Fin S262144x4.rank)
  reducesTo_S262144x4_S262144_d1 : S262144x4.ReducesTo [1] S262144
  bcast_S5_S1x5_1 : S5.BroadcastsInDim S1x5 (![1] : Fin 1 → Fin S1x5.rank)
  bcast_S1x5_S262144x5_0_1 : S1x5.BroadcastsInDim S262144x5 (![0, 1] : Fin 2 → Fin S262144x5.rank)
  bcast_S2_S1x2_1 : S2.BroadcastsInDim S1x2 (![1] : Fin 1 → Fin S1x2.rank)
  bcast_S1x2_S262144x2_0_1 : S1x2.BroadcastsInDim S262144x2 (![0, 1] : Fin 2 → Fin S262144x2.rank)
  concatenates_S262144x128_S262144x16_S262144x144_d1 : Shape.Concatenates [S262144x128, S262144x16] S262144x144 1
  bcast_S32_S1x32_1 : S32.BroadcastsInDim S1x32 (![1] : Fin 1 → Fin S1x32.rank)
  bcast_S1x32_S262144x32_0_1 : S1x32.BroadcastsInDim S262144x32 (![0, 1] : Fin 2 → Fin S262144x32.rank)
  bcast_S5x11_S1x5x11_1_2 : S5x11.BroadcastsInDim S1x5x11 (![1, 2] : Fin 2 → Fin S1x5x11.rank)
  bcast_S1x5x11_S262144x5x11_0_1_2 : S1x5x11.BroadcastsInDim S262144x5x11 (![0, 1, 2] : Fin 3 → Fin S262144x5x11.rank)
  bcast_S262144x1_S262144x1x11_0_1 : S262144x1.BroadcastsInDim S262144x1x11 (![0, 1] : Fin 2 → Fin S262144x1x11.rank)
  bcast_S_S262144x1x11 : S_.BroadcastsInDim S262144x1x11 (![] : Fin 0 → Fin S262144x1x11.rank)
  shapeCasts_S262144x1x11_S262144x11 : S262144x1x11.ShapeCasts S262144x11
  bcast_S11_S1x11_1 : S11.BroadcastsInDim S1x11 (![1] : Fin 1 → Fin S1x11.rank)
  bcast_S1x11_S262144x11_0_1 : S1x11.BroadcastsInDim S262144x11 (![0, 1] : Fin 2 → Fin S262144x11.rank)
  bcast_S262144x1_S262144x11_0_1 : S262144x1.BroadcastsInDim S262144x11 (![0, 1] : Fin 2 → Fin S262144x11.rank)
  gather_S5x16_S262144x1_S262144x16_1_0_n_n_0_1_116_wf : GatherDims.WF S5x16 S262144x1 S262144x16 [1] [0] [] [0] [] 1 ![1, 16]
  dot_S262144x11_S5x32x11_S262144x5x32_1_2_0_01_n_n_wf : DotDims.WF S262144x11 S5x32x11 S262144x5x32 [1] [2] [0] [0, 1] [] []
  gather_S262144x5x32_S262144x1x1_S262144x1x32_2_1_0_0_1_2_1132_wf : GatherDims.WF S262144x5x32 S262144x1x1 S262144x1x32 [2] [1] [0] [1] [0] 2 ![1, 1, 32]
  dot_S262144x48_S48x512_S262144x512_1_0_0_1_n_n_wf : DotDims.WF S262144x48 S48x512 S262144x512 [1] [0] [0] [1] [] []
  dot_S262144x512_S512x256_S262144x256_1_0_0_1_n_n_wf : DotDims.WF S262144x512 S512x256 S262144x256 [1] [0] [0] [1] [] []
  dot_S262144x256_S256x128_S262144x128_1_0_0_1_n_n_wf : DotDims.WF S262144x256 S256x128 S262144x128 [1] [0] [0] [1] [] []
  dot_S262144x128_S128x128_S262144x128_1_0_0_1_n_n_wf : DotDims.WF S262144x128 S128x128 S262144x128 [1] [0] [0] [1] [] []
  dot_S262144x128_S128x4_S262144x4_1_0_0_1_n_n_wf : DotDims.WF S262144x128 S128x4 S262144x4 [1] [0] [0] [1] [] []
  dot_S262144x4_S4x128_S262144x128_1_0_0_1_n_n_wf : DotDims.WF S262144x4 S4x128 S262144x128 [1] [0] [0] [1] [] []
  dot_S262144x128_S128x5_S262144x5_1_0_0_1_n_n_wf : DotDims.WF S262144x128 S128x5 S262144x5 [1] [0] [0] [1] [] []
  dot_S262144x128_S128x2_S262144x2_1_0_0_1_n_n_wf : DotDims.WF S262144x128 S128x2 S262144x2 [1] [0] [0] [1] [] []
  dot_S262144x144_S144x256_S262144x256_1_0_0_1_n_n_wf : DotDims.WF S262144x144 S144x256 S262144x256 [1] [0] [0] [1] [] []
  dot_S262144x256_S256x512_S262144x512_1_0_0_1_n_n_wf : DotDims.WF S262144x256 S256x512 S262144x512 [1] [0] [0] [1] [] []
  dot_S262144x512_S512x32_S262144x32_1_0_0_1_n_n_wf : DotDims.WF S262144x512 S512x32 S262144x32 [1] [0] [0] [1] [] []
  dot_S262144x32_S5x11x32_S262144x5x11_1_2_0_01_n_n_wf : DotDims.WF S262144x32 S5x11x32 S262144x5x11 [1] [2] [0] [0, 1] [] []
  gather_S262144x5x11_S262144x1x1_S262144x1x11_2_1_0_0_1_2_1111_wf : GatherDims.WF S262144x5x11 S262144x1x1 S262144x1x11 [2] [1] [0] [1] [0] 2 ![1, 1, 11]
  gather_S5_S262144x1_S262144_n_0_n_n_0_1_1_wf : GatherDims.WF S5 S262144x1 S262144 [] [0] [] [0] [] 1 ![1]

variable [Facts₀]

def gather_S5x16_S262144x1_S262144x16_1_0_n_n_0_1_116 : GatherDims S5x16 S262144x1 S262144x16 where
  offsetDims := [1]
  collapsedSliceDims := [0]
  operandBatchingDims := []
  startIndicesBatchingDims := []
  startIndexMap := [0]
  indexVectorDim := 1
  sliceSizes := ![1, 16]
  wf := gather_S5x16_S262144x1_S262144x16_1_0_n_n_0_1_116_wf
def dot_S262144x11_S5x32x11_S262144x5x32_1_2_0_01_n_n : DotDims S262144x11 S5x32x11 S262144x5x32 where
  lhsContracting := [1]
  rhsContracting := [2]
  lhsNonContracting := [0]
  rhsNonContracting := [0, 1]
  lhsBatch := []
  rhsBatch := []
  wf := dot_S262144x11_S5x32x11_S262144x5x32_1_2_0_01_n_n_wf
def gather_S262144x5x32_S262144x1x1_S262144x1x32_2_1_0_0_1_2_1132 : GatherDims S262144x5x32 S262144x1x1 S262144x1x32 where
  offsetDims := [2]
  collapsedSliceDims := [1]
  operandBatchingDims := [0]
  startIndicesBatchingDims := [0]
  startIndexMap := [1]
  indexVectorDim := 2
  sliceSizes := ![1, 1, 32]
  wf := gather_S262144x5x32_S262144x1x1_S262144x1x32_2_1_0_0_1_2_1132_wf
def dot_S262144x48_S48x512_S262144x512_1_0_0_1_n_n : DotDims S262144x48 S48x512 S262144x512 where
  lhsContracting := [1]
  rhsContracting := [0]
  lhsNonContracting := [0]
  rhsNonContracting := [1]
  lhsBatch := []
  rhsBatch := []
  wf := dot_S262144x48_S48x512_S262144x512_1_0_0_1_n_n_wf
def dot_S262144x512_S512x256_S262144x256_1_0_0_1_n_n : DotDims S262144x512 S512x256 S262144x256 where
  lhsContracting := [1]
  rhsContracting := [0]
  lhsNonContracting := [0]
  rhsNonContracting := [1]
  lhsBatch := []
  rhsBatch := []
  wf := dot_S262144x512_S512x256_S262144x256_1_0_0_1_n_n_wf
def dot_S262144x256_S256x128_S262144x128_1_0_0_1_n_n : DotDims S262144x256 S256x128 S262144x128 where
  lhsContracting := [1]
  rhsContracting := [0]
  lhsNonContracting := [0]
  rhsNonContracting := [1]
  lhsBatch := []
  rhsBatch := []
  wf := dot_S262144x256_S256x128_S262144x128_1_0_0_1_n_n_wf
def dot_S262144x128_S128x128_S262144x128_1_0_0_1_n_n : DotDims S262144x128 S128x128 S262144x128 where
  lhsContracting := [1]
  rhsContracting := [0]
  lhsNonContracting := [0]
  rhsNonContracting := [1]
  lhsBatch := []
  rhsBatch := []
  wf := dot_S262144x128_S128x128_S262144x128_1_0_0_1_n_n_wf
def dot_S262144x128_S128x4_S262144x4_1_0_0_1_n_n : DotDims S262144x128 S128x4 S262144x4 where
  lhsContracting := [1]
  rhsContracting := [0]
  lhsNonContracting := [0]
  rhsNonContracting := [1]
  lhsBatch := []
  rhsBatch := []
  wf := dot_S262144x128_S128x4_S262144x4_1_0_0_1_n_n_wf
def dot_S262144x4_S4x128_S262144x128_1_0_0_1_n_n : DotDims S262144x4 S4x128 S262144x128 where
  lhsContracting := [1]
  rhsContracting := [0]
  lhsNonContracting := [0]
  rhsNonContracting := [1]
  lhsBatch := []
  rhsBatch := []
  wf := dot_S262144x4_S4x128_S262144x128_1_0_0_1_n_n_wf
def dot_S262144x128_S128x5_S262144x5_1_0_0_1_n_n : DotDims S262144x128 S128x5 S262144x5 where
  lhsContracting := [1]
  rhsContracting := [0]
  lhsNonContracting := [0]
  rhsNonContracting := [1]
  lhsBatch := []
  rhsBatch := []
  wf := dot_S262144x128_S128x5_S262144x5_1_0_0_1_n_n_wf
def dot_S262144x128_S128x2_S262144x2_1_0_0_1_n_n : DotDims S262144x128 S128x2 S262144x2 where
  lhsContracting := [1]
  rhsContracting := [0]
  lhsNonContracting := [0]
  rhsNonContracting := [1]
  lhsBatch := []
  rhsBatch := []
  wf := dot_S262144x128_S128x2_S262144x2_1_0_0_1_n_n_wf
def dot_S262144x144_S144x256_S262144x256_1_0_0_1_n_n : DotDims S262144x144 S144x256 S262144x256 where
  lhsContracting := [1]
  rhsContracting := [0]
  lhsNonContracting := [0]
  rhsNonContracting := [1]
  lhsBatch := []
  rhsBatch := []
  wf := dot_S262144x144_S144x256_S262144x256_1_0_0_1_n_n_wf
def dot_S262144x256_S256x512_S262144x512_1_0_0_1_n_n : DotDims S262144x256 S256x512 S262144x512 where
  lhsContracting := [1]
  rhsContracting := [0]
  lhsNonContracting := [0]
  rhsNonContracting := [1]
  lhsBatch := []
  rhsBatch := []
  wf := dot_S262144x256_S256x512_S262144x512_1_0_0_1_n_n_wf
def dot_S262144x512_S512x32_S262144x32_1_0_0_1_n_n : DotDims S262144x512 S512x32 S262144x32 where
  lhsContracting := [1]
  rhsContracting := [0]
  lhsNonContracting := [0]
  rhsNonContracting := [1]
  lhsBatch := []
  rhsBatch := []
  wf := dot_S262144x512_S512x32_S262144x32_1_0_0_1_n_n_wf
def dot_S262144x32_S5x11x32_S262144x5x11_1_2_0_01_n_n : DotDims S262144x32 S5x11x32 S262144x5x11 where
  lhsContracting := [1]
  rhsContracting := [2]
  lhsNonContracting := [0]
  rhsNonContracting := [0, 1]
  lhsBatch := []
  rhsBatch := []
  wf := dot_S262144x32_S5x11x32_S262144x5x11_1_2_0_01_n_n_wf
def gather_S262144x5x11_S262144x1x1_S262144x1x11_2_1_0_0_1_2_1111 : GatherDims S262144x5x11 S262144x1x1 S262144x1x11 where
  offsetDims := [2]
  collapsedSliceDims := [1]
  operandBatchingDims := [0]
  startIndicesBatchingDims := [0]
  startIndexMap := [1]
  indexVectorDim := 2
  sliceSizes := ![1, 1, 11]
  wf := gather_S262144x5x11_S262144x1x1_S262144x1x11_2_1_0_0_1_2_1111_wf
def gather_S5_S262144x1_S262144_n_0_n_n_0_1_1 : GatherDims S5 S262144x1 S262144 where
  offsetDims := []
  collapsedSliceDims := [0]
  operandBatchingDims := []
  startIndicesBatchingDims := []
  startIndexMap := [0]
  indexVectorDim := 1
  sliceSizes := ![1]
  wf := gather_S5_S262144x1_S262144_n_0_n_n_0_1_1_wf

class Facts : Prop extends Facts₀ where

variable [Facts]
-- ==== Proof.KTerms.lean ====
/-
  The kernel body's five stored values, cut where the mathematics cuts them.

  A grid point works on 1024 rows.  Its body builds, from the rows' surface types, a 0/1 indicator of the type (`OHv`) and,
  through it, the rows' type embeddings (`EMBv`); from the parameters the four quantiser channels before the `tanh`
  (`ZPv`: the parameter embedding selected by the indicator, then the encoder); from those the quantised latent (`ZQv`),
  the class logits (`CLSv`, which recompute the latent), the closedness logits (`CLOv`), the code index (`IDXv`), the
  decoder's output (`PDv`) and the reconstruction selected by the indicator (`RECv`).  Each is the composition of the
  body's payloads that computes it, over the blocks the body loads; the five values the body stores are these, composed
  (`Proof/KVal.lean` checks that against the frame's `out0_36` … `out0_40` by `rfl`).
-/
import proofs.«425746_j43550968382251_1_alg».proof.Proof.Gen.KernelIdeal.Skeleton
import Idealize.ShloMosaic.Lib.Pipeline.FrameBody

noncomputable section

namespace Cert.KernelIdeal.KT

open Idealize.ShloMosaic Idealize.SL.Sem
open Cert.KernelIdeal Cert.KernelIdeal.Gen

variable {F : FTy → Type} [FloatOps F]

/-! ## The rectangles the body loads and stores through -/

abbrev r0_0 : Rect S1024x11 := Rect.unit (s := S1024x11) ![0, 0] S1024x11.size inb_S1024x11_S1024x11_0_0
abbrev r0_1 : Rect S1024x1 := Rect.unit (s := S1024x1) ![0, 0] S1024x1.size inb_S1024x1_S1024x1_0_0
abbrev r0_2 : Rect S5x16 := Rect.unit (s := S5x16) ![0, 0] S5x16.size inb_S5x16_S5x16_0_0
abbrev r0_3 : Rect S5x32x11 := Rect.unit (s := S5x32x11) ![0, 0, 0] S1x32x11.size inb_S5x32x11_S1x32x11_0_0_0
abbrev r0_4 : Rect S5x32 := Rect.unit (s := S5x32) ![0, 0] S1x32.size inb_S5x32_S1x32_0_0
abbrev r0_5 : Rect S5x32x11 := Rect.unit (s := S5x32x11) ![1, 0, 0] S1x32x11.size inb_S5x32x11_S1x32x11_1_0_0
abbrev r0_6 : Rect S5x32 := Rect.unit (s := S5x32) ![1, 0] S1x32.size inb_S5x32_S1x32_1_0
abbrev r0_7 : Rect S5x32x11 := Rect.unit (s := S5x32x11) ![2, 0, 0] S1x32x11.size inb_S5x32x11_S1x32x11_2_0_0
abbrev r0_8 : Rect S5x32 := Rect.unit (s := S5x32) ![2, 0] S1x32.size inb_S5x32_S1x32_2_0
abbrev r0_9 : Rect S5x32x11 := Rect.unit (s := S5x32x11) ![3, 0, 0] S1x32x11.size inb_S5x32x11_S1x32x11_3_0_0
abbrev r0_10 : Rect S5x32 := Rect.unit (s := S5x32) ![3, 0] S1x32.size inb_S5x32_S1x32_3_0
abbrev r0_11 : Rect S5x32x11 := Rect.unit (s := S5x32x11) ![4, 0, 0] S1x32x11.size inb_S5x32x11_S1x32x11_4_0_0
abbrev r0_12 : Rect S5x32 := Rect.unit (s := S5x32) ![4, 0] S1x32.size inb_S5x32_S1x32_4_0
abbrev r0_13 : Rect S32x512 := Rect.unit (s := S32x512) ![0, 0] S32x512.size inb_S32x512_S32x512_0_0
abbrev r0_14 : Rect S16x512 := Rect.unit (s := S16x512) ![0, 0] S16x512.size inb_S16x512_S16x512_0_0
abbrev r0_15 : Rect S512 := Rect.unit (s := S512) ![0] S512.size inb_S512_S512_0
abbrev r0_16 : Rect S512x256 := Rect.unit (s := S512x256) ![0, 0] S512x256.size inb_S512x256_S512x256_0_0
abbrev r0_17 : Rect S256 := Rect.unit (s := S256) ![0] S256.size inb_S256_S256_0
abbrev r0_18 : Rect S256x128 := Rect.unit (s := S256x128) ![0, 0] S256x128.size inb_S256x128_S256x128_0_0
abbrev r0_19 : Rect S128 := Rect.unit (s := S128) ![0] S128.size inb_S128_S128_0
abbrev r0_20 : Rect S128x128 := Rect.unit (s := S128x128) ![0, 0] S128x128.size inb_S128x128_S128x128_0_0
abbrev r0_21 : Rect S128x4 := Rect.unit (s := S128x4) ![0, 0] S128x4.size inb_S128x4_S128x4_0_0
abbrev r0_22 : Rect S4 := Rect.unit (s := S4) ![0] S4.size inb_S4_S4_0
abbrev r0_23 : Rect S1x4 := Rect.unit (s := S1x4) ![0, 0] S1x4.size inb_S1x4_S1x4_0_0
abbrev r0_24 : Rect S4x128 := Rect.unit (s := S4x128) ![0, 0] S4x128.size inb_S4x128_S4x128_0_0
abbrev r0_25 : Rect S128x5 := Rect.unit (s := S128x5) ![0, 0] S128x5.size inb_S128x5_S128x5_0_0
abbrev r0_26 : Rect S5 := Rect.unit (s := S5) ![0] S5.size inb_S5_S5_0
abbrev r0_27 : Rect S128x2 := Rect.unit (s := S128x2) ![0, 0] S128x2.size inb_S128x2_S128x2_0_0
abbrev r0_28 : Rect S2 := Rect.unit (s := S2) ![0] S2.size inb_S2_S2_0
abbrev r0_29 : Rect S128x256 := Rect.unit (s := S128x256) ![0, 0] S128x256.size inb_S128x256_S128x256_0_0
abbrev r0_30 : Rect S16x256 := Rect.unit (s := S16x256) ![0, 0] S16x256.size inb_S16x256_S16x256_0_0
abbrev r0_31 : Rect S256x512 := Rect.unit (s := S256x512) ![0, 0] S256x512.size inb_S256x512_S256x512_0_0
abbrev r0_32 : Rect S512x32 := Rect.unit (s := S512x32) ![0, 0] S512x32.size inb_S512x32_S512x32_0_0
abbrev r0_33 : Rect S32 := Rect.unit (s := S32) ![0] S32.size inb_S32_S32_0
abbrev r0_34 : Rect S5x11x32 := Rect.unit (s := S5x11x32) ![0, 0, 0] S1x11x32.size inb_S5x11x32_S1x11x32_0_0_0
abbrev r0_35 : Rect S5x11 := Rect.unit (s := S5x11) ![0, 0] S1x11.size inb_S5x11_S1x11_0_0
abbrev r0_36 : Rect S5x11x32 := Rect.unit (s := S5x11x32) ![1, 0, 0] S1x11x32.size inb_S5x11x32_S1x11x32_1_0_0
abbrev r0_37 : Rect S5x11 := Rect.unit (s := S5x11) ![1, 0] S1x11.size inb_S5x11_S1x11_1_0
abbrev r0_38 : Rect S5x11x32 := Rect.unit (s := S5x11x32) ![2, 0, 0] S1x11x32.size inb_S5x11x32_S1x11x32_2_0_0
abbrev r0_39 : Rect S5x11 := Rect.unit (s := S5x11) ![2, 0] S1x11.size inb_S5x11_S1x11_2_0
abbrev r0_40 : Rect S5x11x32 := Rect.unit (s := S5x11x32) ![3, 0, 0] S1x11x32.size inb_S5x11x32_S1x11x32_3_0_0
abbrev r0_41 : Rect S5x11 := Rect.unit (s := S5x11) ![3, 0] S1x11.size inb_S5x11_S1x11_3_0
abbrev r0_42 : Rect S5x11x32 := Rect.unit (s := S5x11x32) ![4, 0, 0] S1x11x32.size inb_S5x11x32_S1x11x32_4_0_0
abbrev r0_43 : Rect S5x11 := Rect.unit (s := S5x11) ![4, 0] S1x11.size inb_S5x11_S1x11_4_0
abbrev r0_44 : Rect S1024x5 := Rect.unit (s := S1024x5) ![0, 0] S1024x5.size inb_S1024x5_S1024x5_0_0
abbrev r0_45 : Rect S1024x2 := Rect.unit (s := S1024x2) ![0, 0] S1024x2.size inb_S1024x2_S1024x2_0_0
abbrev r0_46 : Rect S1024x128 := Rect.unit (s := S1024x128) ![0, 0] S1024x128.size inb_S1024x128_S1024x128_0_0

/-! ## The body's values -/

/-- The 0/1 indicator of each row's surface type, one column per type. -/
abbrev OHv (x1 : Vec F S1024x1 .i32) : FVec F S1024x5 .f32 := k0_pay2 (View.ld x1 r0_1)
/-- Each row's type embedding. -/
abbrev EMBv (x1 : Vec F S1024x1 .i32) (x2 : Vec F S5x16 .f32) : FVec F S1024x16 .f32 := k0_pay3 (View.ld x1 r0_1) (View.ld x2 r0_2)
/-- The four quantiser channels of each row, before the shift and the `tanh`. -/
abbrev ZPv (x0 : Vec F S1024x11 .f32) (x1 : Vec F S1024x1 .i32) (x2 : Vec F S5x16 .f32) (x3 : Vec F S5x32x11 .f32) (x4 : Vec F S5x32 .f32) (x5 : Vec F S32x512 .f32) (x6 : Vec F S16x512 .f32) (x7 : Vec F S512 .f32) (x8 : Vec F S512x256 .f32) (x9 : Vec F S256 .f32) (x10 : Vec F S256x128 .f32) (x11 : Vec F S128 .f32) (x12 : Vec F S128x128 .f32) (x13 : Vec F S128 .f32) (x14 : Vec F S128x4 .f32) (x15 : Vec F S4 .f32) : FVec F S1024x4 .f32 :=
  k0_pay7 (k0_pay3 (View.ld x1 r0_1) (View.ld x2 r0_2)) (k0_pay5 (View.ld x0 r0_0) (k0_pay2 (View.ld x1 r0_1)) (k0_pay4 (View.ld x0 r0_0) (View.ld x1 r0_1) (View.ld x3 r0_3) (View.ld x4 r0_4) (View.ld x3 r0_5) (View.ld x4 r0_6)) (View.ld x3 r0_7) (View.ld x4 r0_8) (View.ld x3 r0_9) (View.ld x4 r0_10) (View.ld x3 r0_11) (View.ld x4 r0_12) (View.ld x5 r0_13)) (k0_pay6 (View.ld x6 r0_14)) (View.ld x7 r0_15) (View.ld x8 r0_16) (View.ld x9 r0_17) (View.ld x10 r0_18) (View.ld x11 r0_19) (View.ld x12 r0_20) (View.ld x13 r0_19) (View.ld x14 r0_21) (View.ld x15 r0_22)
/-- The quantised latent from the channels. -/
abbrev ZQv (zpv : FVec F S1024x4 .f32) (x31 : Vec F S1x4 .f32) (x32 : Vec F S1x4 .f32) (x33 : Vec F S1x4 .f32) (x34 : Vec F S1x4 .f32) (x16 : Vec F S4x128 .f32) (x17 : Vec F S128 .f32) : FVec F S1024x128 .f32 :=
  k0_pay11 zpv (View.ld x31 r0_23) (View.ld x32 r0_23) (View.ld x33 r0_23) (View.ld x34 r0_23) (View.ld x16 r0_24) (View.ld x17 r0_19)
/-- The class logits from the channels. -/
abbrev CLSv (zpv : FVec F S1024x4 .f32) (x31 : Vec F S1x4 .f32) (x32 : Vec F S1x4 .f32) (x33 : Vec F S1x4 .f32) (x34 : Vec F S1x4 .f32) (x16 : Vec F S4x128 .f32) (x17 : Vec F S128 .f32) (x25 : Vec F S128x5 .f32) (x26 : Vec F S5 .f32) : FVec F S1024x5 .f32 :=
  k0_pay12 zpv (View.ld x31 r0_23) (View.ld x32 r0_23) (View.ld x33 r0_23) (View.ld x34 r0_23) (View.ld x16 r0_24) (View.ld x17 r0_19) (View.ld x25 r0_25) (View.ld x26 r0_26)
/-- The closedness logits from the quantised latent. -/
abbrev CLOv (zqv : FVec F S1024x128 .f32) (x27 : Vec F S128x2 .f32) (x28 : Vec F S2 .f32) : FVec F S1024x2 .f32 :=
  k0_pay13 zqv (View.ld x27 r0_27) (View.ld x28 r0_28)
/-- The code index from the channels. -/
abbrev IDXv (zpv : FVec F S1024x4 .f32) (x31 : Vec F S1x4 .f32) (x32 : Vec F S1x4 .f32) (x33 : Vec F S1x4 .f32) (x34 : Vec F S1x4 .f32) (x35 : Vec F S1x4 .f32) : IVec S1024x1 32 :=
  k0_pay10 zpv (View.ld x31 r0_23) (View.ld x32 r0_23) (View.ld x33 r0_23) (View.ld x34 r0_23) (View.ld x35 r0_23)
/-- The decoder's output from the type embedding and the quantised latent. -/
abbrev PDv (embv : FVec F S1024x16 .f32) (zqv : FVec F S1024x128 .f32) (x18 : Vec F S128x256 .f32) (x19 : Vec F S16x256 .f32) (x20 : Vec F S256 .f32) (x21 : Vec F S256x512 .f32) (x22 : Vec F S512 .f32) (x23 : Vec F S512x32 .f32) (x24 : Vec F S32 .f32) : FVec F S1024x32 .f32 :=
  k0_pay14 embv zqv (View.ld x18 r0_29) (View.ld x19 r0_30) (View.ld x20 r0_17) (View.ld x21 r0_31) (View.ld x22 r0_15) (View.ld x23 r0_32) (View.ld x24 r0_33)
/-- The reconstruction from the indicator and the decoder's output. -/
abbrev RECv (ohv : FVec F S1024x5 .f32) (pdv : FVec F S1024x32 .f32) (x29 : Vec F S5x11x32 .f32) (x30 : Vec F S5x11 .f32) : FVec F S1024x11 .f32 :=
  k0_pay1 ohv pdv (k0_pay17 ohv pdv (k0_pay15 (F := F)) (k0_pay16 (View.ld x29 r0_34)) (View.ld x30 r0_35) (View.ld x29 r0_36) (View.ld x30 r0_37) (View.ld x29 r0_38) (View.ld x30 r0_39)) (k0_pay18 pdv (View.ld x29 r0_40)) (k0_pay19 (View.ld x30 r0_41)) (View.ld x29 r0_42) (View.ld x30 r0_43)

end Cert.KernelIdeal.KT

end
-- ==== Proof.Spec.lean ====
/-
  The mathematics both programs compute, ROW BY ROW, over the extended reals.

  One input row is a vector `x` of 11 parameters and a surface type `t` among 5.  The row's embedding is row `t` of the
  type table; its parameter embedding is the affine map of type `t` applied to `x`; an encoder of four affine layers
  (the first reads the parameter embedding and the type embedding side by side, three of them followed by `max · 0`)
  gives a latent vector of 128; a projection to 4 numbers is bounded by `tanh`, scaled, shifted and rounded to the nearest
  integer (ties to even), and divided by the half width: the four codes.  From the codes: the code index (a weighted sum,
  converted to a 32-bit integer), the quantised latent `zq` (an affine map of the codes), two heads of `zq` (5 class
  logits, 2 closedness logits), and a decoder of three affine layers (the first reads `zq` and the type embedding side by
  side) whose output passes through the affine map of type `t` to the 11 reconstructed parameters.

  Every function below is stated over explicit finite index types; a matrix is a function of its index, read at
  `ix2 k j` (row `k`, column `j`).
-/
import Idealize.ShloMosaic.PureOps.Ideal
import Idealize.ShloMosaic.Lib.ValueIdx

noncomputable section

open scoped BigOperators

namespace Cert.Spec

open Idealize.ShloMosaic Idealize.ShloMosaic.ValueIdx

/-- A matrix of extended reals with `m` rows and `n` columns, as a function of its index. -/
abbrev Mat (m n : Nat) : Type := (⟨2, ![m, n]⟩ : Shape).Idx → EReal
/-- A vector of `n` extended reals, as a function of its index. -/
abbrev Vc (n : Nat) : Type := (⟨1, ![n]⟩ : Shape).Idx → EReal
/-- A stack of `k` matrices. -/
abbrev Ten (k m n : Nat) : Type := (⟨3, ![k, m, n]⟩ : Shape).Idx → EReal

/-- The network's weights. -/
structure Wts where
  typeEmb : Mat 5 16
  Wpe : Ten 5 32 11
  bpe : Mat 5 32
  We1 : Mat 48 512
  be1 : Vc 512
  We2 : Mat 512 256
  be2 : Vc 256
  We3 : Mat 256 128
  be3 : Vc 128
  We4 : Mat 128 128
  be4 : Vc 128
  Wpin : Mat 128 4
  bpin : Vc 4
  Wpout : Mat 4 128
  bpout : Vc 128
  Wd1 : Mat 144 256
  bd1 : Vc 256
  Wd2 : Mat 256 512
  bd2 : Vc 512
  Wd3 : Mat 512 32
  bd3 : Vc 32
  Wcls : Mat 128 5
  bcls : Vc 5
  Wclo : Mat 128 2
  bclo : Vc 2
  Wdr : Ten 5 11 32
  bdr : Mat 5 11

/-- The quantiser's five constant vectors of length 4: the shift inside `tanh`, the half length that scales it, the offset
    taken off, the half width the rounded value is divided by, and the basis that weighs the code index. -/
structure Consts where
  shift : Fin 4 → EReal
  halfL : Fin 4 → EReal
  offset : Fin 4 → EReal
  halfW : Fin 4 → EReal
  basis : Fin 4 → EReal

variable (W : Wts) (C : Consts)

/-- An affine layer at output `j`: the input's products with column `j`, summed, plus the bias. -/
def lin {K N : Nat} (x : Fin K → EReal) (M : Mat K N) (b : Vc N) (j : Fin N) : EReal :=
  (∑ k : Fin K, x k * M (ix2 k j)) + b (ix1 j)

/-- The row's type embedding: row `t` of the table. -/
def embR (t : Fin 5) (e : Fin 16) : EReal := W.typeEmb (ix2 t e)

/-- The row's parameter embedding: type `t`'s affine map of the parameters. -/
def peR (x : Fin 11 → EReal) (t : Fin 5) (p : Fin 32) : EReal :=
  (∑ r : Fin 11, x r * W.Wpe (ix3 t p r)) + W.bpe (ix2 t p)

/-- Encoder layer 1: rows 0 … 31 of its matrix meet the parameter embedding, rows 32 … 47 the type embedding. -/
def h1R (x : Fin 11 → EReal) (t : Fin 5) (j : Fin 512) : EReal :=
  max (((∑ k : Fin 32, peR W x t k * W.We1 (ix2 (⟨k.val, by omega⟩ : Fin 48) j))
      + (∑ k : Fin 16, embR W t k * W.We1 (ix2 (⟨32 + k.val, by omega⟩ : Fin 48) j))) + W.be1 (ix1 j)) 0

/-- Encoder layer 2. -/
def h2R (x : Fin 11 → EReal) (t : Fin 5) (j : Fin 256) : EReal := max (lin (h1R W x t) W.We2 W.be2 j) 0
/-- Encoder layer 3. -/
def h3R (x : Fin 11 → EReal) (t : Fin 5) (j : Fin 128) : EReal := max (lin (h2R W x t) W.We3 W.be3 j) 0
/-- The latent vector. -/
def zR (x : Fin 11 → EReal) (t : Fin 5) (j : Fin 128) : EReal := lin (h3R W x t) W.We4 W.be4 j
/-- Its projection to the quantiser's four channels. -/
def zpR (x : Fin 11 → EReal) (t : Fin 5) (j : Fin 4) : EReal := lin (zR W x t) W.Wpin W.bpin j

/-- A channel bounded: `tanh` of the shifted value, scaled by the half length, less the offset. -/
def bndOf (zp : Fin 4 → EReal) (j : Fin 4) : EReal := Ideal.tanh (zp j + C.shift j) * C.halfL j - C.offset j
/-- The channel's code: the bounded value rounded to the nearest integer, ties to even, over the half width. -/
def codeOf (zp : Fin 4 → EReal) (j : Fin 4) : EReal :=
  Ideal.div (Ideal.liftRound Ideal.roundHalfEven (bndOf C zp j)) (C.halfW j)
/-- The code index as a number: each code moved back to a level number and weighed by the basis. -/
def idxfOf (zp : Fin 4 → EReal) : EReal := ∑ j : Fin 4, (codeOf C zp j * C.halfW j + C.halfW j) * C.basis j
/-- The code index: that number as a 32-bit integer, rounded toward zero. -/
def idxOf (zp : Fin 4 → EReal) : BitVec 32 := Ideal.fptosi 32 (idxfOf C zp)
/-- The quantised latent from the codes. -/
def zqOf (zp : Fin 4 → EReal) (j : Fin 128) : EReal := lin (codeOf C zp) W.Wpout W.bpout j
/-- The class logits from the quantised latent. -/
def clsOf (zq : Fin 128 → EReal) (j : Fin 5) : EReal := lin zq W.Wcls W.bcls j
/-- The closedness logits from the quantised latent. -/
def cloOf (zq : Fin 128 → EReal) (j : Fin 2) : EReal := lin zq W.Wclo W.bclo j
/-- Decoder layer 1: rows 0 … 127 of its matrix meet the quantised latent, rows 128 … 143 the type embedding. -/
def hd1Of (zq : Fin 128 → EReal) (emb : Fin 16 → EReal) (j : Fin 256) : EReal :=
  max (((∑ k : Fin 128, zq k * W.Wd1 (ix2 (⟨k.val, by omega⟩ : Fin 144) j))
      + (∑ k : Fin 16, emb k * W.Wd1 (ix2 (⟨128 + k.val, by omega⟩ : Fin 144) j))) + W.bd1 (ix1 j)) 0
/-- Decoder layer 2. -/
def hd2Of (hd1 : Fin 256 → EReal) (j : Fin 512) : EReal := max (lin hd1 W.Wd2 W.bd2 j) 0
/-- Decoder layer 3. -/
def pdOf (hd2 : Fin 512 → EReal) (j : Fin 32) : EReal := lin hd2 W.Wd3 W.bd3 j
/-- The reconstruction: type `t`'s affine map of the decoder's output. -/
def reconOf (pd : Fin 32 → EReal) (t : Fin 5) (r : Fin 11) : EReal :=
  (∑ p : Fin 32, pd p * W.Wdr (ix3 t r p)) + W.bdr (ix2 t r)

/-! ## The row's five results -/

/-- The quantised latent of a row. -/
def zqR (x : Fin 11 → EReal) (t : Fin 5) : Fin 128 → EReal := zqOf W C (zpR W x t)
/-- The class logits of a row. -/
def clsR (x : Fin 11 → EReal) (t : Fin 5) : Fin 5 → EReal := clsOf W (zqR W C x t)
/-- The closedness logits of a row. -/
def cloR (x : Fin 11 → EReal) (t : Fin 5) : Fin 2 → EReal := cloOf W (zqR W C x t)
/-- The code index of a row. -/
def idxR (x : Fin 11 → EReal) (t : Fin 5) : BitVec 32 := idxOf C (zpR W x t)
/-- The decoder's output of a row. -/
def pdR (x : Fin 11 → EReal) (t : Fin 5) : Fin 32 → EReal :=
  pdOf W (hd2Of W (hd1Of W (zqR W C x t) (embR W t)))
/-- The reconstructed parameters of a row. -/
def reconR (x : Fin 11 → EReal) (t : Fin 5) : Fin 11 → EReal := reconOf W (pdR W C x t) t

/-! ## A surface type as a table row -/

/-- The table row a surface-type word names (a word in range is its own value). -/
def tOf (s : BitVec 32) : Fin 5 := ⟨s.toNat % 5, Nat.mod_lt _ (by decide)⟩

theorem tOf_ofNat (t : Fin 5) : tOf (BitVec.ofNat 32 t.val) = t := by
  apply Fin.ext
  show (BitVec.ofNat 32 t.val).toNat % 5 = t.val
  have ht := t.isLt
  rw [BitVec.toNat_ofNat, Nat.mod_eq_of_lt (show t.val < 2 ^ 32 by omega), Nat.mod_eq_of_lt ht]

/-! ## The whole arrays: 262144 rows -/

/-- Row `a` of the parameter array. -/
def rowOf (params : Mat 262144 11) (a : Fin 262144) (k : Fin 11) : EReal := params (ix2 a k)

/-- The reconstruction array. -/
def reconG (params : Mat 262144 11) (styp : (⟨1, ![262144]⟩ : Shape).Idx → BitVec 32) : Mat 262144 11 :=
  fun i => reconR W C (rowOf params (i 0)) (tOf (styp (ix1 (show Fin 262144 from i 0)))) (i 1)
/-- The class-logit array. -/
def clsG (params : Mat 262144 11) (styp : (⟨1, ![262144]⟩ : Shape).Idx → BitVec 32) : Mat 262144 5 :=
  fun i => clsR W C (rowOf params (i 0)) (tOf (styp (ix1 (show Fin 262144 from i 0)))) (i 1)
/-- The closedness-logit array. -/
def cloG (params : Mat 262144 11) (styp : (⟨1, ![262144]⟩ : Shape).Idx → BitVec 32) : Mat 262144 2 :=
  fun i => cloR W C (rowOf params (i 0)) (tOf (styp (ix1 (show Fin 262144 from i 0)))) (i 1)
/-- The quantised-latent array. -/
def zqG (params : Mat 262144 11) (styp : (⟨1, ![262144]⟩ : Shape).Idx → BitVec 32) : Mat 262144 128 :=
  fun i => zqR W C (rowOf params (i 0)) (tOf (styp (ix1 (show Fin 262144 from i 0)))) (i 1)
/-- The code-index array. -/
def idxG (params : Mat 262144 11) (styp : (⟨1, ![262144]⟩ : Shape).Idx → BitVec 32) :
    (⟨1, ![262144]⟩ : Shape).Idx → BitVec 32 :=
  fun i => idxR W C (rowOf params (i 0)) (tOf (styp (ix1 (show Fin 262144 from i 0))))

theorem reconG_apply (params) (styp) (a : Fin 262144) (b : Fin 11) :
    reconG W C params styp (ix2 a b) = reconR W C (rowOf params a) (tOf (styp (ix1 a))) b := rfl
theorem clsG_apply (params) (styp) (a : Fin 262144) (b : Fin 5) :
    clsG W C params styp (ix2 a b) = clsR W C (rowOf params a) (tOf (styp (ix1 a))) b := rfl
theorem cloG_apply (params) (styp) (a : Fin 262144) (b : Fin 2) :
    cloG W C params styp (ix2 a b) = cloR W C (rowOf params a) (tOf (styp (ix1 a))) b := rfl
theorem zqG_apply (params) (styp) (a : Fin 262144) (b : Fin 128) :
    zqG W C params styp (ix2 a b) = zqR W C (rowOf params a) (tOf (styp (ix1 a))) b := rfl
theorem idxG_apply (params) (styp) (a : Fin 262144) :
    idxG W C params styp (ix1 a) = idxR W C (rowOf params a) (tOf (styp (ix1 a))) := rfl

end Cert.Spec

end
-- ==== Proof.KIface.lean ====
/-
  How the kernel body's values read at one row, in the words of the row-by-row mathematics (Proof/Spec.lean).

  The statements here are the joints of the kernel side: each says that one of the body's values (Proof/KTerms.lean), at row
  `r` of a grid point's 1024 rows, is the corresponding function of Proof/Spec.lean, given what the values it is built
  from are at that row and that the loaded blocks are the network's weights and the quantiser's constants.
-/
import proofs.«425746_j43550968382251_1_alg».proof.Proof.KTerms
import proofs.«425746_j43550968382251_1_alg».proof.Proof.Spec

noncomputable section

namespace Cert.KernelIdeal.KT

open Idealize.ShloMosaic Idealize.ShloMosaic.ValueIdx Idealize.SL.Sem
open Cert.KernelIdeal Cert.KernelIdeal.Gen Cert.Spec

/-- The encoder's loaded blocks are the network's weights: the first layer's matrix arrives as its rows 0 … 31 (`x5`) and its
    rows 32 … 47 (`x6`). -/
structure EncW (W : Wts) (x2 : Vec Ideal S5x16 .f32) (x3 : Vec Ideal S5x32x11 .f32) (x4 : Vec Ideal S5x32 .f32) (x5 : Vec Ideal S32x512 .f32) (x6 : Vec Ideal S16x512 .f32) (x7 : Vec Ideal S512 .f32) (x8 : Vec Ideal S512x256 .f32) (x9 : Vec Ideal S256 .f32) (x10 : Vec Ideal S256x128 .f32) (x11 : Vec Ideal S128 .f32) (x12 : Vec Ideal S128x128 .f32) (x13 : Vec Ideal S128 .f32) (x14 : Vec Ideal S128x4 .f32) (x15 : Vec Ideal S4 .f32) : Prop where
  h2 : x2 = W.typeEmb
  h3 : x3 = W.Wpe
  h4 : x4 = W.bpe
  h5 : ∀ (k : Fin 32) (j : Fin 512), x5 (ix2 k j) = W.We1 (ix2 (⟨k.val, by omega⟩ : Fin 48) j)
  h6 : ∀ (k : Fin 16) (j : Fin 512), x6 (ix2 k j) = W.We1 (ix2 (⟨32 + k.val, by omega⟩ : Fin 48) j)
  h7 : x7 = W.be1
  h8 : x8 = W.We2
  h9 : x9 = W.be2
  h10 : x10 = W.We3
  h11 : x11 = W.be3
  h12 : x12 = W.We4
  h13 : x13 = W.be4
  h14 : x14 = W.Wpin
  h15 : x15 = W.bpin

/-- The quantiser's loaded constant rows are the constants. -/
structure QC (C : Consts) (x31 : Vec Ideal S1x4 .f32) (x32 : Vec Ideal S1x4 .f32) (x33 : Vec Ideal S1x4 .f32) (x34 : Vec Ideal S1x4 .f32) (x35 : Vec Ideal S1x4 .f32) : Prop where
  h31 : ∀ j : Fin 4, x31 (ix2 (0 : Fin 1) j) = C.shift j
  h32 : ∀ j : Fin 4, x32 (ix2 (0 : Fin 1) j) = C.halfL j
  h33 : ∀ j : Fin 4, x33 (ix2 (0 : Fin 1) j) = C.offset j
  h34 : ∀ j : Fin 4, x34 (ix2 (0 : Fin 1) j) = C.halfW j
  h35 : ∀ j : Fin 4, x35 (ix2 (0 : Fin 1) j) = C.basis j

/-- The decoder's and the heads' loaded blocks are the network's weights: the decoder's first matrix arrives as its rows
    0 … 127 (`x18`) and its rows 128 … 143 (`x19`). -/
structure DecW (W : Wts) (x16 : Vec Ideal S4x128 .f32) (x17 : Vec Ideal S128 .f32) (x18 : Vec Ideal S128x256 .f32) (x19 : Vec Ideal S16x256 .f32) (x20 : Vec Ideal S256 .f32) (x21 : Vec Ideal S256x512 .f32) (x22 : Vec Ideal S512 .f32) (x23 : Vec Ideal S512x32 .f32) (x24 : Vec Ideal S32 .f32) (x25 : Vec Ideal S128x5 .f32) (x26 : Vec Ideal S5 .f32) (x27 : Vec Ideal S128x2 .f32) (x28 : Vec Ideal S2 .f32) (x29 : Vec Ideal S5x11x32 .f32) (x30 : Vec Ideal S5x11 .f32) : Prop where
  h16 : x16 = W.Wpout
  h17 : x17 = W.bpout
  h18 : ∀ (k : Fin 128) (j : Fin 256), x18 (ix2 k j) = W.Wd1 (ix2 (⟨k.val, by omega⟩ : Fin 144) j)
  h19 : ∀ (k : Fin 16) (j : Fin 256), x19 (ix2 k j) = W.Wd1 (ix2 (⟨128 + k.val, by omega⟩ : Fin 144) j)
  h20 : x20 = W.bd1
  h21 : x21 = W.Wd2
  h22 : x22 = W.bd2
  h23 : x23 = W.Wd3
  h24 : x24 = W.bd3
  h25 : x25 = W.Wcls
  h26 : x26 = W.bcls
  h27 : x27 = W.Wclo
  h28 : x28 = W.bclo
  h29 : x29 = W.Wdr
  h30 : x30 = W.bdr

end Cert.KernelIdeal.KT

end
-- ==== Proof.KEnc.lean ====
/-
  The encoder at one row.  A row's surface type `t` makes the indicator the unit vector at `t`, so the products with the
  indicator's columns select type `t`'s row of the embedding table and type `t`'s affine map of the parameters; the four
  affine layers then are Proof/Spec.lean's, sum for sum.
-/
import proofs.«425746_j43550968382251_1_alg».proof.Proof.KIface
import Idealize.ShloMosaic.Lib.ValueLayout
import Idealize.ShloMosaic.PureOps.Ideal.Laws

noncomputable section

namespace Cert.KernelIdeal.KT

open Idealize.ShloMosaic Idealize.ShloMosaic.ValueIdx Idealize.SL.Sem
open Cert.KernelIdeal Cert.KernelIdeal.Gen Cert.Spec
open scoped BigOperators

/-- The indicator's word: comparing two small numbers as 32-bit words and widening the bit. -/
private theorem ind_word (u t : Fin 5) :
    (IntOp.cmpi .eq (BitVec.ofNat 32 u.val) (BitVec.ofNat 32 t.val)).setWidth 32 = if u = t then 1#32 else 0#32 := by
  revert u t; decide

private theorem hz1 : (![0] : Fin 1 → Nat) = fun _ => 0 := by
  funext a; match a with | ⟨0, _⟩ => rfl
private theorem hz2 : (![0, 0] : Fin 2 → Nat) = fun _ => 0 := by
  funext a; match a with | ⟨0, _⟩ => rfl | ⟨1, _⟩ => rfl

/-- A column `[a, 1]` broadcast to `[a, b]` reads, at `(p, c)`, the column at `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The indicator's payload at a row of type `t`: 1 in column `t`, 0 elsewhere. -/
private theorem pay2_row (x1 : Vec Ideal S1024x1 .i32) (r : Fin 1024) (t : Fin 5)
    (hs : x1 (ix2 r (0 : Fin 1)) = BitVec.ofNat 32 t.val) (u : Fin 5) :
    k0_pay2 (F := Ideal) x1 (ix2 r u) = (if u = t then 1 else 0 : EReal) := by
  unfold k0_pay2
  rw [sitofp_apply, extui_apply]
  show FloatOps.sitofp (F := Ideal) .f32 ((IntOp.cmpi .eq (iota .tc S1024x5 32 [1] iota_S1024x5_d1_w32 (ix2 r u)) (broadcastTo S1024x5 (shapeCast S1024x1 x1 shapeCasts_S1024x1_S1024x1) broadcasts_S1024x1_S1024x5 (ix2 r u))).setWidth 32) = _
  rw [broadcastTo_a1_ab_apply, shapeCast_self, hs]
  have hi : iota .tc S1024x5 32 [1] iota_S1024x5_d1_w32 (ix2 r u) = BitVec.ofNat 32 u.val := by
    show BitVec.ofNat 32 (0 * 5 + u.val) = _
    rw [Nat.zero_mul, Nat.zero_add]
  rw [hi, ind_word]
  by_cases h : u = t
  · rw [if_pos h, if_pos h]
    show (((1#32).toInt : ℝ) : EReal) = 1
    have : (1#32).toInt = 1 := by decide
    rw [this]; norm_num
  · rw [if_neg h, if_neg h]
    show (((0#32).toInt : ℝ) : EReal) = 0
    have : (0#32).toInt = 0 := by decide
    rw [this]; norm_num

/-- The indicator at a row of type `t`: 1 in column `t`, 0 elsewhere. -/
theorem OHv_row (x1 : Vec Ideal S1024x1 .i32) (r : Fin 1024) (t : Fin 5)
    (hs : x1 (ix2 r (0 : Fin 1)) = BitVec.ofNat 32 t.val) (u : Fin 5) :
    OHv (F := Ideal) x1 (ix2 r u) = (if u = t then 1 else 0 : EReal) := by
  unfold OHv
  rw [View.ld_unit_zero (S := S1024x1) hz2]
  exact pay2_row x1 r t hs u

/-! ## Each product read at a row and a column -/

private theorem lhs_oh_0 (i : S1024x16.Idx) (q : dot_S1024x5_S5x16_S1024x16_1_0_0_1_n_n.contr.Idx) :
    (dot_S1024x5_S5x16_S1024x16_1_0_0_1_n_n.lhsIdx i q 0).val = (i 0).val := by
  unfold DotDims.lhsIdx
  rw [dif_neg (show ¬(0 : Fin S1024x5.rank) ∈ dot_S1024x5_S5x16_S1024x16_1_0_0_1_n_n.lhsBatch by decide), dif_pos (show (0 : Fin S1024x5.rank) ∈ dot_S1024x5_S5x16_S1024x16_1_0_0_1_n_n.lhsNonContracting by decide)]
  rfl
private theorem lhs_oh_1 (i : S1024x16.Idx) (q : dot_S1024x5_S5x16_S1024x16_1_0_0_1_n_n.contr.Idx) :
    (dot_S1024x5_S5x16_S1024x16_1_0_0_1_n_n.lhsIdx i q 1).val = (q ⟨0, by decide⟩).val :=
  dot_S1024x5_S5x16_S1024x16_1_0_0_1_n_n.lhsIdx_val_of_single rfl i q
private theorem rhs_oh_1 (i : S1024x16.Idx) (q : dot_S1024x5_S5x16_S1024x16_1_0_0_1_n_n.contr.Idx) :
    (dot_S1024x5_S5x16_S1024x16_1_0_0_1_n_n.rhsIdx i q 1).val = (i 1).val := by
  unfold DotDims.rhsIdx
  rw [dif_neg (show ¬(1 : Fin S5x16.rank) ∈ dot_S1024x5_S5x16_S1024x16_1_0_0_1_n_n.rhsBatch by decide), dif_pos (show (1 : Fin S5x16.rank) ∈ dot_S1024x5_S5x16_S1024x16_1_0_0_1_n_n.rhsNonContracting by decide)]
  rfl
private theorem rhs_oh_0 (i : S1024x16.Idx) (q : dot_S1024x5_S5x16_S1024x16_1_0_0_1_n_n.contr.Idx) :
    (dot_S1024x5_S5x16_S1024x16_1_0_0_1_n_n.rhsIdx i q 0).val = (q ⟨0, by decide⟩).val :=
  dot_S1024x5_S5x16_S1024x16_1_0_0_1_n_n.rhsIdx_val_of_single rfl i q
/-- The product read at row `r`, column `j`: the sum over the 5 contracted positions. -/
private theorem mm_oh (A : FVec Ideal S1024x5 .f32) (B : FVec Ideal S5x16 .f32) (r : Fin 1024) (j : Fin 16) :
    matmul dot_S1024x5_S5x16_S1024x16_1_0_0_1_n_n none A B (constant S1024x16 .f32 0x00000000#32) (ix2 r j)
      = ∑ k : Fin 5, A (ix2 r k) * B (ix2 k j) := by
  refine (Ideal.matmul_constant_zero_apply dot_S1024x5_S5x16_S1024x16_1_0_0_1_n_n none A B (ix2 r j)).trans ?_
  rw [← Equiv.sum_comp (contrEquiv1 dot_S1024x5_S5x16_S1024x16_1_0_0_1_n_n 5 rfl rfl).symm]
  refine Finset.sum_congr rfl fun k _ => ?_
  have hk := contrEquiv1_symm_val dot_S1024x5_S5x16_S1024x16_1_0_0_1_n_n 5 rfl rfl k
  have el : dot_S1024x5_S5x16_S1024x16_1_0_0_1_n_n.lhsIdx (ix2 r j) ((contrEquiv1 dot_S1024x5_S5x16_S1024x16_1_0_0_1_n_n 5 rfl rfl).symm k) = ix2 r k := funext fun a => Fin.ext (by
    match a with
    | ⟨0, _⟩ => exact lhs_oh_0 _ _
    | ⟨1, _⟩ => exact (lhs_oh_1 _ _).trans hk)
  have er : dot_S1024x5_S5x16_S1024x16_1_0_0_1_n_n.rhsIdx (ix2 r j) ((contrEquiv1 dot_S1024x5_S5x16_S1024x16_1_0_0_1_n_n 5 rfl rfl).symm k) = ix2 k j := funext fun a => Fin.ext (by
    match a with
    | ⟨0, _⟩ => exact (rhs_oh_0 _ _).trans hk
    | ⟨1, _⟩ => exact rhs_oh_1 _ _)
  rw [el, er]

private theorem lhs_pe_0 (i : S1024x32.Idx) (q : dot_S1024x11_S32x11_S1024x32_1_1_0_0_n_n.contr.Idx) :
    (dot_S1024x11_S32x11_S1024x32_1_1_0_0_n_n.lhsIdx i q 0).val = (i 0).val := by
  unfold DotDims.lhsIdx
  rw [dif_neg (show ¬(0 : Fin S1024x11.rank) ∈ dot_S1024x11_S32x11_S1024x32_1_1_0_0_n_n.lhsBatch by decide), dif_pos (show (0 : Fin S1024x11.rank) ∈ dot_S1024x11_S32x11_S1024x32_1_1_0_0_n_n.lhsNonContracting by decide)]
  rfl
private theorem lhs_pe_1 (i : S1024x32.Idx) (q : dot_S1024x11_S32x11_S1024x32_1_1_0_0_n_n.contr.Idx) :
    (dot_S1024x11_S32x11_S1024x32_1_1_0_0_n_n.lhsIdx i q 1).val = (q ⟨0, by decide⟩).val :=
  dot_S1024x11_S32x11_S1024x32_1_1_0_0_n_n.lhsIdx_val_of_single rfl i q
private theorem rhs_pe_0 (i : S1024x32.Idx) (q : dot_S1024x11_S32x11_S1024x32_1_1_0_0_n_n.contr.Idx) :
    (dot_S1024x11_S32x11_S1024x32_1_1_0_0_n_n.rhsIdx i q 0).val = (i 1).val := by
  unfold DotDims.rhsIdx
  rw [dif_neg (show ¬(0 : Fin S32x11.rank) ∈ dot_S1024x11_S32x11_S1024x32_1_1_0_0_n_n.rhsBatch by decide), dif_pos (show (0 : Fin S32x11.rank) ∈ dot_S1024x11_S32x11_S1024x32_1_1_0_0_n_n.rhsNonContracting by decide)]
  rfl
private theorem rhs_pe_1 (i : S1024x32.Idx) (q : dot_S1024x11_S32x11_S1024x32_1_1_0_0_n_n.contr.Idx) :
    (dot_S1024x11_S32x11_S1024x32_1_1_0_0_n_n.rhsIdx i q 1).val = (q ⟨0, by decide⟩).val :=
  dot_S1024x11_S32x11_S1024x32_1_1_0_0_n_n.rhsIdx_val_of_single rfl i q
/-- The product read at row `r`, column `j`: the sum over the 11 contracted positions. -/
private theorem mm_pe (A : FVec Ideal S1024x11 .f32) (B : FVec Ideal S32x11 .f32) (r : Fin 1024) (j : Fin 32) :
    matmul dot_S1024x11_S32x11_S1024x32_1_1_0_0_n_n none A B (constant S1024x32 .f32 0x00000000#32) (ix2 r j)
      = ∑ k : Fin 11, A (ix2 r k) * B (ix2 j k) := by
  refine (Ideal.matmul_constant_zero_apply dot_S1024x11_S32x11_S1024x32_1_1_0_0_n_n none A B (ix2 r j)).trans ?_
  rw [← Equiv.sum_comp (contrEquiv1 dot_S1024x11_S32x11_S1024x32_1_1_0_0_n_n 11 rfl rfl).symm]
  refine Finset.sum_congr rfl fun k _ => ?_
  have hk := contrEquiv1_symm_val dot_S1024x11_S32x11_S1024x32_1_1_0_0_n_n 11 rfl rfl k
  have el : dot_S1024x11_S32x11_S1024x32_1_1_0_0_n_n.lhsIdx (ix2 r j) ((contrEquiv1 dot_S1024x11_S32x11_S1024x32_1_1_0_0_n_n 11 rfl rfl).symm k) = ix2 r k := funext fun a => Fin.ext (by
    match a with
    | ⟨0, _⟩ => exact lhs_pe_0 _ _
    | ⟨1, _⟩ => exact (lhs_pe_1 _ _).trans hk)
  have er : dot_S1024x11_S32x11_S1024x32_1_1_0_0_n_n.rhsIdx (ix2 r j) ((contrEquiv1 dot_S1024x11_S32x11_S1024x32_1_1_0_0_n_n 11 rfl rfl).symm k) = ix2 j k := funext fun a => Fin.ext (by
    match a with
    | ⟨0, _⟩ => exact rhs_pe_0 _ _
    | ⟨1, _⟩ => exact (rhs_pe_1 _ _).trans hk)
  rw [el, er]

private theorem lhs_e1a_0 (i : S1024x512.Idx) (q : dot_S1024x32_S32x512_S1024x512_1_0_0_1_n_n.contr.Idx) :
    (dot_S1024x32_S32x512_S1024x512_1_0_0_1_n_n.lhsIdx i q 0).val = (i 0).val := by
  unfold DotDims.lhsIdx
  rw [dif_neg (show ¬(0 : Fin S1024x32.rank) ∈ dot_S1024x32_S32x512_S1024x512_1_0_0_1_n_n.lhsBatch by decide), dif_pos (show (0 : Fin S1024x32.rank) ∈ dot_S1024x32_S32x512_S1024x512_1_0_0_1_n_n.lhsNonContracting by decide)]
  rfl
private theorem lhs_e1a_1 (i : S1024x512.Idx) (q : dot_S1024x32_S32x512_S1024x512_1_0_0_1_n_n.contr.Idx) :
    (dot_S1024x32_S32x512_S1024x512_1_0_0_1_n_n.lhsIdx i q 1).val = (q ⟨0, by decide⟩).val :=
  dot_S1024x32_S32x512_S1024x512_1_0_0_1_n_n.lhsIdx_val_of_single rfl i q
private theorem rhs_e1a_1 (i : S1024x512.Idx) (q : dot_S1024x32_S32x512_S1024x512_1_0_0_1_n_n.contr.Idx) :
    (dot_S1024x32_S32x512_S1024x512_1_0_0_1_n_n.rhsIdx i q 1).val = (i 1).val := by
  unfold DotDims.rhsIdx
  rw [dif_neg (show ¬(1 : Fin S32x512.rank) ∈ dot_S1024x32_S32x512_S1024x512_1_0_0_1_n_n.rhsBatch by decide), dif_pos (show (1 : Fin S32x512.rank) ∈ dot_S1024x32_S32x512_S1024x512_1_0_0_1_n_n.rhsNonContracting by decide)]
  rfl
private theorem rhs_e1a_0 (i : S1024x512.Idx) (q : dot_S1024x32_S32x512_S1024x512_1_0_0_1_n_n.contr.Idx) :
    (dot_S1024x32_S32x512_S1024x512_1_0_0_1_n_n.rhsIdx i q 0).val = (q ⟨0, by decide⟩).val :=
  dot_S1024x32_S32x512_S1024x512_1_0_0_1_n_n.rhsIdx_val_of_single rfl i q
/-- The product read at row `r`, column `j`: the sum over the 32 contracted positions. -/
private theorem mm_e1a (A : FVec Ideal S1024x32 .f32) (B : FVec Ideal S32x512 .f32) (r : Fin 1024) (j : Fin 512) :
    matmul dot_S1024x32_S32x512_S1024x512_1_0_0_1_n_n none A B (constant S1024x512 .f32 0x00000000#32) (ix2 r j)
      = ∑ k : Fin 32, A (ix2 r k) * B (ix2 k j) := by
  refine (Ideal.matmul_constant_zero_apply dot_S1024x32_S32x512_S1024x512_1_0_0_1_n_n none A B (ix2 r j)).trans ?_
  rw [← Equiv.sum_comp (contrEquiv1 dot_S1024x32_S32x512_S1024x512_1_0_0_1_n_n 32 rfl rfl).symm]
  refine Finset.sum_congr rfl fun k _ => ?_
  have hk := contrEquiv1_symm_val dot_S1024x32_S32x512_S1024x512_1_0_0_1_n_n 32 rfl rfl k
  have el : dot_S1024x32_S32x512_S1024x512_1_0_0_1_n_n.lhsIdx (ix2 r j) ((contrEquiv1 dot_S1024x32_S32x512_S1024x512_1_0_0_1_n_n 32 rfl rfl).symm k) = ix2 r k := funext fun a => Fin.ext (by
    match a with
    | ⟨0, _⟩ => exact lhs_e1a_0 _ _
    | ⟨1, _⟩ => exact (lhs_e1a_1 _ _).trans hk)
  have er : dot_S1024x32_S32x512_S1024x512_1_0_0_1_n_n.rhsIdx (ix2 r j) ((contrEquiv1 dot_S1024x32_S32x512_S1024x512_1_0_0_1_n_n 32 rfl rfl).symm k) = ix2 k j := funext fun a => Fin.ext (by
    match a with
    | ⟨0, _⟩ => exact (rhs_e1a_0 _ _).trans hk
    | ⟨1, _⟩ => exact rhs_e1a_1 _ _)
  rw [el, er]

private theorem lhs_e1b_0 (i : S1024x512.Idx) (q : dot_S1024x16_S16x512_S1024x512_1_0_0_1_n_n.contr.Idx) :
    (dot_S1024x16_S16x512_S1024x512_1_0_0_1_n_n.lhsIdx i q 0).val = (i 0).val := by
  unfold DotDims.lhsIdx
  rw [dif_neg (show ¬(0 : Fin S1024x16.rank) ∈ dot_S1024x16_S16x512_S1024x512_1_0_0_1_n_n.lhsBatch by decide), dif_pos (show (0 : Fin S1024x16.rank) ∈ dot_S1024x16_S16x512_S1024x512_1_0_0_1_n_n.lhsNonContracting by decide)]
  rfl
private theorem lhs_e1b_1 (i : S1024x512.Idx) (q : dot_S1024x16_S16x512_S1024x512_1_0_0_1_n_n.contr.Idx) :
    (dot_S1024x16_S16x512_S1024x512_1_0_0_1_n_n.lhsIdx i q 1).val = (q ⟨0, by decide⟩).val :=
  dot_S1024x16_S16x512_S1024x512_1_0_0_1_n_n.lhsIdx_val_of_single rfl i q
private theorem rhs_e1b_1 (i : S1024x512.Idx) (q : dot_S1024x16_S16x512_S1024x512_1_0_0_1_n_n.contr.Idx) :
    (dot_S1024x16_S16x512_S1024x512_1_0_0_1_n_n.rhsIdx i q 1).val = (i 1).val := by
  unfold DotDims.rhsIdx
  rw [dif_neg (show ¬(1 : Fin S16x512.rank) ∈ dot_S1024x16_S16x512_S1024x512_1_0_0_1_n_n.rhsBatch by decide), dif_pos (show (1 : Fin S16x512.rank) ∈ dot_S1024x16_S16x512_S1024x512_1_0_0_1_n_n.rhsNonContracting by decide)]
  rfl
private theorem rhs_e1b_0 (i : S1024x512.Idx) (q : dot_S1024x16_S16x512_S1024x512_1_0_0_1_n_n.contr.Idx) :
    (dot_S1024x16_S16x512_S1024x512_1_0_0_1_n_n.rhsIdx i q 0).val = (q ⟨0, by decide⟩).val :=
  dot_S1024x16_S16x512_S1024x512_1_0_0_1_n_n.rhsIdx_val_of_single rfl i q
/-- The product read at row `r`, column `j`: the sum over the 16 contracted positions. -/
private theorem mm_e1b (A : FVec Ideal S1024x16 .f32) (B : FVec Ideal S16x512 .f32) (r : Fin 1024) (j : Fin 512) :
    matmul dot_S1024x16_S16x512_S1024x512_1_0_0_1_n_n none A B (constant S1024x512 .f32 0x00000000#32) (ix2 r j)
      = ∑ k : Fin 16, A (ix2 r k) * B (ix2 k j) := by
  refine (Ideal.matmul_constant_zero_apply dot_S1024x16_S16x512_S1024x512_1_0_0_1_n_n none A B (ix2 r j)).trans ?_
  rw [← Equiv.sum_comp (contrEquiv1 dot_S1024x16_S16x512_S1024x512_1_0_0_1_n_n 16 rfl rfl).symm]
  refine Finset.sum_congr rfl fun k _ => ?_
  have hk := contrEquiv1_symm_val dot_S1024x16_S16x512_S1024x512_1_0_0_1_n_n 16 rfl rfl k
  have el : dot_S1024x16_S16x512_S1024x512_1_0_0_1_n_n.lhsIdx (ix2 r j) ((contrEquiv1 dot_S1024x16_S16x512_S1024x512_1_0_0_1_n_n 16 rfl rfl).symm k) = ix2 r k := funext fun a => Fin.ext (by
    match a with
    | ⟨0, _⟩ => exact lhs_e1b_0 _ _
    | ⟨1, _⟩ => exact (lhs_e1b_1 _ _).trans hk)
  have er : dot_S1024x16_S16x512_S1024x512_1_0_0_1_n_n.rhsIdx (ix2 r j) ((contrEquiv1 dot_S1024x16_S16x512_S1024x512_1_0_0_1_n_n 16 rfl rfl).symm k) = ix2 k j := funext fun a => Fin.ext (by
    match a with
    | ⟨0, _⟩ => exact (rhs_e1b_0 _ _).trans hk
    | ⟨1, _⟩ => exact rhs_e1b_1 _ _)
  rw [el, er]

private theorem lhs_e2_0 (i : S1024x256.Idx) (q : dot_S1024x512_S512x256_S1024x256_1_0_0_1_n_n.contr.Idx) :
    (dot_S1024x512_S512x256_S1024x256_1_0_0_1_n_n.lhsIdx i q 0).val = (i 0).val := by
  unfold DotDims.lhsIdx
  rw [dif_neg (show ¬(0 : Fin S1024x512.rank) ∈ dot_S1024x512_S512x256_S1024x256_1_0_0_1_n_n.lhsBatch by decide), dif_pos (show (0 : Fin S1024x512.rank) ∈ dot_S1024x512_S512x256_S1024x256_1_0_0_1_n_n.lhsNonContracting by decide)]
  rfl
private theorem lhs_e2_1 (i : S1024x256.Idx) (q : dot_S1024x512_S512x256_S1024x256_1_0_0_1_n_n.contr.Idx) :
    (dot_S1024x512_S512x256_S1024x256_1_0_0_1_n_n.lhsIdx i q 1).val = (q ⟨0, by decide⟩).val :=
  dot_S1024x512_S512x256_S1024x256_1_0_0_1_n_n.lhsIdx_val_of_single rfl i q
private theorem rhs_e2_1 (i : S1024x256.Idx) (q : dot_S1024x512_S512x256_S1024x256_1_0_0_1_n_n.contr.Idx) :
    (dot_S1024x512_S512x256_S1024x256_1_0_0_1_n_n.rhsIdx i q 1).val = (i 1).val := by
  unfold DotDims.rhsIdx
  rw [dif_neg (show ¬(1 : Fin S512x256.rank) ∈ dot_S1024x512_S512x256_S1024x256_1_0_0_1_n_n.rhsBatch by decide), dif_pos (show (1 : Fin S512x256.rank) ∈ dot_S1024x512_S512x256_S1024x256_1_0_0_1_n_n.rhsNonContracting by decide)]
  rfl
private theorem rhs_e2_0 (i : S1024x256.Idx) (q : dot_S1024x512_S512x256_S1024x256_1_0_0_1_n_n.contr.Idx) :
    (dot_S1024x512_S512x256_S1024x256_1_0_0_1_n_n.rhsIdx i q 0).val = (q ⟨0, by decide⟩).val :=
  dot_S1024x512_S512x256_S1024x256_1_0_0_1_n_n.rhsIdx_val_of_single rfl i q
/-- The product read at row `r`, column `j`: the sum over the 512 contracted positions. -/
private theorem mm_e2 (A : FVec Ideal S1024x512 .f32) (B : FVec Ideal S512x256 .f32) (r : Fin 1024) (j : Fin 256) :
    matmul dot_S1024x512_S512x256_S1024x256_1_0_0_1_n_n none A B (constant S1024x256 .f32 0x00000000#32) (ix2 r j)
      = ∑ k : Fin 512, A (ix2 r k) * B (ix2 k j) := by
  refine (Ideal.matmul_constant_zero_apply dot_S1024x512_S512x256_S1024x256_1_0_0_1_n_n none A B (ix2 r j)).trans ?_
  rw [← Equiv.sum_comp (contrEquiv1 dot_S1024x512_S512x256_S1024x256_1_0_0_1_n_n 512 rfl rfl).symm]
  refine Finset.sum_congr rfl fun k _ => ?_
  have hk := contrEquiv1_symm_val dot_S1024x512_S512x256_S1024x256_1_0_0_1_n_n 512 rfl rfl k
  have el : dot_S1024x512_S512x256_S1024x256_1_0_0_1_n_n.lhsIdx (ix2 r j) ((contrEquiv1 dot_S1024x512_S512x256_S1024x256_1_0_0_1_n_n 512 rfl rfl).symm k) = ix2 r k := funext fun a => Fin.ext (by
    match a with
    | ⟨0, _⟩ => exact lhs_e2_0 _ _
    | ⟨1, _⟩ => exact (lhs_e2_1 _ _).trans hk)
  have er : dot_S1024x512_S512x256_S1024x256_1_0_0_1_n_n.rhsIdx (ix2 r j) ((contrEquiv1 dot_S1024x512_S512x256_S1024x256_1_0_0_1_n_n 512 rfl rfl).symm k) = ix2 k j := funext fun a => Fin.ext (by
    match a with
    | ⟨0, _⟩ => exact (rhs_e2_0 _ _).trans hk
    | ⟨1, _⟩ => exact rhs_e2_1 _ _)
  rw [el, er]

private theorem lhs_e3_0 (i : S1024x128.Idx) (q : dot_S1024x256_S256x128_S1024x128_1_0_0_1_n_n.contr.Idx) :
    (dot_S1024x256_S256x128_S1024x128_1_0_0_1_n_n.lhsIdx i q 0).val = (i 0).val := by
  unfold DotDims.lhsIdx
  rw [dif_neg (show ¬(0 : Fin S1024x256.rank) ∈ dot_S1024x256_S256x128_S1024x128_1_0_0_1_n_n.lhsBatch by decide), dif_pos (show (0 : Fin S1024x256.rank) ∈ dot_S1024x256_S256x128_S1024x128_1_0_0_1_n_n.lhsNonContracting by decide)]
  rfl
private theorem lhs_e3_1 (i : S1024x128.Idx) (q : dot_S1024x256_S256x128_S1024x128_1_0_0_1_n_n.contr.Idx) :
    (dot_S1024x256_S256x128_S1024x128_1_0_0_1_n_n.lhsIdx i q 1).val = (q ⟨0, by decide⟩).val :=
  dot_S1024x256_S256x128_S1024x128_1_0_0_1_n_n.lhsIdx_val_of_single rfl i q
private theorem rhs_e3_1 (i : S1024x128.Idx) (q : dot_S1024x256_S256x128_S1024x128_1_0_0_1_n_n.contr.Idx) :
    (dot_S1024x256_S256x128_S1024x128_1_0_0_1_n_n.rhsIdx i q 1).val = (i 1).val := by
  unfold DotDims.rhsIdx
  rw [dif_neg (show ¬(1 : Fin S256x128.rank) ∈ dot_S1024x256_S256x128_S1024x128_1_0_0_1_n_n.rhsBatch by decide), dif_pos (show (1 : Fin S256x128.rank) ∈ dot_S1024x256_S256x128_S1024x128_1_0_0_1_n_n.rhsNonContracting by decide)]
  rfl
private theorem rhs_e3_0 (i : S1024x128.Idx) (q : dot_S1024x256_S256x128_S1024x128_1_0_0_1_n_n.contr.Idx) :
    (dot_S1024x256_S256x128_S1024x128_1_0_0_1_n_n.rhsIdx i q 0).val = (q ⟨0, by decide⟩).val :=
  dot_S1024x256_S256x128_S1024x128_1_0_0_1_n_n.rhsIdx_val_of_single rfl i q
/-- The product read at row `r`, column `j`: the sum over the 256 contracted positions. -/
private theorem mm_e3 (A : FVec Ideal S1024x256 .f32) (B : FVec Ideal S256x128 .f32) (r : Fin 1024) (j : Fin 128) :
    matmul dot_S1024x256_S256x128_S1024x128_1_0_0_1_n_n none A B (constant S1024x128 .f32 0x00000000#32) (ix2 r j)
      = ∑ k : Fin 256, A (ix2 r k) * B (ix2 k j) := by
  refine (Ideal.matmul_constant_zero_apply dot_S1024x256_S256x128_S1024x128_1_0_0_1_n_n none A B (ix2 r j)).trans ?_
  rw [← Equiv.sum_comp (contrEquiv1 dot_S1024x256_S256x128_S1024x128_1_0_0_1_n_n 256 rfl rfl).symm]
  refine Finset.sum_congr rfl fun k _ => ?_
  have hk := contrEquiv1_symm_val dot_S1024x256_S256x128_S1024x128_1_0_0_1_n_n 256 rfl rfl k
  have el : dot_S1024x256_S256x128_S1024x128_1_0_0_1_n_n.lhsIdx (ix2 r j) ((contrEquiv1 dot_S1024x256_S256x128_S1024x128_1_0_0_1_n_n 256 rfl rfl).symm k) = ix2 r k := funext fun a => Fin.ext (by
    match a with
    | ⟨0, _⟩ => exact lhs_e3_0 _ _
    | ⟨1, _⟩ => exact (lhs_e3_1 _ _).trans hk)
  have er : dot_S1024x256_S256x128_S1024x128_1_0_0_1_n_n.rhsIdx (ix2 r j) ((contrEquiv1 dot_S1024x256_S256x128_S1024x128_1_0_0_1_n_n 256 rfl rfl).symm k) = ix2 k j := funext fun a => Fin.ext (by
    match a with
    | ⟨0, _⟩ => exact (rhs_e3_0 _ _).trans hk
    | ⟨1, _⟩ => exact rhs_e3_1 _ _)
  rw [el, er]

private theorem lhs_e4_0 (i : S1024x128.Idx) (q : dot_S1024x128_S128x128_S1024x128_1_0_0_1_n_n.contr.Idx) :
    (dot_S1024x128_S128x128_S1024x128_1_0_0_1_n_n.lhsIdx i q 0).val = (i 0).val := by
  unfold DotDims.lhsIdx
  rw [dif_neg (show ¬(0 : Fin S1024x128.rank) ∈ dot_S1024x128_S128x128_S1024x128_1_0_0_1_n_n.lhsBatch by decide), dif_pos (show (0 : Fin S1024x128.rank) ∈ dot_S1024x128_S128x128_S1024x128_1_0_0_1_n_n.lhsNonContracting by decide)]
  rfl
private theorem lhs_e4_1 (i : S1024x128.Idx) (q : dot_S1024x128_S128x128_S1024x128_1_0_0_1_n_n.contr.Idx) :
    (dot_S1024x128_S128x128_S1024x128_1_0_0_1_n_n.lhsIdx i q 1).val = (q ⟨0, by decide⟩).val :=
  dot_S1024x128_S128x128_S1024x128_1_0_0_1_n_n.lhsIdx_val_of_single rfl i q
private theorem rhs_e4_1 (i : S1024x128.Idx) (q : dot_S1024x128_S128x128_S1024x128_1_0_0_1_n_n.contr.Idx) :
    (dot_S1024x128_S128x128_S1024x128_1_0_0_1_n_n.rhsIdx i q 1).val = (i 1).val := by
  unfold DotDims.rhsIdx
  rw [dif_neg (show ¬(1 : Fin S128x128.rank) ∈ dot_S1024x128_S128x128_S1024x128_1_0_0_1_n_n.rhsBatch by decide), dif_pos (show (1 : Fin S128x128.rank) ∈ dot_S1024x128_S128x128_S1024x128_1_0_0_1_n_n.rhsNonContracting by decide)]
  rfl
private theorem rhs_e4_0 (i : S1024x128.Idx) (q : dot_S1024x128_S128x128_S1024x128_1_0_0_1_n_n.contr.Idx) :
    (dot_S1024x128_S128x128_S1024x128_1_0_0_1_n_n.rhsIdx i q 0).val = (q ⟨0, by decide⟩).val :=
  dot_S1024x128_S128x128_S1024x128_1_0_0_1_n_n.rhsIdx_val_of_single rfl i q
/-- The product read at row `r`, column `j`: the sum over the 128 contracted positions. -/
private theorem mm_e4 (A : FVec Ideal S1024x128 .f32) (B : FVec Ideal S128x128 .f32) (r : Fin 1024) (j : Fin 128) :
    matmul dot_S1024x128_S128x128_S1024x128_1_0_0_1_n_n none A B (constant S1024x128 .f32 0x00000000#32) (ix2 r j)
      = ∑ k : Fin 128, A (ix2 r k) * B (ix2 k j) := by
  refine (Ideal.matmul_constant_zero_apply dot_S1024x128_S128x128_S1024x128_1_0_0_1_n_n none A B (ix2 r j)).trans ?_
  rw [← Equiv.sum_comp (contrEquiv1 dot_S1024x128_S128x128_S1024x128_1_0_0_1_n_n 128 rfl rfl).symm]
  refine Finset.sum_congr rfl fun k _ => ?_
  have hk := contrEquiv1_symm_val dot_S1024x128_S128x128_S1024x128_1_0_0_1_n_n 128 rfl rfl k
  have el : dot_S1024x128_S128x128_S1024x128_1_0_0_1_n_n.lhsIdx (ix2 r j) ((contrEquiv1 dot_S1024x128_S128x128_S1024x128_1_0_0_1_n_n 128 rfl rfl).symm k) = ix2 r k := funext fun a => Fin.ext (by
    match a with
    | ⟨0, _⟩ => exact lhs_e4_0 _ _
    | ⟨1, _⟩ => exact (lhs_e4_1 _ _).trans hk)
  have er : dot_S1024x128_S128x128_S1024x128_1_0_0_1_n_n.rhsIdx (ix2 r j) ((contrEquiv1 dot_S1024x128_S128x128_S1024x128_1_0_0_1_n_n 128 rfl rfl).symm k) = ix2 k j := funext fun a => Fin.ext (by
    match a with
    | ⟨0, _⟩ => exact (rhs_e4_0 _ _).trans hk
    | ⟨1, _⟩ => exact rhs_e4_1 _ _)
  rw [el, er]

private theorem lhs_pin_0 (i : S1024x4.Idx) (q : dot_S1024x128_S128x4_S1024x4_1_0_0_1_n_n.contr.Idx) :
    (dot_S1024x128_S128x4_S1024x4_1_0_0_1_n_n.lhsIdx i q 0).val = (i 0).val := by
  unfold DotDims.lhsIdx
  rw [dif_neg (show ¬(0 : Fin S1024x128.rank) ∈ dot_S1024x128_S128x4_S1024x4_1_0_0_1_n_n.lhsBatch by decide), dif_pos (show (0 : Fin S1024x128.rank) ∈ dot_S1024x128_S128x4_S1024x4_1_0_0_1_n_n.lhsNonContracting by decide)]
  rfl
private theorem lhs_pin_1 (i : S1024x4.Idx) (q : dot_S1024x128_S128x4_S1024x4_1_0_0_1_n_n.contr.Idx) :
    (dot_S1024x128_S128x4_S1024x4_1_0_0_1_n_n.lhsIdx i q 1).val = (q ⟨0, by decide⟩).val :=
  dot_S1024x128_S128x4_S1024x4_1_0_0_1_n_n.lhsIdx_val_of_single rfl i q
private theorem rhs_pin_1 (i : S1024x4.Idx) (q : dot_S1024x128_S128x4_S1024x4_1_0_0_1_n_n.contr.Idx) :
    (dot_S1024x128_S128x4_S1024x4_1_0_0_1_n_n.rhsIdx i q 1).val = (i 1).val := by
  unfold DotDims.rhsIdx
  rw [dif_neg (show ¬(1 : Fin S128x4.rank) ∈ dot_S1024x128_S128x4_S1024x4_1_0_0_1_n_n.rhsBatch by decide), dif_pos (show (1 : Fin S128x4.rank) ∈ dot_S1024x128_S128x4_S1024x4_1_0_0_1_n_n.rhsNonContracting by decide)]
  rfl
private theorem rhs_pin_0 (i : S1024x4.Idx) (q : dot_S1024x128_S128x4_S1024x4_1_0_0_1_n_n.contr.Idx) :
    (dot_S1024x128_S128x4_S1024x4_1_0_0_1_n_n.rhsIdx i q 0).val = (q ⟨0, by decide⟩).val :=
  dot_S1024x128_S128x4_S1024x4_1_0_0_1_n_n.rhsIdx_val_of_single rfl i q
/-- The product read at row `r`, column `j`: the sum over the 128 contracted positions. -/
private theorem mm_pin (A : FVec Ideal S1024x128 .f32) (B : FVec Ideal S128x4 .f32) (r : Fin 1024) (j : Fin 4) :
    matmul dot_S1024x128_S128x4_S1024x4_1_0_0_1_n_n none A B (constant S1024x4 .f32 0x00000000#32) (ix2 r j)
      = ∑ k : Fin 128, A (ix2 r k) * B (ix2 k j) := by
  refine (Ideal.matmul_constant_zero_apply dot_S1024x128_S128x4_S1024x4_1_0_0_1_n_n none A B (ix2 r j)).trans ?_
  rw [← Equiv.sum_comp (contrEquiv1 dot_S1024x128_S128x4_S1024x4_1_0_0_1_n_n 128 rfl rfl).symm]
  refine Finset.sum_congr rfl fun k _ => ?_
  have hk := contrEquiv1_symm_val dot_S1024x128_S128x4_S1024x4_1_0_0_1_n_n 128 rfl rfl k
  have el : dot_S1024x128_S128x4_S1024x4_1_0_0_1_n_n.lhsIdx (ix2 r j) ((contrEquiv1 dot_S1024x128_S128x4_S1024x4_1_0_0_1_n_n 128 rfl rfl).symm k) = ix2 r k := funext fun a => Fin.ext (by
    match a with
    | ⟨0, _⟩ => exact lhs_pin_0 _ _
    | ⟨1, _⟩ => exact (lhs_pin_1 _ _).trans hk)
  have er : dot_S1024x128_S128x4_S1024x4_1_0_0_1_n_n.rhsIdx (ix2 r j) ((contrEquiv1 dot_S1024x128_S128x4_S1024x4_1_0_0_1_n_n 128 rfl rfl).symm k) = ix2 k j := funext fun a => Fin.ext (by
    match a with
    | ⟨0, _⟩ => exact (rhs_pin_0 _ _).trans hk
    | ⟨1, _⟩ => exact rhs_pin_1 _ _)
  rw [el, er]

/-! ## The layout operations and the selection -/

/-- The zero the body adds to and takes maxima against. -/
private theorem zeroS : (Scalar.ofBits (F := Ideal) .f32 0x00000000#32 : EReal) = 0 := Ideal.ofBits_zero_f32

/-- A bias row: a vector cast to one row and broadcast over the rows reads, at `(r, j)`, the vector at `j`. -/
private theorem bias_apply {α : Type} {a b : ℕ} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (r : Fin a) (j : Fin b) :
    broadcastTo ⟨2, ![a, b]⟩ (shapeCast ⟨2, ![1, b]⟩ v h1) h2 (ix2 r j) = v (ix1 j) := by
  rw [broadcastTo_1b_ab_apply, shapeCast_a_1a_apply]

/-- A sum against the unit vector at `t` selects the term at `t`. -/
private theorem sum_ind {n : ℕ} (t : Fin n) (f : Fin n → EReal) :
    ∑ k : Fin n, (if k = t then 1 else 0 : EReal) * f k = f t := by
  rw [Finset.sum_eq_single t (fun b _ hb => by rw [if_neg hb, zero_mul]) (fun h => absurd (Finset.mem_univ t) h),
    if_pos rfl, one_mul]

/-- The five-term sum against the unit vector at `t`, as the body writes it from zero, selects the term at `t`. -/
private theorem sel5 (t : Fin 5) (a : Fin 5 → EReal) :
    ((((0 + (if (0 : Fin 5) = t then 1 else 0 : EReal) * a 0) + (if (1 : Fin 5) = t then 1 else 0 : EReal) * a 1)
      + (if (2 : Fin 5) = t then 1 else 0 : EReal) * a 2) + (if (3 : Fin 5) = t then 1 else 0 : EReal) * a 3)
      + (if (4 : Fin 5) = t then 1 else 0 : EReal) * a 4 = a t := by
  fin_cases t <;> simp

private theorem col_0 (oh : FVec Ideal S1024x5 .f32) (r : Fin 1024) (p : Fin 32) :
    broadcastTo S1024x32 (extractStridedSlice S1024x1 ![0, 0] oh slices_S1024x5_o0_0_S1024x1) broadcasts_S1024x1_S1024x32 (ix2 r p)
      = oh (ix2 r (0 : Fin 5)) := by
  rw [broadcastTo_a1_ab_apply]
  exact slice2_axis1_apply 0 oh _ r (0 : Fin 1) (0 : Fin 5) rfl

private theorem col_1 (oh : FVec Ideal S1024x5 .f32) (r : Fin 1024) (p : Fin 32) :
    broadcastTo S1024x32 (extractStridedSlice S1024x1 ![0, 1] oh slices_S1024x5_o0_1_S1024x1) broadcasts_S1024x1_S1024x32 (ix2 r p)
      = oh (ix2 r (1 : Fin 5)) := by
  rw [broadcastTo_a1_ab_apply]
  exact slice2_axis1_apply 1 oh _ r (0 : Fin 1) (1 : Fin 5) rfl

private theorem col_2 (oh : FVec Ideal S1024x5 .f32) (r : Fin 1024) (p : Fin 32) :
    broadcastTo S1024x32 (extractStridedSlice S1024x1 ![0, 2] oh slices_S1024x5_o0_2_S1024x1) broadcasts_S1024x1_S1024x32 (ix2 r p)
      = oh (ix2 r (2 : Fin 5)) := by
  rw [broadcastTo_a1_ab_apply]
  exact slice2_axis1_apply 2 oh _ r (0 : Fin 1) (2 : Fin 5) rfl

private theorem col_3 (oh : FVec Ideal S1024x5 .f32) (r : Fin 1024) (p : Fin 32) :
    broadcastTo S1024x32 (extractStridedSlice S1024x1 ![0, 3] oh slices_S1024x5_o0_3_S1024x1) broadcasts_S1024x1_S1024x32 (ix2 r p)
      = oh (ix2 r (3 : Fin 5)) := by
  rw [broadcastTo_a1_ab_apply]
  exact slice2_axis1_apply 3 oh _ r (0 : Fin 1) (3 : Fin 5) rfl

private theorem col_4 (oh : FVec Ideal S1024x5 .f32) (r : Fin 1024) (p : Fin 32) :
    broadcastTo S1024x32 (extractStridedSlice S1024x1 ![0, 4] oh slices_S1024x5_o0_4_S1024x1) broadcasts_S1024x1_S1024x32 (ix2 r p)
      = oh (ix2 r (4 : Fin 5)) := by
  rw [broadcastTo_a1_ab_apply]
  exact slice2_axis1_apply 4 oh _ r (0 : Fin 1) (4 : Fin 5) rfl

private theorem slab3_0 (x3 : Vec Ideal S5x32x11 .f32) (p : Fin 32) (k : Fin 11) :
    View.ld x3 r0_3 (ix3 (0 : Fin 1) p k) = x3 (ix3 (0 : Fin 5) p k) := by
  refine congrArg x3 (funext fun a => Fin.ext ?_)
  match a with
  | ⟨0, _⟩ => rfl
  | ⟨1, _⟩ => show 0 + 1 * p.val = p.val; omega
  | ⟨2, _⟩ => show 0 + 1 * k.val = k.val; omega
private theorem slab2_0 (x4 : Vec Ideal S5x32 .f32) (p : Fin 32) :
    View.ld x4 r0_4 (ix2 (0 : Fin 1) p) = x4 (ix2 (0 : Fin 5) p) := by
  refine congrArg x4 (funext fun a => Fin.ext ?_)
  match a with
  | ⟨0, _⟩ => rfl
  | ⟨1, _⟩ => show 0 + 1 * p.val = p.val; omega

private theorem slab3_1 (x3 : Vec Ideal S5x32x11 .f32) (p : Fin 32) (k : Fin 11) :
    View.ld x3 r0_5 (ix3 (0 : Fin 1) p k) = x3 (ix3 (1 : Fin 5) p k) := by
  refine congrArg x3 (funext fun a => Fin.ext ?_)
  match a with
  | ⟨0, _⟩ => rfl
  | ⟨1, _⟩ => show 0 + 1 * p.val = p.val; omega
  | ⟨2, _⟩ => show 0 + 1 * k.val = k.val; omega
private theorem slab2_1 (x4 : Vec Ideal S5x32 .f32) (p : Fin 32) :
    View.ld x4 r0_6 (ix2 (0 : Fin 1) p) = x4 (ix2 (1 : Fin 5) p) := by
  refine congrArg x4 (funext fun a => Fin.ext ?_)
  match a with
  | ⟨0, _⟩ => rfl
  | ⟨1, _⟩ => show 0 + 1 * p.val = p.val; omega

private theorem slab3_2 (x3 : Vec Ideal S5x32x11 .f32) (p : Fin 32) (k : Fin 11) :
    View.ld x3 r0_7 (ix3 (0 : Fin 1) p k) = x3 (ix3 (2 : Fin 5) p k) := by
  refine congrArg x3 (funext fun a => Fin.ext ?_)
  match a with
  | ⟨0, _⟩ => rfl
  | ⟨1, _⟩ => show 0 + 1 * p.val = p.val; omega
  | ⟨2, _⟩ => show 0 + 1 * k.val = k.val; omega
private theorem slab2_2 (x4 : Vec Ideal S5x32 .f32) (p : Fin 32) :
    View.ld x4 r0_8 (ix2 (0 : Fin 1) p) = x4 (ix2 (2 : Fin 5) p) := by
  refine congrArg x4 (funext fun a => Fin.ext ?_)
  match a with
  | ⟨0, _⟩ => rfl
  | ⟨1, _⟩ => show 0 + 1 * p.val = p.val; omega

private theorem slab3_3 (x3 : Vec Ideal S5x32x11 .f32) (p : Fin 32) (k : Fin 11) :
    View.ld x3 r0_9 (ix3 (0 : Fin 1) p k) = x3 (ix3 (3 : Fin 5) p k) := by
  refine congrArg x3 (funext fun a => Fin.ext ?_)
  match a with
  | ⟨0, _⟩ => rfl
  | ⟨1, _⟩ => show 0 + 1 * p.val = p.val; omega
  | ⟨2, _⟩ => show 0 + 1 * k.val = k.val; omega
private theorem slab2_3 (x4 : Vec Ideal S5x32 .f32) (p : Fin 32) :
    View.ld x4 r0_10 (ix2 (0 : Fin 1) p) = x4 (ix2 (3 : Fin 5) p) := by
  refine congrArg x4 (funext fun a => Fin.ext ?_)
  match a with
  | ⟨0, _⟩ => rfl
  | ⟨1, _⟩ => show 0 + 1 * p.val = p.val; omega

private theorem slab3_4 (x3 : Vec Ideal S5x32x11 .f32) (p : Fin 32) (k : Fin 11) :
    View.ld x3 r0_11 (ix3 (0 : Fin 1) p k) = x3 (ix3 (4 : Fin 5) p k) := by
  refine congrArg x3 (funext fun a => Fin.ext ?_)
  match a with
  | ⟨0, _⟩ => rfl
  | ⟨1, _⟩ => show 0 + 1 * p.val = p.val; omega
  | ⟨2, _⟩ => show 0 + 1 * k.val = k.val; omega
private theorem slab2_4 (x4 : Vec Ideal S5x32 .f32) (p : Fin 32) :
    View.ld x4 r0_12 (ix2 (0 : Fin 1) p) = x4 (ix2 (4 : Fin 5) p) := by
  refine congrArg x4 (funext fun a => Fin.ext ?_)
  match a with
  | ⟨0, _⟩ => rfl
  | ⟨1, _⟩ => show 0 + 1 * p.val = p.val; omega

/-- The embedding's payload at a row of type `t`: row `t` of the table. -/
private theorem pay3_row (x1 : Vec Ideal S1024x1 .i32) (x2 : Vec Ideal S5x16 .f32) (r : Fin 1024) (t : Fin 5)
    (hs : x1 (ix2 r (0 : Fin 1)) = BitVec.ofNat 32 t.val) (e : Fin 16) :
    k0_pay3 (F := Ideal) x1 x2 (ix2 r e) = x2 (ix2 t e) := by
  unfold k0_pay3
  rw [mm_oh]
  simp only [pay2_row x1 r t hs]
  exact sum_ind t fun k => x2 (ix2 k e)

/-- The type embedding at a row of type `t`: row `t` of the table. -/
theorem EMBv_row (x1 : Vec Ideal S1024x1 .i32) (x2 : Vec Ideal S5x16 .f32) (r : Fin 1024) (t : Fin 5)
    (hs : x1 (ix2 r (0 : Fin 1)) = BitVec.ofNat 32 t.val) (e : Fin 16) :
    EMBv (F := Ideal) x1 x2 (ix2 r e) = x2 (ix2 t e) := by
  unfold EMBv
  rw [View.ld_unit_zero (S := S1024x1) hz2, View.ld_unit_zero (S := S5x16) hz2]
  exact pay3_row x1 x2 r t hs e

/-! ## The encoder's payloads at a row -/

/-- The partial selection over types 0 and 1, read at row `r`, output `p`. -/
private theorem pay4_apply (x0 : Vec Ideal S1024x11 .f32) (x1 : Vec Ideal S1024x1 .i32) (W0 : Vec Ideal S1x32x11 .f32)
    (b0 : Vec Ideal S1x32 .f32) (W1 : Vec Ideal S1x32x11 .f32) (b1 : Vec Ideal S1x32 .f32) (r : Fin 1024) (p : Fin 32) :
    k0_pay4 x0 x1 W0 b0 W1 b1 (ix2 r p)
      = (0 + k0_pay2 x1 (ix2 r (0 : Fin 5)) * ((∑ k : Fin 11, x0 (ix2 r k) * W0 (ix3 (0 : Fin 1) p k)) + b0 (ix2 (0 : Fin 1) p)))
        + k0_pay2 x1 (ix2 r (1 : Fin 5)) * ((∑ k : Fin 11, x0 (ix2 r k) * W1 (ix3 (0 : Fin 1) p k)) + b1 (ix2 (0 : Fin 1) p)) := by
  unfold k0_pay4
  simp only [addf_apply, mulf_apply, mm_pe, bias_apply, shapeCast_1a_a_apply, shapeCast_1ab_ab_apply, col_0, col_1,
    broadcast_apply, zeroS]

/-- The rest of the selection, then the product with rows 0 … 31 of the first matrix, read at row `r`, column `j`. -/
private theorem pay5_apply (x0 : Vec Ideal S1024x11 .f32) (oh : FVec Ideal S1024x5 .f32) (v34 : FVec Ideal S1024x32 .f32)
    (W2 : Vec Ideal S1x32x11 .f32) (b2 : Vec Ideal S1x32 .f32) (W3 : Vec Ideal S1x32x11 .f32) (b3 : Vec Ideal S1x32 .f32)
    (W4 : Vec Ideal S1x32x11 .f32) (b4 : Vec Ideal S1x32 .f32) (x5 : Vec Ideal S32x512 .f32) (r : Fin 1024) (j : Fin 512) :
    k0_pay5 x0 oh v34 W2 b2 W3 b3 W4 b4 x5 (ix2 r j)
      = ∑ p : Fin 32, (((v34 (ix2 r p)
          + oh (ix2 r (2 : Fin 5)) * ((∑ k : Fin 11, x0 (ix2 r k) * W2 (ix3 (0 : Fin 1) p k)) + b2 (ix2 (0 : Fin 1) p)))
          + oh (ix2 r (3 : Fin 5)) * ((∑ k : Fin 11, x0 (ix2 r k) * W3 (ix3 (0 : Fin 1) p k)) + b3 (ix2 (0 : Fin 1) p)))
          + oh (ix2 r (4 : Fin 5)) * ((∑ k : Fin 11, x0 (ix2 r k) * W4 (ix3 (0 : Fin 1) p k)) + b4 (ix2 (0 : Fin 1) p)))
          * x5 (ix2 p j) := by
  unfold k0_pay5
  simp only [mm_e1a, shapeCast_self, addf_apply, mulf_apply, mm_pe, bias_apply, shapeCast_1a_a_apply, shapeCast_1ab_ab_apply,
    col_2, col_3, col_4]

/-- The second product, the bias, the maximum with zero, and the three further layers, read at row `r`, channel `j`. -/
private theorem pay7_apply (v9 : FVec Ideal S1024x16 .f32) (v73 : FVec Ideal S1024x512 .f32) (v75 : FVec Ideal S16x512 .f32)
    (x7 : Vec Ideal S512 .f32) (x8 : Vec Ideal S512x256 .f32) (x9 : Vec Ideal S256 .f32) (x10 : Vec Ideal S256x128 .f32)
    (x11 : Vec Ideal S128 .f32) (x12 : Vec Ideal S128x128 .f32) (x13 : Vec Ideal S128 .f32) (x14 : Vec Ideal S128x4 .f32)
    (x15 : Vec Ideal S4 .f32) (r : Fin 1024) (j : Fin 4) :
    k0_pay7 v9 v73 v75 x7 x8 x9 x10 x11 x12 x13 x14 x15 (ix2 r j)
      = lin (fun j3 => lin (fun j2 => max (lin (fun j1 => max (lin (fun j0 =>
          max ((v73 (ix2 r j0) + ∑ k : Fin 16, v9 (ix2 r k) * v75 (ix2 k j0)) + x7 (ix1 j0)) 0) x8 x9 j1) 0) x10 x11 j2) 0)
          x12 x13 j3) x14 x15 j := by
  unfold k0_pay7 lin
  simp only [addf_apply, maximumf_apply, broadcast_apply, zeroS, bias_apply, mm_e1b, mm_e2, mm_e3, mm_e4, mm_pin]

/-- The selection over the five types, then the product with rows 0 … 31 of the first matrix, at a row of type `t`:
    the slabs `W0` … `W4`, `b0` … `b4` are the five types' affine maps, and the indicator keeps type `t`'s. -/
private theorem pay5_row (x0 : Vec Ideal S1024x11 .f32) (x1 : Vec Ideal S1024x1 .i32) (x3 : Vec Ideal S5x32x11 .f32)
    (x4 : Vec Ideal S5x32 .f32) (W0 W1 W2 W3 W4 : Vec Ideal S1x32x11 .f32) (b0 b1 b2 b3 b4 : Vec Ideal S1x32 .f32)
    (x5 : Vec Ideal S32x512 .f32)
    (hW0 : ∀ (p : Fin 32) (k : Fin 11), W0 (ix3 (0 : Fin 1) p k) = x3 (ix3 (0 : Fin 5) p k))
    (hW1 : ∀ (p : Fin 32) (k : Fin 11), W1 (ix3 (0 : Fin 1) p k) = x3 (ix3 (1 : Fin 5) p k))
    (hW2 : ∀ (p : Fin 32) (k : Fin 11), W2 (ix3 (0 : Fin 1) p k) = x3 (ix3 (2 : Fin 5) p k))
    (hW3 : ∀ (p : Fin 32) (k : Fin 11), W3 (ix3 (0 : Fin 1) p k) = x3 (ix3 (3 : Fin 5) p k))
    (hW4 : ∀ (p : Fin 32) (k : Fin 11), W4 (ix3 (0 : Fin 1) p k) = x3 (ix3 (4 : Fin 5) p k))
    (hb0 : ∀ p : Fin 32, b0 (ix2 (0 : Fin 1) p) = x4 (ix2 (0 : Fin 5) p))
    (hb1 : ∀ p : Fin 32, b1 (ix2 (0 : Fin 1) p) = x4 (ix2 (1 : Fin 5) p))
    (hb2 : ∀ p : Fin 32, b2 (ix2 (0 : Fin 1) p) = x4 (ix2 (2 : Fin 5) p))
    (hb3 : ∀ p : Fin 32, b3 (ix2 (0 : Fin 1) p) = x4 (ix2 (3 : Fin 5) p))
    (hb4 : ∀ p : Fin 32, b4 (ix2 (0 : Fin 1) p) = x4 (ix2 (4 : Fin 5) p))
    (r : Fin 1024) (t : Fin 5) (hoh : ∀ u : Fin 5, k0_pay2 (F := Ideal) x1 (ix2 r u) = (if u = t then 1 else 0 : EReal))
    (j : Fin 512) :
    k0_pay5 x0 (k0_pay2 x1) (k0_pay4 x0 x1 W0 b0 W1 b1) W2 b2 W3 b3 W4 b4 x5 (ix2 r j)
      = ∑ p : Fin 32, ((∑ k : Fin 11, x0 (ix2 r k) * x3 (ix3 t p k)) + x4 (ix2 t p)) * x5 (ix2 p j) := by
  rw [pay5_apply]
  refine Finset.sum_congr rfl fun p _ => ?_
  rw [pay4_apply]
  simp only [hoh, hW0, hW1, hW2, hW3, hW4, hb0, hb1, hb2, hb3, hb4]
  exact congrArg (· * x5 (ix2 p j)) (sel5 t fun u => (∑ k : Fin 11, x0 (ix2 r k) * x3 (ix3 u p k)) + x4 (ix2 u p))

/-- The quantiser's channels at a row of type `t`: the encoder of Proof/Spec.lean on the row's parameters. -/
theorem ZPv_row (W : Wts) (x0 : Vec Ideal S1024x11 .f32) (x1 : Vec Ideal S1024x1 .i32) (x2 : Vec Ideal S5x16 .f32) (x3 : Vec Ideal S5x32x11 .f32) (x4 : Vec Ideal S5x32 .f32) (x5 : Vec Ideal S32x512 .f32) (x6 : Vec Ideal S16x512 .f32) (x7 : Vec Ideal S512 .f32) (x8 : Vec Ideal S512x256 .f32) (x9 : Vec Ideal S256 .f32) (x10 : Vec Ideal S256x128 .f32) (x11 : Vec Ideal S128 .f32) (x12 : Vec Ideal S128x128 .f32) (x13 : Vec Ideal S128 .f32) (x14 : Vec Ideal S128x4 .f32) (x15 : Vec Ideal S4 .f32)
    (hW : EncW W x2 x3 x4 x5 x6 x7 x8 x9 x10 x11 x12 x13 x14 x15) (r : Fin 1024) (t : Fin 5)
    (hs : x1 (ix2 r (0 : Fin 1)) = BitVec.ofNat 32 t.val) (j : Fin 4) :
    ZPv (F := Ideal) x0 x1 x2 x3 x4 x5 x6 x7 x8 x9 x10 x11 x12 x13 x14 x15 (ix2 r j) = zpR W (fun k => x0 (ix2 r k)) t j := by
  obtain ⟨h2, h3, h4, h5, h6, h7, h8, h9, h10, h11, h12, h13, h14, h15⟩ := hW
  subst h2 h3 h4 h7 h8 h9 h10 h11 h12 h13 h14 h15
  unfold ZPv
  simp only [View.ld_unit_zero (S := S1024x11) hz2, View.ld_unit_zero (S := S1024x1) hz2, View.ld_unit_zero (S := S5x16) hz2,
    View.ld_unit_zero (S := S32x512) hz2, View.ld_unit_zero (S := S16x512) hz2, View.ld_unit_zero (S := S512) hz1,
    View.ld_unit_zero (S := S512x256) hz2, View.ld_unit_zero (S := S256) hz1, View.ld_unit_zero (S := S256x128) hz2,
    View.ld_unit_zero (S := S128) hz1, View.ld_unit_zero (S := S128x128) hz2, View.ld_unit_zero (S := S128x4) hz2,
    View.ld_unit_zero (S := S4) hz1]
  rw [pay7_apply]
  simp only [pay5_row x0 x1 W.Wpe W.bpe _ _ _ _ _ _ _ _ _ _ x5 (slab3_0 _) (slab3_1 _) (slab3_2 _) (slab3_3 _) (slab3_4 _)
      (slab2_0 _) (slab2_1 _) (slab2_2 _) (slab2_3 _) (slab2_4 _) r t (pay2_row x1 r t hs),
    pay3_row x1 W.typeEmb r t hs, k0_pay6, shapeCast_self, h5, h6]
  rfl

end Cert.KernelIdeal.KT

end
-- ==== Proof.KDec1.lean ====
/-
  The quantiser and the heads at one row: from the four channels the codes, hence the quantised latent, the class logits
  (which recompute the latent) and the code index; from the latent the closedness logits.
-/
import proofs.«425746_j43550968382251_1_alg».proof.Proof.KIface
import Idealize.ShloMosaic.PureOps.Ideal.Laws
import Idealize.ShloMosaic.Lib.ValueLayout

noncomputable section

namespace Cert.KernelIdeal.KT

open Idealize.ShloMosaic Idealize.ShloMosaic.ValueIdx Idealize.SL.Sem
open Cert.KernelIdeal Cert.KernelIdeal.Gen Cert.Spec
open scoped BigOperators

/-- The zero offsets of a rank-1 whole-block rectangle. -/
private theorem off1 : (![0] : Fin 1 → Nat) = fun _ => 0 := funext fun a => by fin_cases a <;> rfl
/-- The zero offsets of a rank-2 whole-block rectangle. -/
private theorem off2 : (![0, 0] : Fin 2 → Nat) = fun _ => 0 := funext fun a => by fin_cases a <;> rfl

/-- The product of an m×k by a k×n matrix accumulated into the zero splat, read at an index: the sum over the contracted
    coordinate of the products of the entries. -/
private theorem matmul_plain_zero_apply {m k n : Nat}
    (w : DotDims.WF ⟨2, ![m, k]⟩ ⟨2, ![k, n]⟩ ⟨2, ![m, n]⟩ [1] [0] [0] [1] [] [])
    (prec : Option ContractPrecision) (A : FVec Ideal ⟨2, ![m, k]⟩ .f32) (B : FVec Ideal ⟨2, ![k, n]⟩ .f32)
    (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A constant row of four laid along every one of the 1024 rows reads, at row `r` and channel `j`, its entry `j`. -/
private theorem row4_apply (x : Vec Ideal S1x4 .f32) (r : Fin 1024) (j : Fin 4) :
    broadcastTo S1024x4 x broadcasts_S1x4_S1024x4 (ix2 r j) = x (ix2 (0 : Fin 1) j) :=
  broadcastTo_1b_ab_apply x _ r j

/-- A bias vector cast to one row and laid along every one of `m` rows reads, at row `r` and column `j`, its entry `j`. -/
private theorem bias_apply {m n : Nat} (x : (⟨1, ![n]⟩ : Shape).Idx → EReal)
    (h1 : (⟨1, ![n]⟩ : Shape).ShapeCasts ⟨2, ![1, n]⟩) (hb : (⟨2, ![1, n]⟩ : Shape).Broadcasts ⟨2, ![m, n]⟩)
    (r : Fin m) (j : Fin n) :
    broadcastTo ⟨2, ![m, n]⟩ (shapeCast ⟨2, ![1, n]⟩ x h1) hb (ix2 r j) = x (ix1 j) := by
  rw [broadcastTo_1b_ab_apply, shapeCast_a_1a_apply]

/-- The codes at a row whose channels are `zp`. -/
private theorem code_row (C : Consts) (zpv : FVec Ideal S1024x4 .f32) (x31 : Vec Ideal S1x4 .f32) (x32 : Vec Ideal S1x4 .f32) (x33 : Vec Ideal S1x4 .f32) (x34 : Vec Ideal S1x4 .f32) (x35 : Vec Ideal S1x4 .f32)
    (hC : QC C x31 x32 x33 x34 x35)
    (r : Fin 1024) (zp : Fin 4 → EReal) (hzp : ∀ j, zpv (ix2 r j) = zp j) (j : Fin 4) :
    k0_pay9 (F := Ideal) zpv (View.ld x31 r0_23) (View.ld x32 r0_23) (View.ld x33 r0_23) (View.ld x34 r0_23) (ix2 r j)
      = codeOf C zp j := by
  simp only [View.ld_unit_zero (S := S1x4) off2]
  unfold k0_pay9 k0_pay8
  simp only [shapeCast_self]
  show Ideal.div (Ideal.liftRound Ideal.roundHalfEven
      (Ideal.tanh (zpv (ix2 r j) + broadcastTo S1024x4 x31 broadcasts_S1x4_S1024x4 (ix2 r j))
          * broadcastTo S1024x4 x32 broadcasts_S1x4_S1024x4 (ix2 r j)
        - broadcastTo S1024x4 x33 broadcasts_S1x4_S1024x4 (ix2 r j)))
      (broadcastTo S1024x4 x34 broadcasts_S1x4_S1024x4 (ix2 r j)) = _
  rw [row4_apply, row4_apply, row4_apply, row4_apply, hzp, hC.h31, hC.h32, hC.h33, hC.h34]
  rfl

/-- A vector of `a` entries cast to a column reads, at row `r`, its entry `r`. -/
private theorem column_apply {a : Nat} (x : (⟨1, ![a]⟩ : Shape).Idx → EReal)
    (h : (⟨1, ![a]⟩ : Shape).ShapeCasts ⟨2, ![a, 1]⟩) (r : Fin a) (u : Fin 1) :
    shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- The quantised latent at a row whose channels are `zp`. -/
theorem ZQv_row (W : Wts) (C : Consts) (zpv : FVec Ideal S1024x4 .f32) (x31 : Vec Ideal S1x4 .f32) (x32 : Vec Ideal S1x4 .f32) (x33 : Vec Ideal S1x4 .f32) (x34 : Vec Ideal S1x4 .f32) (x35 : Vec Ideal S1x4 .f32) (x16 : Vec Ideal S4x128 .f32) (x17 : Vec Ideal S128 .f32) (x18 : Vec Ideal S128x256 .f32) (x19 : Vec Ideal S16x256 .f32) (x20 : Vec Ideal S256 .f32) (x21 : Vec Ideal S256x512 .f32) (x22 : Vec Ideal S512 .f32) (x23 : Vec Ideal S512x32 .f32) (x24 : Vec Ideal S32 .f32) (x25 : Vec Ideal S128x5 .f32) (x26 : Vec Ideal S5 .f32) (x27 : Vec Ideal S128x2 .f32) (x28 : Vec Ideal S2 .f32) (x29 : Vec Ideal S5x11x32 .f32) (x30 : Vec Ideal S5x11 .f32)
    (hC : QC C x31 x32 x33 x34 x35) (hD : DecW W x16 x17 x18 x19 x20 x21 x22 x23 x24 x25 x26 x27 x28 x29 x30)
    (r : Fin 1024) (zp : Fin 4 → EReal) (hzp : ∀ j, zpv (ix2 r j) = zp j) (j : Fin 128) :
    ZQv (F := Ideal) zpv x31 x32 x33 x34 x16 x17 (ix2 r j) = zqOf W C zp j := by
  show k0_pay11 (F := Ideal) zpv (View.ld x31 r0_23) (View.ld x32 r0_23) (View.ld x33 r0_23) (View.ld x34 r0_23)
    (View.ld x16 r0_24) (View.ld x17 r0_19) (ix2 r j) = _
  unfold k0_pay11
  simp only [View.ld_unit_zero (S := S4x128) off2, View.ld_unit_zero (S := S128) off1]
  show matmul dot_S1024x4_S4x128_S1024x128_1_0_0_1_n_n none
        (k0_pay9 (F := Ideal) zpv (View.ld x31 r0_23) (View.ld x32 r0_23) (View.ld x33 r0_23) (View.ld x34 r0_23)) x16
        (constant (F := Ideal) S1024x128 .f32 0x00000000#32) (ix2 r j)
      + broadcastTo S1024x128 (shapeCast S1x128 x17 shapeCasts_S128_S1x128) broadcasts_S1x128_S1024x128 (ix2 r j) = _
  rw [bias_apply]
  refine congrArg₂ (· + ·) ?_ (by rw [hD.h17])
  refine (matmul_plain_zero_apply dot_S1024x4_S4x128_S1024x128_1_0_0_1_n_n_wf none _ _ r j).trans ?_
  refine Finset.sum_congr rfl fun c _ => ?_
  rw [code_row C zpv x31 x32 x33 x34 x35 hC r zp hzp c, hD.h16]

/-- The class logits at a row whose channels are `zp`. -/
theorem CLSv_row (W : Wts) (C : Consts) (zpv : FVec Ideal S1024x4 .f32) (x31 : Vec Ideal S1x4 .f32) (x32 : Vec Ideal S1x4 .f32) (x33 : Vec Ideal S1x4 .f32) (x34 : Vec Ideal S1x4 .f32) (x35 : Vec Ideal S1x4 .f32) (x16 : Vec Ideal S4x128 .f32) (x17 : Vec Ideal S128 .f32) (x18 : Vec Ideal S128x256 .f32) (x19 : Vec Ideal S16x256 .f32) (x20 : Vec Ideal S256 .f32) (x21 : Vec Ideal S256x512 .f32) (x22 : Vec Ideal S512 .f32) (x23 : Vec Ideal S512x32 .f32) (x24 : Vec Ideal S32 .f32) (x25 : Vec Ideal S128x5 .f32) (x26 : Vec Ideal S5 .f32) (x27 : Vec Ideal S128x2 .f32) (x28 : Vec Ideal S2 .f32) (x29 : Vec Ideal S5x11x32 .f32) (x30 : Vec Ideal S5x11 .f32)
    (hC : QC C x31 x32 x33 x34 x35) (hD : DecW W x16 x17 x18 x19 x20 x21 x22 x23 x24 x25 x26 x27 x28 x29 x30)
    (r : Fin 1024) (zp : Fin 4 → EReal) (hzp : ∀ j, zpv (ix2 r j) = zp j) (j : Fin 5) :
    CLSv (F := Ideal) zpv x31 x32 x33 x34 x16 x17 x25 x26 (ix2 r j) = clsOf W (zqOf W C zp) j := by
  show k0_pay12 (F := Ideal) zpv (View.ld x31 r0_23) (View.ld x32 r0_23) (View.ld x33 r0_23) (View.ld x34 r0_23)
    (View.ld x16 r0_24) (View.ld x17 r0_19) (View.ld x25 r0_25) (View.ld x26 r0_26) (ix2 r j) = _
  unfold k0_pay12
  simp only [View.ld_unit_zero (S := S128x5) off2, View.ld_unit_zero (S := S5) off1]
  show matmul dot_S1024x128_S128x5_S1024x5_1_0_0_1_n_n none
        (k0_pay11 (F := Ideal) zpv (View.ld x31 r0_23) (View.ld x32 r0_23) (View.ld x33 r0_23) (View.ld x34 r0_23)
          (View.ld x16 r0_24) (View.ld x17 r0_19)) x25
        (constant (F := Ideal) S1024x5 .f32 0x00000000#32) (ix2 r j)
      + broadcastTo S1024x5 (shapeCast S1x5 x26 shapeCasts_S5_S1x5) broadcasts_S1x5_S1024x5 (ix2 r j) = _
  rw [bias_apply]
  refine congrArg₂ (· + ·) ?_ (by rw [hD.h26])
  refine (matmul_plain_zero_apply dot_S1024x128_S128x5_S1024x5_1_0_0_1_n_n_wf none _ _ r j).trans ?_
  refine Finset.sum_congr rfl fun c _ => ?_
  have e : k0_pay11 (F := Ideal) zpv (View.ld x31 r0_23) (View.ld x32 r0_23) (View.ld x33 r0_23) (View.ld x34 r0_23)
      (View.ld x16 r0_24) (View.ld x17 r0_19) (ix2 r c) = zqOf W C zp c :=
    ZQv_row W C zpv x31 x32 x33 x34 x35 x16 x17 x18 x19 x20 x21 x22 x23 x24 x25 x26 x27 x28 x29 x30 hC hD r zp hzp c
  rw [e, hD.h25]

/-- The closedness logits at a row whose quantised latent is `zq`. -/
theorem CLOv_row (W : Wts) (zqv : FVec Ideal S1024x128 .f32) (x16 : Vec Ideal S4x128 .f32) (x17 : Vec Ideal S128 .f32) (x18 : Vec Ideal S128x256 .f32) (x19 : Vec Ideal S16x256 .f32) (x20 : Vec Ideal S256 .f32) (x21 : Vec Ideal S256x512 .f32) (x22 : Vec Ideal S512 .f32) (x23 : Vec Ideal S512x32 .f32) (x24 : Vec Ideal S32 .f32) (x25 : Vec Ideal S128x5 .f32) (x26 : Vec Ideal S5 .f32) (x27 : Vec Ideal S128x2 .f32) (x28 : Vec Ideal S2 .f32) (x29 : Vec Ideal S5x11x32 .f32) (x30 : Vec Ideal S5x11 .f32)
    (hD : DecW W x16 x17 x18 x19 x20 x21 x22 x23 x24 x25 x26 x27 x28 x29 x30)
    (r : Fin 1024) (zq : Fin 128 → EReal) (hzq : ∀ j, zqv (ix2 r j) = zq j) (j : Fin 2) :
    CLOv (F := Ideal) zqv x27 x28 (ix2 r j) = cloOf W zq j := by
  show k0_pay13 (F := Ideal) zqv (View.ld x27 r0_27) (View.ld x28 r0_28) (ix2 r j) = _
  unfold k0_pay13
  simp only [View.ld_unit_zero (S := S128x2) off2, View.ld_unit_zero (S := S2) off1]
  show matmul dot_S1024x128_S128x2_S1024x2_1_0_0_1_n_n none zqv x27
        (constant (F := Ideal) S1024x2 .f32 0x00000000#32) (ix2 r j)
      + broadcastTo S1024x2 (shapeCast S1x2 x28 shapeCasts_S2_S1x2) broadcasts_S1x2_S1024x2 (ix2 r j) = _
  rw [bias_apply]
  refine congrArg₂ (· + ·) ?_ (by rw [hD.h28])
  refine (matmul_plain_zero_apply dot_S1024x128_S128x2_S1024x2_1_0_0_1_n_n_wf none _ _ r j).trans ?_
  refine Finset.sum_congr rfl fun c _ => ?_
  rw [hzq c, hD.h27]

/-- The code index at a row whose channels are `zp`. -/
theorem IDXv_row (C : Consts) (zpv : FVec Ideal S1024x4 .f32) (x31 : Vec Ideal S1x4 .f32) (x32 : Vec Ideal S1x4 .f32) (x33 : Vec Ideal S1x4 .f32) (x34 : Vec Ideal S1x4 .f32) (x35 : Vec Ideal S1x4 .f32)
    (hC : QC C x31 x32 x33 x34 x35)
    (r : Fin 1024) (zp : Fin 4 → EReal) (hzp : ∀ j, zpv (ix2 r j) = zp j) :
    IDXv (F := Ideal) zpv x31 x32 x33 x34 x35 (ix2 r (0 : Fin 1)) = idxOf C zp := by
  show k0_pay10 (F := Ideal) zpv (View.ld x31 r0_23) (View.ld x32 r0_23) (View.ld x33 r0_23) (View.ld x34 r0_23)
    (View.ld x35 r0_23) (ix2 r (0 : Fin 1)) = _
  unfold k0_pay10 k0_pay8
  simp only [shapeCast_self]
  show Ideal.fptosi 32 (shapeCast S1024x1 (multiReduction (F := Ideal) .add [1] S1024
      (mulf (addf (mulf (k0_pay9 (F := Ideal) zpv (View.ld x31 r0_23) (View.ld x32 r0_23) (View.ld x33 r0_23) (View.ld x34 r0_23))
              (broadcastTo S1024x4 (View.ld x34 r0_23) broadcasts_S1x4_S1024x4))
            (broadcastTo S1024x4 (View.ld x34 r0_23) broadcasts_S1x4_S1024x4))
          (broadcastTo S1024x4 (View.ld x35 r0_23) broadcasts_S1x4_S1024x4))
      0x00000000#32 reduces_S1024x4_S1024 (.inl rfl) rfl) shapeCasts_S1024_S1024x1 (ix2 r (0 : Fin 1))) = _
  rw [column_apply]
  refine congrArg (Ideal.fptosi 32) ?_
  refine (Ideal.multiReduction_add_single _ _ reduces_S1024x4_S1024 (.inl rfl) rfl (ix1 r)).trans ?_
  show ∑ k : Fin 4, _ = ∑ k : Fin 4, _
  refine Finset.sum_congr rfl fun k _ => ?_
  have hl : reduces_S1024x4_S1024.lift (ix1 r) k = ix2 r k := by
    funext ax
    match ax with
    | ⟨0, _⟩ => exact Fin.ext rfl
    | ⟨1, _⟩ => exact Fin.ext rfl
  rw [hl]
  show (k0_pay9 (F := Ideal) zpv (View.ld x31 r0_23) (View.ld x32 r0_23) (View.ld x33 r0_23) (View.ld x34 r0_23) (ix2 r k)
        * broadcastTo S1024x4 (View.ld x34 r0_23) broadcasts_S1x4_S1024x4 (ix2 r k)
      + broadcastTo S1024x4 (View.ld x34 r0_23) broadcasts_S1x4_S1024x4 (ix2 r k))
    * broadcastTo S1024x4 (View.ld x35 r0_23) broadcasts_S1x4_S1024x4 (ix2 r k) = _
  rw [code_row C zpv x31 x32 x33 x34 x35 hC r zp hzp k]
  simp only [View.ld_unit_zero (S := S1x4) off2]
  rw [row4_apply, row4_apply, hC.h34, hC.h35]

end Cert.KernelIdeal.KT

end
-- ==== Proof.KDec2.lean ====
/-
  The decoder and the reconstruction at one row: three affine layers on the quantised latent beside the type embedding,
  then, the indicator being the unit vector at the row's type `t`, type `t`'s affine map of the decoder's output.
-/
import proofs.«425746_j43550968382251_1_alg».proof.Proof.KIface
import Idealize.ShloMosaic.PureOps.Ideal.Laws
import Idealize.ShloMosaic.Lib.ValueLayout
import Idealize.ShloMosaic.Lib.Pipeline.Value

noncomputable section

namespace Cert.KernelIdeal.KT

open Idealize.ShloMosaic Idealize.ShloMosaic.ValueIdx Idealize.SL.Sem
open Cert.KernelIdeal Cert.KernelIdeal.Gen Cert.Spec

open scoped BigOperators

/-! ## The operations of the two payloads, read at an index -/

/-- The product of a 1024×128 by a 128×256 matrix into a zero accumulator, read at row `r`, column `j`: the sum over the
    contracted coordinate of the products of the entries. -/
private theorem mm_zq (A : FVec Ideal S1024x128 .f32) (B : FVec Ideal S128x256 .f32) (r : Fin 1024) (j : Fin 256) :
    matmul dot_S1024x128_S128x256_S1024x256_1_0_0_1_n_n none A B (constant S1024x256 .f32 0x00000000#32) (ix2 r j)
      = ∑ k : Fin 128, A (ix2 r k) * B (ix2 k j) := by
  show FloatOps.matmul dot_S1024x128_S128x256_S1024x256_1_0_0_1_n_n none A B (constant S1024x256 .f32 0x00000000#32) (ix2 r j) = _
  rw [Ideal.matmul_constant_zero_apply, ← Equiv.sum_comp (contrEquiv1 dot_S1024x128_S128x256_S1024x256_1_0_0_1_n_n 128 rfl rfl).symm]
  refine Finset.sum_congr rfl fun c _ => ?_
  have c2 := contrEquiv1_symm_val dot_S1024x128_S128x256_S1024x256_1_0_0_1_n_n 128 rfl rfl c
  have l2 : dot_S1024x128_S128x256_S1024x256_1_0_0_1_n_n.lhsIdx (ix2 r j) ((contrEquiv1 _ 128 rfl rfl).symm c) = ix2 r c := by
    funext ax; apply Fin.ext
    match ax with
    | ⟨0, _⟩ => simp [DotDims.lhsIdx, dot_S1024x128_S128x256_S1024x256_1_0_0_1_n_n]; rfl
    | ⟨1, _⟩ => simp [DotDims.lhsIdx, dot_S1024x128_S128x256_S1024x256_1_0_0_1_n_n]; exact c2
  have r2 : dot_S1024x128_S128x256_S1024x256_1_0_0_1_n_n.rhsIdx (ix2 r j) ((contrEquiv1 _ 128 rfl rfl).symm c) = ix2 c j := by
    funext ax; apply Fin.ext
    match ax with
    | ⟨0, _⟩ => simp [DotDims.rhsIdx, dot_S1024x128_S128x256_S1024x256_1_0_0_1_n_n]; exact c2
    | ⟨1, _⟩ => simp [DotDims.rhsIdx, dot_S1024x128_S128x256_S1024x256_1_0_0_1_n_n]; rfl
  rw [l2, r2]

/-- The product of a 1024×16 by a 16×256 matrix into a zero accumulator, read at row `r`, column `j`: the sum over the
    contracted coordinate of the products of the entries. -/
private theorem mm_emb (A : FVec Ideal S1024x16 .f32) (B : FVec Ideal S16x256 .f32) (r : Fin 1024) (j : Fin 256) :
    matmul dot_S1024x16_S16x256_S1024x256_1_0_0_1_n_n none A B (constant S1024x256 .f32 0x00000000#32) (ix2 r j)
      = ∑ k : Fin 16, A (ix2 r k) * B (ix2 k j) := by
  show FloatOps.matmul dot_S1024x16_S16x256_S1024x256_1_0_0_1_n_n none A B (constant S1024x256 .f32 0x00000000#32) (ix2 r j) = _
  rw [Ideal.matmul_constant_zero_apply, ← Equiv.sum_comp (contrEquiv1 dot_S1024x16_S16x256_S1024x256_1_0_0_1_n_n 16 rfl rfl).symm]
  refine Finset.sum_congr rfl fun c _ => ?_
  have c2 := contrEquiv1_symm_val dot_S1024x16_S16x256_S1024x256_1_0_0_1_n_n 16 rfl rfl c
  have l2 : dot_S1024x16_S16x256_S1024x256_1_0_0_1_n_n.lhsIdx (ix2 r j) ((contrEquiv1 _ 16 rfl rfl).symm c) = ix2 r c := by
    funext ax; apply Fin.ext
    match ax with
    | ⟨0, _⟩ => simp [DotDims.lhsIdx, dot_S1024x16_S16x256_S1024x256_1_0_0_1_n_n]; rfl
    | ⟨1, _⟩ => simp [DotDims.lhsIdx, dot_S1024x16_S16x256_S1024x256_1_0_0_1_n_n]; exact c2
  have r2 : dot_S1024x16_S16x256_S1024x256_1_0_0_1_n_n.rhsIdx (ix2 r j) ((contrEquiv1 _ 16 rfl rfl).symm c) = ix2 c j := by
    funext ax; apply Fin.ext
    match ax with
    | ⟨0, _⟩ => simp [DotDims.rhsIdx, dot_S1024x16_S16x256_S1024x256_1_0_0_1_n_n]; exact c2
    | ⟨1, _⟩ => simp [DotDims.rhsIdx, dot_S1024x16_S16x256_S1024x256_1_0_0_1_n_n]; rfl
  rw [l2, r2]

/-- The product of a 1024×256 by a 256×512 matrix into a zero accumulator, read at row `r`, column `j`: the sum over the
    contracted coordinate of the products of the entries. -/
private theorem mm_h1 (A : FVec Ideal S1024x256 .f32) (B : FVec Ideal S256x512 .f32) (r : Fin 1024) (j : Fin 512) :
    matmul dot_S1024x256_S256x512_S1024x512_1_0_0_1_n_n none A B (constant S1024x512 .f32 0x00000000#32) (ix2 r j)
      = ∑ k : Fin 256, A (ix2 r k) * B (ix2 k j) := by
  show FloatOps.matmul dot_S1024x256_S256x512_S1024x512_1_0_0_1_n_n none A B (constant S1024x512 .f32 0x00000000#32) (ix2 r j) = _
  rw [Ideal.matmul_constant_zero_apply, ← Equiv.sum_comp (contrEquiv1 dot_S1024x256_S256x512_S1024x512_1_0_0_1_n_n 256 rfl rfl).symm]
  refine Finset.sum_congr rfl fun c _ => ?_
  have c2 := contrEquiv1_symm_val dot_S1024x256_S256x512_S1024x512_1_0_0_1_n_n 256 rfl rfl c
  have l2 : dot_S1024x256_S256x512_S1024x512_1_0_0_1_n_n.lhsIdx (ix2 r j) ((contrEquiv1 _ 256 rfl rfl).symm c) = ix2 r c := by
    funext ax; apply Fin.ext
    match ax with
    | ⟨0, _⟩ => simp [DotDims.lhsIdx, dot_S1024x256_S256x512_S1024x512_1_0_0_1_n_n]; rfl
    | ⟨1, _⟩ => simp [DotDims.lhsIdx, dot_S1024x256_S256x512_S1024x512_1_0_0_1_n_n]; exact c2
  have r2 : dot_S1024x256_S256x512_S1024x512_1_0_0_1_n_n.rhsIdx (ix2 r j) ((contrEquiv1 _ 256 rfl rfl).symm c) = ix2 c j := by
    funext ax; apply Fin.ext
    match ax with
    | ⟨0, _⟩ => simp [DotDims.rhsIdx, dot_S1024x256_S256x512_S1024x512_1_0_0_1_n_n]; exact c2
    | ⟨1, _⟩ => simp [DotDims.rhsIdx, dot_S1024x256_S256x512_S1024x512_1_0_0_1_n_n]; rfl
  rw [l2, r2]

/-- The product of a 1024×512 by a 512×32 matrix into a zero accumulator, read at row `r`, column `j`: the sum over the
    contracted coordinate of the products of the entries. -/
private theorem mm_h2 (A : FVec Ideal S1024x512 .f32) (B : FVec Ideal S512x32 .f32) (r : Fin 1024) (j : Fin 32) :
    matmul dot_S1024x512_S512x32_S1024x32_1_0_0_1_n_n none A B (constant S1024x32 .f32 0x00000000#32) (ix2 r j)
      = ∑ k : Fin 512, A (ix2 r k) * B (ix2 k j) := by
  show FloatOps.matmul dot_S1024x512_S512x32_S1024x32_1_0_0_1_n_n none A B (constant S1024x32 .f32 0x00000000#32) (ix2 r j) = _
  rw [Ideal.matmul_constant_zero_apply, ← Equiv.sum_comp (contrEquiv1 dot_S1024x512_S512x32_S1024x32_1_0_0_1_n_n 512 rfl rfl).symm]
  refine Finset.sum_congr rfl fun c _ => ?_
  have c2 := contrEquiv1_symm_val dot_S1024x512_S512x32_S1024x32_1_0_0_1_n_n 512 rfl rfl c
  have l2 : dot_S1024x512_S512x32_S1024x32_1_0_0_1_n_n.lhsIdx (ix2 r j) ((contrEquiv1 _ 512 rfl rfl).symm c) = ix2 r c := by
    funext ax; apply Fin.ext
    match ax with
    | ⟨0, _⟩ => simp [DotDims.lhsIdx, dot_S1024x512_S512x32_S1024x32_1_0_0_1_n_n]; rfl
    | ⟨1, _⟩ => simp [DotDims.lhsIdx, dot_S1024x512_S512x32_S1024x32_1_0_0_1_n_n]; exact c2
  have r2 : dot_S1024x512_S512x32_S1024x32_1_0_0_1_n_n.rhsIdx (ix2 r j) ((contrEquiv1 _ 512 rfl rfl).symm c) = ix2 c j := by
    funext ax; apply Fin.ext
    match ax with
    | ⟨0, _⟩ => simp [DotDims.rhsIdx, dot_S1024x512_S512x32_S1024x32_1_0_0_1_n_n]; exact c2
    | ⟨1, _⟩ => simp [DotDims.rhsIdx, dot_S1024x512_S512x32_S1024x32_1_0_0_1_n_n]; rfl
  rw [l2, r2]

/-- A vector of `b` entries viewed as one row and repeated down `a` rows reads, at row `p`, column `c`, its entry `c`. -/
private theorem bias_apply {a b : ℕ} (v : (⟨1, ![b]⟩ : Shape).Idx → EReal)
    (h1 : (⟨1, ![b]⟩ : Shape).ShapeCasts ⟨2, ![1, b]⟩) (h2 : (⟨2, ![1, b]⟩ : Shape).Broadcasts ⟨2, ![a, b]⟩)
    (p : Fin a) (c : Fin b) :
    broadcastTo ⟨2, ![a, b]⟩ (shapeCast ⟨2, ![1, b]⟩ v h1) h2 (ix2 p c) = v (ix1 c) := by
  rw [broadcastTo_1b_ab_apply, shapeCast_a_1a_apply]

private theorem hz2 : (![0, 0] : Fin 2 → Nat) = fun _ => 0 := by funext a; fin_cases a <;> rfl
private theorem hz1 : (![0] : Fin 1 → Nat) = fun _ => 0 := by funext a; fin_cases a; rfl

/-- The product of a 1024×32 matrix with the transpose of an 11×32 matrix into a zero accumulator, read at row `r`,
    column `j`: both operands are contracted along their second axis. -/
private theorem mm_rec (A : FVec Ideal S1024x32 .f32) (B : FVec Ideal S11x32 .f32) (r : Fin 1024) (j : Fin 11) :
    matmul dot_S1024x32_S11x32_S1024x11_1_1_0_0_n_n none A B (constant S1024x11 .f32 0x00000000#32) (ix2 r j)
      = ∑ k : Fin 32, A (ix2 r k) * B (ix2 j k) := by
  show FloatOps.matmul dot_S1024x32_S11x32_S1024x11_1_1_0_0_n_n none A B (constant S1024x11 .f32 0x00000000#32) (ix2 r j) = _
  rw [Ideal.matmul_constant_zero_apply, ← Equiv.sum_comp (contrEquiv1 dot_S1024x32_S11x32_S1024x11_1_1_0_0_n_n 32 rfl rfl).symm]
  refine Finset.sum_congr rfl fun c _ => ?_
  have c2 := contrEquiv1_symm_val dot_S1024x32_S11x32_S1024x11_1_1_0_0_n_n 32 rfl rfl c
  have l2 : dot_S1024x32_S11x32_S1024x11_1_1_0_0_n_n.lhsIdx (ix2 r j) ((contrEquiv1 _ 32 rfl rfl).symm c) = ix2 r c := by
    funext ax; apply Fin.ext
    match ax with
    | ⟨0, _⟩ => simp [DotDims.lhsIdx, dot_S1024x32_S11x32_S1024x11_1_1_0_0_n_n]; rfl
    | ⟨1, _⟩ => simp [DotDims.lhsIdx, dot_S1024x32_S11x32_S1024x11_1_1_0_0_n_n]; exact c2
  have r2 : dot_S1024x32_S11x32_S1024x11_1_1_0_0_n_n.rhsIdx (ix2 r j) ((contrEquiv1 _ 32 rfl rfl).symm c) = ix2 j c := by
    funext ax; apply Fin.ext
    match ax with
    | ⟨0, _⟩ => simp [DotDims.rhsIdx, dot_S1024x32_S11x32_S1024x11_1_1_0_0_n_n]; rfl
    | ⟨1, _⟩ => simp [DotDims.rhsIdx, dot_S1024x32_S11x32_S1024x11_1_1_0_0_n_n]; exact c2
  rw [l2, r2]

/-- Slab `u` of the stack of five 11×32 matrices, loaded as a [1, 11, 32] block and viewed as an 11×32 matrix, reads at
    `(j, k)` the stack at `(u, j, k)`. -/
private theorem slab_apply (X : Vec Ideal S5x11x32 .f32) (u : Fin 5) (off : Fin 3 → Nat)
    (h0 : off 0 = u.val) (h1 : off 1 = 0) (h2 : off 2 = 0)
    (inb : ∀ a, off a + S1x11x32.size a ≤ S5x11x32.size a) (h : S1x11x32.ShapeCasts S11x32) (j : Fin 11) (k : Fin 32) :
    shapeCast S11x32 (View.ld X (Rect.unit (s := S5x11x32) off S1x11x32.size inb)) h (ix2 j k) = X (ix3 u j k) := by
  refine (shapeCast_1ab_ab_apply _ h j k).trans ?_
  show X _ = X _
  refine congrArg X (funext fun a => Fin.ext ?_)
  match a with
  | ⟨0, _⟩ => show off 0 + 1 * 0 = u.val; rw [h0]; omega
  | ⟨1, _⟩ => show off 1 + 1 * j.val = j.val; rw [h1]; omega
  | ⟨2, _⟩ => show off 2 + 1 * k.val = k.val; rw [h2]; omega

/-- Row `u` of the 5×11 bias table, loaded as a [1, 11] block, flattened, viewed as one row again and repeated down the
    1024 rows, reads at `(r, j)` the table at `(u, j)`. -/
private theorem brow_apply (X : Vec Ideal S5x11 .f32) (u : Fin 5) (off : Fin 2 → Nat)
    (h0 : off 0 = u.val) (h1 : off 1 = 0)
    (inb : ∀ a, off a + S1x11.size a ≤ S5x11.size a) (ha : S1x11.ShapeCasts S11) (hb : S11.ShapeCasts S1x11)
    (hc : S1x11.Broadcasts S1024x11) (r : Fin 1024) (j : Fin 11) :
    broadcastTo S1024x11 (shapeCast S1x11 (shapeCast S11 (View.ld X (Rect.unit (s := S5x11) off S1x11.size inb)) ha) hb) hc (ix2 r j)
      = X (ix2 u j) := by
  refine (bias_apply _ hb hc r j).trans ?_
  refine (shapeCast_1a_a_apply _ ha j).trans ?_
  show X _ = X _
  refine congrArg X (funext fun a => Fin.ext ?_)
  match a with
  | ⟨0, _⟩ => show off 0 + 1 * 0 = u.val; rw [h0]; omega
  | ⟨1, _⟩ => show off 1 + 1 * j.val = j.val; rw [h1]; omega

/-- Column `u` of the 1024×5 indicator, cut out as a [1024, 1] column and repeated across 11 columns, reads at `(r, j)`
    the indicator at `(r, u)`. -/
private theorem col_apply (X : FVec Ideal S1024x5 .f32) (u : Fin 5) (off : Fin 2 → Nat)
    (h0 : off 0 = 0) (h1 : off 1 = u.val) (hs : S1024x5.Slices off S1024x1) (hb : S1024x1.Broadcasts S1024x11)
    (r : Fin 1024) (j : Fin 11) :
    broadcastTo S1024x11 (extractStridedSlice S1024x1 off X hs) hb (ix2 r j) = X (ix2 r u) := by
  refine (broadcastTo_apply _ hb (ix2 r j) (ix2 r (0 : Fin 1)) fun a => ?_).trans ?_
  · match a with
    | ⟨0, _⟩ => rfl
    | ⟨1, _⟩ => rfl
  · refine extractStridedSlice_apply off X hs (ix2 r (0 : Fin 1)) (ix2 r u) fun a => ?_
    match a with
    | ⟨0, _⟩ => show r.val = off 0 + r.val; rw [h0]; omega
    | ⟨1, _⟩ => show u.val = off 1 + 0; rw [h1]; rfl

/-- A sum of five terms, each multiplied by the indicator of "its number is `t`", started from zero, is term `t`. -/
private theorem sel5 (f : Fin 5 → EReal) (t : Fin 5) :
    ((((0 + (if (0 : Fin 5) = t then 1 else 0 : EReal) * f 0) + (if (1 : Fin 5) = t then 1 else 0 : EReal) * f 1)
        + (if (2 : Fin 5) = t then 1 else 0 : EReal) * f 2) + (if (3 : Fin 5) = t then 1 else 0 : EReal) * f 3)
      + (if (4 : Fin 5) = t then 1 else 0 : EReal) * f 4 = f t := by
  fin_cases t <;> simp

/-- The decoder's output at a row whose type embedding is `emb` and whose quantised latent is `zq`. -/
theorem PDv_row (W : Wts) (embv : FVec Ideal S1024x16 .f32) (zqv : FVec Ideal S1024x128 .f32) (x16 : Vec Ideal S4x128 .f32) (x17 : Vec Ideal S128 .f32) (x18 : Vec Ideal S128x256 .f32) (x19 : Vec Ideal S16x256 .f32) (x20 : Vec Ideal S256 .f32) (x21 : Vec Ideal S256x512 .f32) (x22 : Vec Ideal S512 .f32) (x23 : Vec Ideal S512x32 .f32) (x24 : Vec Ideal S32 .f32) (x25 : Vec Ideal S128x5 .f32) (x26 : Vec Ideal S5 .f32) (x27 : Vec Ideal S128x2 .f32) (x28 : Vec Ideal S2 .f32) (x29 : Vec Ideal S5x11x32 .f32) (x30 : Vec Ideal S5x11 .f32)
    (hD : DecW W x16 x17 x18 x19 x20 x21 x22 x23 x24 x25 x26 x27 x28 x29 x30)
    (r : Fin 1024) (emb : Fin 16 → EReal) (hemb : ∀ e, embv (ix2 r e) = emb e)
    (zq : Fin 128 → EReal) (hzq : ∀ j, zqv (ix2 r j) = zq j) (j : Fin 32) :
    PDv (F := Ideal) embv zqv x18 x19 x20 x21 x22 x23 x24 (ix2 r j) = pdOf W (hd2Of W (hd1Of W zq emb)) j := by
  have e18 : View.ld x18 r0_29 = x18 := View.ld_unit_zero hz2 _ x18
  have e19 : View.ld x19 r0_30 = x19 := View.ld_unit_zero hz2 _ x19
  have e20 : View.ld x20 r0_17 = x20 := View.ld_unit_zero hz1 _ x20
  have e21 : View.ld x21 r0_31 = x21 := View.ld_unit_zero hz2 _ x21
  have e22 : View.ld x22 r0_15 = x22 := View.ld_unit_zero hz1 _ x22
  have e23 : View.ld x23 r0_32 = x23 := View.ld_unit_zero hz2 _ x23
  have e24 : View.ld x24 r0_33 = x24 := View.ld_unit_zero hz1 _ x24
  unfold PDv k0_pay14
  simp only [e18, e19, e20, e21, e22, e23, e24, shapeCast_self]
  simp only [addf_apply, maximumf_apply, broadcast_apply, mm_zq, mm_emb, mm_h1, mm_h2, bias_apply]
  simp only [hzq, hemb, hD.h18, hD.h19, hD.h20, hD.h21, hD.h22, hD.h23, hD.h24, Ideal.ofBits_def, Ideal.ofBits_zero_f32]
  rfl

/-- The reconstruction at a row of type `t` whose decoder output is `pd`. -/
theorem RECv_row (W : Wts) (ohv : FVec Ideal S1024x5 .f32) (pdv : FVec Ideal S1024x32 .f32) (x16 : Vec Ideal S4x128 .f32) (x17 : Vec Ideal S128 .f32) (x18 : Vec Ideal S128x256 .f32) (x19 : Vec Ideal S16x256 .f32) (x20 : Vec Ideal S256 .f32) (x21 : Vec Ideal S256x512 .f32) (x22 : Vec Ideal S512 .f32) (x23 : Vec Ideal S512x32 .f32) (x24 : Vec Ideal S32 .f32) (x25 : Vec Ideal S128x5 .f32) (x26 : Vec Ideal S5 .f32) (x27 : Vec Ideal S128x2 .f32) (x28 : Vec Ideal S2 .f32) (x29 : Vec Ideal S5x11x32 .f32) (x30 : Vec Ideal S5x11 .f32)
    (hD : DecW W x16 x17 x18 x19 x20 x21 x22 x23 x24 x25 x26 x27 x28 x29 x30)
    (r : Fin 1024) (t : Fin 5) (hoh : ∀ u : Fin 5, ohv (ix2 r u) = (if u = t then 1 else 0 : EReal))
    (pd : Fin 32 → EReal) (hpd : ∀ p, pdv (ix2 r p) = pd p) (j : Fin 11) :
    RECv (F := Ideal) ohv pdv x29 x30 (ix2 r j) = reconOf W pd t j := by
  have s0 : ∀ k, shapeCast S11x32 (View.ld x29 r0_34) shapeCasts_S1x11x32_S11x32 (ix2 j k) = x29 (ix3 (0 : Fin 5) j k) :=
    fun k => slab_apply x29 0 _ rfl rfl rfl _ _ j k
  have s1 : ∀ k, shapeCast S11x32 (View.ld x29 r0_36) shapeCasts_S1x11x32_S11x32 (ix2 j k) = x29 (ix3 (1 : Fin 5) j k) :=
    fun k => slab_apply x29 1 _ rfl rfl rfl _ _ j k
  have s2 : ∀ k, shapeCast S11x32 (View.ld x29 r0_38) shapeCasts_S1x11x32_S11x32 (ix2 j k) = x29 (ix3 (2 : Fin 5) j k) :=
    fun k => slab_apply x29 2 _ rfl rfl rfl _ _ j k
  have s3 : ∀ k, shapeCast S11x32 (View.ld x29 r0_40) shapeCasts_S1x11x32_S11x32 (ix2 j k) = x29 (ix3 (3 : Fin 5) j k) :=
    fun k => slab_apply x29 3 _ rfl rfl rfl _ _ j k
  have s4 : ∀ k, shapeCast S11x32 (View.ld x29 r0_42) shapeCasts_S1x11x32_S11x32 (ix2 j k) = x29 (ix3 (4 : Fin 5) j k) :=
    fun k => slab_apply x29 4 _ rfl rfl rfl _ _ j k
  have b0 := brow_apply x30 0 _ rfl rfl inb_S5x11_S1x11_0_0 shapeCasts_S1x11_S11 shapeCasts_S11_S1x11 broadcasts_S1x11_S1024x11 r j
  have b1 := brow_apply x30 1 _ rfl rfl inb_S5x11_S1x11_1_0 shapeCasts_S1x11_S11 shapeCasts_S11_S1x11 broadcasts_S1x11_S1024x11 r j
  have b2 := brow_apply x30 2 _ rfl rfl inb_S5x11_S1x11_2_0 shapeCasts_S1x11_S11 shapeCasts_S11_S1x11 broadcasts_S1x11_S1024x11 r j
  have b3 := brow_apply x30 3 _ rfl rfl inb_S5x11_S1x11_3_0 shapeCasts_S1x11_S11 shapeCasts_S11_S1x11 broadcasts_S1x11_S1024x11 r j
  have b4 := brow_apply x30 4 _ rfl rfl inb_S5x11_S1x11_4_0 shapeCasts_S1x11_S11 shapeCasts_S11_S1x11 broadcasts_S1x11_S1024x11 r j
  have c0 := col_apply ohv 0 _ rfl rfl slices_S1024x5_o0_0_S1024x1 broadcasts_S1024x1_S1024x11 r j
  have c1 := col_apply ohv 1 _ rfl rfl slices_S1024x5_o0_1_S1024x1 broadcasts_S1024x1_S1024x11 r j
  have c2 := col_apply ohv 2 _ rfl rfl slices_S1024x5_o0_2_S1024x1 broadcasts_S1024x1_S1024x11 r j
  have c3 := col_apply ohv 3 _ rfl rfl slices_S1024x5_o0_3_S1024x1 broadcasts_S1024x1_S1024x11 r j
  have c4 := col_apply ohv 4 _ rfl rfl slices_S1024x5_o0_4_S1024x1 broadcasts_S1024x1_S1024x11 r j
  unfold RECv k0_pay1 k0_pay17 k0_pay18 k0_pay19 k0_pay15 k0_pay16
  simp only [addf_apply, mulf_apply, broadcast_apply, mm_rec, s0, s1, s2, s3, s4, b0, b1, b2, b3, b4, c0, c1, c2, c3, c4]
  simp only [hoh, hpd, hD.h29, hD.h30, Ideal.ofBits_def, Ideal.ofBits_zero_f32]
  exact sel5 (fun u => (∑ p : Fin 32, pd p * W.Wdr (ix3 u j p)) + W.bdr (ix2 u j)) t

end Cert.KernelIdeal.KT

end
-- ==== Proof.KRow.lean ====
/-
  The body's five stored values at one row of type `t`: the row's results of Proof/Spec.lean, by composing the encoder's,
  the quantiser's, the heads' and the decoder's statements.
-/
import proofs.«425746_j43550968382251_1_alg».proof.Proof.KEnc
import proofs.«425746_j43550968382251_1_alg».proof.Proof.KDec1
import proofs.«425746_j43550968382251_1_alg».proof.Proof.KDec2

noncomputable section

namespace Cert.KernelIdeal.KT

open Idealize.ShloMosaic Idealize.ShloMosaic.ValueIdx Idealize.SL.Sem
open Cert.KernelIdeal Cert.KernelIdeal.Gen Cert.Spec

variable (W : Wts) (C : Consts) (x0 : Vec Ideal S1024x11 .f32) (x1 : Vec Ideal S1024x1 .i32) (x2 : Vec Ideal S5x16 .f32) (x3 : Vec Ideal S5x32x11 .f32) (x4 : Vec Ideal S5x32 .f32) (x5 : Vec Ideal S32x512 .f32) (x6 : Vec Ideal S16x512 .f32) (x7 : Vec Ideal S512 .f32) (x8 : Vec Ideal S512x256 .f32) (x9 : Vec Ideal S256 .f32) (x10 : Vec Ideal S256x128 .f32) (x11 : Vec Ideal S128 .f32) (x12 : Vec Ideal S128x128 .f32) (x13 : Vec Ideal S128 .f32) (x14 : Vec Ideal S128x4 .f32) (x15 : Vec Ideal S4 .f32) (x16 : Vec Ideal S4x128 .f32) (x17 : Vec Ideal S128 .f32) (x18 : Vec Ideal S128x256 .f32) (x19 : Vec Ideal S16x256 .f32) (x20 : Vec Ideal S256 .f32) (x21 : Vec Ideal S256x512 .f32) (x22 : Vec Ideal S512 .f32) (x23 : Vec Ideal S512x32 .f32) (x24 : Vec Ideal S32 .f32) (x25 : Vec Ideal S128x5 .f32) (x26 : Vec Ideal S5 .f32) (x27 : Vec Ideal S128x2 .f32) (x28 : Vec Ideal S2 .f32) (x29 : Vec Ideal S5x11x32 .f32) (x30 : Vec Ideal S5x11 .f32) (x31 : Vec Ideal S1x4 .f32) (x32 : Vec Ideal S1x4 .f32) (x33 : Vec Ideal S1x4 .f32) (x34 : Vec Ideal S1x4 .f32) (x35 : Vec Ideal S1x4 .f32)

theorem zq_row (hE : EncW W x2 x3 x4 x5 x6 x7 x8 x9 x10 x11 x12 x13 x14 x15) (hC : QC C x31 x32 x33 x34 x35) (hD : DecW W x16 x17 x18 x19 x20 x21 x22 x23 x24 x25 x26 x27 x28 x29 x30)
    (r : Fin 1024) (t : Fin 5) (hs : x1 (ix2 r (0 : Fin 1)) = BitVec.ofNat 32 t.val) (j : Fin 128) :
    (ZQv (F := Ideal) (ZPv (F := Ideal) x0 x1 x2 x3 x4 x5 x6 x7 x8 x9 x10 x11 x12 x13 x14 x15) x31 x32 x33 x34 x16 x17) (ix2 r j) = zqR W C (fun k => x0 (ix2 r k)) t j :=
  ZQv_row W C _ x31 x32 x33 x34 x35 x16 x17 x18 x19 x20 x21 x22 x23 x24 x25 x26 x27 x28 x29 x30 hC hD r _ (fun j => ZPv_row W x0 x1 x2 x3 x4 x5 x6 x7 x8 x9 x10 x11 x12 x13 x14 x15 hE r t hs j) j

theorem cls_row (hE : EncW W x2 x3 x4 x5 x6 x7 x8 x9 x10 x11 x12 x13 x14 x15) (hC : QC C x31 x32 x33 x34 x35) (hD : DecW W x16 x17 x18 x19 x20 x21 x22 x23 x24 x25 x26 x27 x28 x29 x30)
    (r : Fin 1024) (t : Fin 5) (hs : x1 (ix2 r (0 : Fin 1)) = BitVec.ofNat 32 t.val) (j : Fin 5) :
    CLSv (F := Ideal) (ZPv (F := Ideal) x0 x1 x2 x3 x4 x5 x6 x7 x8 x9 x10 x11 x12 x13 x14 x15) x31 x32 x33 x34 x16 x17 x25 x26 (ix2 r j) = clsR W C (fun k => x0 (ix2 r k)) t j :=
  CLSv_row W C _ x31 x32 x33 x34 x35 x16 x17 x18 x19 x20 x21 x22 x23 x24 x25 x26 x27 x28 x29 x30 hC hD r _ (fun j => ZPv_row W x0 x1 x2 x3 x4 x5 x6 x7 x8 x9 x10 x11 x12 x13 x14 x15 hE r t hs j) j

theorem clo_row (hE : EncW W x2 x3 x4 x5 x6 x7 x8 x9 x10 x11 x12 x13 x14 x15) (hC : QC C x31 x32 x33 x34 x35) (hD : DecW W x16 x17 x18 x19 x20 x21 x22 x23 x24 x25 x26 x27 x28 x29 x30)
    (r : Fin 1024) (t : Fin 5) (hs : x1 (ix2 r (0 : Fin 1)) = BitVec.ofNat 32 t.val) (j : Fin 2) :
    CLOv (F := Ideal) (ZQv (F := Ideal) (ZPv (F := Ideal) x0 x1 x2 x3 x4 x5 x6 x7 x8 x9 x10 x11 x12 x13 x14 x15) x31 x32 x33 x34 x16 x17) x27 x28 (ix2 r j) = cloR W C (fun k => x0 (ix2 r k)) t j :=
  CLOv_row W _ x16 x17 x18 x19 x20 x21 x22 x23 x24 x25 x26 x27 x28 x29 x30 hD r _ (fun j => zq_row W C x0 x1 x2 x3 x4 x5 x6 x7 x8 x9 x10 x11 x12 x13 x14 x15 x16 x17 x18 x19 x20 x21 x22 x23 x24 x25 x26 x27 x28 x29 x30 x31 x32 x33 x34 x35 hE hC hD r t hs j) j

theorem idx_row (hE : EncW W x2 x3 x4 x5 x6 x7 x8 x9 x10 x11 x12 x13 x14 x15) (hC : QC C x31 x32 x33 x34 x35) (hD : DecW W x16 x17 x18 x19 x20 x21 x22 x23 x24 x25 x26 x27 x28 x29 x30)
    (r : Fin 1024) (t : Fin 5) (hs : x1 (ix2 r (0 : Fin 1)) = BitVec.ofNat 32 t.val) :
    IDXv (F := Ideal) (ZPv (F := Ideal) x0 x1 x2 x3 x4 x5 x6 x7 x8 x9 x10 x11 x12 x13 x14 x15) x31 x32 x33 x34 x35 (ix2 r (0 : Fin 1)) = idxR W C (fun k => x0 (ix2 r k)) t :=
  IDXv_row C _ x31 x32 x33 x34 x35 hC r _ (fun j => ZPv_row W x0 x1 x2 x3 x4 x5 x6 x7 x8 x9 x10 x11 x12 x13 x14 x15 hE r t hs j)

theorem pd_row (hE : EncW W x2 x3 x4 x5 x6 x7 x8 x9 x10 x11 x12 x13 x14 x15) (hC : QC C x31 x32 x33 x34 x35) (hD : DecW W x16 x17 x18 x19 x20 x21 x22 x23 x24 x25 x26 x27 x28 x29 x30)
    (r : Fin 1024) (t : Fin 5) (hs : x1 (ix2 r (0 : Fin 1)) = BitVec.ofNat 32 t.val) (j : Fin 32) :
    (PDv (F := Ideal) (EMBv (F := Ideal) x1 x2) (ZQv (F := Ideal) (ZPv (F := Ideal) x0 x1 x2 x3 x4 x5 x6 x7 x8 x9 x10 x11 x12 x13 x14 x15) x31 x32 x33 x34 x16 x17) x18 x19 x20 x21 x22 x23 x24) (ix2 r j) = pdR W C (fun k => x0 (ix2 r k)) t j := by
  have h2 : x2 = W.typeEmb := hE.h2
  exact PDv_row W _ _ x16 x17 x18 x19 x20 x21 x22 x23 x24 x25 x26 x27 x28 x29 x30 hD r _ (fun e => (EMBv_row x1 x2 r t hs e).trans (by rw [h2]; rfl)) _
    (fun j => zq_row W C x0 x1 x2 x3 x4 x5 x6 x7 x8 x9 x10 x11 x12 x13 x14 x15 x16 x17 x18 x19 x20 x21 x22 x23 x24 x25 x26 x27 x28 x29 x30 x31 x32 x33 x34 x35 hE hC hD r t hs j) j

theorem rec_row (hE : EncW W x2 x3 x4 x5 x6 x7 x8 x9 x10 x11 x12 x13 x14 x15) (hC : QC C x31 x32 x33 x34 x35) (hD : DecW W x16 x17 x18 x19 x20 x21 x22 x23 x24 x25 x26 x27 x28 x29 x30)
    (r : Fin 1024) (t : Fin 5) (hs : x1 (ix2 r (0 : Fin 1)) = BitVec.ofNat 32 t.val) (j : Fin 11) :
    RECv (F := Ideal) (OHv (F := Ideal) x1) (PDv (F := Ideal) (EMBv (F := Ideal) x1 x2) (ZQv (F := Ideal) (ZPv (F := Ideal) x0 x1 x2 x3 x4 x5 x6 x7 x8 x9 x10 x11 x12 x13 x14 x15) x31 x32 x33 x34 x16 x17) x18 x19 x20 x21 x22 x23 x24) x29 x30 (ix2 r j) = reconR W C (fun k => x0 (ix2 r k)) t j :=
  RECv_row W _ _ x16 x17 x18 x19 x20 x21 x22 x23 x24 x25 x26 x27 x28 x29 x30 hD r t (fun u => OHv_row x1 r t hs u) _
    (fun p => pd_row W C x0 x1 x2 x3 x4 x5 x6 x7 x8 x9 x10 x11 x12 x13 x14 x15 x16 x17 x18 x19 x20 x21 x22 x23 x24 x25 x26 x27 x28 x29 x30 x31 x32 x33 x34 x35 hE hC hD r t hs p) j

end Cert.KernelIdeal.KT

end
-- ==== Proof.KBlocks.lean ====
/-
  The blocks the kernel body loads at a grid point, as values of the program's arguments.  Grid point `t` stages rows
  `1024 t … 1024 t + 1023` of the parameter array and of the surface-type column (the surface types reshaped to a column
  before the region); every other window stages its whole array at every point: the weights as launched — the two
  first-layer matrices each as its two row slices, cut before the region — and the quantiser's five constant rows, literal
  tables reshaped before the region.
-/
import proofs.«425746_j43550968382251_1_alg».proof.Proof.FrameKernelIdeal
import proofs.«425746_j43550968382251_1_alg».proof.Proof.KIface
import Idealize.ShloMosaic.Lib.Pipeline.Value
import Idealize.ShloMosaic.Lib.StableHlo.Run

set_option maxRecDepth 16384

noncomputable section

namespace Cert.KernelIdeal.KV

open Idealize.ShloMosaic Idealize.ShloMosaic.TcCoe Idealize.ShloMosaic.ValueIdx Idealize.SL.Sem
open Cert.KernelIdeal Cert.KernelIdeal.Gen Cert.KernelIdeal.GenP Cert.KernelIdeal.KT Cert.Spec

variable (m : (ℓ : Loc nD τ sig) → Buf (Elt Ideal) ℓ)

/-- The network's weights: the program's arguments 2 … 28 as a device is launched with them. -/
def WofM (c : Dev nD) : Wts where
  typeEmb := m ((c.tc : Thread nD τ).loc main_arg2)
  Wpe := m ((c.tc : Thread nD τ).loc main_arg3)
  bpe := m ((c.tc : Thread nD τ).loc main_arg4)
  We1 := m ((c.tc : Thread nD τ).loc main_arg5)
  be1 := m ((c.tc : Thread nD τ).loc main_arg6)
  We2 := m ((c.tc : Thread nD τ).loc main_arg7)
  be2 := m ((c.tc : Thread nD τ).loc main_arg8)
  We3 := m ((c.tc : Thread nD τ).loc main_arg9)
  be3 := m ((c.tc : Thread nD τ).loc main_arg10)
  We4 := m ((c.tc : Thread nD τ).loc main_arg11)
  be4 := m ((c.tc : Thread nD τ).loc main_arg12)
  Wpin := m ((c.tc : Thread nD τ).loc main_arg13)
  bpin := m ((c.tc : Thread nD τ).loc main_arg14)
  Wpout := m ((c.tc : Thread nD τ).loc main_arg15)
  bpout := m ((c.tc : Thread nD τ).loc main_arg16)
  Wd1 := m ((c.tc : Thread nD τ).loc main_arg17)
  bd1 := m ((c.tc : Thread nD τ).loc main_arg18)
  Wd2 := m ((c.tc : Thread nD τ).loc main_arg19)
  bd2 := m ((c.tc : Thread nD τ).loc main_arg20)
  Wd3 := m ((c.tc : Thread nD τ).loc main_arg21)
  bd3 := m ((c.tc : Thread nD τ).loc main_arg22)
  Wcls := m ((c.tc : Thread nD τ).loc main_arg23)
  bcls := m ((c.tc : Thread nD τ).loc main_arg24)
  Wclo := m ((c.tc : Thread nD τ).loc main_arg25)
  bclo := m ((c.tc : Thread nD τ).loc main_arg26)
  Wdr := m ((c.tc : Thread nD τ).loc main_arg27)
  bdr := m ((c.tc : Thread nD τ).loc main_arg28)

/-- The quantiser's constants: the program's five literal tables of four floats, each word at its exact value. -/
def CK : Consts where
  shift := fun j => FloatOps.ofBits (F := Ideal) .f32 (lit0 j)
  halfL := fun j => FloatOps.ofBits (F := Ideal) .f32 (lit1 j)
  offset := fun j => FloatOps.ofBits (F := Ideal) .f32 (lit2 j)
  halfW := fun j => FloatOps.ofBits (F := Ideal) .f32 (lit3 j)
  basis := fun j => FloatOps.ofBits (F := Ideal) .f32 (lit4 j)

/-! ## Each input window's block at a point, at its literal type -/

abbrev b0 (c : Dev nD) (t : Fin cfg0.N) : Vec Ideal S1024x11 .f32 := iblk (F := Ideal) m c 0 t
abbrev b1 (c : Dev nD) (t : Fin cfg0.N) : Vec Ideal S1024x1 .i32 := iblk (F := Ideal) m c 1 t
abbrev b2 (c : Dev nD) (t : Fin cfg0.N) : Vec Ideal S5x16 .f32 := iblk (F := Ideal) m c 2 t
abbrev b3 (c : Dev nD) (t : Fin cfg0.N) : Vec Ideal S5x32x11 .f32 := iblk (F := Ideal) m c 3 t
abbrev b4 (c : Dev nD) (t : Fin cfg0.N) : Vec Ideal S5x32 .f32 := iblk (F := Ideal) m c 4 t
abbrev b5 (c : Dev nD) (t : Fin cfg0.N) : Vec Ideal S32x512 .f32 := iblk (F := Ideal) m c 5 t
abbrev b6 (c : Dev nD) (t : Fin cfg0.N) : Vec Ideal S16x512 .f32 := iblk (F := Ideal) m c 6 t
abbrev b7 (c : Dev nD) (t : Fin cfg0.N) : Vec Ideal S512 .f32 := iblk (F := Ideal) m c 7 t
abbrev b8 (c : Dev nD) (t : Fin cfg0.N) : Vec Ideal S512x256 .f32 := iblk (F := Ideal) m c 8 t
abbrev b9 (c : Dev nD) (t : Fin cfg0.N) : Vec Ideal S256 .f32 := iblk (F := Ideal) m c 9 t
abbrev b10 (c : Dev nD) (t : Fin cfg0.N) : Vec Ideal S256x128 .f32 := iblk (F := Ideal) m c 10 t
abbrev b11 (c : Dev nD) (t : Fin cfg0.N) : Vec Ideal S128 .f32 := iblk (F := Ideal) m c 11 t
abbrev b12 (c : Dev nD) (t : Fin cfg0.N) : Vec Ideal S128x128 .f32 := iblk (F := Ideal) m c 12 t
abbrev b13 (c : Dev nD) (t : Fin cfg0.N) : Vec Ideal S128 .f32 := iblk (F := Ideal) m c 13 t
abbrev b14 (c : Dev nD) (t : Fin cfg0.N) : Vec Ideal S128x4 .f32 := iblk (F := Ideal) m c 14 t
abbrev b15 (c : Dev nD) (t : Fin cfg0.N) : Vec Ideal S4 .f32 := iblk (F := Ideal) m c 15 t
abbrev b16 (c : Dev nD) (t : Fin cfg0.N) : Vec Ideal S4x128 .f32 := iblk (F := Ideal) m c 16 t
abbrev b17 (c : Dev nD) (t : Fin cfg0.N) : Vec Ideal S128 .f32 := iblk (F := Ideal) m c 17 t
abbrev b18 (c : Dev nD) (t : Fin cfg0.N) : Vec Ideal S128x256 .f32 := iblk (F := Ideal) m c 18 t
abbrev b19 (c : Dev nD) (t : Fin cfg0.N) : Vec Ideal S16x256 .f32 := iblk (F := Ideal) m c 19 t
abbrev b20 (c : Dev nD) (t : Fin cfg0.N) : Vec Ideal S256 .f32 := iblk (F := Ideal) m c 20 t
abbrev b21 (c : Dev nD) (t : Fin cfg0.N) : Vec Ideal S256x512 .f32 := iblk (F := Ideal) m c 21 t
abbrev b22 (c : Dev nD) (t : Fin cfg0.N) : Vec Ideal S512 .f32 := iblk (F := Ideal) m c 22 t
abbrev b23 (c : Dev nD) (t : Fin cfg0.N) : Vec Ideal S512x32 .f32 := iblk (F := Ideal) m c 23 t
abbrev b24 (c : Dev nD) (t : Fin cfg0.N) : Vec Ideal S32 .f32 := iblk (F := Ideal) m c 24 t
abbrev b25 (c : Dev nD) (t : Fin cfg0.N) : Vec Ideal S128x5 .f32 := iblk (F := Ideal) m c 25 t
abbrev b26 (c : Dev nD) (t : Fin cfg0.N) : Vec Ideal S5 .f32 := iblk (F := Ideal) m c 26 t
abbrev b27 (c : Dev nD) (t : Fin cfg0.N) : Vec Ideal S128x2 .f32 := iblk (F := Ideal) m c 27 t
abbrev b28 (c : Dev nD) (t : Fin cfg0.N) : Vec Ideal S2 .f32 := iblk (F := Ideal) m c 28 t
abbrev b29 (c : Dev nD) (t : Fin cfg0.N) : Vec Ideal S5x11x32 .f32 := iblk (F := Ideal) m c 29 t
abbrev b30 (c : Dev nD) (t : Fin cfg0.N) : Vec Ideal S5x11 .f32 := iblk (F := Ideal) m c 30 t
abbrev b31 (c : Dev nD) (t : Fin cfg0.N) : Vec Ideal S1x4 .f32 := iblk (F := Ideal) m c 31 t
abbrev b32 (c : Dev nD) (t : Fin cfg0.N) : Vec Ideal S1x4 .f32 := iblk (F := Ideal) m c 32 t
abbrev b33 (c : Dev nD) (t : Fin cfg0.N) : Vec Ideal S1x4 .f32 := iblk (F := Ideal) m c 33 t
abbrev b34 (c : Dev nD) (t : Fin cfg0.N) : Vec Ideal S1x4 .f32 := iblk (F := Ideal) m c 34 t
abbrev b35 (c : Dev nD) (t : Fin cfg0.N) : Vec Ideal S1x4 .f32 := iblk (F := Ideal) m c 35 t

/-! ## A window that stages its whole array

Windows 2 … 35 have the constant index map 0 on every axis and a block as large as the array, so an element of the
block sits in the array at its own coordinates: the block is the array as the region finds it. -/

set_option hygiene false in
/-- The block of a rank-1 window with block index 0 is its array. -/
local macro "whole_blk1" n:num A:ident W:ident : tactic => `(tactic| (
  funext y
  show V m c $A (((cfg0.win $n).blk t).view.emb y) = V m c $A y
  refine congrArg _ (funext fun d => Fin.ext ?_)
  match d with
  | ⟨0, _⟩ => exact Pipeline.Window.rect_emb_val_of_index_zero $W t (0 : Fin 1) rfl y))

set_option hygiene false in
/-- The block of a rank-2 window with block index (0, 0) is its array. -/
local macro "whole_blk2" n:num A:ident W:ident : tactic => `(tactic| (
  funext y
  show V m c $A (((cfg0.win $n).blk t).view.emb y) = V m c $A y
  refine congrArg _ (funext fun d => Fin.ext ?_)
  match d with
  | ⟨0, _⟩ => exact Pipeline.Window.rect_emb_val_of_index_zero $W t (0 : Fin 2) rfl y
  | ⟨1, _⟩ => exact Pipeline.Window.rect_emb_val_of_index_zero $W t (1 : Fin 2) rfl y))

set_option hygiene false in
/-- The block of a rank-3 window with block index (0, 0, 0) is its array. -/
local macro "whole_blk3" n:num A:ident W:ident : tactic => `(tactic| (
  funext y
  show V m c $A (((cfg0.win $n).blk t).view.emb y) = V m c $A y
  refine congrArg _ (funext fun d => Fin.ext ?_)
  match d with
  | ⟨0, _⟩ => exact Pipeline.Window.rect_emb_val_of_index_zero $W t (0 : Fin 3) rfl y
  | ⟨1, _⟩ => exact Pipeline.Window.rect_emb_val_of_index_zero $W t (1 : Fin 3) rfl y
  | ⟨2, _⟩ => exact Pipeline.Window.rect_emb_val_of_index_zero $W t (2 : Fin 3) rfl y))

theorem b2_V (c : Dev nD) (t : Fin cfg0.N) : b2 m c t = V m c main_arg2 := by whole_blk2 2 main_arg2 win0_2
theorem b3_V (c : Dev nD) (t : Fin cfg0.N) : b3 m c t = V m c main_arg3 := by whole_blk3 3 main_arg3 win0_3
theorem b4_V (c : Dev nD) (t : Fin cfg0.N) : b4 m c t = V m c main_arg4 := by whole_blk2 4 main_arg4 win0_4
theorem b5_V (c : Dev nD) (t : Fin cfg0.N) : b5 m c t = V m c main_v1 := by whole_blk2 5 main_v1 win0_5
theorem b6_V (c : Dev nD) (t : Fin cfg0.N) : b6 m c t = V m c main_v2 := by whole_blk2 6 main_v2 win0_6
theorem b7_V (c : Dev nD) (t : Fin cfg0.N) : b7 m c t = V m c main_arg6 := by whole_blk1 7 main_arg6 win0_7
theorem b8_V (c : Dev nD) (t : Fin cfg0.N) : b8 m c t = V m c main_arg7 := by whole_blk2 8 main_arg7 win0_8
theorem b9_V (c : Dev nD) (t : Fin cfg0.N) : b9 m c t = V m c main_arg8 := by whole_blk1 9 main_arg8 win0_9
theorem b10_V (c : Dev nD) (t : Fin cfg0.N) : b10 m c t = V m c main_arg9 := by whole_blk2 10 main_arg9 win0_10
theorem b11_V (c : Dev nD) (t : Fin cfg0.N) : b11 m c t = V m c main_arg10 := by whole_blk1 11 main_arg10 win0_11
theorem b12_V (c : Dev nD) (t : Fin cfg0.N) : b12 m c t = V m c main_arg11 := by whole_blk2 12 main_arg11 win0_12
theorem b13_V (c : Dev nD) (t : Fin cfg0.N) : b13 m c t = V m c main_arg12 := by whole_blk1 13 main_arg12 win0_13
theorem b14_V (c : Dev nD) (t : Fin cfg0.N) : b14 m c t = V m c main_arg13 := by whole_blk2 14 main_arg13 win0_14
theorem b15_V (c : Dev nD) (t : Fin cfg0.N) : b15 m c t = V m c main_arg14 := by whole_blk1 15 main_arg14 win0_15
theorem b16_V (c : Dev nD) (t : Fin cfg0.N) : b16 m c t = V m c main_arg15 := by whole_blk2 16 main_arg15 win0_16
theorem b17_V (c : Dev nD) (t : Fin cfg0.N) : b17 m c t = V m c main_arg16 := by whole_blk1 17 main_arg16 win0_17
theorem b18_V (c : Dev nD) (t : Fin cfg0.N) : b18 m c t = V m c main_v3 := by whole_blk2 18 main_v3 win0_18
theorem b19_V (c : Dev nD) (t : Fin cfg0.N) : b19 m c t = V m c main_v4 := by whole_blk2 19 main_v4 win0_19
theorem b20_V (c : Dev nD) (t : Fin cfg0.N) : b20 m c t = V m c main_arg18 := by whole_blk1 20 main_arg18 win0_20
theorem b21_V (c : Dev nD) (t : Fin cfg0.N) : b21 m c t = V m c main_arg19 := by whole_blk2 21 main_arg19 win0_21
theorem b22_V (c : Dev nD) (t : Fin cfg0.N) : b22 m c t = V m c main_arg20 := by whole_blk1 22 main_arg20 win0_22
theorem b23_V (c : Dev nD) (t : Fin cfg0.N) : b23 m c t = V m c main_arg21 := by whole_blk2 23 main_arg21 win0_23
theorem b24_V (c : Dev nD) (t : Fin cfg0.N) : b24 m c t = V m c main_arg22 := by whole_blk1 24 main_arg22 win0_24
theorem b25_V (c : Dev nD) (t : Fin cfg0.N) : b25 m c t = V m c main_arg23 := by whole_blk2 25 main_arg23 win0_25
theorem b26_V (c : Dev nD) (t : Fin cfg0.N) : b26 m c t = V m c main_arg24 := by whole_blk1 26 main_arg24 win0_26
theorem b27_V (c : Dev nD) (t : Fin cfg0.N) : b27 m c t = V m c main_arg25 := by whole_blk2 27 main_arg25 win0_27
theorem b28_V (c : Dev nD) (t : Fin cfg0.N) : b28 m c t = V m c main_arg26 := by whole_blk1 28 main_arg26 win0_28
theorem b29_V (c : Dev nD) (t : Fin cfg0.N) : b29 m c t = V m c main_arg27 := by whole_blk3 29 main_arg27 win0_29
theorem b30_V (c : Dev nD) (t : Fin cfg0.N) : b30 m c t = V m c main_arg28 := by whole_blk2 30 main_arg28 win0_30
theorem b31_V (c : Dev nD) (t : Fin cfg0.N) : b31 m c t = V m c main_v5 := by whole_blk2 31 main_v5 win0_31
theorem b32_V (c : Dev nD) (t : Fin cfg0.N) : b32 m c t = V m c main_v6 := by whole_blk2 32 main_v6 win0_32
theorem b33_V (c : Dev nD) (t : Fin cfg0.N) : b33 m c t = V m c main_v7 := by whole_blk2 33 main_v7 win0_33
theorem b34_V (c : Dev nD) (t : Fin cfg0.N) : b34 m c t = V m c main_v8 := by whole_blk2 34 main_v8 win0_34
theorem b35_V (c : Dev nD) (t : Fin cfg0.N) : b35 m c t = V m c main_v9 := by whole_blk2 35 main_v9 win0_35

/-! ## The arrays the operations before the region wrote -/

/-- The surface-type column is the surface types recast from [262144] to [262144, 1]. -/
theorem V_main_v0 (c : Dev nD) : (V m c main_v0 : S262144x1.Idx → Elt Ideal .i32)
    = shapeCast S262144x1 (m ((c.tc : Thread nD τ).loc main_arg1)) shapeCasts_S262144_S262144x1 := by
  dsimp only [V, V0]
  simp only [hostOps0, List.flatten_cons, List.flatten_nil, List.append_nil]
  after_results
  rfl

/-- Rows 0 … 31 of the encoder's first matrix. -/
theorem V_main_v1 (c : Dev nD) : (V m c main_v1 : S32x512.Idx → Elt Ideal .f32)
    = extractStridedSlice S32x512 ![0, 0] (m ((c.tc : Thread nD τ).loc main_arg5)) slices_S48x512_S32x512_0_0 := by
  dsimp only [V, V0]
  simp only [hostOps0, List.flatten_cons, List.flatten_nil, List.append_nil]
  after_results

/-- Rows 32 … 47 of the encoder's first matrix. -/
theorem V_main_v2 (c : Dev nD) : (V m c main_v2 : S16x512.Idx → Elt Ideal .f32)
    = extractStridedSlice S16x512 ![32, 0] (m ((c.tc : Thread nD τ).loc main_arg5)) slices_S48x512_S16x512_32_0 := by
  dsimp only [V, V0]
  simp only [hostOps0, List.flatten_cons, List.flatten_nil, List.append_nil]
  after_results

/-- Rows 0 … 127 of the decoder's first matrix. -/
theorem V_main_v3 (c : Dev nD) : (V m c main_v3 : S128x256.Idx → Elt Ideal .f32)
    = extractStridedSlice S128x256 ![0, 0] (m ((c.tc : Thread nD τ).loc main_arg17)) slices_S144x256_S128x256_0_0 := by
  dsimp only [V, V0]
  simp only [hostOps0, List.flatten_cons, List.flatten_nil, List.append_nil]
  after_results

/-- Rows 128 … 143 of the decoder's first matrix. -/
theorem V_main_v4 (c : Dev nD) : (V m c main_v4 : S16x256.Idx → Elt Ideal .f32)
    = extractStridedSlice S16x256 ![128, 0] (m ((c.tc : Thread nD τ).loc main_arg17)) slices_S144x256_S16x256_128_0 := by
  dsimp only [V, V0]
  simp only [hostOps0, List.flatten_cons, List.flatten_nil, List.append_nil]
  after_results

/-- The first constant table recast from [4] to [1, 4]. -/
theorem V_main_v5 (c : Dev nD) : (V m c main_v5 : S1x4.Idx → Elt Ideal .f32)
    = shapeCast S1x4 (fun i : S4.Idx => FloatOps.ofBits (F := Ideal) .f32 (lit0 (S4.rowMajor i))) shapeCasts_S4_S1x4 := by
  dsimp only [V, V0]
  simp only [hostOps0, List.flatten_cons, List.flatten_nil, List.append_nil]
  after_results
  rfl

/-- The second constant table recast from [4] to [1, 4]. -/
theorem V_main_v6 (c : Dev nD) : (V m c main_v6 : S1x4.Idx → Elt Ideal .f32)
    = shapeCast S1x4 (fun i : S4.Idx => FloatOps.ofBits (F := Ideal) .f32 (lit1 (S4.rowMajor i))) shapeCasts_S4_S1x4 := by
  dsimp only [V, V0]
  simp only [hostOps0, List.flatten_cons, List.flatten_nil, List.append_nil]
  after_results
  rfl

/-- The third constant table recast from [4] to [1, 4]. -/
theorem V_main_v7 (c : Dev nD) : (V m c main_v7 : S1x4.Idx → Elt Ideal .f32)
    = shapeCast S1x4 (fun i : S4.Idx => FloatOps.ofBits (F := Ideal) .f32 (lit2 (S4.rowMajor i))) shapeCasts_S4_S1x4 := by
  dsimp only [V, V0]
  simp only [hostOps0, List.flatten_cons, List.flatten_nil, List.append_nil]
  after_results
  rfl

/-- The fourth constant table recast from [4] to [1, 4]. -/
theorem V_main_v8 (c : Dev nD) : (V m c main_v8 : S1x4.Idx → Elt Ideal .f32)
    = shapeCast S1x4 (fun i : S4.Idx => FloatOps.ofBits (F := Ideal) .f32 (lit3 (S4.rowMajor i))) shapeCasts_S4_S1x4 := by
  dsimp only [V, V0]
  simp only [hostOps0, List.flatten_cons, List.flatten_nil, List.append_nil]
  after_results
  rfl

/-- The fifth constant table recast from [4] to [1, 4]. -/
theorem V_main_v9 (c : Dev nD) : (V m c main_v9 : S1x4.Idx → Elt Ideal .f32)
    = shapeCast S1x4 (fun i : S4.Idx => FloatOps.ofBits (F := Ideal) .f32 (lit4 (S4.rowMajor i))) shapeCasts_S4_S1x4 := by
  dsimp only [V, V0]
  simp only [hostOps0, List.flatten_cons, List.flatten_nil, List.append_nil]
  after_results
  rfl

/-- A table of four words recast from [4] to [1, 4] reads, at (0, j), the word at row-major position j, which is j. -/
theorem row_of_table (lit : Fin 4 → BitVec 32) (j : Fin 4) :
    shapeCast S1x4 (fun i : S4.Idx => FloatOps.ofBits (F := Ideal) .f32 (lit (S4.rowMajor i))) shapeCasts_S4_S1x4 (ix2 (0 : Fin 1) j)
      = FloatOps.ofBits (F := Ideal) .f32 (lit j) := by
  refine (shapeCast_apply _ _ (ix2 (0 : Fin 1) j) (ix1 j) (by
    rw [Shape.rowMajor_val_two, Shape.rowMajor_val_one]; show j.val = 0 * 4 + j.val; omega)).trans ?_
  show FloatOps.ofBits (F := Ideal) .f32 (lit (S4.rowMajor (ix1 j))) = _
  rw [show S4.rowMajor (ix1 j) = j from Fin.ext (Shape.rowMajor_val_one (ix1 j))]

/-! ## What the blocks hold -/

/-- The two windows cut in blocks of 1024 rows: at point `t` the block index is `t` on the row axis and 0 on the column axis. -/
theorem idx_rows : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- Row `r` of point `t`'s parameter block is row `1024 t + r` of the parameter array. -/
theorem b0_row (c : Dev nD) (t : Fin cfg0.N) (r : Fin 1024) (a : Fin 262144) (ha : a.val = t.val * 1024 + r.val) (k : Fin 11) :
    b0 m c t (ix2 r k) = m ((c.tc : Thread nD τ).loc main_arg0) (ix2 a k) := by
  obtain ⟨e0, e1, -, -⟩ := idx_rows t
  show V m c main_arg0 (((cfg0.win 0).blk t).view.emb (ix2 r k)) = _
  rw [V_main_arg0]
  refine congrArg _ ?_
  funext d; apply Fin.ext
  match d with
  | ⟨0, _⟩ => show win0_0.index t (0 : Fin 2) * 1024 + 1 * r.val = a.val; omega
  | ⟨1, _⟩ => show win0_0.index t (1 : Fin 2) * 11 + 1 * k.val = k.val; omega

/-- Row `r` of point `t`'s surface-type column is entry `1024 t + r` of the surface types. -/
theorem b1_row (c : Dev nD) (t : Fin cfg0.N) (r : Fin 1024) (a : Fin 262144) (ha : a.val = t.val * 1024 + r.val) :
    b1 m c t (ix2 r (0 : Fin 1)) = m ((c.tc : Thread nD τ).loc main_arg1) (ix1 a) := by
  obtain ⟨-, -, e0, e1⟩ := idx_rows t
  show V m c main_v0 (((cfg0.win 1).blk t).view.emb (ix2 r (0 : Fin 1))) = _
  rw [V_main_v0]
  refine shapeCast_apply _ _ _ (ix1 a) ?_
  rw [Shape.rowMajor_val_two, Shape.rowMajor_val_one]
  show a.val = (win0_1.index t (0 : Fin 2) * 1024 + 1 * r.val) * 1 + (win0_1.index t (1 : Fin 2) * 1 + 1 * 0)
  omega

/-- The encoder's blocks are the weights. -/
theorem encW (c : Dev nD) (t : Fin cfg0.N) :
    EncW (WofM m c) (b2 m c t) (b3 m c t) (b4 m c t) (b5 m c t) (b6 m c t) (b7 m c t) (b8 m c t) (b9 m c t) (b10 m c t) (b11 m c t) (b12 m c t) (b13 m c t) (b14 m c t) (b15 m c t) := by
  constructor
  · exact (b2_V m c t).trans (V_main_arg2 m c)
  · exact (b3_V m c t).trans (V_main_arg3 m c)
  · exact (b4_V m c t).trans (V_main_arg4 m c)
  · intro k j
    rw [b5_V, V_main_v1]
    exact extractStridedSlice_apply _ _ _ (ix2 k j) (ix2 (⟨k.val, by omega⟩ : Fin 48) j) (fun a => match a with
      | ⟨0, _⟩ => by show k.val = 0 + k.val; omega
      | ⟨1, _⟩ => by show j.val = 0 + j.val; omega)
  · intro k j
    rw [b6_V, V_main_v2]
    exact extractStridedSlice_apply _ _ _ (ix2 k j) (ix2 (⟨32 + k.val, by omega⟩ : Fin 48) j) (fun a => match a with
      | ⟨0, _⟩ => by show 32 + k.val = 32 + k.val; rfl
      | ⟨1, _⟩ => by show j.val = 0 + j.val; omega)
  · exact (b7_V m c t).trans (V_main_arg6 m c)
  · exact (b8_V m c t).trans (V_main_arg7 m c)
  · exact (b9_V m c t).trans (V_main_arg8 m c)
  · exact (b10_V m c t).trans (V_main_arg9 m c)
  · exact (b11_V m c t).trans (V_main_arg10 m c)
  · exact (b12_V m c t).trans (V_main_arg11 m c)
  · exact (b13_V m c t).trans (V_main_arg12 m c)
  · exact (b14_V m c t).trans (V_main_arg13 m c)
  · exact (b15_V m c t).trans (V_main_arg14 m c)

/-- The quantiser's constant rows are the constants. -/
theorem qcK (c : Dev nD) (t : Fin cfg0.N) :
    QC CK (b31 m c t) (b32 m c t) (b33 m c t) (b34 m c t) (b35 m c t) := by
  constructor
  · intro j; rw [b31_V, V_main_v5]; exact row_of_table lit0 j
  · intro j; rw [b32_V, V_main_v6]; exact row_of_table lit1 j
  · intro j; rw [b33_V, V_main_v7]; exact row_of_table lit2 j
  · intro j; rw [b34_V, V_main_v8]; exact row_of_table lit3 j
  · intro j; rw [b35_V, V_main_v9]; exact row_of_table lit4 j

/-- The decoder's and the heads' blocks are the weights. -/
theorem decW (c : Dev nD) (t : Fin cfg0.N) :
    DecW (WofM m c) (b16 m c t) (b17 m c t) (b18 m c t) (b19 m c t) (b20 m c t) (b21 m c t) (b22 m c t) (b23 m c t) (b24 m c t) (b25 m c t) (b26 m c t) (b27 m c t) (b28 m c t) (b29 m c t) (b30 m c t) := by
  constructor
  · exact (b16_V m c t).trans (V_main_arg15 m c)
  · exact (b17_V m c t).trans (V_main_arg16 m c)
  · intro k j
    rw [b18_V, V_main_v3]
    exact extractStridedSlice_apply _ _ _ (ix2 k j) (ix2 (⟨k.val, by omega⟩ : Fin 144) j) (fun a => match a with
      | ⟨0, _⟩ => by show k.val = 0 + k.val; omega
      | ⟨1, _⟩ => by show j.val = 0 + j.val; omega)
  · intro k j
    rw [b19_V, V_main_v4]
    exact extractStridedSlice_apply _ _ _ (ix2 k j) (ix2 (⟨128 + k.val, by omega⟩ : Fin 144) j) (fun a => match a with
      | ⟨0, _⟩ => by show 128 + k.val = 128 + k.val; rfl
      | ⟨1, _⟩ => by show j.val = 0 + j.val; omega)
  · exact (b20_V m c t).trans (V_main_arg18 m c)
  · exact (b21_V m c t).trans (V_main_arg19 m c)
  · exact (b22_V m c t).trans (V_main_arg20 m c)
  · exact (b23_V m c t).trans (V_main_arg21 m c)
  · exact (b24_V m c t).trans (V_main_arg22 m c)
  · exact (b25_V m c t).trans (V_main_arg23 m c)
  · exact (b26_V m c t).trans (V_main_arg24 m c)
  · exact (b27_V m c t).trans (V_main_arg25 m c)
  · exact (b28_V m c t).trans (V_main_arg26 m c)
  · exact (b29_V m c t).trans (V_main_arg27 m c)
  · exact (b30_V m c t).trans (V_main_arg28 m c)

end Cert.KernelIdeal.KV

end
-- ==== Proof.KMaskDef.lean ====
/-
  The kernel program's mask output as a function of the surface types: the lines of its host program after the kernel
  region, composed.  Column `r` of row `i` is set when `r` is below the raw dimension of the row's type, read from the table
  (7, 8, 9, 10, 11) at the row's surface type (a negative type wrapped by 5, then clamped into the table by the gather).
-/
import proofs.«425746_j43550968382251_1_alg».proof.Proof.Gen.KernelIdeal

noncomputable section

namespace Cert.KernelIdeal.KV

open Idealize.ShloMosaic Idealize.SL.Sem
open Cert.KernelIdeal Cert.KernelIdeal.Gen

variable {F : FTy → Type} [FloatOps F]

/-- The surface types with the negative ones wrapped by 5. -/
def wrapped (s : (⟨S262144, .i32⟩ : BufTy).Contents (Elt F)) : (⟨S262144, .i32⟩ : BufTy).Contents (Elt F) :=
  select (cmpi .slt s (broadcastInDim S262144 ![] bcast_S_S262144 (constantI S_ 32 0#32)))
    (addi s (broadcastInDim S262144 ![] bcast_S_S262144 (constantI S_ 32 5#32))) s

/-- Each row's raw dimension: the table (7, 8, 9, 10, 11) gathered at the wrapped surface type. -/
def rawDim (s : (⟨S262144, .i32⟩ : BufTy).Contents (Elt F)) : (⟨S262144, .i32⟩ : BufTy).Contents (Elt F) :=
  Host.gather gather_S5_S262144x1_S262144_n_0_n_n_0_1_1 (fun i => lit5 (S5.rowMajor i) : (⟨S5, .i32⟩ : BufTy).Contents (Elt F))
    (broadcastInDim S262144x1 ![0] bcast_S262144_S262144x1_0 (wrapped (F := F) s))

/-- The mask: column index below the row's raw dimension. -/
def KMask (s : (⟨S262144, .i32⟩ : BufTy).Contents (Elt F)) : (⟨S262144x11, .i1⟩ : BufTy).Contents (Elt F) :=
  cmpi .slt
    (broadcastInDim S262144x11 ![0, 1] bcast_S1x11_S262144x11_0_1 (broadcastInDim S1x11 ![1] bcast_S11_S1x11_1 (iotaInDim S11 32 0)))
    (broadcastInDim S262144x11 ![0, 1] bcast_S262144x1_S262144x11_0_1
      (broadcastInDim S262144x1 ![0] bcast_S262144_S262144x1_0 (rawDim (F := F) s)))

end Cert.KernelIdeal.KV

end
-- ==== Proof.KVal.lean ====
/-
  The kernel program's run, read as values.  Each grid point's block of rows is written with the rows' results of
  Proof/Spec.lean (Proof/KRow.lean: the body's stored values at a row), the 256 blocks of 1024 rows cover the 262144 rows, so
  after the region each output array is Proof/Spec.lean's whole array of the arguments; the host lines after the region
  reshape the code-index column to a vector and compute the mask from the surface types.
-/
import proofs.«425746_j43550968382251_1_alg».proof.Proof.FrameKernelIdeal
import proofs.«425746_j43550968382251_1_alg».proof.Proof.KRow
import proofs.«425746_j43550968382251_1_alg».proof.Proof.KBlocks
import proofs.«425746_j43550968382251_1_alg».proof.Proof.KMaskDef
import Idealize.ShloMosaic.Lib.Pipeline.Value
import Idealize.ShloMosaic.Lib.StableHlo.Run

set_option maxRecDepth 16384

noncomputable section

namespace Cert.KernelIdeal.KV

open Idealize.ShloMosaic Idealize.ShloMosaic.TcCoe Idealize.ShloMosaic.ValueIdx Idealize.SL.Sem
open Cert.KernelIdeal Cert.KernelIdeal.Gen Cert.KernelIdeal.GenP Cert.KernelIdeal.KT Cert.Spec
/-- The zero offsets of a rank-2 rectangle, as a constant function. -/
theorem hz2 : (![0, 0] : Fin 2 → Nat) = fun _ => 0 := funext fun a => by fin_cases a <;> rfl

/-! ## The body's five stored values are the compositions of Proof/KTerms.lean

Each output's staging buffer holds one covering store at offset zero, whose payload is the composition. -/

section Glue
variable (x0 : Vec Ideal S1024x11 .f32) (x1 : Vec Ideal S1024x1 .i32) (x2 : Vec Ideal S5x16 .f32) (x3 : Vec Ideal S5x32x11 .f32) (x4 : Vec Ideal S5x32 .f32) (x5 : Vec Ideal S32x512 .f32) (x6 : Vec Ideal S16x512 .f32) (x7 : Vec Ideal S512 .f32) (x8 : Vec Ideal S512x256 .f32) (x9 : Vec Ideal S256 .f32) (x10 : Vec Ideal S256x128 .f32) (x11 : Vec Ideal S128 .f32) (x12 : Vec Ideal S128x128 .f32) (x13 : Vec Ideal S128 .f32) (x14 : Vec Ideal S128x4 .f32) (x15 : Vec Ideal S4 .f32) (x16 : Vec Ideal S4x128 .f32) (x17 : Vec Ideal S128 .f32) (x18 : Vec Ideal S128x256 .f32) (x19 : Vec Ideal S16x256 .f32) (x20 : Vec Ideal S256 .f32) (x21 : Vec Ideal S256x512 .f32) (x22 : Vec Ideal S512 .f32) (x23 : Vec Ideal S512x32 .f32) (x24 : Vec Ideal S32 .f32) (x25 : Vec Ideal S128x5 .f32) (x26 : Vec Ideal S5 .f32) (x27 : Vec Ideal S128x2 .f32) (x28 : Vec Ideal S2 .f32) (x29 : Vec Ideal S5x11x32 .f32) (x30 : Vec Ideal S5x11 .f32) (x31 : Vec Ideal S1x4 .f32) (x32 : Vec Ideal S1x4 .f32) (x33 : Vec Ideal S1x4 .f32) (x34 : Vec Ideal S1x4 .f32) (x35 : Vec Ideal S1x4 .f32)

theorem out39_eq : GenP.out0_39 (F := Ideal) x0 x1 x2 x3 x4 x5 x6 x7 x8 x9 x10 x11 x12 x13 x14 x15 x16 x17 x18 x19 x20 x21 x22 x23 x24 x25 x26 x27 x28 x29 x30 x31 x32 x33 x34 x35 = (ZQv (F := Ideal) (ZPv (F := Ideal) x0 x1 x2 x3 x4 x5 x6 x7 x8 x9 x10 x11 x12 x13 x14 x15) x31 x32 x33 x34 x16 x17) := by
  unfold GenP.out0_39
  exact View.canon_unit_zero hz2 _ _

theorem out36_eq : GenP.out0_36 (F := Ideal) x0 x1 x2 x3 x4 x5 x6 x7 x8 x9 x10 x11 x12 x13 x14 x15 x16 x17 x18 x19 x20 x21 x22 x23 x24 x25 x26 x27 x28 x29 x30 x31 x32 x33 x34 x35 = RECv (F := Ideal) (OHv (F := Ideal) x1) (PDv (F := Ideal) (EMBv (F := Ideal) x1 x2) (ZQv (F := Ideal) (ZPv (F := Ideal) x0 x1 x2 x3 x4 x5 x6 x7 x8 x9 x10 x11 x12 x13 x14 x15) x31 x32 x33 x34 x16 x17) x18 x19 x20 x21 x22 x23 x24) x29 x30 := by
  unfold GenP.out0_36
  exact View.canon_unit_zero hz2 _ _

theorem out37_eq : GenP.out0_37 (F := Ideal) x0 x1 x2 x3 x4 x5 x6 x7 x8 x9 x10 x11 x12 x13 x14 x15 x16 x17 x18 x19 x20 x21 x22 x23 x24 x25 x26 x27 x28 x29 x30 x31 x32 x33 x34 x35 = CLSv (F := Ideal) (ZPv (F := Ideal) x0 x1 x2 x3 x4 x5 x6 x7 x8 x9 x10 x11 x12 x13 x14 x15) x31 x32 x33 x34 x16 x17 x25 x26 := by
  unfold GenP.out0_37
  exact View.canon_unit_zero hz2 _ _

theorem out38_eq : GenP.out0_38 (F := Ideal) x0 x1 x2 x3 x4 x5 x6 x7 x8 x9 x10 x11 x12 x13 x14 x15 x16 x17 x18 x19 x20 x21 x22 x23 x24 x25 x26 x27 x28 x29 x30 x31 x32 x33 x34 x35 = CLOv (F := Ideal) (ZQv (F := Ideal) (ZPv (F := Ideal) x0 x1 x2 x3 x4 x5 x6 x7 x8 x9 x10 x11 x12 x13 x14 x15) x31 x32 x33 x34 x16 x17) x27 x28 := by
  unfold GenP.out0_38
  exact View.canon_unit_zero hz2 _ _

theorem out40_eq : GenP.out0_40 (F := Ideal) x0 x1 x2 x3 x4 x5 x6 x7 x8 x9 x10 x11 x12 x13 x14 x15 x16 x17 x18 x19 x20 x21 x22 x23 x24 x25 x26 x27 x28 x29 x30 x31 x32 x33 x34 x35 = IDXv (F := Ideal) (ZPv (F := Ideal) x0 x1 x2 x3 x4 x5 x6 x7 x8 x9 x10 x11 x12 x13 x14 x15) x31 x32 x33 x34 x35 := by
  unfold GenP.out0_40
  exact View.canon_unit_zero hz2 _ _

end Glue

/-! ## A row of a block is a row of the whole array

Row `r` of a point's blocks holds the parameters and the surface type of row `a` of the arrays (`h0`, `h1`), the surface type is
the word of a type `t` (`hp`): the body's stored values at row `r` are the whole arrays of Proof/Spec.lean at row `a`. -/

section Rows
variable (W : Wts) (C : Consts) (x0 : Vec Ideal S1024x11 .f32) (x1 : Vec Ideal S1024x1 .i32) (x2 : Vec Ideal S5x16 .f32) (x3 : Vec Ideal S5x32x11 .f32) (x4 : Vec Ideal S5x32 .f32) (x5 : Vec Ideal S32x512 .f32) (x6 : Vec Ideal S16x512 .f32) (x7 : Vec Ideal S512 .f32) (x8 : Vec Ideal S512x256 .f32) (x9 : Vec Ideal S256 .f32) (x10 : Vec Ideal S256x128 .f32) (x11 : Vec Ideal S128 .f32) (x12 : Vec Ideal S128x128 .f32) (x13 : Vec Ideal S128 .f32) (x14 : Vec Ideal S128x4 .f32) (x15 : Vec Ideal S4 .f32) (x16 : Vec Ideal S4x128 .f32) (x17 : Vec Ideal S128 .f32) (x18 : Vec Ideal S128x256 .f32) (x19 : Vec Ideal S16x256 .f32) (x20 : Vec Ideal S256 .f32) (x21 : Vec Ideal S256x512 .f32) (x22 : Vec Ideal S512 .f32) (x23 : Vec Ideal S512x32 .f32) (x24 : Vec Ideal S32 .f32) (x25 : Vec Ideal S128x5 .f32) (x26 : Vec Ideal S5 .f32) (x27 : Vec Ideal S128x2 .f32) (x28 : Vec Ideal S2 .f32) (x29 : Vec Ideal S5x11x32 .f32) (x30 : Vec Ideal S5x11 .f32) (x31 : Vec Ideal S1x4 .f32) (x32 : Vec Ideal S1x4 .f32) (x33 : Vec Ideal S1x4 .f32) (x34 : Vec Ideal S1x4 .f32) (x35 : Vec Ideal S1x4 .f32)
variable (params : Mat 262144 11) (styp : (⟨1, ![262144]⟩ : Shape).Idx → BitVec 32)

theorem zq_blk (hE : EncW W x2 x3 x4 x5 x6 x7 x8 x9 x10 x11 x12 x13 x14 x15) (hC : QC C x31 x32 x33 x34 x35) (hD : DecW W x16 x17 x18 x19 x20 x21 x22 x23 x24 x25 x26 x27 x28 x29 x30)
    (r : Fin 1024) (a : Fin 262144) (h0 : ∀ k : Fin 11, x0 (ix2 r k) = params (ix2 a k)) (h1 : x1 (ix2 r (0 : Fin 1)) = styp (ix1 a))
    (hp : ∃ t : Fin 5, styp (ix1 a) = BitVec.ofNat 32 t.val) (j : Fin 128) :
    (ZQv (F := Ideal) (ZPv (F := Ideal) x0 x1 x2 x3 x4 x5 x6 x7 x8 x9 x10 x11 x12 x13 x14 x15) x31 x32 x33 x34 x16 x17) (ix2 r j) = zqG W C params styp (ix2 a j) := by
  obtain ⟨t, ht⟩ := hp
  rw [zqG_apply, ht, tOf_ofNat]
  refine (zq_row W C x0 x1 x2 x3 x4 x5 x6 x7 x8 x9 x10 x11 x12 x13 x14 x15 x16 x17 x18 x19 x20 x21 x22 x23 x24 x25 x26 x27 x28 x29 x30 x31 x32 x33 x34 x35 hE hC hD r t (h1.trans ht) j).trans ?_
  exact congrArg (fun x => zqR W C x t j) (funext fun k => h0 k)

theorem cls_blk (hE : EncW W x2 x3 x4 x5 x6 x7 x8 x9 x10 x11 x12 x13 x14 x15) (hC : QC C x31 x32 x33 x34 x35) (hD : DecW W x16 x17 x18 x19 x20 x21 x22 x23 x24 x25 x26 x27 x28 x29 x30)
    (r : Fin 1024) (a : Fin 262144) (h0 : ∀ k : Fin 11, x0 (ix2 r k) = params (ix2 a k)) (h1 : x1 (ix2 r (0 : Fin 1)) = styp (ix1 a))
    (hp : ∃ t : Fin 5, styp (ix1 a) = BitVec.ofNat 32 t.val) (j : Fin 5) :
    CLSv (F := Ideal) (ZPv (F := Ideal) x0 x1 x2 x3 x4 x5 x6 x7 x8 x9 x10 x11 x12 x13 x14 x15) x31 x32 x33 x34 x16 x17 x25 x26 (ix2 r j) = clsG W C params styp (ix2 a j) := by
  obtain ⟨t, ht⟩ := hp
  rw [clsG_apply, ht, tOf_ofNat]
  refine (cls_row W C x0 x1 x2 x3 x4 x5 x6 x7 x8 x9 x10 x11 x12 x13 x14 x15 x16 x17 x18 x19 x20 x21 x22 x23 x24 x25 x26 x27 x28 x29 x30 x31 x32 x33 x34 x35 hE hC hD r t (h1.trans ht) j).trans ?_
  exact congrArg (fun x => clsR W C x t j) (funext fun k => h0 k)

theorem clo_blk (hE : EncW W x2 x3 x4 x5 x6 x7 x8 x9 x10 x11 x12 x13 x14 x15) (hC : QC C x31 x32 x33 x34 x35) (hD : DecW W x16 x17 x18 x19 x20 x21 x22 x23 x24 x25 x26 x27 x28 x29 x30)
    (r : Fin 1024) (a : Fin 262144) (h0 : ∀ k : Fin 11, x0 (ix2 r k) = params (ix2 a k)) (h1 : x1 (ix2 r (0 : Fin 1)) = styp (ix1 a))
    (hp : ∃ t : Fin 5, styp (ix1 a) = BitVec.ofNat 32 t.val) (j : Fin 2) :
    CLOv (F := Ideal) (ZQv (F := Ideal) (ZPv (F := Ideal) x0 x1 x2 x3 x4 x5 x6 x7 x8 x9 x10 x11 x12 x13 x14 x15) x31 x32 x33 x34 x16 x17) x27 x28 (ix2 r j) = cloG W C params styp (ix2 a j) := by
  obtain ⟨t, ht⟩ := hp
  rw [cloG_apply, ht, tOf_ofNat]
  refine (clo_row W C x0 x1 x2 x3 x4 x5 x6 x7 x8 x9 x10 x11 x12 x13 x14 x15 x16 x17 x18 x19 x20 x21 x22 x23 x24 x25 x26 x27 x28 x29 x30 x31 x32 x33 x34 x35 hE hC hD r t (h1.trans ht) j).trans ?_
  exact congrArg (fun x => cloR W C x t j) (funext fun k => h0 k)

theorem rec_blk (hE : EncW W x2 x3 x4 x5 x6 x7 x8 x9 x10 x11 x12 x13 x14 x15) (hC : QC C x31 x32 x33 x34 x35) (hD : DecW W x16 x17 x18 x19 x20 x21 x22 x23 x24 x25 x26 x27 x28 x29 x30)
    (r : Fin 1024) (a : Fin 262144) (h0 : ∀ k : Fin 11, x0 (ix2 r k) = params (ix2 a k)) (h1 : x1 (ix2 r (0 : Fin 1)) = styp (ix1 a))
    (hp : ∃ t : Fin 5, styp (ix1 a) = BitVec.ofNat 32 t.val) (j : Fin 11) :
    RECv (F := Ideal) (OHv (F := Ideal) x1) (PDv (F := Ideal) (EMBv (F := Ideal) x1 x2) (ZQv (F := Ideal) (ZPv (F := Ideal) x0 x1 x2 x3 x4 x5 x6 x7 x8 x9 x10 x11 x12 x13 x14 x15) x31 x32 x33 x34 x16 x17) x18 x19 x20 x21 x22 x23 x24) x29 x30 (ix2 r j) = reconG W C params styp (ix2 a j) := by
  obtain ⟨t, ht⟩ := hp
  rw [reconG_apply, ht, tOf_ofNat]
  refine (rec_row W C x0 x1 x2 x3 x4 x5 x6 x7 x8 x9 x10 x11 x12 x13 x14 x15 x16 x17 x18 x19 x20 x21 x22 x23 x24 x25 x26 x27 x28 x29 x30 x31 x32 x33 x34 x35 hE hC hD r t (h1.trans ht) j).trans ?_
  exact congrArg (fun x => reconR W C x t j) (funext fun k => h0 k)

theorem idx_blk (hE : EncW W x2 x3 x4 x5 x6 x7 x8 x9 x10 x11 x12 x13 x14 x15) (hC : QC C x31 x32 x33 x34 x35) (hD : DecW W x16 x17 x18 x19 x20 x21 x22 x23 x24 x25 x26 x27 x28 x29 x30)
    (r : Fin 1024) (a : Fin 262144) (h0 : ∀ k : Fin 11, x0 (ix2 r k) = params (ix2 a k)) (h1 : x1 (ix2 r (0 : Fin 1)) = styp (ix1 a))
    (hp : ∃ t : Fin 5, styp (ix1 a) = BitVec.ofNat 32 t.val) :
    IDXv (F := Ideal) (ZPv (F := Ideal) x0 x1 x2 x3 x4 x5 x6 x7 x8 x9 x10 x11 x12 x13 x14 x15) x31 x32 x33 x34 x35 (ix2 r (0 : Fin 1)) = idxG W C params styp (ix1 a) := by
  obtain ⟨t, ht⟩ := hp
  rw [idxG_apply, ht, tOf_ofNat]
  refine (idx_row W C x0 x1 x2 x3 x4 x5 x6 x7 x8 x9 x10 x11 x12 x13 x14 x15 x16 x17 x18 x19 x20 x21 x22 x23 x24 x25 x26 x27 x28 x29 x30 x31 x32 x33 x34 x35 hE hC hD r t (h1.trans ht)).trans ?_
  exact congrArg (fun x => idxR W C x t) (funext fun k => h0 k)

end Rows

/-! ## What a point writes back, the cover, and the arrays after the region -/

section Blocks

/-- Two functions of a rank-2 index agree when they agree at every pair of coordinates. -/
theorem funext_ix2 {n0 n1 : Nat} {α : Type} {f g : (⟨2, ![n0, n1]⟩ : Shape).Idx → α} (h : ∀ r k, f (ix2 r k) = g (ix2 r k)) : f = g :=
  funext fun j => by rw [eq_ix2 j]; exact h _ _

/-- The five output windows are cut in blocks of 1024 rows: at point `t` the block index is `t` on the row axis and 0 on the
    column axis. -/
theorem idx_out : ∀ t : Fin cfg0.N,
    win0_36.index t (0 : Fin 2) = t.val ∧ win0_36.index t (1 : Fin 2) = 0
    ∧ win0_37.index t (0 : Fin 2) = t.val ∧ win0_37.index t (1 : Fin 2) = 0
    ∧ win0_38.index t (0 : Fin 2) = t.val ∧ win0_38.index t (1 : Fin 2) = 0
    ∧ win0_39.index t (0 : Fin 2) = t.val ∧ win0_39.index t (1 : Fin 2) = 0
    ∧ win0_40.index t (0 : Fin 2) = t.val ∧ win0_40.index t (1 : Fin 2) = 0 :=
  (by decide +kernel : ∀ t : Fin grid0.N, _)

/-- Row `r` of block `t` is a row of the array. -/
theorem row_lt (t : Fin cfg0.N) (r : Fin 1024) : t.val * 1024 + r.val < 262144 := by
  have h1 : t.val < 256 := lt_of_lt_of_eq t.isLt N_0
  have h2 := r.isLt
  omega

variable (m : (ℓ : Loc nD τ sig) → Buf (Elt Ideal) ℓ)

/-- Element (r, k) of output window 36's block at point `t` sits in the array at (1024 t + r, k). -/
theorem emb36 (t : Fin cfg0.N) (r : Fin 1024) (k : Fin 11) (a : Fin 262144) (ha : a.val = t.val * 1024 + r.val) :
    ((cfg0.win 36).blk t).view.emb (ix2 r k) = (ix2 a k : S262144x11.Idx) := by
  obtain ⟨e0, e1, -, -, -, -, -, -, -, -⟩ := idx_out t
  funext d; apply Fin.ext
  match d with
  | ⟨0, _⟩ => show win0_36.index t (0 : Fin 2) * 1024 + 1 * r.val = a.val; rw [e0, ha]; omega
  | ⟨1, _⟩ => show win0_36.index t (1 : Fin 2) * 11 + 1 * k.val = k.val; rw [e1]; omega

/-- Element (r, k) of output window 37's block at point `t` sits in the array at (1024 t + r, k). -/
theorem emb37 (t : Fin cfg0.N) (r : Fin 1024) (k : Fin 5) (a : Fin 262144) (ha : a.val = t.val * 1024 + r.val) :
    ((cfg0.win 37).blk t).view.emb (ix2 r k) = (ix2 a k : S262144x5.Idx) := by
  obtain ⟨-, -, e0, e1, -, -, -, -, -, -⟩ := idx_out t
  funext d; apply Fin.ext
  match d with
  | ⟨0, _⟩ => show win0_37.index t (0 : Fin 2) * 1024 + 1 * r.val = a.val; rw [e0, ha]; omega
  | ⟨1, _⟩ => show win0_37.index t (1 : Fin 2) * 5 + 1 * k.val = k.val; rw [e1]; omega

/-- Element (r, k) of output window 38's block at point `t` sits in the array at (1024 t + r, k). -/
theorem emb38 (t : Fin cfg0.N) (r : Fin 1024) (k : Fin 2) (a : Fin 262144) (ha : a.val = t.val * 1024 + r.val) :
    ((cfg0.win 38).blk t).view.emb (ix2 r k) = (ix2 a k : S262144x2.Idx) := by
  obtain ⟨-, -, -, -, e0, e1, -, -, -, -⟩ := idx_out t
  funext d; apply Fin.ext
  match d with
  | ⟨0, _⟩ => show win0_38.index t (0 : Fin 2) * 1024 + 1 * r.val = a.val; rw [e0, ha]; omega
  | ⟨1, _⟩ => show win0_38.index t (1 : Fin 2) * 2 + 1 * k.val = k.val; rw [e1]; omega

/-- Element (r, k) of output window 39's block at point `t` sits in the array at (1024 t + r, k). -/
theorem emb39 (t : Fin cfg0.N) (r : Fin 1024) (k : Fin 128) (a : Fin 262144) (ha : a.val = t.val * 1024 + r.val) :
    ((cfg0.win 39).blk t).view.emb (ix2 r k) = (ix2 a k : S262144x128.Idx) := by
  obtain ⟨-, -, -, -, -, -, e0, e1, -, -⟩ := idx_out t
  funext d; apply Fin.ext
  match d with
  | ⟨0, _⟩ => show win0_39.index t (0 : Fin 2) * 1024 + 1 * r.val = a.val; rw [e0, ha]; omega
  | ⟨1, _⟩ => show win0_39.index t (1 : Fin 2) * 128 + 1 * k.val = k.val; rw [e1]; omega

/-- Element (r, k) of output window 40's block at point `t` sits in the array at (1024 t + r, k). -/
theorem emb40 (t : Fin cfg0.N) (r : Fin 1024) (k : Fin 1) (a : Fin 262144) (ha : a.val = t.val * 1024 + r.val) :
    ((cfg0.win 40).blk t).view.emb (ix2 r k) = (ix2 a k : S262144x1.Idx) := by
  obtain ⟨-, -, -, -, -, -, -, -, e0, e1⟩ := idx_out t
  funext d; apply Fin.ext
  match d with
  | ⟨0, _⟩ => show win0_40.index t (0 : Fin 2) * 1024 + 1 * r.val = a.val; rw [e0, ha]; omega
  | ⟨1, _⟩ => show win0_40.index t (1 : Fin 2) * 1 + 1 * k.val = k.val; rw [e1]; omega

/-- What point `t` writes back to output window 36's array is block `t` of the whole array of Proof/Spec.lean. -/
theorem flushed36_eq (c : Dev nD) (hpre : ∀ a : Fin 262144, ∃ t : Fin 5, m ((c.tc : Thread nD τ).loc main_arg1) (ix1 a) = BitVec.ofNat 32 t.val) (t : Fin cfg0.N) :
    (dats m 0 c).flushed 36 t = ((cfg0.win 36).blk t).view.read (Elt Ideal) (reconG (WofM m c) CK (m ((c.tc : Thread nD τ).loc main_arg0)) (m ((c.tc : Thread nD τ).loc main_arg1))) := by
  show (cfg0.win 36).cut (grid0.coords t) ((dats m 0 c).after 36 t) = _
  rw [after0_36]
  refine funext_ix2 (n0 := 1024) (n1 := 11) (α := EReal) fun r k => ?_
  show GenP.out0_36 (F := Ideal) (b0 m c t) (b1 m c t) (b2 m c t) (b3 m c t) (b4 m c t) (b5 m c t) (b6 m c t) (b7 m c t) (b8 m c t) (b9 m c t) (b10 m c t) (b11 m c t) (b12 m c t) (b13 m c t) (b14 m c t) (b15 m c t) (b16 m c t) (b17 m c t) (b18 m c t) (b19 m c t) (b20 m c t) (b21 m c t) (b22 m c t) (b23 m c t) (b24 m c t) (b25 m c t) (b26 m c t) (b27 m c t) (b28 m c t) (b29 m c t) (b30 m c t) (b31 m c t) (b32 m c t) (b33 m c t) (b34 m c t) (b35 m c t) (ix2 r k) = (reconG (WofM m c) CK (m ((c.tc : Thread nD τ).loc main_arg0)) (m ((c.tc : Thread nD τ).loc main_arg1))) (((cfg0.win 36).blk t).view.emb (ix2 r k))
  refine (congrFun (out36_eq (b0 m c t) (b1 m c t) (b2 m c t) (b3 m c t) (b4 m c t) (b5 m c t) (b6 m c t) (b7 m c t) (b8 m c t) (b9 m c t) (b10 m c t) (b11 m c t) (b12 m c t) (b13 m c t) (b14 m c t) (b15 m c t) (b16 m c t) (b17 m c t) (b18 m c t) (b19 m c t) (b20 m c t) (b21 m c t) (b22 m c t) (b23 m c t) (b24 m c t) (b25 m c t) (b26 m c t) (b27 m c t) (b28 m c t) (b29 m c t) (b30 m c t) (b31 m c t) (b32 m c t) (b33 m c t) (b34 m c t) (b35 m c t)) (ix2 r k)).trans ?_
  refine (rec_blk (WofM m c) CK (b0 m c t) (b1 m c t) (b2 m c t) (b3 m c t) (b4 m c t) (b5 m c t) (b6 m c t) (b7 m c t) (b8 m c t) (b9 m c t) (b10 m c t) (b11 m c t) (b12 m c t) (b13 m c t) (b14 m c t) (b15 m c t) (b16 m c t) (b17 m c t) (b18 m c t) (b19 m c t) (b20 m c t) (b21 m c t) (b22 m c t) (b23 m c t) (b24 m c t) (b25 m c t) (b26 m c t) (b27 m c t) (b28 m c t) (b29 m c t) (b30 m c t) (b31 m c t) (b32 m c t) (b33 m c t) (b34 m c t) (b35 m c t) (m ((c.tc : Thread nD τ).loc main_arg0)) (m ((c.tc : Thread nD τ).loc main_arg1)) (encW m c t) (qcK m c t) (decW m c t) r ⟨t.val * 1024 + r.val, row_lt t r⟩
    (fun k' => b0_row m c t r _ rfl k') (b1_row m c t r _ rfl) (hpre _) k).trans ?_
  exact congrArg (reconG (WofM m c) CK (m ((c.tc : Thread nD τ).loc main_arg0)) (m ((c.tc : Thread nD τ).loc main_arg1))) (emb36 t r k _ rfl).symm

/-- What point `t` writes back to output window 37's array is block `t` of the whole array of Proof/Spec.lean. -/
theorem flushed37_eq (c : Dev nD) (hpre : ∀ a : Fin 262144, ∃ t : Fin 5, m ((c.tc : Thread nD τ).loc main_arg1) (ix1 a) = BitVec.ofNat 32 t.val) (t : Fin cfg0.N) :
    (dats m 0 c).flushed 37 t = ((cfg0.win 37).blk t).view.read (Elt Ideal) (clsG (WofM m c) CK (m ((c.tc : Thread nD τ).loc main_arg0)) (m ((c.tc : Thread nD τ).loc main_arg1))) := by
  show (cfg0.win 37).cut (grid0.coords t) ((dats m 0 c).after 37 t) = _
  rw [after0_37]
  refine funext_ix2 (n0 := 1024) (n1 := 5) (α := EReal) fun r k => ?_
  show GenP.out0_37 (F := Ideal) (b0 m c t) (b1 m c t) (b2 m c t) (b3 m c t) (b4 m c t) (b5 m c t) (b6 m c t) (b7 m c t) (b8 m c t) (b9 m c t) (b10 m c t) (b11 m c t) (b12 m c t) (b13 m c t) (b14 m c t) (b15 m c t) (b16 m c t) (b17 m c t) (b18 m c t) (b19 m c t) (b20 m c t) (b21 m c t) (b22 m c t) (b23 m c t) (b24 m c t) (b25 m c t) (b26 m c t) (b27 m c t) (b28 m c t) (b29 m c t) (b30 m c t) (b31 m c t) (b32 m c t) (b33 m c t) (b34 m c t) (b35 m c t) (ix2 r k) = (clsG (WofM m c) CK (m ((c.tc : Thread nD τ).loc main_arg0)) (m ((c.tc : Thread nD τ).loc main_arg1))) (((cfg0.win 37).blk t).view.emb (ix2 r k))
  refine (congrFun (out37_eq (b0 m c t) (b1 m c t) (b2 m c t) (b3 m c t) (b4 m c t) (b5 m c t) (b6 m c t) (b7 m c t) (b8 m c t) (b9 m c t) (b10 m c t) (b11 m c t) (b12 m c t) (b13 m c t) (b14 m c t) (b15 m c t) (b16 m c t) (b17 m c t) (b18 m c t) (b19 m c t) (b20 m c t) (b21 m c t) (b22 m c t) (b23 m c t) (b24 m c t) (b25 m c t) (b26 m c t) (b27 m c t) (b28 m c t) (b29 m c t) (b30 m c t) (b31 m c t) (b32 m c t) (b33 m c t) (b34 m c t) (b35 m c t)) (ix2 r k)).trans ?_
  refine (cls_blk (WofM m c) CK (b0 m c t) (b1 m c t) (b2 m c t) (b3 m c t) (b4 m c t) (b5 m c t) (b6 m c t) (b7 m c t) (b8 m c t) (b9 m c t) (b10 m c t) (b11 m c t) (b12 m c t) (b13 m c t) (b14 m c t) (b15 m c t) (b16 m c t) (b17 m c t) (b18 m c t) (b19 m c t) (b20 m c t) (b21 m c t) (b22 m c t) (b23 m c t) (b24 m c t) (b25 m c t) (b26 m c t) (b27 m c t) (b28 m c t) (b29 m c t) (b30 m c t) (b31 m c t) (b32 m c t) (b33 m c t) (b34 m c t) (b35 m c t) (m ((c.tc : Thread nD τ).loc main_arg0)) (m ((c.tc : Thread nD τ).loc main_arg1)) (encW m c t) (qcK m c t) (decW m c t) r ⟨t.val * 1024 + r.val, row_lt t r⟩
    (fun k' => b0_row m c t r _ rfl k') (b1_row m c t r _ rfl) (hpre _) k).trans ?_
  exact congrArg (clsG (WofM m c) CK (m ((c.tc : Thread nD τ).loc main_arg0)) (m ((c.tc : Thread nD τ).loc main_arg1))) (emb37 t r k _ rfl).symm

/-- What point `t` writes back to output window 38's array is block `t` of the whole array of Proof/Spec.lean. -/
theorem flushed38_eq (c : Dev nD) (hpre : ∀ a : Fin 262144, ∃ t : Fin 5, m ((c.tc : Thread nD τ).loc main_arg1) (ix1 a) = BitVec.ofNat 32 t.val) (t : Fin cfg0.N) :
    (dats m 0 c).flushed 38 t = ((cfg0.win 38).blk t).view.read (Elt Ideal) (cloG (WofM m c) CK (m ((c.tc : Thread nD τ).loc main_arg0)) (m ((c.tc : Thread nD τ).loc main_arg1))) := by
  show (cfg0.win 38).cut (grid0.coords t) ((dats m 0 c).after 38 t) = _
  rw [after0_38]
  refine funext_ix2 (n0 := 1024) (n1 := 2) (α := EReal) fun r k => ?_
  show GenP.out0_38 (F := Ideal) (b0 m c t) (b1 m c t) (b2 m c t) (b3 m c t) (b4 m c t) (b5 m c t) (b6 m c t) (b7 m c t) (b8 m c t) (b9 m c t) (b10 m c t) (b11 m c t) (b12 m c t) (b13 m c t) (b14 m c t) (b15 m c t) (b16 m c t) (b17 m c t) (b18 m c t) (b19 m c t) (b20 m c t) (b21 m c t) (b22 m c t) (b23 m c t) (b24 m c t) (b25 m c t) (b26 m c t) (b27 m c t) (b28 m c t) (b29 m c t) (b30 m c t) (b31 m c t) (b32 m c t) (b33 m c t) (b34 m c t) (b35 m c t) (ix2 r k) = (cloG (WofM m c) CK (m ((c.tc : Thread nD τ).loc main_arg0)) (m ((c.tc : Thread nD τ).loc main_arg1))) (((cfg0.win 38).blk t).view.emb (ix2 r k))
  refine (congrFun (out38_eq (b0 m c t) (b1 m c t) (b2 m c t) (b3 m c t) (b4 m c t) (b5 m c t) (b6 m c t) (b7 m c t) (b8 m c t) (b9 m c t) (b10 m c t) (b11 m c t) (b12 m c t) (b13 m c t) (b14 m c t) (b15 m c t) (b16 m c t) (b17 m c t) (b18 m c t) (b19 m c t) (b20 m c t) (b21 m c t) (b22 m c t) (b23 m c t) (b24 m c t) (b25 m c t) (b26 m c t) (b27 m c t) (b28 m c t) (b29 m c t) (b30 m c t) (b31 m c t) (b32 m c t) (b33 m c t) (b34 m c t) (b35 m c t)) (ix2 r k)).trans ?_
  refine (clo_blk (WofM m c) CK (b0 m c t) (b1 m c t) (b2 m c t) (b3 m c t) (b4 m c t) (b5 m c t) (b6 m c t) (b7 m c t) (b8 m c t) (b9 m c t) (b10 m c t) (b11 m c t) (b12 m c t) (b13 m c t) (b14 m c t) (b15 m c t) (b16 m c t) (b17 m c t) (b18 m c t) (b19 m c t) (b20 m c t) (b21 m c t) (b22 m c t) (b23 m c t) (b24 m c t) (b25 m c t) (b26 m c t) (b27 m c t) (b28 m c t) (b29 m c t) (b30 m c t) (b31 m c t) (b32 m c t) (b33 m c t) (b34 m c t) (b35 m c t) (m ((c.tc : Thread nD τ).loc main_arg0)) (m ((c.tc : Thread nD τ).loc main_arg1)) (encW m c t) (qcK m c t) (decW m c t) r ⟨t.val * 1024 + r.val, row_lt t r⟩
    (fun k' => b0_row m c t r _ rfl k') (b1_row m c t r _ rfl) (hpre _) k).trans ?_
  exact congrArg (cloG (WofM m c) CK (m ((c.tc : Thread nD τ).loc main_arg0)) (m ((c.tc : Thread nD τ).loc main_arg1))) (emb38 t r k _ rfl).symm

/-- What point `t` writes back to output window 39's array is block `t` of the whole array of Proof/Spec.lean. -/
theorem flushed39_eq (c : Dev nD) (hpre : ∀ a : Fin 262144, ∃ t : Fin 5, m ((c.tc : Thread nD τ).loc main_arg1) (ix1 a) = BitVec.ofNat 32 t.val) (t : Fin cfg0.N) :
    (dats m 0 c).flushed 39 t = ((cfg0.win 39).blk t).view.read (Elt Ideal) (zqG (WofM m c) CK (m ((c.tc : Thread nD τ).loc main_arg0)) (m ((c.tc : Thread nD τ).loc main_arg1))) := by
  show (cfg0.win 39).cut (grid0.coords t) ((dats m 0 c).after 39 t) = _
  rw [after0_39]
  refine funext_ix2 (n0 := 1024) (n1 := 128) (α := EReal) fun r k => ?_
  show GenP.out0_39 (F := Ideal) (b0 m c t) (b1 m c t) (b2 m c t) (b3 m c t) (b4 m c t) (b5 m c t) (b6 m c t) (b7 m c t) (b8 m c t) (b9 m c t) (b10 m c t) (b11 m c t) (b12 m c t) (b13 m c t) (b14 m c t) (b15 m c t) (b16 m c t) (b17 m c t) (b18 m c t) (b19 m c t) (b20 m c t) (b21 m c t) (b22 m c t) (b23 m c t) (b24 m c t) (b25 m c t) (b26 m c t) (b27 m c t) (b28 m c t) (b29 m c t) (b30 m c t) (b31 m c t) (b32 m c t) (b33 m c t) (b34 m c t) (b35 m c t) (ix2 r k) = (zqG (WofM m c) CK (m ((c.tc : Thread nD τ).loc main_arg0)) (m ((c.tc : Thread nD τ).loc main_arg1))) (((cfg0.win 39).blk t).view.emb (ix2 r k))
  refine (congrFun (out39_eq (b0 m c t) (b1 m c t) (b2 m c t) (b3 m c t) (b4 m c t) (b5 m c t) (b6 m c t) (b7 m c t) (b8 m c t) (b9 m c t) (b10 m c t) (b11 m c t) (b12 m c t) (b13 m c t) (b14 m c t) (b15 m c t) (b16 m c t) (b17 m c t) (b18 m c t) (b19 m c t) (b20 m c t) (b21 m c t) (b22 m c t) (b23 m c t) (b24 m c t) (b25 m c t) (b26 m c t) (b27 m c t) (b28 m c t) (b29 m c t) (b30 m c t) (b31 m c t) (b32 m c t) (b33 m c t) (b34 m c t) (b35 m c t)) (ix2 r k)).trans ?_
  refine (zq_blk (WofM m c) CK (b0 m c t) (b1 m c t) (b2 m c t) (b3 m c t) (b4 m c t) (b5 m c t) (b6 m c t) (b7 m c t) (b8 m c t) (b9 m c t) (b10 m c t) (b11 m c t) (b12 m c t) (b13 m c t) (b14 m c t) (b15 m c t) (b16 m c t) (b17 m c t) (b18 m c t) (b19 m c t) (b20 m c t) (b21 m c t) (b22 m c t) (b23 m c t) (b24 m c t) (b25 m c t) (b26 m c t) (b27 m c t) (b28 m c t) (b29 m c t) (b30 m c t) (b31 m c t) (b32 m c t) (b33 m c t) (b34 m c t) (b35 m c t) (m ((c.tc : Thread nD τ).loc main_arg0)) (m ((c.tc : Thread nD τ).loc main_arg1)) (encW m c t) (qcK m c t) (decW m c t) r ⟨t.val * 1024 + r.val, row_lt t r⟩
    (fun k' => b0_row m c t r _ rfl k') (b1_row m c t r _ rfl) (hpre _) k).trans ?_
  exact congrArg (zqG (WofM m c) CK (m ((c.tc : Thread nD τ).loc main_arg0)) (m ((c.tc : Thread nD τ).loc main_arg1))) (emb39 t r k _ rfl).symm

/-- What point `t` writes back to output window 40's array is block `t` of the whole array of Proof/Spec.lean. -/
theorem flushed40_eq (c : Dev nD) (hpre : ∀ a : Fin 262144, ∃ t : Fin 5, m ((c.tc : Thread nD τ).loc main_arg1) (ix1 a) = BitVec.ofNat 32 t.val) (t : Fin cfg0.N) :
    (dats m 0 c).flushed 40 t = ((cfg0.win 40).blk t).view.read (Elt Ideal) (fun (i : S262144x1.Idx) => idxG (WofM m c) CK (m ((c.tc : Thread nD τ).loc main_arg0)) (m ((c.tc : Thread nD τ).loc main_arg1)) (ix1 (i 0))) := by
  show (cfg0.win 40).cut (grid0.coords t) ((dats m 0 c).after 40 t) = _
  rw [after0_40]
  refine funext_ix2 (n0 := 1024) (n1 := 1) (α := BitVec 32) fun r k => ?_
  obtain rfl : k = 0 := Subsingleton.elim _ _
  show GenP.out0_40 (F := Ideal) (b0 m c t) (b1 m c t) (b2 m c t) (b3 m c t) (b4 m c t) (b5 m c t) (b6 m c t) (b7 m c t) (b8 m c t) (b9 m c t) (b10 m c t) (b11 m c t) (b12 m c t) (b13 m c t) (b14 m c t) (b15 m c t) (b16 m c t) (b17 m c t) (b18 m c t) (b19 m c t) (b20 m c t) (b21 m c t) (b22 m c t) (b23 m c t) (b24 m c t) (b25 m c t) (b26 m c t) (b27 m c t) (b28 m c t) (b29 m c t) (b30 m c t) (b31 m c t) (b32 m c t) (b33 m c t) (b34 m c t) (b35 m c t) (ix2 r (0 : Fin 1)) = idxG (WofM m c) CK (m ((c.tc : Thread nD τ).loc main_arg0)) (m ((c.tc : Thread nD τ).loc main_arg1)) (ix1 ((((cfg0.win 40).blk t).view.emb (ix2 r (0 : Fin 1))) 0))
  refine (congrFun (out40_eq (b0 m c t) (b1 m c t) (b2 m c t) (b3 m c t) (b4 m c t) (b5 m c t) (b6 m c t) (b7 m c t) (b8 m c t) (b9 m c t) (b10 m c t) (b11 m c t) (b12 m c t) (b13 m c t) (b14 m c t) (b15 m c t) (b16 m c t) (b17 m c t) (b18 m c t) (b19 m c t) (b20 m c t) (b21 m c t) (b22 m c t) (b23 m c t) (b24 m c t) (b25 m c t) (b26 m c t) (b27 m c t) (b28 m c t) (b29 m c t) (b30 m c t) (b31 m c t) (b32 m c t) (b33 m c t) (b34 m c t) (b35 m c t)) (ix2 r (0 : Fin 1))).trans ?_
  refine (idx_blk (WofM m c) CK (b0 m c t) (b1 m c t) (b2 m c t) (b3 m c t) (b4 m c t) (b5 m c t) (b6 m c t) (b7 m c t) (b8 m c t) (b9 m c t) (b10 m c t) (b11 m c t) (b12 m c t) (b13 m c t) (b14 m c t) (b15 m c t) (b16 m c t) (b17 m c t) (b18 m c t) (b19 m c t) (b20 m c t) (b21 m c t) (b22 m c t) (b23 m c t) (b24 m c t) (b25 m c t) (b26 m c t) (b27 m c t) (b28 m c t) (b29 m c t) (b30 m c t) (b31 m c t) (b32 m c t) (b33 m c t) (b34 m c t) (b35 m c t) (m ((c.tc : Thread nD τ).loc main_arg0)) (m ((c.tc : Thread nD τ).loc main_arg1)) (encW m c t) (qcK m c t) (decW m c t) r (⟨t.val * 1024 + r.val, row_lt t r⟩ : Fin 262144)
    (fun k' => b0_row m c t r _ rfl k') (b1_row m c t r _ rfl) (hpre _)).trans ?_
  rw [emb40 t r 0 (⟨t.val * 1024 + r.val, row_lt t r⟩ : Fin 262144) rfl]
  rfl

/-- An index of window 36's array is in point `t`'s block iff each coordinate is in the block's range on its axis. -/
theorem mem_blk36 (t : Fin cfg0.N) (i : S262144x11.Idx) :
    i ∈ ((cfg0.win 36).blk t).view.set ↔ ∀ a : Fin 2, win0_36.index t a * S1024x11.size a ≤ (i a).val ∧ (i a).val < win0_36.index t a * S1024x11.size a + S1024x11.size a := by
  show i ∈ ((View.whole main_v10_0).slice (win0_36.rect t)).set ↔ _
  rw [View.set_slice_whole, Rect.mem_set_unit]
  exact Iff.rfl

/-- Row `a` of window 36's array lies in the block of point `a / 1024`. -/
theorem cover36 (i : S262144x11.Idx) : ∃ t : Fin cfg0.N, (cfg0.win 36).flush t = true ∧ i ∈ ((cfg0.win 36).blk t).view.set := by
  have hi0 : (i 0).val < 262144 := (i 0).isLt
  have hi1 : (i 1).val < 11 := (i 1).isLt
  have ht : (i 0).val / 1024 < cfg0.N := by rw [show cfg0.N = 256 from N_0]; omega
  refine ⟨⟨(i 0).val / 1024, ht⟩, flush0_36 _, ?_⟩
  obtain ⟨e0, e1, -, -, -, -, -, -, -, -⟩ := idx_out ⟨(i 0).val / 1024, ht⟩
  rw [mem_blk36]
  intro a
  match a with
  | ⟨0, _⟩ =>
    show win0_36.index ⟨(i 0).val / 1024, ht⟩ (0 : Fin 2) * 1024 ≤ (i 0).val ∧ (i 0).val < win0_36.index ⟨(i 0).val / 1024, ht⟩ (0 : Fin 2) * 1024 + 1024
    rw [e0]; show (i 0).val / 1024 * 1024 ≤ (i 0).val ∧ (i 0).val < (i 0).val / 1024 * 1024 + 1024; omega
  | ⟨1, _⟩ =>
    show win0_36.index ⟨(i 0).val / 1024, ht⟩ (1 : Fin 2) * 11 ≤ (i 1).val ∧ (i 1).val < win0_36.index ⟨(i 0).val / 1024, ht⟩ (1 : Fin 2) * 11 + 11
    rw [e1]; omega

/-- An index of window 37's array is in point `t`'s block iff each coordinate is in the block's range on its axis. -/
theorem mem_blk37 (t : Fin cfg0.N) (i : S262144x5.Idx) :
    i ∈ ((cfg0.win 37).blk t).view.set ↔ ∀ a : Fin 2, win0_37.index t a * S1024x5.size a ≤ (i a).val ∧ (i a).val < win0_37.index t a * S1024x5.size a + S1024x5.size a := by
  show i ∈ ((View.whole main_v10_1).slice (win0_37.rect t)).set ↔ _
  rw [View.set_slice_whole, Rect.mem_set_unit]
  exact Iff.rfl

/-- Row `a` of window 37's array lies in the block of point `a / 1024`. -/
theorem cover37 (i : S262144x5.Idx) : ∃ t : Fin cfg0.N, (cfg0.win 37).flush t = true ∧ i ∈ ((cfg0.win 37).blk t).view.set := by
  have hi0 : (i 0).val < 262144 := (i 0).isLt
  have hi1 : (i 1).val < 5 := (i 1).isLt
  have ht : (i 0).val / 1024 < cfg0.N := by rw [show cfg0.N = 256 from N_0]; omega
  refine ⟨⟨(i 0).val / 1024, ht⟩, flush0_37 _, ?_⟩
  obtain ⟨-, -, e0, e1, -, -, -, -, -, -⟩ := idx_out ⟨(i 0).val / 1024, ht⟩
  rw [mem_blk37]
  intro a
  match a with
  | ⟨0, _⟩ =>
    show win0_37.index ⟨(i 0).val / 1024, ht⟩ (0 : Fin 2) * 1024 ≤ (i 0).val ∧ (i 0).val < win0_37.index ⟨(i 0).val / 1024, ht⟩ (0 : Fin 2) * 1024 + 1024
    rw [e0]; show (i 0).val / 1024 * 1024 ≤ (i 0).val ∧ (i 0).val < (i 0).val / 1024 * 1024 + 1024; omega
  | ⟨1, _⟩ =>
    show win0_37.index ⟨(i 0).val / 1024, ht⟩ (1 : Fin 2) * 5 ≤ (i 1).val ∧ (i 1).val < win0_37.index ⟨(i 0).val / 1024, ht⟩ (1 : Fin 2) * 5 + 5
    rw [e1]; omega

/-- An index of window 38's array is in point `t`'s block iff each coordinate is in the block's range on its axis. -/
theorem mem_blk38 (t : Fin cfg0.N) (i : S262144x2.Idx) :
    i ∈ ((cfg0.win 38).blk t).view.set ↔ ∀ a : Fin 2, win0_38.index t a * S1024x2.size a ≤ (i a).val ∧ (i a).val < win0_38.index t a * S1024x2.size a + S1024x2.size a := by
  show i ∈ ((View.whole main_v10_2).slice (win0_38.rect t)).set ↔ _
  rw [View.set_slice_whole, Rect.mem_set_unit]
  exact Iff.rfl

/-- Row `a` of window 38's array lies in the block of point `a / 1024`. -/
theorem cover38 (i : S262144x2.Idx) : ∃ t : Fin cfg0.N, (cfg0.win 38).flush t = true ∧ i ∈ ((cfg0.win 38).blk t).view.set := by
  have hi0 : (i 0).val < 262144 := (i 0).isLt
  have hi1 : (i 1).val < 2 := (i 1).isLt
  have ht : (i 0).val / 1024 < cfg0.N := by rw [show cfg0.N = 256 from N_0]; omega
  refine ⟨⟨(i 0).val / 1024, ht⟩, flush0_38 _, ?_⟩
  obtain ⟨-, -, -, -, e0, e1, -, -, -, -⟩ := idx_out ⟨(i 0).val / 1024, ht⟩
  rw [mem_blk38]
  intro a
  match a with
  | ⟨0, _⟩ =>
    show win0_38.index ⟨(i 0).val / 1024, ht⟩ (0 : Fin 2) * 1024 ≤ (i 0).val ∧ (i 0).val < win0_38.index ⟨(i 0).val / 1024, ht⟩ (0 : Fin 2) * 1024 + 1024
    rw [e0]; show (i 0).val / 1024 * 1024 ≤ (i 0).val ∧ (i 0).val < (i 0).val / 1024 * 1024 + 1024; omega
  | ⟨1, _⟩ =>
    show win0_38.index ⟨(i 0).val / 1024, ht⟩ (1 : Fin 2) * 2 ≤ (i 1).val ∧ (i 1).val < win0_38.index ⟨(i 0).val / 1024, ht⟩ (1 : Fin 2) * 2 + 2
    rw [e1]; omega

/-- An index of window 39's array is in point `t`'s block iff each coordinate is in the block's range on its axis. -/
theorem mem_blk39 (t : Fin cfg0.N) (i : S262144x128.Idx) :
    i ∈ ((cfg0.win 39).blk t).view.set ↔ ∀ a : Fin 2, win0_39.index t a * S1024x128.size a ≤ (i a).val ∧ (i a).val < win0_39.index t a * S1024x128.size a + S1024x128.size a := by
  show i ∈ ((View.whole main_v10_3).slice (win0_39.rect t)).set ↔ _
  rw [View.set_slice_whole, Rect.mem_set_unit]
  exact Iff.rfl

/-- Row `a` of window 39's array lies in the block of point `a / 1024`. -/
theorem cover39 (i : S262144x128.Idx) : ∃ t : Fin cfg0.N, (cfg0.win 39).flush t = true ∧ i ∈ ((cfg0.win 39).blk t).view.set := by
  have hi0 : (i 0).val < 262144 := (i 0).isLt
  have hi1 : (i 1).val < 128 := (i 1).isLt
  have ht : (i 0).val / 1024 < cfg0.N := by rw [show cfg0.N = 256 from N_0]; omega
  refine ⟨⟨(i 0).val / 1024, ht⟩, flush0_39 _, ?_⟩
  obtain ⟨-, -, -, -, -, -, e0, e1, -, -⟩ := idx_out ⟨(i 0).val / 1024, ht⟩
  rw [mem_blk39]
  intro a
  match a with
  | ⟨0, _⟩ =>
    show win0_39.index ⟨(i 0).val / 1024, ht⟩ (0 : Fin 2) * 1024 ≤ (i 0).val ∧ (i 0).val < win0_39.index ⟨(i 0).val / 1024, ht⟩ (0 : Fin 2) * 1024 + 1024
    rw [e0]; show (i 0).val / 1024 * 1024 ≤ (i 0).val ∧ (i 0).val < (i 0).val / 1024 * 1024 + 1024; omega
  | ⟨1, _⟩ =>
    show win0_39.index ⟨(i 0).val / 1024, ht⟩ (1 : Fin 2) * 128 ≤ (i 1).val ∧ (i 1).val < win0_39.index ⟨(i 0).val / 1024, ht⟩ (1 : Fin 2) * 128 + 128
    rw [e1]; omega

/-- An index of window 40's array is in point `t`'s block iff each coordinate is in the block's range on its axis. -/
theorem mem_blk40 (t : Fin cfg0.N) (i : S262144x1.Idx) :
    i ∈ ((cfg0.win 40).blk t).view.set ↔ ∀ a : Fin 2, win0_40.index t a * S1024x1.size a ≤ (i a).val ∧ (i a).val < win0_40.index t a * S1024x1.size a + S1024x1.size a := by
  show i ∈ ((View.whole main_v10_4).slice (win0_40.rect t)).set ↔ _
  rw [View.set_slice_whole, Rect.mem_set_unit]
  exact Iff.rfl

/-- Row `a` of window 40's array lies in the block of point `a / 1024`. -/
theorem cover40 (i : S262144x1.Idx) : ∃ t : Fin cfg0.N, (cfg0.win 40).flush t = true ∧ i ∈ ((cfg0.win 40).blk t).view.set := by
  have hi0 : (i 0).val < 262144 := (i 0).isLt
  have hi1 : (i 1).val < 1 := (i 1).isLt
  have ht : (i 0).val / 1024 < cfg0.N := by rw [show cfg0.N = 256 from N_0]; omega
  refine ⟨⟨(i 0).val / 1024, ht⟩, flush0_40 _, ?_⟩
  obtain ⟨-, -, -, -, -, -, -, -, e0, e1⟩ := idx_out ⟨(i 0).val / 1024, ht⟩
  rw [mem_blk40]
  intro a
  match a with
  | ⟨0, _⟩ =>
    show win0_40.index ⟨(i 0).val / 1024, ht⟩ (0 : Fin 2) * 1024 ≤ (i 0).val ∧ (i 0).val < win0_40.index ⟨(i 0).val / 1024, ht⟩ (0 : Fin 2) * 1024 + 1024
    rw [e0]; show (i 0).val / 1024 * 1024 ≤ (i 0).val ∧ (i 0).val < (i 0).val / 1024 * 1024 + 1024; omega
  | ⟨1, _⟩ =>
    show win0_40.index ⟨(i 0).val / 1024, ht⟩ (1 : Fin 2) * 1 ≤ (i 1).val ∧ (i 1).val < win0_40.index ⟨(i 0).val / 1024, ht⟩ (1 : Fin 2) * 1 + 1
    rw [e1]; omega

/-- Window 36's array after the region. -/
theorem final36 (c : Dev nD) (hpre : ∀ a : Fin 262144, ∃ t : Fin 5, m ((c.tc : Thread nD τ).loc main_arg1) (ix1 a) = BitVec.ofNat 32 t.val) :
    (dats m 0 c).arrAt 36 cfg0.N = (reconG (WofM m c) CK (m ((c.tc : Thread nD τ).loc main_arg0)) (m ((c.tc : Thread nD τ).loc main_arg1))) :=
  (dats m 0 c).arrAt_eq_of_cover 36 (reconG (WofM m c) CK (m ((c.tc : Thread nD τ).loc main_arg0)) (m ((c.tc : Thread nD τ).loc main_arg1))) (fun t _ => flushed36_eq m c hpre t) cover36

/-- Window 37's array after the region. -/
theorem final37 (c : Dev nD) (hpre : ∀ a : Fin 262144, ∃ t : Fin 5, m ((c.tc : Thread nD τ).loc main_arg1) (ix1 a) = BitVec.ofNat 32 t.val) :
    (dats m 0 c).arrAt 37 cfg0.N = (clsG (WofM m c) CK (m ((c.tc : Thread nD τ).loc main_arg0)) (m ((c.tc : Thread nD τ).loc main_arg1))) :=
  (dats m 0 c).arrAt_eq_of_cover 37 (clsG (WofM m c) CK (m ((c.tc : Thread nD τ).loc main_arg0)) (m ((c.tc : Thread nD τ).loc main_arg1))) (fun t _ => flushed37_eq m c hpre t) cover37

/-- Window 38's array after the region. -/
theorem final38 (c : Dev nD) (hpre : ∀ a : Fin 262144, ∃ t : Fin 5, m ((c.tc : Thread nD τ).loc main_arg1) (ix1 a) = BitVec.ofNat 32 t.val) :
    (dats m 0 c).arrAt 38 cfg0.N = (cloG (WofM m c) CK (m ((c.tc : Thread nD τ).loc main_arg0)) (m ((c.tc : Thread nD τ).loc main_arg1))) :=
  (dats m 0 c).arrAt_eq_of_cover 38 (cloG (WofM m c) CK (m ((c.tc : Thread nD τ).loc main_arg0)) (m ((c.tc : Thread nD τ).loc main_arg1))) (fun t _ => flushed38_eq m c hpre t) cover38

/-- Window 39's array after the region. -/
theorem final39 (c : Dev nD) (hpre : ∀ a : Fin 262144, ∃ t : Fin 5, m ((c.tc : Thread nD τ).loc main_arg1) (ix1 a) = BitVec.ofNat 32 t.val) :
    (dats m 0 c).arrAt 39 cfg0.N = (zqG (WofM m c) CK (m ((c.tc : Thread nD τ).loc main_arg0)) (m ((c.tc : Thread nD τ).loc main_arg1))) :=
  (dats m 0 c).arrAt_eq_of_cover 39 (zqG (WofM m c) CK (m ((c.tc : Thread nD τ).loc main_arg0)) (m ((c.tc : Thread nD τ).loc main_arg1))) (fun t _ => flushed39_eq m c hpre t) cover39

/-- Window 40's array after the region. -/
theorem final40 (c : Dev nD) (hpre : ∀ a : Fin 262144, ∃ t : Fin 5, m ((c.tc : Thread nD τ).loc main_arg1) (ix1 a) = BitVec.ofNat 32 t.val) :
    (dats m 0 c).arrAt 40 cfg0.N = (fun (i : S262144x1.Idx) => idxG (WofM m c) CK (m ((c.tc : Thread nD τ).loc main_arg0)) (m ((c.tc : Thread nD τ).loc main_arg1)) (ix1 (i 0))) :=
  (dats m 0 c).arrAt_eq_of_cover 40 (fun (i : S262144x1.Idx) => idxG (WofM m c) CK (m ((c.tc : Thread nD τ).loc main_arg0)) (m ((c.tc : Thread nD τ).loc main_arg1)) (ix1 (i 0))) (fun t _ => flushed40_eq m c hpre t) cover40

/-! ## The host lines after the region -/

/-- The raw-dimension table, written before the region, as the lines after the region find it. -/
theorem V_main_c (c : Dev nD) : (V m c main_c : S5.Idx → Elt Ideal .i32) = fun i => lit5 (S5.rowMajor i) := by
  dsimp only [V, V0]
  simp only [hostOps0, List.flatten_cons, List.flatten_nil, List.append_nil]
  after_results
  rfl

/-- The code-index vector: the code-index column recast from [262144, 1] to [262144]. -/
theorem tail_v25 (c : Dev nD) (hpre : ∀ a : Fin 262144, ∃ t : Fin 5, m ((c.tc : Thread nD τ).loc main_arg1) (ix1 a) = BitVec.ofNat 32 t.val) :
    Pipeline.afterTail₀ cfgs (dats m) 0 (V0 m) [hostOps1] c main_v25 = idxG (WofM m c) CK (m ((c.tc : Thread nD τ).loc main_arg0)) (m ((c.tc : Thread nD τ).loc main_arg1)) := by
  unfold Pipeline.afterTail₀
  show StableHlo.after hostOps1 _ (Proc.devRef .tc main_v25) = _
  after_results
  have h40 : Pipeline.withArrays (cfgs 0).spec c (V0 m c) (fun w => (dats m 0 c).arrAt w (cfgs 0).N) (Proc.devRef .tc main_v10_4) = (fun (i : S262144x1.Idx) => idxG (WofM m c) CK (m ((c.tc : Thread nD τ).loc main_arg0)) (m ((c.tc : Thread nD τ).loc main_arg1)) (ix1 (i 0))) :=
    (Pipeline.withArrays_arr spec0 launch0.win.arr_inj c _ _ 40).trans (final40 m c hpre)
  rw [h40]
  refine funext fun (i : S262144.Idx) => ?_
  show shapeCast S262144 (fun (i : S262144x1.Idx) => idxG (WofM m c) CK (m ((c.tc : Thread nD τ).loc main_arg0)) (m ((c.tc : Thread nD τ).loc main_arg1)) (ix1 (i 0))) shapeCasts_S262144x1_S262144 i = _
  refine (shapeCast_apply _ _ i (ix2 (i 0) (0 : Fin 1)) ?_).trans ?_
  · rw [Shape.rowMajor_val_two, Shape.rowMajor_val_one]; show (i 0).val * 1 + 0 = (i 0).val; omega
  · show idxG (WofM m c) CK (m ((c.tc : Thread nD τ).loc main_arg0)) (m ((c.tc : Thread nD τ).loc main_arg1)) (ix1 (i 0)) = idxG (WofM m c) CK (m ((c.tc : Thread nD τ).loc main_arg0)) (m ((c.tc : Thread nD τ).loc main_arg1)) i
    exact congrArg _ (eq_ix1 i).symm

/-- The mask function with the raw-dimension table and the surface types as arguments. -/
def maskOf (tbl : (⟨S5, .i32⟩ : BufTy).Contents (Elt Ideal)) (s : (⟨S262144, .i32⟩ : BufTy).Contents (Elt Ideal)) :
    (⟨S262144x11, .i1⟩ : BufTy).Contents (Elt Ideal) :=
  cmpi .slt
    (broadcastInDim S262144x11 ![0, 1] bcast_S1x11_S262144x11_0_1 (broadcastInDim S1x11 ![1] bcast_S11_S1x11_1 (iotaInDim S11 32 0)))
    (broadcastInDim S262144x11 ![0, 1] bcast_S262144x1_S262144x11_0_1
      (broadcastInDim S262144x1 ![0] bcast_S262144_S262144x1_0
        (Host.gather gather_S5_S262144x1_S262144_n_0_n_n_0_1_1 tbl
          (broadcastInDim S262144x1 ![0] bcast_S262144_S262144x1_0
            (select (cmpi .slt s (broadcastInDim S262144 ![] bcast_S_S262144 (constantI S_ 32 0#32)))
              (addi s (broadcastInDim S262144 ![] bcast_S_S262144 (constantI S_ 32 5#32))) s)))))

/-- At the literal table it is the program's mask function. -/
theorem maskOf_lit (s : (⟨S262144, .i32⟩ : BufTy).Contents (Elt Ideal)) :
    maskOf (fun i => lit5 (S5.rowMajor i)) s = KMask (F := Ideal) s := rfl

/-- The mask: the lines after the region applied to the surface types (the column recast back to a vector) and the table. -/
theorem tail_v24 (c : Dev nD) :
    Pipeline.afterTail₀ cfgs (dats m) 0 (V0 m) [hostOps1] c main_v24 = KMask (F := Ideal) (m ((c.tc : Thread nD τ).loc main_arg1)) := by
  unfold Pipeline.afterTail₀
  show StableHlo.after hostOps1 _ (Proc.devRef .tc main_v24) = _
  after_results_simp
  have hv0 : Pipeline.withArrays (cfgs 0).spec c (V0 m c) (fun w => (dats m 0 c).arrAt w (cfgs 0).N) (Proc.devRef .tc main_v0) = shapeCast S262144x1 (m ((c.tc : Thread nD τ).loc main_arg1)) shapeCasts_S262144_S262144x1 :=
    (Pipeline.withArrays_arr spec0 launch0.win.arr_inj c _ _ 1).trans
      (((dats m 0 c).arrAt_in 1 rfl _).trans ((A_eq m c 1).trans (V_main_v0 m c)))
  have hc5 : Pipeline.withArrays (cfgs 0).spec c (V0 m c) (fun w => (dats m 0 c).arrAt w (cfgs 0).N) (Proc.devRef .tc main_c) = (fun i => lit5 (S5.rowMajor i) : (⟨S5, .i32⟩ : BufTy).Contents (Elt Ideal)) :=
    (Pipeline.withArrays_of_ne _ c (V0 m c) _ main_c (by exact (by decide : ∀ w, Pipeline.arrRef spec0 w ≠ main_c))).trans (V_main_c m c)
  have key : shapeCast S262144 (Pipeline.withArrays (cfgs 0).spec c (V0 m c) (fun w => (dats m 0 c).arrAt w (cfgs 0).N) (Proc.devRef .tc main_v0)) shapeCasts_S262144x1_S262144 = (m ((c.tc : Thread nD τ).loc main_arg1)) :=
    (congrArg (fun X : (⟨S262144x1, .i32⟩ : BufTy).Contents (Elt Ideal) => shapeCast S262144 X shapeCasts_S262144x1_S262144) hv0).trans
      (shapeCast_shapeCast (m ((c.tc : Thread nD τ).loc main_arg1)) shapeCasts_S262144_S262144x1 shapeCasts_S262144x1_S262144)
  refine Eq.trans ?_ (maskOf_lit (m ((c.tc : Thread nD τ).loc main_arg1)))
  exact congrArg₂ maskOf hc5 key

/-! ## The frame run's post, read -/

/-- After the run an argument is as launched: an input window stages it and never writes it back, or no line writes it. -/
theorem kept_arg0 (r : PUnit × MemSt nD τ sig (Elt Ideal)) (h : Pipeline.FramePost cfgs (dats m) 0 (Pipeline.afterTail₀ cfgs (dats m) 0 (V0 m) [hostOps1]) r) (c : Dev nD) :
    r.2.mem ((c.tc : Thread nD τ).loc main_arg0) = m ((c.tc : Thread nD τ).loc main_arg0) :=
  ((h c).1 0).trans (((dats m 0 c).arrAt_in 0 rfl _).trans ((A_eq m c 0).trans (V_main_arg0 m c)))

theorem kept_arg1 (r : PUnit × MemSt nD τ sig (Elt Ideal)) (h : Pipeline.FramePost cfgs (dats m) 0 (Pipeline.afterTail₀ cfgs (dats m) 0 (V0 m) [hostOps1]) r) (c : Dev nD) :
    r.2.mem ((c.tc : Thread nD τ).loc main_arg1) = m ((c.tc : Thread nD τ).loc main_arg1) :=
  ((h c).2 main_arg1 (Pipeline.mem_restRefs_of main_arg1 (by decide) (by decide))).trans (W_main_arg1 m (dats m) c)

theorem kept_arg2 (r : PUnit × MemSt nD τ sig (Elt Ideal)) (h : Pipeline.FramePost cfgs (dats m) 0 (Pipeline.afterTail₀ cfgs (dats m) 0 (V0 m) [hostOps1]) r) (c : Dev nD) :
    r.2.mem ((c.tc : Thread nD τ).loc main_arg2) = m ((c.tc : Thread nD τ).loc main_arg2) :=
  ((h c).1 2).trans (((dats m 0 c).arrAt_in 2 rfl _).trans ((A_eq m c 2).trans (V_main_arg2 m c)))

theorem kept_arg3 (r : PUnit × MemSt nD τ sig (Elt Ideal)) (h : Pipeline.FramePost cfgs (dats m) 0 (Pipeline.afterTail₀ cfgs (dats m) 0 (V0 m) [hostOps1]) r) (c : Dev nD) :
    r.2.mem ((c.tc : Thread nD τ).loc main_arg3) = m ((c.tc : Thread nD τ).loc main_arg3) :=
  ((h c).1 3).trans (((dats m 0 c).arrAt_in 3 rfl _).trans ((A_eq m c 3).trans (V_main_arg3 m c)))

theorem kept_arg4 (r : PUnit × MemSt nD τ sig (Elt Ideal)) (h : Pipeline.FramePost cfgs (dats m) 0 (Pipeline.afterTail₀ cfgs (dats m) 0 (V0 m) [hostOps1]) r) (c : Dev nD) :
    r.2.mem ((c.tc : Thread nD τ).loc main_arg4) = m ((c.tc : Thread nD τ).loc main_arg4) :=
  ((h c).1 4).trans (((dats m 0 c).arrAt_in 4 rfl _).trans ((A_eq m c 4).trans (V_main_arg4 m c)))

theorem kept_arg5 (r : PUnit × MemSt nD τ sig (Elt Ideal)) (h : Pipeline.FramePost cfgs (dats m) 0 (Pipeline.afterTail₀ cfgs (dats m) 0 (V0 m) [hostOps1]) r) (c : Dev nD) :
    r.2.mem ((c.tc : Thread nD τ).loc main_arg5) = m ((c.tc : Thread nD τ).loc main_arg5) :=
  ((h c).2 main_arg5 (Pipeline.mem_restRefs_of main_arg5 (by decide) (by decide))).trans (W_main_arg5 m (dats m) c)

theorem kept_arg6 (r : PUnit × MemSt nD τ sig (Elt Ideal)) (h : Pipeline.FramePost cfgs (dats m) 0 (Pipeline.afterTail₀ cfgs (dats m) 0 (V0 m) [hostOps1]) r) (c : Dev nD) :
    r.2.mem ((c.tc : Thread nD τ).loc main_arg6) = m ((c.tc : Thread nD τ).loc main_arg6) :=
  ((h c).1 7).trans (((dats m 0 c).arrAt_in 7 rfl _).trans ((A_eq m c 7).trans (V_main_arg6 m c)))

theorem kept_arg7 (r : PUnit × MemSt nD τ sig (Elt Ideal)) (h : Pipeline.FramePost cfgs (dats m) 0 (Pipeline.afterTail₀ cfgs (dats m) 0 (V0 m) [hostOps1]) r) (c : Dev nD) :
    r.2.mem ((c.tc : Thread nD τ).loc main_arg7) = m ((c.tc : Thread nD τ).loc main_arg7) :=
  ((h c).1 8).trans (((dats m 0 c).arrAt_in 8 rfl _).trans ((A_eq m c 8).trans (V_main_arg7 m c)))

theorem kept_arg8 (r : PUnit × MemSt nD τ sig (Elt Ideal)) (h : Pipeline.FramePost cfgs (dats m) 0 (Pipeline.afterTail₀ cfgs (dats m) 0 (V0 m) [hostOps1]) r) (c : Dev nD) :
    r.2.mem ((c.tc : Thread nD τ).loc main_arg8) = m ((c.tc : Thread nD τ).loc main_arg8) :=
  ((h c).1 9).trans (((dats m 0 c).arrAt_in 9 rfl _).trans ((A_eq m c 9).trans (V_main_arg8 m c)))

theorem kept_arg9 (r : PUnit × MemSt nD τ sig (Elt Ideal)) (h : Pipeline.FramePost cfgs (dats m) 0 (Pipeline.afterTail₀ cfgs (dats m) 0 (V0 m) [hostOps1]) r) (c : Dev nD) :
    r.2.mem ((c.tc : Thread nD τ).loc main_arg9) = m ((c.tc : Thread nD τ).loc main_arg9) :=
  ((h c).1 10).trans (((dats m 0 c).arrAt_in 10 rfl _).trans ((A_eq m c 10).trans (V_main_arg9 m c)))

theorem kept_arg10 (r : PUnit × MemSt nD τ sig (Elt Ideal)) (h : Pipeline.FramePost cfgs (dats m) 0 (Pipeline.afterTail₀ cfgs (dats m) 0 (V0 m) [hostOps1]) r) (c : Dev nD) :
    r.2.mem ((c.tc : Thread nD τ).loc main_arg10) = m ((c.tc : Thread nD τ).loc main_arg10) :=
  ((h c).1 11).trans (((dats m 0 c).arrAt_in 11 rfl _).trans ((A_eq m c 11).trans (V_main_arg10 m c)))

theorem kept_arg11 (r : PUnit × MemSt nD τ sig (Elt Ideal)) (h : Pipeline.FramePost cfgs (dats m) 0 (Pipeline.afterTail₀ cfgs (dats m) 0 (V0 m) [hostOps1]) r) (c : Dev nD) :
    r.2.mem ((c.tc : Thread nD τ).loc main_arg11) = m ((c.tc : Thread nD τ).loc main_arg11) :=
  ((h c).1 12).trans (((dats m 0 c).arrAt_in 12 rfl _).trans ((A_eq m c 12).trans (V_main_arg11 m c)))

theorem kept_arg12 (r : PUnit × MemSt nD τ sig (Elt Ideal)) (h : Pipeline.FramePost cfgs (dats m) 0 (Pipeline.afterTail₀ cfgs (dats m) 0 (V0 m) [hostOps1]) r) (c : Dev nD) :
    r.2.mem ((c.tc : Thread nD τ).loc main_arg12) = m ((c.tc : Thread nD τ).loc main_arg12) :=
  ((h c).1 13).trans (((dats m 0 c).arrAt_in 13 rfl _).trans ((A_eq m c 13).trans (V_main_arg12 m c)))

theorem kept_arg13 (r : PUnit × MemSt nD τ sig (Elt Ideal)) (h : Pipeline.FramePost cfgs (dats m) 0 (Pipeline.afterTail₀ cfgs (dats m) 0 (V0 m) [hostOps1]) r) (c : Dev nD) :
    r.2.mem ((c.tc : Thread nD τ).loc main_arg13) = m ((c.tc : Thread nD τ).loc main_arg13) :=
  ((h c).1 14).trans (((dats m 0 c).arrAt_in 14 rfl _).trans ((A_eq m c 14).trans (V_main_arg13 m c)))

theorem kept_arg14 (r : PUnit × MemSt nD τ sig (Elt Ideal)) (h : Pipeline.FramePost cfgs (dats m) 0 (Pipeline.afterTail₀ cfgs (dats m) 0 (V0 m) [hostOps1]) r) (c : Dev nD) :
    r.2.mem ((c.tc : Thread nD τ).loc main_arg14) = m ((c.tc : Thread nD τ).loc main_arg14) :=
  ((h c).1 15).trans (((dats m 0 c).arrAt_in 15 rfl _).trans ((A_eq m c 15).trans (V_main_arg14 m c)))

theorem kept_arg15 (r : PUnit × MemSt nD τ sig (Elt Ideal)) (h : Pipeline.FramePost cfgs (dats m) 0 (Pipeline.afterTail₀ cfgs (dats m) 0 (V0 m) [hostOps1]) r) (c : Dev nD) :
    r.2.mem ((c.tc : Thread nD τ).loc main_arg15) = m ((c.tc : Thread nD τ).loc main_arg15) :=
  ((h c).1 16).trans (((dats m 0 c).arrAt_in 16 rfl _).trans ((A_eq m c 16).trans (V_main_arg15 m c)))

theorem kept_arg16 (r : PUnit × MemSt nD τ sig (Elt Ideal)) (h : Pipeline.FramePost cfgs (dats m) 0 (Pipeline.afterTail₀ cfgs (dats m) 0 (V0 m) [hostOps1]) r) (c : Dev nD) :
    r.2.mem ((c.tc : Thread nD τ).loc main_arg16) = m ((c.tc : Thread nD τ).loc main_arg16) :=
  ((h c).1 17).trans (((dats m 0 c).arrAt_in 17 rfl _).trans ((A_eq m c 17).trans (V_main_arg16 m c)))

theorem kept_arg17 (r : PUnit × MemSt nD τ sig (Elt Ideal)) (h : Pipeline.FramePost cfgs (dats m) 0 (Pipeline.afterTail₀ cfgs (dats m) 0 (V0 m) [hostOps1]) r) (c : Dev nD) :
    r.2.mem ((c.tc : Thread nD τ).loc main_arg17) = m ((c.tc : Thread nD τ).loc main_arg17) :=
  ((h c).2 main_arg17 (Pipeline.mem_restRefs_of main_arg17 (by decide) (by decide))).trans (W_main_arg17 m (dats m) c)

theorem kept_arg18 (r : PUnit × MemSt nD τ sig (Elt Ideal)) (h : Pipeline.FramePost cfgs (dats m) 0 (Pipeline.afterTail₀ cfgs (dats m) 0 (V0 m) [hostOps1]) r) (c : Dev nD) :
    r.2.mem ((c.tc : Thread nD τ).loc main_arg18) = m ((c.tc : Thread nD τ).loc main_arg18) :=
  ((h c).1 20).trans (((dats m 0 c).arrAt_in 20 rfl _).trans ((A_eq m c 20).trans (V_main_arg18 m c)))

theorem kept_arg19 (r : PUnit × MemSt nD τ sig (Elt Ideal)) (h : Pipeline.FramePost cfgs (dats m) 0 (Pipeline.afterTail₀ cfgs (dats m) 0 (V0 m) [hostOps1]) r) (c : Dev nD) :
    r.2.mem ((c.tc : Thread nD τ).loc main_arg19) = m ((c.tc : Thread nD τ).loc main_arg19) :=
  ((h c).1 21).trans (((dats m 0 c).arrAt_in 21 rfl _).trans ((A_eq m c 21).trans (V_main_arg19 m c)))

theorem kept_arg20 (r : PUnit × MemSt nD τ sig (Elt Ideal)) (h : Pipeline.FramePost cfgs (dats m) 0 (Pipeline.afterTail₀ cfgs (dats m) 0 (V0 m) [hostOps1]) r) (c : Dev nD) :
    r.2.mem ((c.tc : Thread nD τ).loc main_arg20) = m ((c.tc : Thread nD τ).loc main_arg20) :=
  ((h c).1 22).trans (((dats m 0 c).arrAt_in 22 rfl _).trans ((A_eq m c 22).trans (V_main_arg20 m c)))

theorem kept_arg21 (r : PUnit × MemSt nD τ sig (Elt Ideal)) (h : Pipeline.FramePost cfgs (dats m) 0 (Pipeline.afterTail₀ cfgs (dats m) 0 (V0 m) [hostOps1]) r) (c : Dev nD) :
    r.2.mem ((c.tc : Thread nD τ).loc main_arg21) = m ((c.tc : Thread nD τ).loc main_arg21) :=
  ((h c).1 23).trans (((dats m 0 c).arrAt_in 23 rfl _).trans ((A_eq m c 23).trans (V_main_arg21 m c)))

theorem kept_arg22 (r : PUnit × MemSt nD τ sig (Elt Ideal)) (h : Pipeline.FramePost cfgs (dats m) 0 (Pipeline.afterTail₀ cfgs (dats m) 0 (V0 m) [hostOps1]) r) (c : Dev nD) :
    r.2.mem ((c.tc : Thread nD τ).loc main_arg22) = m ((c.tc : Thread nD τ).loc main_arg22) :=
  ((h c).1 24).trans (((dats m 0 c).arrAt_in 24 rfl _).trans ((A_eq m c 24).trans (V_main_arg22 m c)))

theorem kept_arg23 (r : PUnit × MemSt nD τ sig (Elt Ideal)) (h : Pipeline.FramePost cfgs (dats m) 0 (Pipeline.afterTail₀ cfgs (dats m) 0 (V0 m) [hostOps1]) r) (c : Dev nD) :
    r.2.mem ((c.tc : Thread nD τ).loc main_arg23) = m ((c.tc : Thread nD τ).loc main_arg23) :=
  ((h c).1 25).trans (((dats m 0 c).arrAt_in 25 rfl _).trans ((A_eq m c 25).trans (V_main_arg23 m c)))

theorem kept_arg24 (r : PUnit × MemSt nD τ sig (Elt Ideal)) (h : Pipeline.FramePost cfgs (dats m) 0 (Pipeline.afterTail₀ cfgs (dats m) 0 (V0 m) [hostOps1]) r) (c : Dev nD) :
    r.2.mem ((c.tc : Thread nD τ).loc main_arg24) = m ((c.tc : Thread nD τ).loc main_arg24) :=
  ((h c).1 26).trans (((dats m 0 c).arrAt_in 26 rfl _).trans ((A_eq m c 26).trans (V_main_arg24 m c)))

theorem kept_arg25 (r : PUnit × MemSt nD τ sig (Elt Ideal)) (h : Pipeline.FramePost cfgs (dats m) 0 (Pipeline.afterTail₀ cfgs (dats m) 0 (V0 m) [hostOps1]) r) (c : Dev nD) :
    r.2.mem ((c.tc : Thread nD τ).loc main_arg25) = m ((c.tc : Thread nD τ).loc main_arg25) :=
  ((h c).1 27).trans (((dats m 0 c).arrAt_in 27 rfl _).trans ((A_eq m c 27).trans (V_main_arg25 m c)))

theorem kept_arg26 (r : PUnit × MemSt nD τ sig (Elt Ideal)) (h : Pipeline.FramePost cfgs (dats m) 0 (Pipeline.afterTail₀ cfgs (dats m) 0 (V0 m) [hostOps1]) r) (c : Dev nD) :
    r.2.mem ((c.tc : Thread nD τ).loc main_arg26) = m ((c.tc : Thread nD τ).loc main_arg26) :=
  ((h c).1 28).trans (((dats m 0 c).arrAt_in 28 rfl _).trans ((A_eq m c 28).trans (V_main_arg26 m c)))

theorem kept_arg27 (r : PUnit × MemSt nD τ sig (Elt Ideal)) (h : Pipeline.FramePost cfgs (dats m) 0 (Pipeline.afterTail₀ cfgs (dats m) 0 (V0 m) [hostOps1]) r) (c : Dev nD) :
    r.2.mem ((c.tc : Thread nD τ).loc main_arg27) = m ((c.tc : Thread nD τ).loc main_arg27) :=
  ((h c).1 29).trans (((dats m 0 c).arrAt_in 29 rfl _).trans ((A_eq m c 29).trans (V_main_arg27 m c)))

theorem kept_arg28 (r : PUnit × MemSt nD τ sig (Elt Ideal)) (h : Pipeline.FramePost cfgs (dats m) 0 (Pipeline.afterTail₀ cfgs (dats m) 0 (V0 m) [hostOps1]) r) (c : Dev nD) :
    r.2.mem ((c.tc : Thread nD τ).loc main_arg28) = m ((c.tc : Thread nD τ).loc main_arg28) :=
  ((h c).1 30).trans (((dats m 0 c).arrAt_in 30 rfl _).trans ((A_eq m c 30).trans (V_main_arg28 m c)))

/-- After the run each output array of the region is the whole array of Proof/Spec.lean. -/
theorem post_recon (r : PUnit × MemSt nD τ sig (Elt Ideal)) (h : Pipeline.FramePost cfgs (dats m) 0 (Pipeline.afterTail₀ cfgs (dats m) 0 (V0 m) [hostOps1]) r) (c : Dev nD) (hpre : ∀ a : Fin 262144, ∃ t : Fin 5, m ((c.tc : Thread nD τ).loc main_arg1) (ix1 a) = BitVec.ofNat 32 t.val) :
    r.2.mem ((c.tc : Thread nD τ).loc main_v10_0) = reconG (WofM m c) CK (m ((c.tc : Thread nD τ).loc main_arg0)) (m ((c.tc : Thread nD τ).loc main_arg1)) :=
  ((h c).1 36).trans (final36 m c hpre)

theorem post_cls (r : PUnit × MemSt nD τ sig (Elt Ideal)) (h : Pipeline.FramePost cfgs (dats m) 0 (Pipeline.afterTail₀ cfgs (dats m) 0 (V0 m) [hostOps1]) r) (c : Dev nD) (hpre : ∀ a : Fin 262144, ∃ t : Fin 5, m ((c.tc : Thread nD τ).loc main_arg1) (ix1 a) = BitVec.ofNat 32 t.val) :
    r.2.mem ((c.tc : Thread nD τ).loc main_v10_1) = clsG (WofM m c) CK (m ((c.tc : Thread nD τ).loc main_arg0)) (m ((c.tc : Thread nD τ).loc main_arg1)) :=
  ((h c).1 37).trans (final37 m c hpre)

theorem post_clo (r : PUnit × MemSt nD τ sig (Elt Ideal)) (h : Pipeline.FramePost cfgs (dats m) 0 (Pipeline.afterTail₀ cfgs (dats m) 0 (V0 m) [hostOps1]) r) (c : Dev nD) (hpre : ∀ a : Fin 262144, ∃ t : Fin 5, m ((c.tc : Thread nD τ).loc main_arg1) (ix1 a) = BitVec.ofNat 32 t.val) :
    r.2.mem ((c.tc : Thread nD τ).loc main_v10_2) = cloG (WofM m c) CK (m ((c.tc : Thread nD τ).loc main_arg0)) (m ((c.tc : Thread nD τ).loc main_arg1)) :=
  ((h c).1 38).trans (final38 m c hpre)

theorem post_zq (r : PUnit × MemSt nD τ sig (Elt Ideal)) (h : Pipeline.FramePost cfgs (dats m) 0 (Pipeline.afterTail₀ cfgs (dats m) 0 (V0 m) [hostOps1]) r) (c : Dev nD) (hpre : ∀ a : Fin 262144, ∃ t : Fin 5, m ((c.tc : Thread nD τ).loc main_arg1) (ix1 a) = BitVec.ofNat 32 t.val) :
    r.2.mem ((c.tc : Thread nD τ).loc main_v10_3) = zqG (WofM m c) CK (m ((c.tc : Thread nD τ).loc main_arg0)) (m ((c.tc : Thread nD τ).loc main_arg1)) :=
  ((h c).1 39).trans (final39 m c hpre)

/-- After the run the mask is the program's mask function of the surface types. -/
theorem post_mask (r : PUnit × MemSt nD τ sig (Elt Ideal)) (h : Pipeline.FramePost cfgs (dats m) 0 (Pipeline.afterTail₀ cfgs (dats m) 0 (V0 m) [hostOps1]) r) (c : Dev nD) :
    r.2.mem ((c.tc : Thread nD τ).loc main_v24) = KMask (F := Ideal) (m ((c.tc : Thread nD τ).loc main_arg1)) :=
  ((h c).2 main_v24 (Pipeline.mem_restRefs_of main_v24 (by decide) (by decide))).trans (tail_v24 m c)

/-- After the run the code-index vector is the code-index array of Proof/Spec.lean. -/
theorem post_idx (r : PUnit × MemSt nD τ sig (Elt Ideal)) (h : Pipeline.FramePost cfgs (dats m) 0 (Pipeline.afterTail₀ cfgs (dats m) 0 (V0 m) [hostOps1]) r) (c : Dev nD) (hpre : ∀ a : Fin 262144, ∃ t : Fin 5, m ((c.tc : Thread nD τ).loc main_arg1) (ix1 a) = BitVec.ofNat 32 t.val) :
    r.2.mem ((c.tc : Thread nD τ).loc main_v25) = idxG (WofM m c) CK (m ((c.tc : Thread nD τ).loc main_arg0)) (m ((c.tc : Thread nD τ).loc main_arg1)) :=
  ((h c).2 main_v25 (Pipeline.mem_restRefs_of main_v25 (by decide) (by decide))).trans (tail_v25 m c hpre)

end Blocks

/-- On every device, from any memory with zero counters and every surface type in range: every weakly fair execution of
    the kernel program terminates with its six results at Proof/Spec.lean's arrays of the arguments (the mask at the
    program's own mask function of the surface types), and the arguments unchanged. -/
theorem run (m : (ℓ : Loc nD τ sig) → Buf (Elt Ideal) ℓ) (ρ : Dev nD → PrngReg)
    (hpre : ∀ (c : Dev nD) (a : Fin 262144), ∃ t : Fin 5, m ((c.tc : Thread nD τ).loc main_arg1) (ix1 a) = BitVec.ofNat 32 t.val) :
    θ_run defs (onTc (τ := τ) (main (F := Ideal))) ⟨m, fun _ => 0, ρ⟩ fun r => ∀ c : Dev nD,
      r.2.mem ((c.tc : Thread nD τ).loc main_v10_0) = reconG (WofM m c) CK (m ((c.tc : Thread nD τ).loc main_arg0)) (m ((c.tc : Thread nD τ).loc main_arg1))
      ∧ r.2.mem ((c.tc : Thread nD τ).loc main_v24) = KMask (F := Ideal) (m ((c.tc : Thread nD τ).loc main_arg1))
      ∧ r.2.mem ((c.tc : Thread nD τ).loc main_v10_1) = clsG (WofM m c) CK (m ((c.tc : Thread nD τ).loc main_arg0)) (m ((c.tc : Thread nD τ).loc main_arg1))
      ∧ r.2.mem ((c.tc : Thread nD τ).loc main_v10_2) = cloG (WofM m c) CK (m ((c.tc : Thread nD τ).loc main_arg0)) (m ((c.tc : Thread nD τ).loc main_arg1))
      ∧ r.2.mem ((c.tc : Thread nD τ).loc main_v10_3) = zqG (WofM m c) CK (m ((c.tc : Thread nD τ).loc main_arg0)) (m ((c.tc : Thread nD τ).loc main_arg1))
      ∧ r.2.mem ((c.tc : Thread nD τ).loc main_v25) = idxG (WofM m c) CK (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28) :=
  (θ_run defs _ _).mono (fun r h c => ⟨post_recon m r h c (hpre c), post_mask m r h c, post_cls m r h c (hpre c), post_clo m r h c (hpre c),
      post_zq m r h c (hpre c), post_idx m r h c (hpre c),
      kept_arg0 m r h c,
      kept_arg1 m r h c,
      kept_arg2 m r h c,
      kept_arg3 m r h c,
      kept_arg4 m r h c,
      kept_arg5 m r h c,
      kept_arg6 m r h c,
      kept_arg7 m r h c,
      kept_arg8 m r h c,
      kept_arg9 m r h c,
      kept_arg10 m r h c,
      kept_arg11 m r h c,
      kept_arg12 m r h c,
      kept_arg13 m r h c,
      kept_arg14 m r h c,
      kept_arg15 m r h c,
      kept_arg16 m r h c,
      kept_arg17 m r h c,
      kept_arg18 m r h c,
      kept_arg19 m r h c,
      kept_arg20 m r h c,
      kept_arg21 m r h c,
      kept_arg22 m r h c,
      kept_arg23 m r h c,
      kept_arg24 m r h c,
      kept_arg25 m r h c,
      kept_arg26 m r h c,
      kept_arg27 m r h c,
      kept_arg28 m r h c⟩) (GenP.run_main m ρ)

end Cert.KernelIdeal.KV

end
-- ==== Proof.RefOps.lean ====
/-
  The reference's operations, in order, as three lists (statements 1 … 60, 61 … 120 and 121 … 124 of its 124; a called function's
  statements stand at the call, over the call's own buffers), and for each list that every operation stays within the
  TensorCore's buffers.
-/
import proofs.«425746_j43550968382251_1_alg».proof.Proof.Gen.ReferenceIdeal
import Idealize.ShloMosaic.Lib.StableHlo.Run

noncomputable section

namespace Cert.ReferenceIdeal.RT

open Cert.ReferenceIdeal Cert.ReferenceIdeal.Gen Idealize.ShloMosaic Idealize.ShloMosaic.TcCoe Idealize.SL.Sem Idealize.ShloMosaic.StableHlo

variable {F : FTy → Type} [FloatOps F]

/-- The operations of the reference's statements in window 0. -/
abbrev ops0 : List (HloOp τ sig (Elt F)) :=
  [ nullary main_cst (fun i => FloatOps.ofBits .f32 (lit0 (S4.rowMajor i))),
    nullary main_cst_0 (fun i => FloatOps.ofBits .f32 (lit1 (S4.rowMajor i))),
    nullary main_cst_1 (fun i => FloatOps.ofBits .f32 (lit2 (S4.rowMajor i))),
    nullary main_cst_2 (fun i => FloatOps.ofBits .f32 (lit3 (S4.rowMajor i))),
    nullary main_cst_3 (fun i => FloatOps.ofBits .f32 (lit4 (S4.rowMajor i))),
    nullary main_c (fun i => lit5 (S5.rowMajor i)),
    nullary main_c_4 (constantI S_ 32 0#32),
    unary main_c_4 main_v0 (broadcastInDim S262144 ![] bcast_S_S262144 : (⟨S_, .i32⟩ : BufTy).Contents (Elt F) → (⟨S262144, .i32⟩ : BufTy).Contents (Elt F)),
    binary main_arg1 main_v0 main_v1 (cmpi .slt : (⟨S262144, .i32⟩ : BufTy).Contents (Elt F) → (⟨S262144, .i32⟩ : BufTy).Contents (Elt F) → (⟨S262144, .i1⟩ : BufTy).Contents (Elt F)),
    nullary main_c_5 (constantI S_ 32 5#32),
    unary main_c_5 main_v2 (broadcastInDim S262144 ![] bcast_S_S262144 : (⟨S_, .i32⟩ : BufTy).Contents (Elt F) → (⟨S262144, .i32⟩ : BufTy).Contents (Elt F)),
    binary main_arg1 main_v2 main_v3 (addi : (⟨S262144, .i32⟩ : BufTy).Contents (Elt F) → (⟨S262144, .i32⟩ : BufTy).Contents (Elt F) → (⟨S262144, .i32⟩ : BufTy).Contents (Elt F)),
    ternary main_v1 main_v3 main_arg1 main_v4 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v4 main_v5 (broadcastInDim S262144x1 ![0] bcast_S262144_S262144x1_0 : (⟨S262144, .i32⟩ : BufTy).Contents (Elt F) → (⟨S262144x1, .i32⟩ : BufTy).Contents (Elt F)),
    binary main_arg2 main_v5 main_v6 ((fun x i => Host.gather gather_S5x16_S262144x1_S262144x16_1_0_n_n_0_1_116 x i) : (⟨S5x16, .f32⟩ : BufTy).Contents (Elt F) → (⟨S262144x1, .i32⟩ : BufTy).Contents (Elt F) → (⟨S262144x16, .f32⟩ : BufTy).Contents (Elt F)),
    binary main_arg0 main_arg3 main_v7 ((fun l r => Host.dotGeneral dot_S262144x11_S5x32x11_S262144x5x32_1_2_0_01_n_n none l r) : (⟨S262144x11, .f32⟩ : BufTy).Contents (Elt F) → (⟨S5x32x11, .f32⟩ : BufTy).Contents (Elt F) → (⟨S262144x5x32, .f32⟩ : BufTy).Contents (Elt F)),
    unary main_arg4 main_v8 (broadcastInDim S1x5x32 ![1, 2] bcast_S5x32_S1x5x32_1_2 : (⟨S5x32, .f32⟩ : BufTy).Contents (Elt F) → (⟨S1x5x32, .f32⟩ : BufTy).Contents (Elt F)),
    unary main_v8 main_v9 (broadcastInDim S262144x5x32 ![0, 1, 2] bcast_S1x5x32_S262144x5x32_0_1_2 : (⟨S1x5x32, .f32⟩ : BufTy).Contents (Elt F) → (⟨S262144x5x32, .f32⟩ : BufTy).Contents (Elt F)),
    binary main_v7 main_v9 main_v10 (addf : (⟨S262144x5x32, .f32⟩ : BufTy).Contents (Elt F) → (⟨S262144x5x32, .f32⟩ : BufTy).Contents (Elt F) → (⟨S262144x5x32, .f32⟩ : BufTy).Contents (Elt F)),
    unary main_arg1 main_v11 (broadcastInDim S262144x1x1 ![0] bcast_S262144_S262144x1x1_0 : (⟨S262144, .i32⟩ : BufTy).Contents (Elt F) → (⟨S262144x1x1, .i32⟩ : BufTy).Contents (Elt F)),
    TRef.nullary main_call0.c (constantI S_ 32 0#32),
    TRef.unary main_call0.c main_call0.v0 (broadcastInDim S262144x1x1 ![] bcast_S_S262144x1x1),
    TRef.binary (.of main_v11) main_call0.v0 main_call0.v1 (cmpi .slt),
    TRef.nullary main_call0.c_0 (constantI S_ 32 5#32),
    TRef.unary main_call0.c_0 main_call0.v2 (broadcastInDim S262144x1x1 ![] bcast_S_S262144x1x1),
    TRef.binary (.of main_v11) main_call0.v2 main_call0.v3 addi,
    TRef.ternary main_call0.v1 main_call0.v3 (.of main_v11) main_call0.v4 select,
    TRef.nullary main_call0.c_1 (constantI S1 32 4#32),
    TRef.nullary main_call0.c_2 (constantI S_ 32 0#32),
    TRef.unary main_call0.c_2 main_call0.v5 (broadcastInDim S262144x1x1 ![] bcast_S_S262144x1x1),
    TRef.binary main_call0.v4 main_call0.v5 main_call0.v6 (cmpi .sge),
    TRef.unary main_call0.c_1 main_call0.v7 (broadcastInDim S1x1x1 ![2] bcast_S1_S1x1x1_2),
    TRef.unary main_call0.v7 main_call0.v8 (broadcastInDim S262144x1x1 ![0, 1, 2] bcast_S1x1x1_S262144x1x1_0_1_2),
    TRef.binary main_call0.v4 main_call0.v8 main_call0.v9 (cmpi .sle),
    TRef.binary main_call0.v6 main_call0.v9 main_call0.v10 andi,
    TRef.nullary main_call0.c_3 (constantI S_ 1 1#1),
    TRef.binary main_call0.v10 main_call0.c_3 main_call0.v11 (fun x v => Host.reduce IntOp.andi x v reducesTo_S262144x1x1_S262144x1_d2 h_S_),
    TRef.binary (.of main_v10) main_call0.v4 main_call0.v12 (fun x i => Host.gather gather_S262144x5x32_S262144x1x1_S262144x1x32_2_1_0_0_1_2_1132 x i),
    TRef.unary main_call0.v11 main_call0.v13 (broadcastInDim S262144x1x32 ![0, 1] bcast_S262144x1_S262144x1x32_0_1),
    TRef.nullary main_call0.cst (constant S_ .f32 0x7FC00000#32),
    TRef.unary main_call0.cst main_call0.v14 (broadcastInDim S262144x1x32 ![] bcast_S_S262144x1x32),
    TRef.ternary main_call0.v13 main_call0.v12 main_call0.v14 main_call0.v15 select,
    reshape main_v12 main_v13 rfl shapeCasts_S262144x1x32_S262144x32,
    binary main_v13 main_v6 main_v14 ((fun a b => concatenate S262144x48 1 [⟨S262144x32, a⟩, ⟨S262144x16, b⟩] concatenates_S262144x32_S262144x16_S262144x48_d1) : (⟨S262144x32, .f32⟩ : BufTy).Contents (Elt F) → (⟨S262144x16, .f32⟩ : BufTy).Contents (Elt F) → (⟨S262144x48, .f32⟩ : BufTy).Contents (Elt F)),
    binary main_v14 main_arg5 main_v15 ((fun l r => Host.dotGeneral dot_S262144x48_S48x512_S262144x512_1_0_0_1_n_n none l r) : (⟨S262144x48, .f32⟩ : BufTy).Contents (Elt F) → (⟨S48x512, .f32⟩ : BufTy).Contents (Elt F) → (⟨S262144x512, .f32⟩ : BufTy).Contents (Elt F)),
    unary main_arg6 main_v16 (broadcastInDim S1x512 ![1] bcast_S512_S1x512_1 : (⟨S512, .f32⟩ : BufTy).Contents (Elt F) → (⟨S1x512, .f32⟩ : BufTy).Contents (Elt F)),
    unary main_v16 main_v17 (broadcastInDim S262144x512 ![0, 1] bcast_S1x512_S262144x512_0_1 : (⟨S1x512, .f32⟩ : BufTy).Contents (Elt F) → (⟨S262144x512, .f32⟩ : BufTy).Contents (Elt F)),
    binary main_v15 main_v17 main_v18 (addf : (⟨S262144x512, .f32⟩ : BufTy).Contents (Elt F) → (⟨S262144x512, .f32⟩ : BufTy).Contents (Elt F) → (⟨S262144x512, .f32⟩ : BufTy).Contents (Elt F)),
    TRef.nullary main_call1.cst (constant S_ .f32 0x00000000#32),
    TRef.unary main_call1.cst main_call1.v0 (broadcastInDim S262144x512 ![] bcast_S_S262144x512),
    TRef.binary (.of main_v18) main_call1.v0 main_call1.v1 maximumf,
    binary main_v19 main_arg7 main_v20 ((fun l r => Host.dotGeneral dot_S262144x512_S512x256_S262144x256_1_0_0_1_n_n none l r) : (⟨S262144x512, .f32⟩ : BufTy).Contents (Elt F) → (⟨S512x256, .f32⟩ : BufTy).Contents (Elt F) → (⟨S262144x256, .f32⟩ : BufTy).Contents (Elt F)),
    unary main_arg8 main_v21 (broadcastInDim S1x256 ![1] bcast_S256_S1x256_1 : (⟨S256, .f32⟩ : BufTy).Contents (Elt F) → (⟨S1x256, .f32⟩ : BufTy).Contents (Elt F)),
    unary main_v21 main_v22 (broadcastInDim S262144x256 ![0, 1] bcast_S1x256_S262144x256_0_1 : (⟨S1x256, .f32⟩ : BufTy).Contents (Elt F) → (⟨S262144x256, .f32⟩ : BufTy).Contents (Elt F)),
    binary main_v20 main_v22 main_v23 (addf : (⟨S262144x256, .f32⟩ : BufTy).Contents (Elt F) → (⟨S262144x256, .f32⟩ : BufTy).Contents (Elt F) → (⟨S262144x256, .f32⟩ : BufTy).Contents (Elt F)),
    TRef.nullary main_call2.cst (constant S_ .f32 0x00000000#32),
    TRef.unary main_call2.cst main_call2.v0 (broadcastInDim S262144x256 ![] bcast_S_S262144x256),
    TRef.binary (.of main_v23) main_call2.v0 main_call2.v1 maximumf,
    binary main_v24 main_arg9 main_v25 ((fun l r => Host.dotGeneral dot_S262144x256_S256x128_S262144x128_1_0_0_1_n_n none l r) : (⟨S262144x256, .f32⟩ : BufTy).Contents (Elt F) → (⟨S256x128, .f32⟩ : BufTy).Contents (Elt F) → (⟨S262144x128, .f32⟩ : BufTy).Contents (Elt F)),
    unary main_arg10 main_v26 (broadcastInDim S1x128 ![1] bcast_S128_S1x128_1 : (⟨S128, .f32⟩ : BufTy).Contents (Elt F) → (⟨S1x128, .f32⟩ : BufTy).Contents (Elt F)),
    unary main_v26 main_v27 (broadcastInDim S262144x128 ![0, 1] bcast_S1x128_S262144x128_0_1 : (⟨S1x128, .f32⟩ : BufTy).Contents (Elt F) → (⟨S262144x128, .f32⟩ : BufTy).Contents (Elt F)),
    binary main_v25 main_v27 main_v28 (addf : (⟨S262144x128, .f32⟩ : BufTy).Contents (Elt F) → (⟨S262144x128, .f32⟩ : BufTy).Contents (Elt F) → (⟨S262144x128, .f32⟩ : BufTy).Contents (Elt F)),
    TRef.nullary main_call3.cst (constant S_ .f32 0x00000000#32),
    TRef.unary main_call3.cst main_call3.v0 (broadcastInDim S262144x128 ![] bcast_S_S262144x128),
    TRef.binary (.of main_v28) main_call3.v0 main_call3.v1 maximumf,
    binary main_v29 main_arg11 main_v30 ((fun l r => Host.dotGeneral dot_S262144x128_S128x128_S262144x128_1_0_0_1_n_n none l r) : (⟨S262144x128, .f32⟩ : BufTy).Contents (Elt F) → (⟨S128x128, .f32⟩ : BufTy).Contents (Elt F) → (⟨S262144x128, .f32⟩ : BufTy).Contents (Elt F)),
    unary main_arg12 main_v31 (broadcastInDim S1x128 ![1] bcast_S128_S1x128_1 : (⟨S128, .f32⟩ : BufTy).Contents (Elt F) → (⟨S1x128, .f32⟩ : BufTy).Contents (Elt F)),
    unary main_v31 main_v32 (broadcastInDim S262144x128 ![0, 1] bcast_S1x128_S262144x128_0_1 : (⟨S1x128, .f32⟩ : BufTy).Contents (Elt F) → (⟨S262144x128, .f32⟩ : BufTy).Contents (Elt F)),
    binary main_v30 main_v32 main_v33 (addf : (⟨S262144x128, .f32⟩ : BufTy).Contents (Elt F) → (⟨S262144x128, .f32⟩ : BufTy).Contents (Elt F) → (⟨S262144x128, .f32⟩ : BufTy).Contents (Elt F)),
    binary main_v33 main_arg13 main_v34 ((fun l r => Host.dotGeneral dot_S262144x128_S128x4_S262144x4_1_0_0_1_n_n none l r) : (⟨S262144x128, .f32⟩ : BufTy).Contents (Elt F) → (⟨S128x4, .f32⟩ : BufTy).Contents (Elt F) → (⟨S262144x4, .f32⟩ : BufTy).Contents (Elt F)),
    unary main_arg14 main_v35 (broadcastInDim S1x4 ![1] bcast_S4_S1x4_1 : (⟨S4, .f32⟩ : BufTy).Contents (Elt F) → (⟨S1x4, .f32⟩ : BufTy).Contents (Elt F)),
    unary main_v35 main_v36 (broadcastInDim S262144x4 ![0, 1] bcast_S1x4_S262144x4_0_1 : (⟨S1x4, .f32⟩ : BufTy).Contents (Elt F) → (⟨S262144x4, .f32⟩ : BufTy).Contents (Elt F)),
    binary main_v34 main_v36 main_v37 (addf : (⟨S262144x4, .f32⟩ : BufTy).Contents (Elt F) → (⟨S262144x4, .f32⟩ : BufTy).Contents (Elt F) → (⟨S262144x4, .f32⟩ : BufTy).Contents (Elt F)),
    unary main_cst main_v38 (broadcastInDim S1x4 ![1] bcast_S4_S1x4_1 : (⟨S4, .f32⟩ : BufTy).Contents (Elt F) → (⟨S1x4, .f32⟩ : BufTy).Contents (Elt F)),
    unary main_v38 main_v39 (broadcastInDim S262144x4 ![0, 1] bcast_S1x4_S262144x4_0_1 : (⟨S1x4, .f32⟩ : BufTy).Contents (Elt F) → (⟨S262144x4, .f32⟩ : BufTy).Contents (Elt F)),
    binary main_v37 main_v39 main_v40 (addf : (⟨S262144x4, .f32⟩ : BufTy).Contents (Elt F) → (⟨S262144x4, .f32⟩ : BufTy).Contents (Elt F) → (⟨S262144x4, .f32⟩ : BufTy).Contents (Elt F)),
    unary main_v40 main_v41 (Host.tanh : (⟨S262144x4, .f32⟩ : BufTy).Contents (Elt F) → (⟨S262144x4, .f32⟩ : BufTy).Contents (Elt F)),
    unary main_cst_0 main_v42 (broadcastInDim S1x4 ![1] bcast_S4_S1x4_1 : (⟨S4, .f32⟩ : BufTy).Contents (Elt F) → (⟨S1x4, .f32⟩ : BufTy).Contents (Elt F)),
    unary main_v42 main_v43 (broadcastInDim S262144x4 ![0, 1] bcast_S1x4_S262144x4_0_1 : (⟨S1x4, .f32⟩ : BufTy).Contents (Elt F) → (⟨S262144x4, .f32⟩ : BufTy).Contents (Elt F)),
    binary main_v41 main_v43 main_v44 (mulf : (⟨S262144x4, .f32⟩ : BufTy).Contents (Elt F) → (⟨S262144x4, .f32⟩ : BufTy).Contents (Elt F) → (⟨S262144x4, .f32⟩ : BufTy).Contents (Elt F)),
    unary main_cst_1 main_v45 (broadcastInDim S1x4 ![1] bcast_S4_S1x4_1 : (⟨S4, .f32⟩ : BufTy).Contents (Elt F) → (⟨S1x4, .f32⟩ : BufTy).Contents (Elt F)),
    unary main_v45 main_v46 (broadcastInDim S262144x4 ![0, 1] bcast_S1x4_S262144x4_0_1 : (⟨S1x4, .f32⟩ : BufTy).Contents (Elt F) → (⟨S262144x4, .f32⟩ : BufTy).Contents (Elt F)),
    binary main_v44 main_v46 main_v47 (subf : (⟨S262144x4, .f32⟩ : BufTy).Contents (Elt F) → (⟨S262144x4, .f32⟩ : BufTy).Contents (Elt F) → (⟨S262144x4, .f32⟩ : BufTy).Contents (Elt F)),
    TRef.unary (.of main_v47) main_call4.v0 Host.roundeven,
    binary main_v48 main_v47 main_v49 (subf : (⟨S262144x4, .f32⟩ : BufTy).Contents (Elt F) → (⟨S262144x4, .f32⟩ : BufTy).Contents (Elt F) → (⟨S262144x4, .f32⟩ : BufTy).Contents (Elt F)),
    binary main_v47 main_v49 main_v50 (addf : (⟨S262144x4, .f32⟩ : BufTy).Contents (Elt F) → (⟨S262144x4, .f32⟩ : BufTy).Contents (Elt F) → (⟨S262144x4, .f32⟩ : BufTy).Contents (Elt F)),
    unary main_cst_2 main_v51 (broadcastInDim S1x4 ![1] bcast_S4_S1x4_1 : (⟨S4, .f32⟩ : BufTy).Contents (Elt F) → (⟨S1x4, .f32⟩ : BufTy).Contents (Elt F)) ]

set_option maxRecDepth 8192 in
theorem ops0_sub : (ops0 : List (HloOp τ sig (Elt F))).Forall fun op => op.bufs ⊆ tcRefs τ sig :=
  ⟨nullary_bufs_sub .., nullary_bufs_sub .., nullary_bufs_sub .., nullary_bufs_sub .., nullary_bufs_sub .., nullary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., reshape_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., binary_bufs_sub .., unary_bufs_sub .., unary_bufs_sub .., binary_bufs_sub .., unary_bufs_sub .., unary_bufs_sub .., binary_bufs_sub .., unary_bufs_sub .., unary_bufs_sub .., unary_bufs_sub .., binary_bufs_sub .., unary_bufs_sub .., unary_bufs_sub .., binary_bufs_sub .., unary_bufs_sub .., binary_bufs_sub .., binary_bufs_sub .., unary_bufs_sub ..⟩

/-- The operations of the reference's statements in window 1. -/
abbrev ops1 : List (HloOp τ sig (Elt F)) :=
  [ unary main_v51 main_v52 (broadcastInDim S262144x4 ![0, 1] bcast_S1x4_S262144x4_0_1 : (⟨S1x4, .f32⟩ : BufTy).Contents (Elt F) → (⟨S262144x4, .f32⟩ : BufTy).Contents (Elt F)),
    binary main_v50 main_v52 main_v53 (Host.divf : (⟨S262144x4, .f32⟩ : BufTy).Contents (Elt F) → (⟨S262144x4, .f32⟩ : BufTy).Contents (Elt F) → (⟨S262144x4, .f32⟩ : BufTy).Contents (Elt F)),
    unary main_cst_2 main_v54 (broadcastInDim S1x4 ![1] bcast_S4_S1x4_1 : (⟨S4, .f32⟩ : BufTy).Contents (Elt F) → (⟨S1x4, .f32⟩ : BufTy).Contents (Elt F)),
    unary main_v54 main_v55 (broadcastInDim S262144x4 ![0, 1] bcast_S1x4_S262144x4_0_1 : (⟨S1x4, .f32⟩ : BufTy).Contents (Elt F) → (⟨S262144x4, .f32⟩ : BufTy).Contents (Elt F)),
    binary main_v53 main_v55 main_v56 (mulf : (⟨S262144x4, .f32⟩ : BufTy).Contents (Elt F) → (⟨S262144x4, .f32⟩ : BufTy).Contents (Elt F) → (⟨S262144x4, .f32⟩ : BufTy).Contents (Elt F)),
    unary main_cst_2 main_v57 (broadcastInDim S1x4 ![1] bcast_S4_S1x4_1 : (⟨S4, .f32⟩ : BufTy).Contents (Elt F) → (⟨S1x4, .f32⟩ : BufTy).Contents (Elt F)),
    unary main_v57 main_v58 (broadcastInDim S262144x4 ![0, 1] bcast_S1x4_S262144x4_0_1 : (⟨S1x4, .f32⟩ : BufTy).Contents (Elt F) → (⟨S262144x4, .f32⟩ : BufTy).Contents (Elt F)),
    binary main_v56 main_v58 main_v59 (addf : (⟨S262144x4, .f32⟩ : BufTy).Contents (Elt F) → (⟨S262144x4, .f32⟩ : BufTy).Contents (Elt F) → (⟨S262144x4, .f32⟩ : BufTy).Contents (Elt F)),
    unary main_cst_3 main_v60 (broadcastInDim S1x4 ![1] bcast_S4_S1x4_1 : (⟨S4, .f32⟩ : BufTy).Contents (Elt F) → (⟨S1x4, .f32⟩ : BufTy).Contents (Elt F)),
    unary main_v60 main_v61 (broadcastInDim S262144x4 ![0, 1] bcast_S1x4_S262144x4_0_1 : (⟨S1x4, .f32⟩ : BufTy).Contents (Elt F) → (⟨S262144x4, .f32⟩ : BufTy).Contents (Elt F)),
    binary main_v59 main_v61 main_v62 (mulf : (⟨S262144x4, .f32⟩ : BufTy).Contents (Elt F) → (⟨S262144x4, .f32⟩ : BufTy).Contents (Elt F) → (⟨S262144x4, .f32⟩ : BufTy).Contents (Elt F)),
    nullary main_cst_6 (constant S_ .f32 0x00000000#32),
    binary main_v62 main_cst_6 main_v63 ((fun x v => Host.reduceAdd x v reducesTo_S262144x4_S262144_d1 h_S_) : (⟨S262144x4, .f32⟩ : BufTy).Contents (Elt F) → (⟨S_, .f32⟩ : BufTy).Contents (Elt F) → (⟨S262144, .f32⟩ : BufTy).Contents (Elt F)),
    unary main_v63 main_v64 (fptosi 32 : (⟨S262144, .f32⟩ : BufTy).Contents (Elt F) → (⟨S262144, .i32⟩ : BufTy).Contents (Elt F)),
    binary main_v53 main_arg15 main_v65 ((fun l r => Host.dotGeneral dot_S262144x4_S4x128_S262144x128_1_0_0_1_n_n none l r) : (⟨S262144x4, .f32⟩ : BufTy).Contents (Elt F) → (⟨S4x128, .f32⟩ : BufTy).Contents (Elt F) → (⟨S262144x128, .f32⟩ : BufTy).Contents (Elt F)),
    unary main_arg16 main_v66 (broadcastInDim S1x128 ![1] bcast_S128_S1x128_1 : (⟨S128, .f32⟩ : BufTy).Contents (Elt F) → (⟨S1x128, .f32⟩ : BufTy).Contents (Elt F)),
    unary main_v66 main_v67 (broadcastInDim S262144x128 ![0, 1] bcast_S1x128_S262144x128_0_1 : (⟨S1x128, .f32⟩ : BufTy).Contents (Elt F) → (⟨S262144x128, .f32⟩ : BufTy).Contents (Elt F)),
    binary main_v65 main_v67 main_v68 (addf : (⟨S262144x128, .f32⟩ : BufTy).Contents (Elt F) → (⟨S262144x128, .f32⟩ : BufTy).Contents (Elt F) → (⟨S262144x128, .f32⟩ : BufTy).Contents (Elt F)),
    binary main_v68 main_arg23 main_v69 ((fun l r => Host.dotGeneral dot_S262144x128_S128x5_S262144x5_1_0_0_1_n_n none l r) : (⟨S262144x128, .f32⟩ : BufTy).Contents (Elt F) → (⟨S128x5, .f32⟩ : BufTy).Contents (Elt F) → (⟨S262144x5, .f32⟩ : BufTy).Contents (Elt F)),
    unary main_arg24 main_v70 (broadcastInDim S1x5 ![1] bcast_S5_S1x5_1 : (⟨S5, .f32⟩ : BufTy).Contents (Elt F) → (⟨S1x5, .f32⟩ : BufTy).Contents (Elt F)),
    unary main_v70 main_v71 (broadcastInDim S262144x5 ![0, 1] bcast_S1x5_S262144x5_0_1 : (⟨S1x5, .f32⟩ : BufTy).Contents (Elt F) → (⟨S262144x5, .f32⟩ : BufTy).Contents (Elt F)),
    binary main_v69 main_v71 main_v72 (addf : (⟨S262144x5, .f32⟩ : BufTy).Contents (Elt F) → (⟨S262144x5, .f32⟩ : BufTy).Contents (Elt F) → (⟨S262144x5, .f32⟩ : BufTy).Contents (Elt F)),
    binary main_v68 main_arg25 main_v73 ((fun l r => Host.dotGeneral dot_S262144x128_S128x2_S262144x2_1_0_0_1_n_n none l r) : (⟨S262144x128, .f32⟩ : BufTy).Contents (Elt F) → (⟨S128x2, .f32⟩ : BufTy).Contents (Elt F) → (⟨S262144x2, .f32⟩ : BufTy).Contents (Elt F)),
    unary main_arg26 main_v74 (broadcastInDim S1x2 ![1] bcast_S2_S1x2_1 : (⟨S2, .f32⟩ : BufTy).Contents (Elt F) → (⟨S1x2, .f32⟩ : BufTy).Contents (Elt F)),
    unary main_v74 main_v75 (broadcastInDim S262144x2 ![0, 1] bcast_S1x2_S262144x2_0_1 : (⟨S1x2, .f32⟩ : BufTy).Contents (Elt F) → (⟨S262144x2, .f32⟩ : BufTy).Contents (Elt F)),
    binary main_v73 main_v75 main_v76 (addf : (⟨S262144x2, .f32⟩ : BufTy).Contents (Elt F) → (⟨S262144x2, .f32⟩ : BufTy).Contents (Elt F) → (⟨S262144x2, .f32⟩ : BufTy).Contents (Elt F)),
    binary main_v68 main_v6 main_v77 ((fun a b => concatenate S262144x144 1 [⟨S262144x128, a⟩, ⟨S262144x16, b⟩] concatenates_S262144x128_S262144x16_S262144x144_d1) : (⟨S262144x128, .f32⟩ : BufTy).Contents (Elt F) → (⟨S262144x16, .f32⟩ : BufTy).Contents (Elt F) → (⟨S262144x144, .f32⟩ : BufTy).Contents (Elt F)),
    binary main_v77 main_arg17 main_v78 ((fun l r => Host.dotGeneral dot_S262144x144_S144x256_S262144x256_1_0_0_1_n_n none l r) : (⟨S262144x144, .f32⟩ : BufTy).Contents (Elt F) → (⟨S144x256, .f32⟩ : BufTy).Contents (Elt F) → (⟨S262144x256, .f32⟩ : BufTy).Contents (Elt F)),
    unary main_arg18 main_v79 (broadcastInDim S1x256 ![1] bcast_S256_S1x256_1 : (⟨S256, .f32⟩ : BufTy).Contents (Elt F) → (⟨S1x256, .f32⟩ : BufTy).Contents (Elt F)),
    unary main_v79 main_v80 (broadcastInDim S262144x256 ![0, 1] bcast_S1x256_S262144x256_0_1 : (⟨S1x256, .f32⟩ : BufTy).Contents (Elt F) → (⟨S262144x256, .f32⟩ : BufTy).Contents (Elt F)),
    binary main_v78 main_v80 main_v81 (addf : (⟨S262144x256, .f32⟩ : BufTy).Contents (Elt F) → (⟨S262144x256, .f32⟩ : BufTy).Contents (Elt F) → (⟨S262144x256, .f32⟩ : BufTy).Contents (Elt F)),
    TRef.nullary main_call5.cst (constant S_ .f32 0x00000000#32),
    TRef.unary main_call5.cst main_call5.v0 (broadcastInDim S262144x256 ![] bcast_S_S262144x256),
    TRef.binary (.of main_v81) main_call5.v0 main_call5.v1 maximumf,
    binary main_v82 main_arg19 main_v83 ((fun l r => Host.dotGeneral dot_S262144x256_S256x512_S262144x512_1_0_0_1_n_n none l r) : (⟨S262144x256, .f32⟩ : BufTy).Contents (Elt F) → (⟨S256x512, .f32⟩ : BufTy).Contents (Elt F) → (⟨S262144x512, .f32⟩ : BufTy).Contents (Elt F)),
    unary main_arg20 main_v84 (broadcastInDim S1x512 ![1] bcast_S512_S1x512_1 : (⟨S512, .f32⟩ : BufTy).Contents (Elt F) → (⟨S1x512, .f32⟩ : BufTy).Contents (Elt F)),
    unary main_v84 main_v85 (broadcastInDim S262144x512 ![0, 1] bcast_S1x512_S262144x512_0_1 : (⟨S1x512, .f32⟩ : BufTy).Contents (Elt F) → (⟨S262144x512, .f32⟩ : BufTy).Contents (Elt F)),
    binary main_v83 main_v85 main_v86 (addf : (⟨S262144x512, .f32⟩ : BufTy).Contents (Elt F) → (⟨S262144x512, .f32⟩ : BufTy).Contents (Elt F) → (⟨S262144x512, .f32⟩ : BufTy).Contents (Elt F)),
    TRef.nullary main_call6.cst (constant S_ .f32 0x00000000#32),
    TRef.unary main_call6.cst main_call6.v0 (broadcastInDim S262144x512 ![] bcast_S_S262144x512),
    TRef.binary (.of main_v86) main_call6.v0 main_call6.v1 maximumf,
    binary main_v87 main_arg21 main_v88 ((fun l r => Host.dotGeneral dot_S262144x512_S512x32_S262144x32_1_0_0_1_n_n none l r) : (⟨S262144x512, .f32⟩ : BufTy).Contents (Elt F) → (⟨S512x32, .f32⟩ : BufTy).Contents (Elt F) → (⟨S262144x32, .f32⟩ : BufTy).Contents (Elt F)),
    unary main_arg22 main_v89 (broadcastInDim S1x32 ![1] bcast_S32_S1x32_1 : (⟨S32, .f32⟩ : BufTy).Contents (Elt F) → (⟨S1x32, .f32⟩ : BufTy).Contents (Elt F)),
    unary main_v89 main_v90 (broadcastInDim S262144x32 ![0, 1] bcast_S1x32_S262144x32_0_1 : (⟨S1x32, .f32⟩ : BufTy).Contents (Elt F) → (⟨S262144x32, .f32⟩ : BufTy).Contents (Elt F)),
    binary main_v88 main_v90 main_v91 (addf : (⟨S262144x32, .f32⟩ : BufTy).Contents (Elt F) → (⟨S262144x32, .f32⟩ : BufTy).Contents (Elt F) → (⟨S262144x32, .f32⟩ : BufTy).Contents (Elt F)),
    binary main_v91 main_arg27 main_v92 ((fun l r => Host.dotGeneral dot_S262144x32_S5x11x32_S262144x5x11_1_2_0_01_n_n none l r) : (⟨S262144x32, .f32⟩ : BufTy).Contents (Elt F) → (⟨S5x11x32, .f32⟩ : BufTy).Contents (Elt F) → (⟨S262144x5x11, .f32⟩ : BufTy).Contents (Elt F)),
    unary main_arg28 main_v93 (broadcastInDim S1x5x11 ![1, 2] bcast_S5x11_S1x5x11_1_2 : (⟨S5x11, .f32⟩ : BufTy).Contents (Elt F) → (⟨S1x5x11, .f32⟩ : BufTy).Contents (Elt F)),
    unary main_v93 main_v94 (broadcastInDim S262144x5x11 ![0, 1, 2] bcast_S1x5x11_S262144x5x11_0_1_2 : (⟨S1x5x11, .f32⟩ : BufTy).Contents (Elt F) → (⟨S262144x5x11, .f32⟩ : BufTy).Contents (Elt F)),
    binary main_v92 main_v94 main_v95 (addf : (⟨S262144x5x11, .f32⟩ : BufTy).Contents (Elt F) → (⟨S262144x5x11, .f32⟩ : BufTy).Contents (Elt F) → (⟨S262144x5x11, .f32⟩ : BufTy).Contents (Elt F)),
    unary main_arg1 main_v96 (broadcastInDim S262144x1x1 ![0] bcast_S262144_S262144x1x1_0 : (⟨S262144, .i32⟩ : BufTy).Contents (Elt F) → (⟨S262144x1x1, .i32⟩ : BufTy).Contents (Elt F)),
    TRef.nullary main_call7.c (constantI S_ 32 0#32),
    TRef.unary main_call7.c main_call7.v0 (broadcastInDim S262144x1x1 ![] bcast_S_S262144x1x1),
    TRef.binary (.of main_v96) main_call7.v0 main_call7.v1 (cmpi .slt),
    TRef.nullary main_call7.c_0 (constantI S_ 32 5#32),
    TRef.unary main_call7.c_0 main_call7.v2 (broadcastInDim S262144x1x1 ![] bcast_S_S262144x1x1),
    TRef.binary (.of main_v96) main_call7.v2 main_call7.v3 addi,
    TRef.ternary main_call7.v1 main_call7.v3 (.of main_v96) main_call7.v4 select,
    TRef.nullary main_call7.c_1 (constantI S1 32 4#32),
    TRef.nullary main_call7.c_2 (constantI S_ 32 0#32),
    TRef.unary main_call7.c_2 main_call7.v5 (broadcastInDim S262144x1x1 ![] bcast_S_S262144x1x1),
    TRef.binary main_call7.v4 main_call7.v5 main_call7.v6 (cmpi .sge),
    TRef.unary main_call7.c_1 main_call7.v7 (broadcastInDim S1x1x1 ![2] bcast_S1_S1x1x1_2),
    TRef.unary main_call7.v7 main_call7.v8 (broadcastInDim S262144x1x1 ![0, 1, 2] bcast_S1x1x1_S262144x1x1_0_1_2),
    TRef.binary main_call7.v4 main_call7.v8 main_call7.v9 (cmpi .sle),
    TRef.binary main_call7.v6 main_call7.v9 main_call7.v10 andi,
    TRef.nullary main_call7.c_3 (constantI S_ 1 1#1),
    TRef.binary main_call7.v10 main_call7.c_3 main_call7.v11 (fun x v => Host.reduce IntOp.andi x v reducesTo_S262144x1x1_S262144x1_d2 h_S_),
    TRef.binary (.of main_v95) main_call7.v4 main_call7.v12 (fun x i => Host.gather gather_S262144x5x11_S262144x1x1_S262144x1x11_2_1_0_0_1_2_1111 x i),
    TRef.unary main_call7.v11 main_call7.v13 (broadcastInDim S262144x1x11 ![0, 1] bcast_S262144x1_S262144x1x11_0_1),
    TRef.nullary main_call7.cst (constant S_ .f32 0x7FC00000#32),
    TRef.unary main_call7.cst main_call7.v14 (broadcastInDim S262144x1x11 ![] bcast_S_S262144x1x11),
    TRef.ternary main_call7.v13 main_call7.v12 main_call7.v14 main_call7.v15 select,
    reshape main_v97 main_v98 rfl shapeCasts_S262144x1x11_S262144x11,
    nullary main_v99 (iotaInDim S11 32 0),
    unary main_v99 main_v100 (broadcastInDim S1x11 ![1] bcast_S11_S1x11_1 : (⟨S11, .i32⟩ : BufTy).Contents (Elt F) → (⟨S1x11, .i32⟩ : BufTy).Contents (Elt F)),
    nullary main_c_7 (constantI S_ 32 0#32),
    unary main_c_7 main_v101 (broadcastInDim S262144 ![] bcast_S_S262144 : (⟨S_, .i32⟩ : BufTy).Contents (Elt F) → (⟨S262144, .i32⟩ : BufTy).Contents (Elt F)),
    binary main_arg1 main_v101 main_v102 (cmpi .slt : (⟨S262144, .i32⟩ : BufTy).Contents (Elt F) → (⟨S262144, .i32⟩ : BufTy).Contents (Elt F) → (⟨S262144, .i1⟩ : BufTy).Contents (Elt F)),
    nullary main_c_8 (constantI S_ 32 5#32),
    unary main_c_8 main_v103 (broadcastInDim S262144 ![] bcast_S_S262144 : (⟨S_, .i32⟩ : BufTy).Contents (Elt F) → (⟨S262144, .i32⟩ : BufTy).Contents (Elt F)),
    binary main_arg1 main_v103 main_v104 (addi : (⟨S262144, .i32⟩ : BufTy).Contents (Elt F) → (⟨S262144, .i32⟩ : BufTy).Contents (Elt F) → (⟨S262144, .i32⟩ : BufTy).Contents (Elt F)),
    ternary main_v102 main_v104 main_arg1 main_v105 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v105 main_v106 (broadcastInDim S262144x1 ![0] bcast_S262144_S262144x1_0 : (⟨S262144, .i32⟩ : BufTy).Contents (Elt F) → (⟨S262144x1, .i32⟩ : BufTy).Contents (Elt F)),
    binary main_c main_v106 main_v107 ((fun x i => Host.gather gather_S5_S262144x1_S262144_n_0_n_n_0_1_1 x i) : (⟨S5, .i32⟩ : BufTy).Contents (Elt F) → (⟨S262144x1, .i32⟩ : BufTy).Contents (Elt F) → (⟨S262144, .i32⟩ : BufTy).Contents (Elt F)),
    unary main_v107 main_v108 (broadcastInDim S262144x1 ![0] bcast_S262144_S262144x1_0 : (⟨S262144, .i32⟩ : BufTy).Contents (Elt F) → (⟨S262144x1, .i32⟩ : BufTy).Contents (Elt F)) ]

set_option maxRecDepth 8192 in
theorem ops1_sub : (ops1 : List (HloOp τ sig (Elt F))).Forall fun op => op.bufs ⊆ tcRefs τ sig :=
  ⟨unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., binary_bufs_sub .., unary_bufs_sub .., binary_bufs_sub .., unary_bufs_sub .., unary_bufs_sub .., binary_bufs_sub .., binary_bufs_sub .., unary_bufs_sub .., unary_bufs_sub .., binary_bufs_sub .., binary_bufs_sub .., unary_bufs_sub .., unary_bufs_sub .., binary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., binary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., reshape_bufs_sub .., nullary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub ..⟩

/-- The operations of the reference's statements in window 2. -/
abbrev ops2 : List (HloOp τ sig (Elt F)) :=
  [ unary main_v100 main_v109 (broadcastInDim S262144x11 ![0, 1] bcast_S1x11_S262144x11_0_1 : (⟨S1x11, .i32⟩ : BufTy).Contents (Elt F) → (⟨S262144x11, .i32⟩ : BufTy).Contents (Elt F)),
    unary main_v108 main_v110 (broadcastInDim S262144x11 ![0, 1] bcast_S262144x1_S262144x11_0_1 : (⟨S262144x1, .i32⟩ : BufTy).Contents (Elt F) → (⟨S262144x11, .i32⟩ : BufTy).Contents (Elt F)),
    binary main_v109 main_v110 main_v111 (cmpi .slt : (⟨S262144x11, .i32⟩ : BufTy).Contents (Elt F) → (⟨S262144x11, .i32⟩ : BufTy).Contents (Elt F) → (⟨S262144x11, .i1⟩ : BufTy).Contents (Elt F)) ]

set_option maxRecDepth 8192 in
theorem ops2_sub : (ops2 : List (HloOp τ sig (Elt F))).Forall fun op => op.bufs ⊆ tcRefs τ sig :=
  ⟨unary_bufs_sub .., unary_bufs_sub .., binary_bufs_sub ..⟩

end Cert.ReferenceIdeal.RT

end
-- ==== Proof.RefTerms.lean ====
/-
  The reference's values, one definition each: the value's operation applied to the definitions of its operands, from the
  29 argument arrays A.  R_v98, R_v111, R_v72, R_v76, R_v68 and R_v64 are the six results.
-/
import proofs.«425746_j43550968382251_1_alg».proof.Proof.Gen.ReferenceIdeal

noncomputable section

namespace Cert.ReferenceIdeal.RT

open Cert.ReferenceIdeal Cert.ReferenceIdeal.Gen Idealize.ShloMosaic Idealize.ShloMosaic.TcCoe Idealize.SL.Sem Idealize.ShloMosaic.StableHlo

variable {F : FTy → Type} [FloatOps F]

/-- The reference's 29 argument arrays. -/
structure RArgs (F : FTy → Type) [FloatOps F] where
  a0 : (⟨S262144x11, .f32⟩ : BufTy).Contents (Elt F)
  a1 : (⟨S262144, .i32⟩ : BufTy).Contents (Elt F)
  a2 : (⟨S5x16, .f32⟩ : BufTy).Contents (Elt F)
  a3 : (⟨S5x32x11, .f32⟩ : BufTy).Contents (Elt F)
  a4 : (⟨S5x32, .f32⟩ : BufTy).Contents (Elt F)
  a5 : (⟨S48x512, .f32⟩ : BufTy).Contents (Elt F)
  a6 : (⟨S512, .f32⟩ : BufTy).Contents (Elt F)
  a7 : (⟨S512x256, .f32⟩ : BufTy).Contents (Elt F)
  a8 : (⟨S256, .f32⟩ : BufTy).Contents (Elt F)
  a9 : (⟨S256x128, .f32⟩ : BufTy).Contents (Elt F)
  a10 : (⟨S128, .f32⟩ : BufTy).Contents (Elt F)
  a11 : (⟨S128x128, .f32⟩ : BufTy).Contents (Elt F)
  a12 : (⟨S128, .f32⟩ : BufTy).Contents (Elt F)
  a13 : (⟨S128x4, .f32⟩ : BufTy).Contents (Elt F)
  a14 : (⟨S4, .f32⟩ : BufTy).Contents (Elt F)
  a15 : (⟨S4x128, .f32⟩ : BufTy).Contents (Elt F)
  a16 : (⟨S128, .f32⟩ : BufTy).Contents (Elt F)
  a17 : (⟨S144x256, .f32⟩ : BufTy).Contents (Elt F)
  a18 : (⟨S256, .f32⟩ : BufTy).Contents (Elt F)
  a19 : (⟨S256x512, .f32⟩ : BufTy).Contents (Elt F)
  a20 : (⟨S512, .f32⟩ : BufTy).Contents (Elt F)
  a21 : (⟨S512x32, .f32⟩ : BufTy).Contents (Elt F)
  a22 : (⟨S32, .f32⟩ : BufTy).Contents (Elt F)
  a23 : (⟨S128x5, .f32⟩ : BufTy).Contents (Elt F)
  a24 : (⟨S5, .f32⟩ : BufTy).Contents (Elt F)
  a25 : (⟨S128x2, .f32⟩ : BufTy).Contents (Elt F)
  a26 : (⟨S2, .f32⟩ : BufTy).Contents (Elt F)
  a27 : (⟨S5x11x32, .f32⟩ : BufTy).Contents (Elt F)
  a28 : (⟨S5x11, .f32⟩ : BufTy).Contents (Elt F)

def R_cst (A : RArgs F) : (⟨S4, .f32⟩ : BufTy).Contents (Elt F) := (fun i => FloatOps.ofBits .f32 (lit0 (S4.rowMajor i)))
def R_cst_0 (A : RArgs F) : (⟨S4, .f32⟩ : BufTy).Contents (Elt F) := (fun i => FloatOps.ofBits .f32 (lit1 (S4.rowMajor i)))
def R_cst_1 (A : RArgs F) : (⟨S4, .f32⟩ : BufTy).Contents (Elt F) := (fun i => FloatOps.ofBits .f32 (lit2 (S4.rowMajor i)))
def R_cst_2 (A : RArgs F) : (⟨S4, .f32⟩ : BufTy).Contents (Elt F) := (fun i => FloatOps.ofBits .f32 (lit3 (S4.rowMajor i)))
def R_cst_3 (A : RArgs F) : (⟨S4, .f32⟩ : BufTy).Contents (Elt F) := (fun i => FloatOps.ofBits .f32 (lit4 (S4.rowMajor i)))
def R_c (A : RArgs F) : (⟨S5, .i32⟩ : BufTy).Contents (Elt F) := (fun i => lit5 (S5.rowMajor i))
def R_c_4 (A : RArgs F) : (⟨S_, .i32⟩ : BufTy).Contents (Elt F) := (constantI S_ 32 0#32)
def R_v0 (A : RArgs F) : (⟨S262144, .i32⟩ : BufTy).Contents (Elt F) := (broadcastInDim S262144 ![] bcast_S_S262144 : (⟨S_, .i32⟩ : BufTy).Contents (Elt F) → (⟨S262144, .i32⟩ : BufTy).Contents (Elt F)) (R_c_4 A)
def R_v1 (A : RArgs F) : (⟨S262144, .i1⟩ : BufTy).Contents (Elt F) := (cmpi .slt : (⟨S262144, .i32⟩ : BufTy).Contents (Elt F) → (⟨S262144, .i32⟩ : BufTy).Contents (Elt F) → (⟨S262144, .i1⟩ : BufTy).Contents (Elt F)) A.a1 (R_v0 A)
def R_c_5 (A : RArgs F) : (⟨S_, .i32⟩ : BufTy).Contents (Elt F) := (constantI S_ 32 5#32)
def R_v2 (A : RArgs F) : (⟨S262144, .i32⟩ : BufTy).Contents (Elt F) := (broadcastInDim S262144 ![] bcast_S_S262144 : (⟨S_, .i32⟩ : BufTy).Contents (Elt F) → (⟨S262144, .i32⟩ : BufTy).Contents (Elt F)) (R_c_5 A)
def R_v3 (A : RArgs F) : (⟨S262144, .i32⟩ : BufTy).Contents (Elt F) := (addi : (⟨S262144, .i32⟩ : BufTy).Contents (Elt F) → (⟨S262144, .i32⟩ : BufTy).Contents (Elt F) → (⟨S262144, .i32⟩ : BufTy).Contents (Elt F)) A.a1 (R_v2 A)
def R_v4 (A : RArgs F) : (⟨S262144, .i32⟩ : BufTy).Contents (Elt F) := (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)) (R_v1 A) (R_v3 A) A.a1
def R_v5 (A : RArgs F) : (⟨S262144x1, .i32⟩ : BufTy).Contents (Elt F) := (broadcastInDim S262144x1 ![0] bcast_S262144_S262144x1_0 : (⟨S262144, .i32⟩ : BufTy).Contents (Elt F) → (⟨S262144x1, .i32⟩ : BufTy).Contents (Elt F)) (R_v4 A)
def R_v6 (A : RArgs F) : (⟨S262144x16, .f32⟩ : BufTy).Contents (Elt F) := ((fun x i => Host.gather gather_S5x16_S262144x1_S262144x16_1_0_n_n_0_1_116 x i) : (⟨S5x16, .f32⟩ : BufTy).Contents (Elt F) → (⟨S262144x1, .i32⟩ : BufTy).Contents (Elt F) → (⟨S262144x16, .f32⟩ : BufTy).Contents (Elt F)) A.a2 (R_v5 A)
def R_v7 (A : RArgs F) : (⟨S262144x5x32, .f32⟩ : BufTy).Contents (Elt F) := ((fun l r => Host.dotGeneral dot_S262144x11_S5x32x11_S262144x5x32_1_2_0_01_n_n none l r) : (⟨S262144x11, .f32⟩ : BufTy).Contents (Elt F) → (⟨S5x32x11, .f32⟩ : BufTy).Contents (Elt F) → (⟨S262144x5x32, .f32⟩ : BufTy).Contents (Elt F)) A.a0 A.a3
def R_v8 (A : RArgs F) : (⟨S1x5x32, .f32⟩ : BufTy).Contents (Elt F) := (broadcastInDim S1x5x32 ![1, 2] bcast_S5x32_S1x5x32_1_2 : (⟨S5x32, .f32⟩ : BufTy).Contents (Elt F) → (⟨S1x5x32, .f32⟩ : BufTy).Contents (Elt F)) A.a4
def R_v9 (A : RArgs F) : (⟨S262144x5x32, .f32⟩ : BufTy).Contents (Elt F) := (broadcastInDim S262144x5x32 ![0, 1, 2] bcast_S1x5x32_S262144x5x32_0_1_2 : (⟨S1x5x32, .f32⟩ : BufTy).Contents (Elt F) → (⟨S262144x5x32, .f32⟩ : BufTy).Contents (Elt F)) (R_v8 A)
def R_v10 (A : RArgs F) : (⟨S262144x5x32, .f32⟩ : BufTy).Contents (Elt F) := (addf : (⟨S262144x5x32, .f32⟩ : BufTy).Contents (Elt F) → (⟨S262144x5x32, .f32⟩ : BufTy).Contents (Elt F) → (⟨S262144x5x32, .f32⟩ : BufTy).Contents (Elt F)) (R_v7 A) (R_v9 A)
def R_v11 (A : RArgs F) : (⟨S262144x1x1, .i32⟩ : BufTy).Contents (Elt F) := (broadcastInDim S262144x1x1 ![0] bcast_S262144_S262144x1x1_0 : (⟨S262144, .i32⟩ : BufTy).Contents (Elt F) → (⟨S262144x1x1, .i32⟩ : BufTy).Contents (Elt F)) A.a1
def R_call0_c (A : RArgs F) : (⟨S_, .i32⟩ : BufTy).Contents (Elt F) := (constantI S_ 32 0#32)
def R_call0_v0 (A : RArgs F) : (⟨S262144x1x1, .i32⟩ : BufTy).Contents (Elt F) := (broadcastInDim S262144x1x1 ![] bcast_S_S262144x1x1) (R_call0_c A)
def R_call0_v1 (A : RArgs F) : (⟨S262144x1x1, .i1⟩ : BufTy).Contents (Elt F) := (cmpi .slt) (R_v11 A) (R_call0_v0 A)
def R_call0_c_0 (A : RArgs F) : (⟨S_, .i32⟩ : BufTy).Contents (Elt F) := (constantI S_ 32 5#32)
def R_call0_v2 (A : RArgs F) : (⟨S262144x1x1, .i32⟩ : BufTy).Contents (Elt F) := (broadcastInDim S262144x1x1 ![] bcast_S_S262144x1x1) (R_call0_c_0 A)
def R_call0_v3 (A : RArgs F) : (⟨S262144x1x1, .i32⟩ : BufTy).Contents (Elt F) := addi (R_v11 A) (R_call0_v2 A)
def R_call0_v4 (A : RArgs F) : (⟨S262144x1x1, .i32⟩ : BufTy).Contents (Elt F) := select (R_call0_v1 A) (R_call0_v3 A) (R_v11 A)
def R_call0_c_1 (A : RArgs F) : (⟨S1, .i32⟩ : BufTy).Contents (Elt F) := (constantI S1 32 4#32)
def R_call0_c_2 (A : RArgs F) : (⟨S_, .i32⟩ : BufTy).Contents (Elt F) := (constantI S_ 32 0#32)
def R_call0_v5 (A : RArgs F) : (⟨S262144x1x1, .i32⟩ : BufTy).Contents (Elt F) := (broadcastInDim S262144x1x1 ![] bcast_S_S262144x1x1) (R_call0_c_2 A)
def R_call0_v6 (A : RArgs F) : (⟨S262144x1x1, .i1⟩ : BufTy).Contents (Elt F) := (cmpi .sge) (R_call0_v4 A) (R_call0_v5 A)
def R_call0_v7 (A : RArgs F) : (⟨S1x1x1, .i32⟩ : BufTy).Contents (Elt F) := (broadcastInDim S1x1x1 ![2] bcast_S1_S1x1x1_2) (R_call0_c_1 A)
def R_call0_v8 (A : RArgs F) : (⟨S262144x1x1, .i32⟩ : BufTy).Contents (Elt F) := (broadcastInDim S262144x1x1 ![0, 1, 2] bcast_S1x1x1_S262144x1x1_0_1_2) (R_call0_v7 A)
def R_call0_v9 (A : RArgs F) : (⟨S262144x1x1, .i1⟩ : BufTy).Contents (Elt F) := (cmpi .sle) (R_call0_v4 A) (R_call0_v8 A)
def R_call0_v10 (A : RArgs F) : (⟨S262144x1x1, .i1⟩ : BufTy).Contents (Elt F) := andi (R_call0_v6 A) (R_call0_v9 A)
def R_call0_c_3 (A : RArgs F) : (⟨S_, .i1⟩ : BufTy).Contents (Elt F) := (constantI S_ 1 1#1)
def R_call0_v11 (A : RArgs F) : (⟨S262144x1, .i1⟩ : BufTy).Contents (Elt F) := (fun x v => Host.reduce IntOp.andi x v reducesTo_S262144x1x1_S262144x1_d2 h_S_) (R_call0_v10 A) (R_call0_c_3 A)
def R_call0_v12 (A : RArgs F) : (⟨S262144x1x32, .f32⟩ : BufTy).Contents (Elt F) := (fun x i => Host.gather gather_S262144x5x32_S262144x1x1_S262144x1x32_2_1_0_0_1_2_1132 x i) (R_v10 A) (R_call0_v4 A)
def R_call0_v13 (A : RArgs F) : (⟨S262144x1x32, .i1⟩ : BufTy).Contents (Elt F) := (broadcastInDim S262144x1x32 ![0, 1] bcast_S262144x1_S262144x1x32_0_1) (R_call0_v11 A)
def R_call0_cst (A : RArgs F) : (⟨S_, .f32⟩ : BufTy).Contents (Elt F) := (constant S_ .f32 0x7FC00000#32)
def R_call0_v14 (A : RArgs F) : (⟨S262144x1x32, .f32⟩ : BufTy).Contents (Elt F) := (broadcastInDim S262144x1x32 ![] bcast_S_S262144x1x32) (R_call0_cst A)
def R_v12 (A : RArgs F) : (⟨S262144x1x32, .f32⟩ : BufTy).Contents (Elt F) := select (R_call0_v13 A) (R_call0_v12 A) (R_call0_v14 A)
def R_v13 (A : RArgs F) : (⟨S262144x32, .f32⟩ : BufTy).Contents (Elt F) := shapeCast _ (R_v12 A) shapeCasts_S262144x1x32_S262144x32
def R_v14 (A : RArgs F) : (⟨S262144x48, .f32⟩ : BufTy).Contents (Elt F) := ((fun a b => concatenate S262144x48 1 [⟨S262144x32, a⟩, ⟨S262144x16, b⟩] concatenates_S262144x32_S262144x16_S262144x48_d1) : (⟨S262144x32, .f32⟩ : BufTy).Contents (Elt F) → (⟨S262144x16, .f32⟩ : BufTy).Contents (Elt F) → (⟨S262144x48, .f32⟩ : BufTy).Contents (Elt F)) (R_v13 A) (R_v6 A)
def R_v15 (A : RArgs F) : (⟨S262144x512, .f32⟩ : BufTy).Contents (Elt F) := ((fun l r => Host.dotGeneral dot_S262144x48_S48x512_S262144x512_1_0_0_1_n_n none l r) : (⟨S262144x48, .f32⟩ : BufTy).Contents (Elt F) → (⟨S48x512, .f32⟩ : BufTy).Contents (Elt F) → (⟨S262144x512, .f32⟩ : BufTy).Contents (Elt F)) (R_v14 A) A.a5
def R_v16 (A : RArgs F) : (⟨S1x512, .f32⟩ : BufTy).Contents (Elt F) := (broadcastInDim S1x512 ![1] bcast_S512_S1x512_1 : (⟨S512, .f32⟩ : BufTy).Contents (Elt F) → (⟨S1x512, .f32⟩ : BufTy).Contents (Elt F)) A.a6
def R_v17 (A : RArgs F) : (⟨S262144x512, .f32⟩ : BufTy).Contents (Elt F) := (broadcastInDim S262144x512 ![0, 1] bcast_S1x512_S262144x512_0_1 : (⟨S1x512, .f32⟩ : BufTy).Contents (Elt F) → (⟨S262144x512, .f32⟩ : BufTy).Contents (Elt F)) (R_v16 A)
def R_v18 (A : RArgs F) : (⟨S262144x512, .f32⟩ : BufTy).Contents (Elt F) := (addf : (⟨S262144x512, .f32⟩ : BufTy).Contents (Elt F) → (⟨S262144x512, .f32⟩ : BufTy).Contents (Elt F) → (⟨S262144x512, .f32⟩ : BufTy).Contents (Elt F)) (R_v15 A) (R_v17 A)
def R_call1_cst (A : RArgs F) : (⟨S_, .f32⟩ : BufTy).Contents (Elt F) := (constant S_ .f32 0x00000000#32)
def R_call1_v0 (A : RArgs F) : (⟨S262144x512, .f32⟩ : BufTy).Contents (Elt F) := (broadcastInDim S262144x512 ![] bcast_S_S262144x512) (R_call1_cst A)
def R_v19 (A : RArgs F) : (⟨S262144x512, .f32⟩ : BufTy).Contents (Elt F) := maximumf (R_v18 A) (R_call1_v0 A)
def R_v20 (A : RArgs F) : (⟨S262144x256, .f32⟩ : BufTy).Contents (Elt F) := ((fun l r => Host.dotGeneral dot_S262144x512_S512x256_S262144x256_1_0_0_1_n_n none l r) : (⟨S262144x512, .f32⟩ : BufTy).Contents (Elt F) → (⟨S512x256, .f32⟩ : BufTy).Contents (Elt F) → (⟨S262144x256, .f32⟩ : BufTy).Contents (Elt F)) (R_v19 A) A.a7
def R_v21 (A : RArgs F) : (⟨S1x256, .f32⟩ : BufTy).Contents (Elt F) := (broadcastInDim S1x256 ![1] bcast_S256_S1x256_1 : (⟨S256, .f32⟩ : BufTy).Contents (Elt F) → (⟨S1x256, .f32⟩ : BufTy).Contents (Elt F)) A.a8
def R_v22 (A : RArgs F) : (⟨S262144x256, .f32⟩ : BufTy).Contents (Elt F) := (broadcastInDim S262144x256 ![0, 1] bcast_S1x256_S262144x256_0_1 : (⟨S1x256, .f32⟩ : BufTy).Contents (Elt F) → (⟨S262144x256, .f32⟩ : BufTy).Contents (Elt F)) (R_v21 A)
def R_v23 (A : RArgs F) : (⟨S262144x256, .f32⟩ : BufTy).Contents (Elt F) := (addf : (⟨S262144x256, .f32⟩ : BufTy).Contents (Elt F) → (⟨S262144x256, .f32⟩ : BufTy).Contents (Elt F) → (⟨S262144x256, .f32⟩ : BufTy).Contents (Elt F)) (R_v20 A) (R_v22 A)
def R_call2_cst (A : RArgs F) : (⟨S_, .f32⟩ : BufTy).Contents (Elt F) := (constant S_ .f32 0x00000000#32)
def R_call2_v0 (A : RArgs F) : (⟨S262144x256, .f32⟩ : BufTy).Contents (Elt F) := (broadcastInDim S262144x256 ![] bcast_S_S262144x256) (R_call2_cst A)
def R_v24 (A : RArgs F) : (⟨S262144x256, .f32⟩ : BufTy).Contents (Elt F) := maximumf (R_v23 A) (R_call2_v0 A)
def R_v25 (A : RArgs F) : (⟨S262144x128, .f32⟩ : BufTy).Contents (Elt F) := ((fun l r => Host.dotGeneral dot_S262144x256_S256x128_S262144x128_1_0_0_1_n_n none l r) : (⟨S262144x256, .f32⟩ : BufTy).Contents (Elt F) → (⟨S256x128, .f32⟩ : BufTy).Contents (Elt F) → (⟨S262144x128, .f32⟩ : BufTy).Contents (Elt F)) (R_v24 A) A.a9
def R_v26 (A : RArgs F) : (⟨S1x128, .f32⟩ : BufTy).Contents (Elt F) := (broadcastInDim S1x128 ![1] bcast_S128_S1x128_1 : (⟨S128, .f32⟩ : BufTy).Contents (Elt F) → (⟨S1x128, .f32⟩ : BufTy).Contents (Elt F)) A.a10
def R_v27 (A : RArgs F) : (⟨S262144x128, .f32⟩ : BufTy).Contents (Elt F) := (broadcastInDim S262144x128 ![0, 1] bcast_S1x128_S262144x128_0_1 : (⟨S1x128, .f32⟩ : BufTy).Contents (Elt F) → (⟨S262144x128, .f32⟩ : BufTy).Contents (Elt F)) (R_v26 A)
def R_v28 (A : RArgs F) : (⟨S262144x128, .f32⟩ : BufTy).Contents (Elt F) := (addf : (⟨S262144x128, .f32⟩ : BufTy).Contents (Elt F) → (⟨S262144x128, .f32⟩ : BufTy).Contents (Elt F) → (⟨S262144x128, .f32⟩ : BufTy).Contents (Elt F)) (R_v25 A) (R_v27 A)
def R_call3_cst (A : RArgs F) : (⟨S_, .f32⟩ : BufTy).Contents (Elt F) := (constant S_ .f32 0x00000000#32)
def R_call3_v0 (A : RArgs F) : (⟨S262144x128, .f32⟩ : BufTy).Contents (Elt F) := (broadcastInDim S262144x128 ![] bcast_S_S262144x128) (R_call3_cst A)
def R_v29 (A : RArgs F) : (⟨S262144x128, .f32⟩ : BufTy).Contents (Elt F) := maximumf (R_v28 A) (R_call3_v0 A)
def R_v30 (A : RArgs F) : (⟨S262144x128, .f32⟩ : BufTy).Contents (Elt F) := ((fun l r => Host.dotGeneral dot_S262144x128_S128x128_S262144x128_1_0_0_1_n_n none l r) : (⟨S262144x128, .f32⟩ : BufTy).Contents (Elt F) → (⟨S128x128, .f32⟩ : BufTy).Contents (Elt F) → (⟨S262144x128, .f32⟩ : BufTy).Contents (Elt F)) (R_v29 A) A.a11
def R_v31 (A : RArgs F) : (⟨S1x128, .f32⟩ : BufTy).Contents (Elt F) := (broadcastInDim S1x128 ![1] bcast_S128_S1x128_1 : (⟨S128, .f32⟩ : BufTy).Contents (Elt F) → (⟨S1x128, .f32⟩ : BufTy).Contents (Elt F)) A.a12
def R_v32 (A : RArgs F) : (⟨S262144x128, .f32⟩ : BufTy).Contents (Elt F) := (broadcastInDim S262144x128 ![0, 1] bcast_S1x128_S262144x128_0_1 : (⟨S1x128, .f32⟩ : BufTy).Contents (Elt F) → (⟨S262144x128, .f32⟩ : BufTy).Contents (Elt F)) (R_v31 A)
def R_v33 (A : RArgs F) : (⟨S262144x128, .f32⟩ : BufTy).Contents (Elt F) := (addf : (⟨S262144x128, .f32⟩ : BufTy).Contents (Elt F) → (⟨S262144x128, .f32⟩ : BufTy).Contents (Elt F) → (⟨S262144x128, .f32⟩ : BufTy).Contents (Elt F)) (R_v30 A) (R_v32 A)
def R_v34 (A : RArgs F) : (⟨S262144x4, .f32⟩ : BufTy).Contents (Elt F) := ((fun l r => Host.dotGeneral dot_S262144x128_S128x4_S262144x4_1_0_0_1_n_n none l r) : (⟨S262144x128, .f32⟩ : BufTy).Contents (Elt F) → (⟨S128x4, .f32⟩ : BufTy).Contents (Elt F) → (⟨S262144x4, .f32⟩ : BufTy).Contents (Elt F)) (R_v33 A) A.a13
def R_v35 (A : RArgs F) : (⟨S1x4, .f32⟩ : BufTy).Contents (Elt F) := (broadcastInDim S1x4 ![1] bcast_S4_S1x4_1 : (⟨S4, .f32⟩ : BufTy).Contents (Elt F) → (⟨S1x4, .f32⟩ : BufTy).Contents (Elt F)) A.a14
def R_v36 (A : RArgs F) : (⟨S262144x4, .f32⟩ : BufTy).Contents (Elt F) := (broadcastInDim S262144x4 ![0, 1] bcast_S1x4_S262144x4_0_1 : (⟨S1x4, .f32⟩ : BufTy).Contents (Elt F) → (⟨S262144x4, .f32⟩ : BufTy).Contents (Elt F)) (R_v35 A)
def R_v37 (A : RArgs F) : (⟨S262144x4, .f32⟩ : BufTy).Contents (Elt F) := (addf : (⟨S262144x4, .f32⟩ : BufTy).Contents (Elt F) → (⟨S262144x4, .f32⟩ : BufTy).Contents (Elt F) → (⟨S262144x4, .f32⟩ : BufTy).Contents (Elt F)) (R_v34 A) (R_v36 A)
def R_v38 (A : RArgs F) : (⟨S1x4, .f32⟩ : BufTy).Contents (Elt F) := (broadcastInDim S1x4 ![1] bcast_S4_S1x4_1 : (⟨S4, .f32⟩ : BufTy).Contents (Elt F) → (⟨S1x4, .f32⟩ : BufTy).Contents (Elt F)) (R_cst A)
def R_v39 (A : RArgs F) : (⟨S262144x4, .f32⟩ : BufTy).Contents (Elt F) := (broadcastInDim S262144x4 ![0, 1] bcast_S1x4_S262144x4_0_1 : (⟨S1x4, .f32⟩ : BufTy).Contents (Elt F) → (⟨S262144x4, .f32⟩ : BufTy).Contents (Elt F)) (R_v38 A)
def R_v40 (A : RArgs F) : (⟨S262144x4, .f32⟩ : BufTy).Contents (Elt F) := (addf : (⟨S262144x4, .f32⟩ : BufTy).Contents (Elt F) → (⟨S262144x4, .f32⟩ : BufTy).Contents (Elt F) → (⟨S262144x4, .f32⟩ : BufTy).Contents (Elt F)) (R_v37 A) (R_v39 A)
def R_v41 (A : RArgs F) : (⟨S262144x4, .f32⟩ : BufTy).Contents (Elt F) := (Host.tanh : (⟨S262144x4, .f32⟩ : BufTy).Contents (Elt F) → (⟨S262144x4, .f32⟩ : BufTy).Contents (Elt F)) (R_v40 A)
def R_v42 (A : RArgs F) : (⟨S1x4, .f32⟩ : BufTy).Contents (Elt F) := (broadcastInDim S1x4 ![1] bcast_S4_S1x4_1 : (⟨S4, .f32⟩ : BufTy).Contents (Elt F) → (⟨S1x4, .f32⟩ : BufTy).Contents (Elt F)) (R_cst_0 A)
def R_v43 (A : RArgs F) : (⟨S262144x4, .f32⟩ : BufTy).Contents (Elt F) := (broadcastInDim S262144x4 ![0, 1] bcast_S1x4_S262144x4_0_1 : (⟨S1x4, .f32⟩ : BufTy).Contents (Elt F) → (⟨S262144x4, .f32⟩ : BufTy).Contents (Elt F)) (R_v42 A)
def R_v44 (A : RArgs F) : (⟨S262144x4, .f32⟩ : BufTy).Contents (Elt F) := (mulf : (⟨S262144x4, .f32⟩ : BufTy).Contents (Elt F) → (⟨S262144x4, .f32⟩ : BufTy).Contents (Elt F) → (⟨S262144x4, .f32⟩ : BufTy).Contents (Elt F)) (R_v41 A) (R_v43 A)
def R_v45 (A : RArgs F) : (⟨S1x4, .f32⟩ : BufTy).Contents (Elt F) := (broadcastInDim S1x4 ![1] bcast_S4_S1x4_1 : (⟨S4, .f32⟩ : BufTy).Contents (Elt F) → (⟨S1x4, .f32⟩ : BufTy).Contents (Elt F)) (R_cst_1 A)
def R_v46 (A : RArgs F) : (⟨S262144x4, .f32⟩ : BufTy).Contents (Elt F) := (broadcastInDim S262144x4 ![0, 1] bcast_S1x4_S262144x4_0_1 : (⟨S1x4, .f32⟩ : BufTy).Contents (Elt F) → (⟨S262144x4, .f32⟩ : BufTy).Contents (Elt F)) (R_v45 A)
def R_v47 (A : RArgs F) : (⟨S262144x4, .f32⟩ : BufTy).Contents (Elt F) := (subf : (⟨S262144x4, .f32⟩ : BufTy).Contents (Elt F) → (⟨S262144x4, .f32⟩ : BufTy).Contents (Elt F) → (⟨S262144x4, .f32⟩ : BufTy).Contents (Elt F)) (R_v44 A) (R_v46 A)
def R_v48 (A : RArgs F) : (⟨S262144x4, .f32⟩ : BufTy).Contents (Elt F) := Host.roundeven (R_v47 A)
def R_v49 (A : RArgs F) : (⟨S262144x4, .f32⟩ : BufTy).Contents (Elt F) := (subf : (⟨S262144x4, .f32⟩ : BufTy).Contents (Elt F) → (⟨S262144x4, .f32⟩ : BufTy).Contents (Elt F) → (⟨S262144x4, .f32⟩ : BufTy).Contents (Elt F)) (R_v48 A) (R_v47 A)
def R_v50 (A : RArgs F) : (⟨S262144x4, .f32⟩ : BufTy).Contents (Elt F) := (addf : (⟨S262144x4, .f32⟩ : BufTy).Contents (Elt F) → (⟨S262144x4, .f32⟩ : BufTy).Contents (Elt F) → (⟨S262144x4, .f32⟩ : BufTy).Contents (Elt F)) (R_v47 A) (R_v49 A)
def R_v51 (A : RArgs F) : (⟨S1x4, .f32⟩ : BufTy).Contents (Elt F) := (broadcastInDim S1x4 ![1] bcast_S4_S1x4_1 : (⟨S4, .f32⟩ : BufTy).Contents (Elt F) → (⟨S1x4, .f32⟩ : BufTy).Contents (Elt F)) (R_cst_2 A)
def R_v52 (A : RArgs F) : (⟨S262144x4, .f32⟩ : BufTy).Contents (Elt F) := (broadcastInDim S262144x4 ![0, 1] bcast_S1x4_S262144x4_0_1 : (⟨S1x4, .f32⟩ : BufTy).Contents (Elt F) → (⟨S262144x4, .f32⟩ : BufTy).Contents (Elt F)) (R_v51 A)
def R_v53 (A : RArgs F) : (⟨S262144x4, .f32⟩ : BufTy).Contents (Elt F) := (Host.divf : (⟨S262144x4, .f32⟩ : BufTy).Contents (Elt F) → (⟨S262144x4, .f32⟩ : BufTy).Contents (Elt F) → (⟨S262144x4, .f32⟩ : BufTy).Contents (Elt F)) (R_v50 A) (R_v52 A)
def R_v54 (A : RArgs F) : (⟨S1x4, .f32⟩ : BufTy).Contents (Elt F) := (broadcastInDim S1x4 ![1] bcast_S4_S1x4_1 : (⟨S4, .f32⟩ : BufTy).Contents (Elt F) → (⟨S1x4, .f32⟩ : BufTy).Contents (Elt F)) (R_cst_2 A)
def R_v55 (A : RArgs F) : (⟨S262144x4, .f32⟩ : BufTy).Contents (Elt F) := (broadcastInDim S262144x4 ![0, 1] bcast_S1x4_S262144x4_0_1 : (⟨S1x4, .f32⟩ : BufTy).Contents (Elt F) → (⟨S262144x4, .f32⟩ : BufTy).Contents (Elt F)) (R_v54 A)
def R_v56 (A : RArgs F) : (⟨S262144x4, .f32⟩ : BufTy).Contents (Elt F) := (mulf : (⟨S262144x4, .f32⟩ : BufTy).Contents (Elt F) → (⟨S262144x4, .f32⟩ : BufTy).Contents (Elt F) → (⟨S262144x4, .f32⟩ : BufTy).Contents (Elt F)) (R_v53 A) (R_v55 A)
def R_v57 (A : RArgs F) : (⟨S1x4, .f32⟩ : BufTy).Contents (Elt F) := (broadcastInDim S1x4 ![1] bcast_S4_S1x4_1 : (⟨S4, .f32⟩ : BufTy).Contents (Elt F) → (⟨S1x4, .f32⟩ : BufTy).Contents (Elt F)) (R_cst_2 A)
def R_v58 (A : RArgs F) : (⟨S262144x4, .f32⟩ : BufTy).Contents (Elt F) := (broadcastInDim S262144x4 ![0, 1] bcast_S1x4_S262144x4_0_1 : (⟨S1x4, .f32⟩ : BufTy).Contents (Elt F) → (⟨S262144x4, .f32⟩ : BufTy).Contents (Elt F)) (R_v57 A)
def R_v59 (A : RArgs F) : (⟨S262144x4, .f32⟩ : BufTy).Contents (Elt F) := (addf : (⟨S262144x4, .f32⟩ : BufTy).Contents (Elt F) → (⟨S262144x4, .f32⟩ : BufTy).Contents (Elt F) → (⟨S262144x4, .f32⟩ : BufTy).Contents (Elt F)) (R_v56 A) (R_v58 A)
def R_v60 (A : RArgs F) : (⟨S1x4, .f32⟩ : BufTy).Contents (Elt F) := (broadcastInDim S1x4 ![1] bcast_S4_S1x4_1 : (⟨S4, .f32⟩ : BufTy).Contents (Elt F) → (⟨S1x4, .f32⟩ : BufTy).Contents (Elt F)) (R_cst_3 A)
def R_v61 (A : RArgs F) : (⟨S262144x4, .f32⟩ : BufTy).Contents (Elt F) := (broadcastInDim S262144x4 ![0, 1] bcast_S1x4_S262144x4_0_1 : (⟨S1x4, .f32⟩ : BufTy).Contents (Elt F) → (⟨S262144x4, .f32⟩ : BufTy).Contents (Elt F)) (R_v60 A)
def R_v62 (A : RArgs F) : (⟨S262144x4, .f32⟩ : BufTy).Contents (Elt F) := (mulf : (⟨S262144x4, .f32⟩ : BufTy).Contents (Elt F) → (⟨S262144x4, .f32⟩ : BufTy).Contents (Elt F) → (⟨S262144x4, .f32⟩ : BufTy).Contents (Elt F)) (R_v59 A) (R_v61 A)
def R_cst_6 (A : RArgs F) : (⟨S_, .f32⟩ : BufTy).Contents (Elt F) := (constant S_ .f32 0x00000000#32)
def R_v63 (A : RArgs F) : (⟨S262144, .f32⟩ : BufTy).Contents (Elt F) := ((fun x v => Host.reduceAdd x v reducesTo_S262144x4_S262144_d1 h_S_) : (⟨S262144x4, .f32⟩ : BufTy).Contents (Elt F) → (⟨S_, .f32⟩ : BufTy).Contents (Elt F) → (⟨S262144, .f32⟩ : BufTy).Contents (Elt F)) (R_v62 A) (R_cst_6 A)
def R_v64 (A : RArgs F) : (⟨S262144, .i32⟩ : BufTy).Contents (Elt F) := (fptosi 32 : (⟨S262144, .f32⟩ : BufTy).Contents (Elt F) → (⟨S262144, .i32⟩ : BufTy).Contents (Elt F)) (R_v63 A)
def R_v65 (A : RArgs F) : (⟨S262144x128, .f32⟩ : BufTy).Contents (Elt F) := ((fun l r => Host.dotGeneral dot_S262144x4_S4x128_S262144x128_1_0_0_1_n_n none l r) : (⟨S262144x4, .f32⟩ : BufTy).Contents (Elt F) → (⟨S4x128, .f32⟩ : BufTy).Contents (Elt F) → (⟨S262144x128, .f32⟩ : BufTy).Contents (Elt F)) (R_v53 A) A.a15
def R_v66 (A : RArgs F) : (⟨S1x128, .f32⟩ : BufTy).Contents (Elt F) := (broadcastInDim S1x128 ![1] bcast_S128_S1x128_1 : (⟨S128, .f32⟩ : BufTy).Contents (Elt F) → (⟨S1x128, .f32⟩ : BufTy).Contents (Elt F)) A.a16
def R_v67 (A : RArgs F) : (⟨S262144x128, .f32⟩ : BufTy).Contents (Elt F) := (broadcastInDim S262144x128 ![0, 1] bcast_S1x128_S262144x128_0_1 : (⟨S1x128, .f32⟩ : BufTy).Contents (Elt F) → (⟨S262144x128, .f32⟩ : BufTy).Contents (Elt F)) (R_v66 A)
def R_v68 (A : RArgs F) : (⟨S262144x128, .f32⟩ : BufTy).Contents (Elt F) := (addf : (⟨S262144x128, .f32⟩ : BufTy).Contents (Elt F) → (⟨S262144x128, .f32⟩ : BufTy).Contents (Elt F) → (⟨S262144x128, .f32⟩ : BufTy).Contents (Elt F)) (R_v65 A) (R_v67 A)
def R_v69 (A : RArgs F) : (⟨S262144x5, .f32⟩ : BufTy).Contents (Elt F) := ((fun l r => Host.dotGeneral dot_S262144x128_S128x5_S262144x5_1_0_0_1_n_n none l r) : (⟨S262144x128, .f32⟩ : BufTy).Contents (Elt F) → (⟨S128x5, .f32⟩ : BufTy).Contents (Elt F) → (⟨S262144x5, .f32⟩ : BufTy).Contents (Elt F)) (R_v68 A) A.a23
def R_v70 (A : RArgs F) : (⟨S1x5, .f32⟩ : BufTy).Contents (Elt F) := (broadcastInDim S1x5 ![1] bcast_S5_S1x5_1 : (⟨S5, .f32⟩ : BufTy).Contents (Elt F) → (⟨S1x5, .f32⟩ : BufTy).Contents (Elt F)) A.a24
def R_v71 (A : RArgs F) : (⟨S262144x5, .f32⟩ : BufTy).Contents (Elt F) := (broadcastInDim S262144x5 ![0, 1] bcast_S1x5_S262144x5_0_1 : (⟨S1x5, .f32⟩ : BufTy).Contents (Elt F) → (⟨S262144x5, .f32⟩ : BufTy).Contents (Elt F)) (R_v70 A)
def R_v72 (A : RArgs F) : (⟨S262144x5, .f32⟩ : BufTy).Contents (Elt F) := (addf : (⟨S262144x5, .f32⟩ : BufTy).Contents (Elt F) → (⟨S262144x5, .f32⟩ : BufTy).Contents (Elt F) → (⟨S262144x5, .f32⟩ : BufTy).Contents (Elt F)) (R_v69 A) (R_v71 A)
def R_v73 (A : RArgs F) : (⟨S262144x2, .f32⟩ : BufTy).Contents (Elt F) := ((fun l r => Host.dotGeneral dot_S262144x128_S128x2_S262144x2_1_0_0_1_n_n none l r) : (⟨S262144x128, .f32⟩ : BufTy).Contents (Elt F) → (⟨S128x2, .f32⟩ : BufTy).Contents (Elt F) → (⟨S262144x2, .f32⟩ : BufTy).Contents (Elt F)) (R_v68 A) A.a25
def R_v74 (A : RArgs F) : (⟨S1x2, .f32⟩ : BufTy).Contents (Elt F) := (broadcastInDim S1x2 ![1] bcast_S2_S1x2_1 : (⟨S2, .f32⟩ : BufTy).Contents (Elt F) → (⟨S1x2, .f32⟩ : BufTy).Contents (Elt F)) A.a26
def R_v75 (A : RArgs F) : (⟨S262144x2, .f32⟩ : BufTy).Contents (Elt F) := (broadcastInDim S262144x2 ![0, 1] bcast_S1x2_S262144x2_0_1 : (⟨S1x2, .f32⟩ : BufTy).Contents (Elt F) → (⟨S262144x2, .f32⟩ : BufTy).Contents (Elt F)) (R_v74 A)
def R_v76 (A : RArgs F) : (⟨S262144x2, .f32⟩ : BufTy).Contents (Elt F) := (addf : (⟨S262144x2, .f32⟩ : BufTy).Contents (Elt F) → (⟨S262144x2, .f32⟩ : BufTy).Contents (Elt F) → (⟨S262144x2, .f32⟩ : BufTy).Contents (Elt F)) (R_v73 A) (R_v75 A)
def R_v77 (A : RArgs F) : (⟨S262144x144, .f32⟩ : BufTy).Contents (Elt F) := ((fun a b => concatenate S262144x144 1 [⟨S262144x128, a⟩, ⟨S262144x16, b⟩] concatenates_S262144x128_S262144x16_S262144x144_d1) : (⟨S262144x128, .f32⟩ : BufTy).Contents (Elt F) → (⟨S262144x16, .f32⟩ : BufTy).Contents (Elt F) → (⟨S262144x144, .f32⟩ : BufTy).Contents (Elt F)) (R_v68 A) (R_v6 A)
def R_v78 (A : RArgs F) : (⟨S262144x256, .f32⟩ : BufTy).Contents (Elt F) := ((fun l r => Host.dotGeneral dot_S262144x144_S144x256_S262144x256_1_0_0_1_n_n none l r) : (⟨S262144x144, .f32⟩ : BufTy).Contents (Elt F) → (⟨S144x256, .f32⟩ : BufTy).Contents (Elt F) → (⟨S262144x256, .f32⟩ : BufTy).Contents (Elt F)) (R_v77 A) A.a17
def R_v79 (A : RArgs F) : (⟨S1x256, .f32⟩ : BufTy).Contents (Elt F) := (broadcastInDim S1x256 ![1] bcast_S256_S1x256_1 : (⟨S256, .f32⟩ : BufTy).Contents (Elt F) → (⟨S1x256, .f32⟩ : BufTy).Contents (Elt F)) A.a18
def R_v80 (A : RArgs F) : (⟨S262144x256, .f32⟩ : BufTy).Contents (Elt F) := (broadcastInDim S262144x256 ![0, 1] bcast_S1x256_S262144x256_0_1 : (⟨S1x256, .f32⟩ : BufTy).Contents (Elt F) → (⟨S262144x256, .f32⟩ : BufTy).Contents (Elt F)) (R_v79 A)
def R_v81 (A : RArgs F) : (⟨S262144x256, .f32⟩ : BufTy).Contents (Elt F) := (addf : (⟨S262144x256, .f32⟩ : BufTy).Contents (Elt F) → (⟨S262144x256, .f32⟩ : BufTy).Contents (Elt F) → (⟨S262144x256, .f32⟩ : BufTy).Contents (Elt F)) (R_v78 A) (R_v80 A)
def R_call5_cst (A : RArgs F) : (⟨S_, .f32⟩ : BufTy).Contents (Elt F) := (constant S_ .f32 0x00000000#32)
def R_call5_v0 (A : RArgs F) : (⟨S262144x256, .f32⟩ : BufTy).Contents (Elt F) := (broadcastInDim S262144x256 ![] bcast_S_S262144x256) (R_call5_cst A)
def R_v82 (A : RArgs F) : (⟨S262144x256, .f32⟩ : BufTy).Contents (Elt F) := maximumf (R_v81 A) (R_call5_v0 A)
def R_v83 (A : RArgs F) : (⟨S262144x512, .f32⟩ : BufTy).Contents (Elt F) := ((fun l r => Host.dotGeneral dot_S262144x256_S256x512_S262144x512_1_0_0_1_n_n none l r) : (⟨S262144x256, .f32⟩ : BufTy).Contents (Elt F) → (⟨S256x512, .f32⟩ : BufTy).Contents (Elt F) → (⟨S262144x512, .f32⟩ : BufTy).Contents (Elt F)) (R_v82 A) A.a19
def R_v84 (A : RArgs F) : (⟨S1x512, .f32⟩ : BufTy).Contents (Elt F) := (broadcastInDim S1x512 ![1] bcast_S512_S1x512_1 : (⟨S512, .f32⟩ : BufTy).Contents (Elt F) → (⟨S1x512, .f32⟩ : BufTy).Contents (Elt F)) A.a20
def R_v85 (A : RArgs F) : (⟨S262144x512, .f32⟩ : BufTy).Contents (Elt F) := (broadcastInDim S262144x512 ![0, 1] bcast_S1x512_S262144x512_0_1 : (⟨S1x512, .f32⟩ : BufTy).Contents (Elt F) → (⟨S262144x512, .f32⟩ : BufTy).Contents (Elt F)) (R_v84 A)
def R_v86 (A : RArgs F) : (⟨S262144x512, .f32⟩ : BufTy).Contents (Elt F) := (addf : (⟨S262144x512, .f32⟩ : BufTy).Contents (Elt F) → (⟨S262144x512, .f32⟩ : BufTy).Contents (Elt F) → (⟨S262144x512, .f32⟩ : BufTy).Contents (Elt F)) (R_v83 A) (R_v85 A)
def R_call6_cst (A : RArgs F) : (⟨S_, .f32⟩ : BufTy).Contents (Elt F) := (constant S_ .f32 0x00000000#32)
def R_call6_v0 (A : RArgs F) : (⟨S262144x512, .f32⟩ : BufTy).Contents (Elt F) := (broadcastInDim S262144x512 ![] bcast_S_S262144x512) (R_call6_cst A)
def R_v87 (A : RArgs F) : (⟨S262144x512, .f32⟩ : BufTy).Contents (Elt F) := maximumf (R_v86 A) (R_call6_v0 A)
def R_v88 (A : RArgs F) : (⟨S262144x32, .f32⟩ : BufTy).Contents (Elt F) := ((fun l r => Host.dotGeneral dot_S262144x512_S512x32_S262144x32_1_0_0_1_n_n none l r) : (⟨S262144x512, .f32⟩ : BufTy).Contents (Elt F) → (⟨S512x32, .f32⟩ : BufTy).Contents (Elt F) → (⟨S262144x32, .f32⟩ : BufTy).Contents (Elt F)) (R_v87 A) A.a21
def R_v89 (A : RArgs F) : (⟨S1x32, .f32⟩ : BufTy).Contents (Elt F) := (broadcastInDim S1x32 ![1] bcast_S32_S1x32_1 : (⟨S32, .f32⟩ : BufTy).Contents (Elt F) → (⟨S1x32, .f32⟩ : BufTy).Contents (Elt F)) A.a22
def R_v90 (A : RArgs F) : (⟨S262144x32, .f32⟩ : BufTy).Contents (Elt F) := (broadcastInDim S262144x32 ![0, 1] bcast_S1x32_S262144x32_0_1 : (⟨S1x32, .f32⟩ : BufTy).Contents (Elt F) → (⟨S262144x32, .f32⟩ : BufTy).Contents (Elt F)) (R_v89 A)
def R_v91 (A : RArgs F) : (⟨S262144x32, .f32⟩ : BufTy).Contents (Elt F) := (addf : (⟨S262144x32, .f32⟩ : BufTy).Contents (Elt F) → (⟨S262144x32, .f32⟩ : BufTy).Contents (Elt F) → (⟨S262144x32, .f32⟩ : BufTy).Contents (Elt F)) (R_v88 A) (R_v90 A)
def R_v92 (A : RArgs F) : (⟨S262144x5x11, .f32⟩ : BufTy).Contents (Elt F) := ((fun l r => Host.dotGeneral dot_S262144x32_S5x11x32_S262144x5x11_1_2_0_01_n_n none l r) : (⟨S262144x32, .f32⟩ : BufTy).Contents (Elt F) → (⟨S5x11x32, .f32⟩ : BufTy).Contents (Elt F) → (⟨S262144x5x11, .f32⟩ : BufTy).Contents (Elt F)) (R_v91 A) A.a27
def R_v93 (A : RArgs F) : (⟨S1x5x11, .f32⟩ : BufTy).Contents (Elt F) := (broadcastInDim S1x5x11 ![1, 2] bcast_S5x11_S1x5x11_1_2 : (⟨S5x11, .f32⟩ : BufTy).Contents (Elt F) → (⟨S1x5x11, .f32⟩ : BufTy).Contents (Elt F)) A.a28
def R_v94 (A : RArgs F) : (⟨S262144x5x11, .f32⟩ : BufTy).Contents (Elt F) := (broadcastInDim S262144x5x11 ![0, 1, 2] bcast_S1x5x11_S262144x5x11_0_1_2 : (⟨S1x5x11, .f32⟩ : BufTy).Contents (Elt F) → (⟨S262144x5x11, .f32⟩ : BufTy).Contents (Elt F)) (R_v93 A)
def R_v95 (A : RArgs F) : (⟨S262144x5x11, .f32⟩ : BufTy).Contents (Elt F) := (addf : (⟨S262144x5x11, .f32⟩ : BufTy).Contents (Elt F) → (⟨S262144x5x11, .f32⟩ : BufTy).Contents (Elt F) → (⟨S262144x5x11, .f32⟩ : BufTy).Contents (Elt F)) (R_v92 A) (R_v94 A)
def R_v96 (A : RArgs F) : (⟨S262144x1x1, .i32⟩ : BufTy).Contents (Elt F) := (broadcastInDim S262144x1x1 ![0] bcast_S262144_S262144x1x1_0 : (⟨S262144, .i32⟩ : BufTy).Contents (Elt F) → (⟨S262144x1x1, .i32⟩ : BufTy).Contents (Elt F)) A.a1
def R_call7_c (A : RArgs F) : (⟨S_, .i32⟩ : BufTy).Contents (Elt F) := (constantI S_ 32 0#32)
def R_call7_v0 (A : RArgs F) : (⟨S262144x1x1, .i32⟩ : BufTy).Contents (Elt F) := (broadcastInDim S262144x1x1 ![] bcast_S_S262144x1x1) (R_call7_c A)
def R_call7_v1 (A : RArgs F) : (⟨S262144x1x1, .i1⟩ : BufTy).Contents (Elt F) := (cmpi .slt) (R_v96 A) (R_call7_v0 A)
def R_call7_c_0 (A : RArgs F) : (⟨S_, .i32⟩ : BufTy).Contents (Elt F) := (constantI S_ 32 5#32)
def R_call7_v2 (A : RArgs F) : (⟨S262144x1x1, .i32⟩ : BufTy).Contents (Elt F) := (broadcastInDim S262144x1x1 ![] bcast_S_S262144x1x1) (R_call7_c_0 A)
def R_call7_v3 (A : RArgs F) : (⟨S262144x1x1, .i32⟩ : BufTy).Contents (Elt F) := addi (R_v96 A) (R_call7_v2 A)
def R_call7_v4 (A : RArgs F) : (⟨S262144x1x1, .i32⟩ : BufTy).Contents (Elt F) := select (R_call7_v1 A) (R_call7_v3 A) (R_v96 A)
def R_call7_c_1 (A : RArgs F) : (⟨S1, .i32⟩ : BufTy).Contents (Elt F) := (constantI S1 32 4#32)
def R_call7_c_2 (A : RArgs F) : (⟨S_, .i32⟩ : BufTy).Contents (Elt F) := (constantI S_ 32 0#32)
def R_call7_v5 (A : RArgs F) : (⟨S262144x1x1, .i32⟩ : BufTy).Contents (Elt F) := (broadcastInDim S262144x1x1 ![] bcast_S_S262144x1x1) (R_call7_c_2 A)
def R_call7_v6 (A : RArgs F) : (⟨S262144x1x1, .i1⟩ : BufTy).Contents (Elt F) := (cmpi .sge) (R_call7_v4 A) (R_call7_v5 A)
def R_call7_v7 (A : RArgs F) : (⟨S1x1x1, .i32⟩ : BufTy).Contents (Elt F) := (broadcastInDim S1x1x1 ![2] bcast_S1_S1x1x1_2) (R_call7_c_1 A)
def R_call7_v8 (A : RArgs F) : (⟨S262144x1x1, .i32⟩ : BufTy).Contents (Elt F) := (broadcastInDim S262144x1x1 ![0, 1, 2] bcast_S1x1x1_S262144x1x1_0_1_2) (R_call7_v7 A)
def R_call7_v9 (A : RArgs F) : (⟨S262144x1x1, .i1⟩ : BufTy).Contents (Elt F) := (cmpi .sle) (R_call7_v4 A) (R_call7_v8 A)
def R_call7_v10 (A : RArgs F) : (⟨S262144x1x1, .i1⟩ : BufTy).Contents (Elt F) := andi (R_call7_v6 A) (R_call7_v9 A)
def R_call7_c_3 (A : RArgs F) : (⟨S_, .i1⟩ : BufTy).Contents (Elt F) := (constantI S_ 1 1#1)
def R_call7_v11 (A : RArgs F) : (⟨S262144x1, .i1⟩ : BufTy).Contents (Elt F) := (fun x v => Host.reduce IntOp.andi x v reducesTo_S262144x1x1_S262144x1_d2 h_S_) (R_call7_v10 A) (R_call7_c_3 A)
def R_call7_v12 (A : RArgs F) : (⟨S262144x1x11, .f32⟩ : BufTy).Contents (Elt F) := (fun x i => Host.gather gather_S262144x5x11_S262144x1x1_S262144x1x11_2_1_0_0_1_2_1111 x i) (R_v95 A) (R_call7_v4 A)
def R_call7_v13 (A : RArgs F) : (⟨S262144x1x11, .i1⟩ : BufTy).Contents (Elt F) := (broadcastInDim S262144x1x11 ![0, 1] bcast_S262144x1_S262144x1x11_0_1) (R_call7_v11 A)
def R_call7_cst (A : RArgs F) : (⟨S_, .f32⟩ : BufTy).Contents (Elt F) := (constant S_ .f32 0x7FC00000#32)
def R_call7_v14 (A : RArgs F) : (⟨S262144x1x11, .f32⟩ : BufTy).Contents (Elt F) := (broadcastInDim S262144x1x11 ![] bcast_S_S262144x1x11) (R_call7_cst A)
def R_v97 (A : RArgs F) : (⟨S262144x1x11, .f32⟩ : BufTy).Contents (Elt F) := select (R_call7_v13 A) (R_call7_v12 A) (R_call7_v14 A)
def R_v98 (A : RArgs F) : (⟨S262144x11, .f32⟩ : BufTy).Contents (Elt F) := shapeCast _ (R_v97 A) shapeCasts_S262144x1x11_S262144x11
def R_v99 (A : RArgs F) : (⟨S11, .i32⟩ : BufTy).Contents (Elt F) := (iotaInDim S11 32 0)
def R_v100 (A : RArgs F) : (⟨S1x11, .i32⟩ : BufTy).Contents (Elt F) := (broadcastInDim S1x11 ![1] bcast_S11_S1x11_1 : (⟨S11, .i32⟩ : BufTy).Contents (Elt F) → (⟨S1x11, .i32⟩ : BufTy).Contents (Elt F)) (R_v99 A)
def R_c_7 (A : RArgs F) : (⟨S_, .i32⟩ : BufTy).Contents (Elt F) := (constantI S_ 32 0#32)
def R_v101 (A : RArgs F) : (⟨S262144, .i32⟩ : BufTy).Contents (Elt F) := (broadcastInDim S262144 ![] bcast_S_S262144 : (⟨S_, .i32⟩ : BufTy).Contents (Elt F) → (⟨S262144, .i32⟩ : BufTy).Contents (Elt F)) (R_c_7 A)
def R_v102 (A : RArgs F) : (⟨S262144, .i1⟩ : BufTy).Contents (Elt F) := (cmpi .slt : (⟨S262144, .i32⟩ : BufTy).Contents (Elt F) → (⟨S262144, .i32⟩ : BufTy).Contents (Elt F) → (⟨S262144, .i1⟩ : BufTy).Contents (Elt F)) A.a1 (R_v101 A)
def R_c_8 (A : RArgs F) : (⟨S_, .i32⟩ : BufTy).Contents (Elt F) := (constantI S_ 32 5#32)
def R_v103 (A : RArgs F) : (⟨S262144, .i32⟩ : BufTy).Contents (Elt F) := (broadcastInDim S262144 ![] bcast_S_S262144 : (⟨S_, .i32⟩ : BufTy).Contents (Elt F) → (⟨S262144, .i32⟩ : BufTy).Contents (Elt F)) (R_c_8 A)
def R_v104 (A : RArgs F) : (⟨S262144, .i32⟩ : BufTy).Contents (Elt F) := (addi : (⟨S262144, .i32⟩ : BufTy).Contents (Elt F) → (⟨S262144, .i32⟩ : BufTy).Contents (Elt F) → (⟨S262144, .i32⟩ : BufTy).Contents (Elt F)) A.a1 (R_v103 A)
def R_v105 (A : RArgs F) : (⟨S262144, .i32⟩ : BufTy).Contents (Elt F) := (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)) (R_v102 A) (R_v104 A) A.a1
def R_v106 (A : RArgs F) : (⟨S262144x1, .i32⟩ : BufTy).Contents (Elt F) := (broadcastInDim S262144x1 ![0] bcast_S262144_S262144x1_0 : (⟨S262144, .i32⟩ : BufTy).Contents (Elt F) → (⟨S262144x1, .i32⟩ : BufTy).Contents (Elt F)) (R_v105 A)
def R_v107 (A : RArgs F) : (⟨S262144, .i32⟩ : BufTy).Contents (Elt F) := ((fun x i => Host.gather gather_S5_S262144x1_S262144_n_0_n_n_0_1_1 x i) : (⟨S5, .i32⟩ : BufTy).Contents (Elt F) → (⟨S262144x1, .i32⟩ : BufTy).Contents (Elt F) → (⟨S262144, .i32⟩ : BufTy).Contents (Elt F)) (R_c A) (R_v106 A)
def R_v108 (A : RArgs F) : (⟨S262144x1, .i32⟩ : BufTy).Contents (Elt F) := (broadcastInDim S262144x1 ![0] bcast_S262144_S262144x1_0 : (⟨S262144, .i32⟩ : BufTy).Contents (Elt F) → (⟨S262144x1, .i32⟩ : BufTy).Contents (Elt F)) (R_v107 A)
def R_v109 (A : RArgs F) : (⟨S262144x11, .i32⟩ : BufTy).Contents (Elt F) := (broadcastInDim S262144x11 ![0, 1] bcast_S1x11_S262144x11_0_1 : (⟨S1x11, .i32⟩ : BufTy).Contents (Elt F) → (⟨S262144x11, .i32⟩ : BufTy).Contents (Elt F)) (R_v100 A)
def R_v110 (A : RArgs F) : (⟨S262144x11, .i32⟩ : BufTy).Contents (Elt F) := (broadcastInDim S262144x11 ![0, 1] bcast_S262144x1_S262144x11_0_1 : (⟨S262144x1, .i32⟩ : BufTy).Contents (Elt F) → (⟨S262144x11, .i32⟩ : BufTy).Contents (Elt F)) (R_v108 A)
def R_v111 (A : RArgs F) : (⟨S262144x11, .i1⟩ : BufTy).Contents (Elt F) := (cmpi .slt : (⟨S262144x11, .i32⟩ : BufTy).Contents (Elt F) → (⟨S262144x11, .i32⟩ : BufTy).Contents (Elt F) → (⟨S262144x11, .i1⟩ : BufTy).Contents (Elt F)) (R_v109 A) (R_v110 A)

end Cert.ReferenceIdeal.RT

end
-- ==== Proof.RefRun.lean ====
/-
  The reference's run, read back: its program is the straight line of its 175 operations (the called functions' statements
  at their calls), so every weakly fair execution ends with each buffer at the operations' fold over the launch contents;
  at the six results that fold is the composed value of Proof/RefTerms.lean, and the arguments are untouched.
-/
import proofs.«425746_j43550968382251_1_alg».proof.Proof.RefOps
import proofs.«425746_j43550968382251_1_alg».proof.Proof.RefTerms
import Idealize.ShloMosaic.Lib.StableHlo.Run

noncomputable section

namespace Cert.ReferenceIdeal.RT

open Idealize.ShloMosaic Idealize.SL.Sem
open Cert.ReferenceIdeal Cert.ReferenceIdeal.Gen Idealize.ShloMosaic.TcCoe Idealize.ShloMosaic.StableHlo

variable {F : FTy → Type} [FloatOps F]

/-- The reference's operations, in order. -/
abbrev ops : List (HloOp τ sig (Elt F)) := ops0 ++ ops1 ++ ops2

/-- The argument arrays a device is launched with. -/
def argsOf (m : (ℓ : Loc nD τ sig) → Buf (Elt F) ℓ) (c : Dev nD) : RArgs F where
  a0 := m ((c.tc : Thread nD τ).loc main_arg0)
  a1 := m ((c.tc : Thread nD τ).loc main_arg1)
  a2 := m ((c.tc : Thread nD τ).loc main_arg2)
  a3 := m ((c.tc : Thread nD τ).loc main_arg3)
  a4 := m ((c.tc : Thread nD τ).loc main_arg4)
  a5 := m ((c.tc : Thread nD τ).loc main_arg5)
  a6 := m ((c.tc : Thread nD τ).loc main_arg6)
  a7 := m ((c.tc : Thread nD τ).loc main_arg7)
  a8 := m ((c.tc : Thread nD τ).loc main_arg8)
  a9 := m ((c.tc : Thread nD τ).loc main_arg9)
  a10 := m ((c.tc : Thread nD τ).loc main_arg10)
  a11 := m ((c.tc : Thread nD τ).loc main_arg11)
  a12 := m ((c.tc : Thread nD τ).loc main_arg12)
  a13 := m ((c.tc : Thread nD τ).loc main_arg13)
  a14 := m ((c.tc : Thread nD τ).loc main_arg14)
  a15 := m ((c.tc : Thread nD τ).loc main_arg15)
  a16 := m ((c.tc : Thread nD τ).loc main_arg16)
  a17 := m ((c.tc : Thread nD τ).loc main_arg17)
  a18 := m ((c.tc : Thread nD τ).loc main_arg18)
  a19 := m ((c.tc : Thread nD τ).loc main_arg19)
  a20 := m ((c.tc : Thread nD τ).loc main_arg20)
  a21 := m ((c.tc : Thread nD τ).loc main_arg21)
  a22 := m ((c.tc : Thread nD τ).loc main_arg22)
  a23 := m ((c.tc : Thread nD τ).loc main_arg23)
  a24 := m ((c.tc : Thread nD τ).loc main_arg24)
  a25 := m ((c.tc : Thread nD τ).loc main_arg25)
  a26 := m ((c.tc : Thread nD τ).loc main_arg26)
  a27 := m ((c.tc : Thread nD τ).loc main_arg27)
  a28 := m ((c.tc : Thread nD τ).loc main_arg28)

/-! ## The program is the line of its operations -/

set_option maxRecDepth 8192 in
set_option maxHeartbeats 4000000 in
theorem part0_eq (c : Dev nD) : main_part0 (F := F) c = seq ops0 := rfl
set_option maxRecDepth 8192 in
set_option maxHeartbeats 4000000 in
theorem part1_eq (c : Dev nD) : main_part1 (F := F) c = seq ops1 := rfl
set_option maxRecDepth 8192 in
theorem part2_eq (c : Dev nD) : main_part2 (F := F) c = seq ops2 := rfl

/-- @main is the straight line of its operations. -/
theorem main_eq (c : Dev nD) : main (F := F) c = seq ops := by
  show _ = seq (ops0 ++ ops1 ++ ops2)
  rw [seq_append, seq_append, ← part0_eq c, ← part1_eq c, ← part2_eq c, bind_assoc]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  show (ops0 ++ ops1 ++ ops2).Forall _
  rw [List.forall_append, List.forall_append]
  exact ⟨⟨ops0_sub, ops1_sub⟩, ops2_sub⟩

set_option maxRecDepth 8192 in
theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem ops2_fresh : (ops2 : List (HloOp τ sig (Elt F))).Forall fun op => op.fresh = ∅ :=
  ⟨rfl, rfl, rfl⟩

/-- Every operation determines its results. -/
theorem ops_fresh : ∀ op ∈ (ops : List (HloOp τ sig (Elt F))), op.fresh = ∅ := by
  intro op h
  rcases List.mem_append.1 h with h | h
  · rcases List.mem_append.1 h with h | h
    · exact List.forall_iff_forall_mem.1 ops0_fresh op h
    · exact List.forall_iff_forall_mem.1 ops1_fresh op h
  · exact List.forall_iff_forall_mem.1 ops2_fresh op h

/-! ## The fold of the operations, window by window -/

/-- The fold over two lines one after the other is the fold over the second of the fold over the first. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- The argument arrays read off a valuation. -/
def argsV (V : Valuation τ sig (Elt F)) : RArgs F where
  a0 := V (Proc.devRef .tc main_arg0)
  a1 := V (Proc.devRef .tc main_arg1)
  a2 := V (Proc.devRef .tc main_arg2)
  a3 := V (Proc.devRef .tc main_arg3)
  a4 := V (Proc.devRef .tc main_arg4)
  a5 := V (Proc.devRef .tc main_arg5)
  a6 := V (Proc.devRef .tc main_arg6)
  a7 := V (Proc.devRef .tc main_arg7)
  a8 := V (Proc.devRef .tc main_arg8)
  a9 := V (Proc.devRef .tc main_arg9)
  a10 := V (Proc.devRef .tc main_arg10)
  a11 := V (Proc.devRef .tc main_arg11)
  a12 := V (Proc.devRef .tc main_arg12)
  a13 := V (Proc.devRef .tc main_arg13)
  a14 := V (Proc.devRef .tc main_arg14)
  a15 := V (Proc.devRef .tc main_arg15)
  a16 := V (Proc.devRef .tc main_arg16)
  a17 := V (Proc.devRef .tc main_arg17)
  a18 := V (Proc.devRef .tc main_arg18)
  a19 := V (Proc.devRef .tc main_arg19)
  a20 := V (Proc.devRef .tc main_arg20)
  a21 := V (Proc.devRef .tc main_arg21)
  a22 := V (Proc.devRef .tc main_arg22)
  a23 := V (Proc.devRef .tc main_arg23)
  a24 := V (Proc.devRef .tc main_arg24)
  a25 := V (Proc.devRef .tc main_arg25)
  a26 := V (Proc.devRef .tc main_arg26)
  a27 := V (Proc.devRef .tc main_arg27)
  a28 := V (Proc.devRef .tc main_arg28)

/-- Two arrays side by side along the second axis (32 and 16 columns). -/
def cat14 (a : (⟨S262144x32, .f32⟩ : BufTy).Contents (Elt F)) (b : (⟨S262144x16, .f32⟩ : BufTy).Contents (Elt F)) :
    (⟨S262144x48, .f32⟩ : BufTy).Contents (Elt F) :=
  concatenate S262144x48 1 [⟨S262144x32, a⟩, ⟨S262144x16, b⟩] concatenates_S262144x32_S262144x16_S262144x48_d1

/-- Two arrays side by side along the second axis (128 and 16 columns). -/
def cat77 (a : (⟨S262144x128, .f32⟩ : BufTy).Contents (Elt F)) (b : (⟨S262144x16, .f32⟩ : BufTy).Contents (Elt F)) :
    (⟨S262144x144, .f32⟩ : BufTy).Contents (Elt F) :=
  concatenate S262144x144 1 [⟨S262144x128, a⟩, ⟨S262144x16, b⟩] concatenates_S262144x128_S262144x16_S262144x144_d1

/-- The first concatenation, as one operation. -/
def catOp14 : HloOp τ sig (Elt F) :=
  binary main_v13 main_v6 main_v14 ((fun a b => concatenate S262144x48 1 [⟨S262144x32, a⟩, ⟨S262144x16, b⟩] concatenates_S262144x32_S262144x16_S262144x48_d1) : (⟨S262144x32, .f32⟩ : BufTy).Contents (Elt F) → (⟨S262144x16, .f32⟩ : BufTy).Contents (Elt F) → (⟨S262144x48, .f32⟩ : BufTy).Contents (Elt F))

/-- The second concatenation, as one operation. -/
def catOp77 : HloOp τ sig (Elt F) :=
  binary main_v68 main_v6 main_v77 ((fun a b => concatenate S262144x144 1 [⟨S262144x128, a⟩, ⟨S262144x16, b⟩] concatenates_S262144x128_S262144x16_S262144x144_d1) : (⟨S262144x128, .f32⟩ : BufTy).Contents (Elt F) → (⟨S262144x16, .f32⟩ : BufTy).Contents (Elt F) → (⟨S262144x144, .f32⟩ : BufTy).Contents (Elt F))

theorem catOp14_eq : (binary main_v13 main_v6 main_v14 ((fun a b => concatenate S262144x48 1 [⟨S262144x32, a⟩, ⟨S262144x16, b⟩] concatenates_S262144x32_S262144x16_S262144x48_d1) : (⟨S262144x32, .f32⟩ : BufTy).Contents (Elt F) → (⟨S262144x16, .f32⟩ : BufTy).Contents (Elt F) → (⟨S262144x48, .f32⟩ : BufTy).Contents (Elt F)) : HloOp τ sig (Elt F)) = catOp14 := rfl
theorem catOp77_eq : (binary main_v68 main_v6 main_v77 ((fun a b => concatenate S262144x144 1 [⟨S262144x128, a⟩, ⟨S262144x16, b⟩] concatenates_S262144x128_S262144x16_S262144x144_d1) : (⟨S262144x128, .f32⟩ : BufTy).Contents (Elt F) → (⟨S262144x16, .f32⟩ : BufTy).Contents (Elt F) → (⟨S262144x144, .f32⟩ : BufTy).Contents (Elt F)) : HloOp τ sig (Elt F)) = catOp77 := rfl

theorem catOp14_result' (G : Valuation τ sig (Elt F)) :
    (catOp14 (F := F)).result G (no_index (main_v14 : DevRef τ sig)) = cat14 (G (main_v13 : DevRef τ sig)) (G (main_v6 : DevRef τ sig)) :=
  binary_result ..
theorem catOp14_result_ne' (G : Valuation τ sig (Elt F)) {r : Ref sig .tc} (h : r ≠ main_v14) :
    (catOp14 (F := F)).result G (no_index (r : DevRef τ sig)) = G (r : DevRef τ sig) :=
  binary_result_ne _ _ _ _ _ _ _ G h
theorem catOp77_result' (G : Valuation τ sig (Elt F)) :
    (catOp77 (F := F)).result G (no_index (main_v77 : DevRef τ sig)) = cat77 (G (main_v68 : DevRef τ sig)) (G (main_v6 : DevRef τ sig)) :=
  binary_result ..
theorem catOp77_result_ne' (G : Valuation τ sig (Elt F)) {r : Ref sig .tc} (h : r ≠ main_v77) :
    (catOp77 (F := F)).result G (no_index (r : DevRef τ sig)) = G (r : DevRef τ sig) :=
  binary_result_ne _ _ _ _ _ _ _ G h

/-- Each operation's result read at its own buffer, and what was there at any other; the two concatenations are read whole. -/
macro "ref_results_simp" : tactic =>
  `(tactic| (simp (disch := decide) only [after_cons, after_nil, catOp14_result', catOp14_result_ne', catOp77_result', catOp77_result_ne',
      nullary_result', unary_result', binary_result', ternary_result', reshape_result',
      nullary_result_ne', unary_result_ne', binary_result_ne', ternary_result_ne', reshape_result_ne']))

set_option maxRecDepth 8192 in
set_option maxHeartbeats 8000000 in
/-- After the first window: the values the later windows read. -/
theorem win0 (V : Valuation τ sig (Elt F)) :
    after ops0 V (main_v50 : DevRef τ sig) = R_v50 (argsV V)
    ∧ after ops0 V (main_v51 : DevRef τ sig) = R_v51 (argsV V)
    ∧ after ops0 V (main_v6 : DevRef τ sig) = R_v6 (argsV V)
    ∧ after ops0 V (main_cst_2 : DevRef τ sig) = R_cst_2 (argsV V)
    ∧ after ops0 V (main_cst_3 : DevRef τ sig) = R_cst_3 (argsV V)
    ∧ after ops0 V (main_c : DevRef τ sig) = R_c (argsV V) := by
  simp only [after_cons, after_nil]
  rw [catOp14_eq]
  ref_results_simp
  (try simp only [TRef.ofBuf, TRef.toBuf, cast_eq])
  refine ⟨?_, ?_, ?_, ?_, ?_, ?_⟩ <;> rfl

set_option maxRecDepth 8192 in
set_option maxHeartbeats 8000000 in
/-- The first window writes no argument. -/
theorem args0 (V : Valuation τ sig (Elt F)) : argsV (after ops0 V) = argsV V := by
  simp only [argsV, after_cons, after_nil]
  rw [catOp14_eq]
  ref_results_simp

set_option maxRecDepth 8192 in
set_option maxHeartbeats 8000000 in
/-- After the second window, from contents that hold the first window's values: five of the results and the two values the third window reads. -/
theorem win1 (W : Valuation τ sig (Elt F)) (A : RArgs F) (hA : argsV W = A)
    (h50 : W (main_v50 : DevRef τ sig) = R_v50 A) (h51 : W (main_v51 : DevRef τ sig) = R_v51 A)
    (h6 : W (main_v6 : DevRef τ sig) = R_v6 A) (hc2 : W (main_cst_2 : DevRef τ sig) = R_cst_2 A)
    (hc3 : W (main_cst_3 : DevRef τ sig) = R_cst_3 A) (hc : W (main_c : DevRef τ sig) = R_c A) :
    after ops1 W (main_v98 : DevRef τ sig) = R_v98 A
    ∧ after ops1 W (main_v72 : DevRef τ sig) = R_v72 A
    ∧ after ops1 W (main_v76 : DevRef τ sig) = R_v76 A
    ∧ after ops1 W (main_v68 : DevRef τ sig) = R_v68 A
    ∧ after ops1 W (main_v64 : DevRef τ sig) = R_v64 A
    ∧ after ops1 W (main_v100 : DevRef τ sig) = R_v100 A
    ∧ after ops1 W (main_v108 : DevRef τ sig) = R_v108 A := by
  subst hA
  simp only [after_cons, after_nil]
  rw [catOp77_eq]
  ref_results_simp
  simp only [h50, h51, h6, hc2, hc3, hc]
  (try simp only [TRef.ofBuf, TRef.toBuf, cast_eq])
  refine ⟨?_, ?_, ?_, ?_, ?_, ?_, ?_⟩ <;> rfl

set_option maxRecDepth 8192 in
set_option maxHeartbeats 8000000 in
/-- The second window writes no argument. -/
theorem args1 (V : Valuation τ sig (Elt F)) : argsV (after ops1 V) = argsV V := by
  simp only [argsV, after_cons, after_nil]
  rw [catOp77_eq]
  ref_results_simp

/-- After the third window: the mask, and the five earlier results as they were. -/
theorem win2 (W : Valuation τ sig (Elt F)) (A : RArgs F)
    (h100 : W (main_v100 : DevRef τ sig) = R_v100 A) (h108 : W (main_v108 : DevRef τ sig) = R_v108 A) :
    after ops2 W (main_v111 : DevRef τ sig) = R_v111 A
    ∧ after ops2 W (main_v98 : DevRef τ sig) = W (main_v98 : DevRef τ sig)
    ∧ after ops2 W (main_v72 : DevRef τ sig) = W (main_v72 : DevRef τ sig)
    ∧ after ops2 W (main_v76 : DevRef τ sig) = W (main_v76 : DevRef τ sig)
    ∧ after ops2 W (main_v68 : DevRef τ sig) = W (main_v68 : DevRef τ sig)
    ∧ after ops2 W (main_v64 : DevRef τ sig) = W (main_v64 : DevRef τ sig) := by
  ref_results_simp
  simp only [h100, h108]
  refine ⟨?_, ?_, ?_, ?_, ?_, ?_⟩ <;> first | rfl | trivial

/-- The third window writes no argument. -/
theorem args2 (V : Valuation τ sig (Elt F)) : argsV (after ops2 V) = argsV V := by
  simp only [argsV]
  ref_results_simp

/-- The fold of all the operations: the six results at their composed values, the arguments as they were. -/
theorem fold_eq (V : Valuation τ sig (Elt F)) :
    after ops V (main_v98 : DevRef τ sig) = R_v98 (argsV V)
    ∧ after ops V (main_v111 : DevRef τ sig) = R_v111 (argsV V)
    ∧ after ops V (main_v72 : DevRef τ sig) = R_v72 (argsV V)
    ∧ after ops V (main_v76 : DevRef τ sig) = R_v76 (argsV V)
    ∧ after ops V (main_v68 : DevRef τ sig) = R_v68 (argsV V)
    ∧ after ops V (main_v64 : DevRef τ sig) = R_v64 (argsV V)
    ∧ argsV (after ops V) = argsV V := by
  have e : after (ops (F := F)) V = after ops2 (after ops1 (after ops0 V)) := by
    show after (ops0 ++ ops1 ++ ops2) V = _
    rw [after_app, after_app]
  obtain ⟨a50, a51, a6, ac2, ac3, ac⟩ := win0 V
  have A0 := args0 V
  obtain ⟨b98, b72, b76, b68, b64, b100, b108⟩ := win1 (after ops0 V) (argsV V) A0 a50 a51 a6 ac2 ac3 ac
  have A1 := args1 (after ops0 V)
  obtain ⟨c111, c98, c72, c76, c68, c64⟩ := win2 (after ops1 (after ops0 V)) (argsV V) b100 b108
  rw [e]
  exact ⟨c98.trans b98, c111, c72.trans b72, c76.trans b76, c68.trans b68, c64.trans b64,
    (args2 _).trans (A1.trans A0)⟩

/-- The launch's argument arrays are the arguments read off the launch contents. -/
theorem argsV_launch (m : (ℓ : Loc nD τ sig) → Buf (Elt F) ℓ) (c : Dev nD) : argsV (launchContents m c) = argsOf m c := rfl

set_option maxRecDepth 8192 in
set_option maxHeartbeats 4000000 in
/-- On every device, from any memory with zero counters: every weakly fair execution of the reference terminates with
    each result at its composed value of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v98) = R_v98 (argsOf m c)
      ∧ r.2.mem ((c.tc : Thread nD τ).loc main_v111) = R_v111 (argsOf m c)
      ∧ r.2.mem ((c.tc : Thread nD τ).loc main_v72) = R_v72 (argsOf m c)
      ∧ r.2.mem ((c.tc : Thread nD τ).loc main_v76) = R_v76 (argsOf m c)
      ∧ r.2.mem ((c.tc : Thread nD τ).loc main_v68) = R_v68 (argsOf m c)
      ∧ r.2.mem ((c.tc : Thread nD τ).loc main_v64) = R_v64 (argsOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28) :=
  (θ_run defs _ _).mono (fun _ h c => by
      obtain ⟨r98, r111, r72, r76, r68, r64, rA⟩ := fold_eq (F := F) (launchContents m c)
      rw [argsV_launch] at r98 r111 r72 r76 r68 r64
      exact ⟨(h c main_v98).trans r98, (h c main_v111).trans r111, (h c main_v72).trans r72,
        (h c main_v76).trans r76, (h c main_v68).trans r68, (h c main_v64).trans r64,
        (h c main_arg0).trans (congrArg RArgs.a0 rA),
        (h c main_arg1).trans (congrArg RArgs.a1 rA),
        (h c main_arg2).trans (congrArg RArgs.a2 rA),
        (h c main_arg3).trans (congrArg RArgs.a3 rA),
        (h c main_arg4).trans (congrArg RArgs.a4 rA),
        (h c main_arg5).trans (congrArg RArgs.a5 rA),
        (h c main_arg6).trans (congrArg RArgs.a6 rA),
        (h c main_arg7).trans (congrArg RArgs.a7 rA),
        (h c main_arg8).trans (congrArg RArgs.a8 rA),
        (h c main_arg9).trans (congrArg RArgs.a9 rA),
        (h c main_arg10).trans (congrArg RArgs.a10 rA),
        (h c main_arg11).trans (congrArg RArgs.a11 rA),
        (h c main_arg12).trans (congrArg RArgs.a12 rA),
        (h c main_arg13).trans (congrArg RArgs.a13 rA),
        (h c main_arg14).trans (congrArg RArgs.a14 rA),
        (h c main_arg15).trans (congrArg RArgs.a15 rA),
        (h c main_arg16).trans (congrArg RArgs.a16 rA),
        (h c main_arg17).trans (congrArg RArgs.a17 rA),
        (h c main_arg18).trans (congrArg RArgs.a18 rA),
        (h c main_arg19).trans (congrArg RArgs.a19 rA),
        (h c main_arg20).trans (congrArg RArgs.a20 rA),
        (h c main_arg21).trans (congrArg RArgs.a21 rA),
        (h c main_arg22).trans (congrArg RArgs.a22 rA),
        (h c main_arg23).trans (congrArg RArgs.a23 rA),
        (h c main_arg24).trans (congrArg RArgs.a24 rA),
        (h c main_arg25).trans (congrArg RArgs.a25 rA),
        (h c main_arg26).trans (congrArg RArgs.a26 rA),
        (h c main_arg27).trans (congrArg RArgs.a27 rA),
        (h c main_arg28).trans (congrArg RArgs.a28 rA)⟩)
    (run_seq scopedRefs_eq scopedSems_eq defs main (fun _ => ops) main_eq (fun _ => ops_sub) m ρ (fun _ => ops_fresh))

end Cert.ReferenceIdeal.RT

end
-- ==== Proof.RIface.lean ====
/-
  The reference's arguments as the network's weights, and its literal tables as the quantiser's constants.
-/
import proofs.«425746_j43550968382251_1_alg».proof.Proof.RefTerms
import proofs.«425746_j43550968382251_1_alg».proof.Proof.Spec

noncomputable section

namespace Cert.ReferenceIdeal.RT

open Idealize.ShloMosaic Idealize.ShloMosaic.ValueIdx Idealize.SL.Sem
open Cert.ReferenceIdeal Cert.ReferenceIdeal.Gen Cert.Spec

/-- The network's weights: the reference's arguments 2 … 28, in order. -/
def WofA (A : RArgs Ideal) : Wts where
  typeEmb := A.a2
  Wpe := A.a3
  bpe := A.a4
  We1 := A.a5
  be1 := A.a6
  We2 := A.a7
  be2 := A.a8
  We3 := A.a9
  be3 := A.a10
  We4 := A.a11
  be4 := A.a12
  Wpin := A.a13
  bpin := A.a14
  Wpout := A.a15
  bpout := A.a16
  Wd1 := A.a17
  bd1 := A.a18
  Wd2 := A.a19
  bd2 := A.a20
  Wd3 := A.a21
  bd3 := A.a22
  Wcls := A.a23
  bcls := A.a24
  Wclo := A.a25
  bclo := A.a26
  Wdr := A.a27
  bdr := A.a28

/-- The quantiser's constants: the reference's five literal tables of four floats, each word at its exact value. -/
def CR : Consts where
  shift := fun j => FloatOps.ofBits (F := Ideal) .f32 (lit0 j)
  halfL := fun j => FloatOps.ofBits (F := Ideal) .f32 (lit1 j)
  offset := fun j => FloatOps.ofBits (F := Ideal) .f32 (lit2 j)
  halfW := fun j => FloatOps.ofBits (F := Ideal) .f32 (lit3 j)
  basis := fun j => FloatOps.ofBits (F := Ideal) .f32 (lit4 j)

end Cert.ReferenceIdeal.RT

end
-- ==== Proof.REnc.lean ====
/-
  The reference's encoder at one row.  With the row's surface type `t` in range, the index it gathers by is `t` itself (not
  negative, so not wrapped; within the table, so not clamped and the validity mask of the take along the type axis is set):
  the gathered embedding is row `t` of the table, the taken parameter embedding is type `t`'s slice of the all-types product;
  the first layer's product with the concatenation of the two splits into the two sums of Proof/Spec.lean.
-/
import proofs.«425746_j43550968382251_1_alg».proof.Proof.RIface
import Idealize.ShloMosaic.PureOps.Ideal.Laws
import Idealize.ShloMosaic.Lib.Pipeline.Value

noncomputable section

namespace Cert.ReferenceIdeal.RT

open Idealize.ShloMosaic Idealize.ShloMosaic.ValueIdx Idealize.SL.Sem
open Cert.ReferenceIdeal Cert.ReferenceIdeal.Gen Cert.Spec
open scoped BigOperators

/-- A broadcast along listed axes read at an index: the operand at the index's listed coordinates, `0` on the operand's unit axes. -/
private theorem bcastInDim_apply {α : Type} {s t : Shape} (dims : Fin s.rank → Fin t.rank) (h : s.BroadcastsInDim t dims)
    (x : s.Idx → α) (j : t.Idx) (k : s.Idx)
    (hk : ∀ a : Fin s.rank, (k a).val = if s.size a = 1 then 0 else (j (dims a)).val) :
    broadcastInDim t dims h x j = x k := by
  unfold broadcastInDim
  congr 1
  funext a
  apply Fin.ext
  rw [hk a]
  split <;> rfl

/-- A small word is not negative. -/
private theorem slt_zero_small (t : Fin 5) : IntOp.cmpi .slt (BitVec.ofNat 32 t.val) 0#32 = 0#1 := by
  revert t; decide

/-- A small word read signed and clamped into the table's five rows is itself. -/
private theorem clamp_small (t : Fin 5) : min (BitVec.ofNat 32 t.val).toInt.toNat 4 = t.val := by
  revert t; decide

/-- The wrapped index at a row of type `t` is `t`. -/
private theorem R_v4_row (A : RArgs Ideal) (a : Fin 262144) (t : Fin 5) (hs : A.a1 (ix1 a) = BitVec.ofNat 32 t.val) :
    R_v4 A (ix1 a) = BitVec.ofNat 32 t.val := by
  show Scalar.select (IntOp.cmpi .slt (A.a1 (ix1 a)) (R_v0 A (ix1 a))) (R_v3 A (ix1 a)) (A.a1 (ix1 a)) = _
  have h0 : R_v0 A (ix1 a) = 0#32 := rfl
  rw [h0, hs, slt_zero_small, select_zero]

/-- The same as a column. -/
private theorem R_v5_row (A : RArgs Ideal) (a : Fin 262144) (t : Fin 5) (hs : A.a1 (ix1 a) = BitVec.ofNat 32 t.val) :
    R_v5 A (ix2 a (0 : Fin 1)) = BitVec.ofNat 32 t.val := by
  rw [← R_v4_row A a t hs]
  refine bcastInDim_apply _ _ _ _ (ix1 a) fun ax => ?_
  obtain rfl : ax = 0 := Subsingleton.elim _ _
  rfl

/-- The gather of the type table: operand axis 0 is the clamped start index. -/
private theorem g6_ax0 (A : RArgs Ideal) (a : Fin 262144) (t : Fin 5) (hs : A.a1 (ix1 a) = BitVec.ofNat 32 t.val) (e : Fin 16) :
    (gather_S5x16_S262144x1_S262144x16_1_0_n_n_0_1_116.operandIdx (ix2 a e) (R_v5 A) 0).val = t.val := by
  show gather_S5x16_S262144x1_S262144x16_1_0_n_n_0_1_116.start (ix2 a e) (R_v5 A) 0
    + gather_S5x16_S262144x1_S262144x16_1_0_n_n_0_1_116.batchCoord (ix2 a e) 0
    + gather_S5x16_S262144x1_S262144x16_1_0_n_n_0_1_116.offCoord (ix2 a e) 0 = _
  rw [GatherDims.batchCoord_eq_zero _ _ _ (by decide), GatherDims.offCoord_eq_zero _ _ _ (by decide)]
  unfold GatherDims.start
  rw [dif_pos (by decide)]
  have hsi : gather_S5x16_S262144x1_S262144x16_1_0_n_n_0_1_116.siIdx (ix2 a e)
      ⟨List.idxOf (0 : Fin 2) gather_S5x16_S262144x1_S262144x16_1_0_n_n_0_1_116.startIndexMap,
        List.idxOf_lt_length_iff.2 (by decide)⟩ = ix2 a (0 : Fin 1) := by
    funext b; refine Fin.ext ?_
    match b with
    | ⟨0, _⟩ => rfl
    | ⟨1, _⟩ => rfl
  rw [hsi, R_v5_row A a t hs]
  exact clamp_small t

/-- The gather of the type table: operand axis 1 is the result's offset coordinate. -/
private theorem g6_ax1 (A : RArgs Ideal) (a : Fin 262144) (e : Fin 16) :
    (gather_S5x16_S262144x1_S262144x16_1_0_n_n_0_1_116.operandIdx (ix2 a e) (R_v5 A) 1).val = e.val := by
  show gather_S5x16_S262144x1_S262144x16_1_0_n_n_0_1_116.start (ix2 a e) (R_v5 A) 1
    + gather_S5x16_S262144x1_S262144x16_1_0_n_n_0_1_116.batchCoord (ix2 a e) 1
    + gather_S5x16_S262144x1_S262144x16_1_0_n_n_0_1_116.offCoord (ix2 a e) 1 = _
  rw [GatherDims.batchCoord_eq_zero _ _ _ (by decide)]
  unfold GatherDims.start
  rw [dif_neg (by decide)]
  unfold GatherDims.offCoord
  rw [dif_pos (by decide)]
  simp only [Nat.zero_add, Nat.add_zero]
  rfl

/-- The type embedding at a row of type `t`: row `t` of the table. -/
theorem R_v6_row (A : RArgs Ideal) (a : Fin 262144) (t : Fin 5) (hs : A.a1 (ix1 a) = BitVec.ofNat 32 t.val) (e : Fin 16) :
    R_v6 A (ix2 a e) = A.a2 (ix2 t e) := by
  show A.a2 (gather_S5x16_S262144x1_S262144x16_1_0_n_n_0_1_116.operandIdx (ix2 a e) (R_v5 A)) = _
  congr 1
  funext ax
  apply Fin.ext
  match ax with
  | ⟨0, _⟩ => exact g6_ax0 A a t hs e
  | ⟨1, _⟩ => exact g6_ax1 A a e

/-- A matrix product on the host read at an index: the sum over the contracted coordinate of the products of the entries. -/
private theorem dot_plain_apply {m k n : Nat}
    (w : DotDims.WF ⟨2, ![m, k]⟩ ⟨2, ![k, n]⟩ ⟨2, ![m, n]⟩ [1] [0] [0] [1] [] [])
    (prec : Option ContractPrecision) (X : FVec Ideal ⟨2, ![m, k]⟩ .f32) (Y : FVec Ideal ⟨2, ![k, n]⟩ .f32)
    (a : Fin m) (b : Fin n) :
    Host.dotGeneral (⟨[1], [0], [0], [1], [], [], w⟩ : DotDims ⟨2, ![m, k]⟩ ⟨2, ![k, n]⟩ ⟨2, ![m, n]⟩) prec X Y (ix2 a b)
      = ∑ c : Fin k, X (ix2 a c) * Y (ix2 c b) := by
  show FloatOps.dotGeneral _ prec .single X Y (ix2 a b) = _
  rw [Ideal.dotGeneral_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A stack of `u` matrices `[p, k]` applied to every row of an `[m, k]` matrix, read at an index. -/
private theorem dot_stack_apply {m k u p : Nat}
    (w : DotDims.WF ⟨2, ![m, k]⟩ ⟨3, ![u, p, k]⟩ ⟨3, ![m, u, p]⟩ [1] [2] [0] [0, 1] [] [])
    (prec : Option ContractPrecision) (X : FVec Ideal ⟨2, ![m, k]⟩ .f32) (Y : FVec Ideal ⟨3, ![u, p, k]⟩ .f32)
    (a : Fin m) (b : Fin u) (q : Fin p) :
    Host.dotGeneral (⟨[1], [2], [0], [0, 1], [], [], w⟩ : DotDims ⟨2, ![m, k]⟩ ⟨3, ![u, p, k]⟩ ⟨3, ![m, u, p]⟩) prec X Y (ix3 a b q)
      = ∑ c : Fin k, X (ix2 a c) * Y (ix3 b q c) := by
  show FloatOps.dotGeneral _ prec .single X Y (ix3 a b q) = _
  rw [Ideal.dotGeneral_apply,
    ← Equiv.sum_comp (contrEquiv1 (⟨[1], [2], [0], [0, 1], [], [], w⟩ : DotDims ⟨2, ![m, k]⟩ ⟨3, ![u, p, k]⟩ ⟨3, ![m, u, p]⟩) k rfl rfl).symm]
  refine Finset.sum_congr rfl fun c _ => ?_
  have c2 := contrEquiv1_symm_val
    (⟨[1], [2], [0], [0, 1], [], [], w⟩ : DotDims ⟨2, ![m, k]⟩ ⟨3, ![u, p, k]⟩ ⟨3, ![m, u, p]⟩) k rfl rfl c
  have l2 : (⟨[1], [2], [0], [0, 1], [], [], w⟩ : DotDims ⟨2, ![m, k]⟩ ⟨3, ![u, p, k]⟩ ⟨3, ![m, u, p]⟩).lhsIdx (ix3 a b q)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [2], [0], [0, 1], [], [], w⟩ : DotDims ⟨2, ![m, k]⟩ ⟨3, ![u, p, k]⟩ ⟨3, ![m, u, p]⟩).rhsIdx (ix3 a b q)
      ((contrEquiv1 _ k rfl rfl).symm c) = ix3 b q c := by
    funext ax; apply Fin.ext
    match ax with
    | ⟨0, _⟩ => simp [DotDims.rhsIdx]; rfl
    | ⟨1, _⟩ => simp [DotDims.rhsIdx]; rfl
    | ⟨2, _⟩ => simp [DotDims.rhsIdx]; exact c2
  rw [l2, r2]

/-- All five types' parameter products at a row, a type and an output. -/
private theorem R_v7_apply (A : RArgs Ideal) (a : Fin 262144) (u : Fin 5) (p : Fin 32) :
    R_v7 A (ix3 a u p) = ∑ r : Fin 11, A.a0 (ix2 a r) * A.a3 (ix3 u p r) :=
  dot_stack_apply dot_S262144x11_S5x32x11_S262144x5x32_1_2_0_01_n_n_wf none A.a0 A.a3 a u p

/-- The bias of every type laid along the rows. -/
private theorem R_v9_apply (A : RArgs Ideal) (a : Fin 262144) (u : Fin 5) (p : Fin 32) :
    R_v9 A (ix3 a u p) = A.a4 (ix2 u p) := by
  show broadcastInDim S262144x5x32 ![0, 1, 2] bcast_S1x5x32_S262144x5x32_0_1_2 (R_v8 A) (ix3 a u p) = _
  rw [bcastInDim_apply _ _ (R_v8 A) (ix3 a u p) (ix3 (0 : Fin 1) u p) (fun ax => by
    match ax with
    | ⟨0, _⟩ => rfl
    | ⟨1, _⟩ => rfl
    | ⟨2, _⟩ => rfl)]
  show broadcastInDim S1x5x32 ![1, 2] bcast_S5x32_S1x5x32_1_2 A.a4 (ix3 (0 : Fin 1) u p) = _
  exact bcastInDim_apply _ _ A.a4 _ (ix2 u p) (fun ax => by
    match ax with
    | ⟨0, _⟩ => rfl
    | ⟨1, _⟩ => rfl)

/-- Every type's parameter embedding at a row. -/
private theorem R_v10_apply (A : RArgs Ideal) (a : Fin 262144) (u : Fin 5) (p : Fin 32) :
    R_v10 A (ix3 a u p) = (∑ r : Fin 11, A.a0 (ix2 a r) * A.a3 (ix3 u p r)) + A.a4 (ix2 u p) := by
  show R_v7 A (ix3 a u p) + R_v9 A (ix3 a u p) = _
  rw [R_v7_apply, R_v9_apply]

/-- A fold by `and` from 1 over words that are all 1 is 1. -/
private theorem foldl_andi_one {ι : Type} (f : ι → BitVec 1) :
    ∀ (l : List ι), (∀ n ∈ l, f n = 1#1) → l.foldl (fun r n => IntOp.andi r (f n)) 1#1 = 1#1
  | [], _ => rfl
  | x :: l, h => by
    show l.foldl (fun r n => IntOp.andi r (f n)) (IntOp.andi 1#1 (f x)) = 1#1
    rw [h x List.mem_cons_self]
    have e : IntOp.andi 1#1 1#1 = 1#1 := by decide
    rw [e]
    exact foldl_andi_one f l (fun n hn => h n (List.mem_cons_of_mem _ hn))

/-- A small word lies between 0 and 4. -/
private theorem in_range_small (t : Fin 5) :
    IntOp.andi (IntOp.cmpi .sge (BitVec.ofNat 32 t.val) 0#32) (IntOp.cmpi .sle (BitVec.ofNat 32 t.val) 4#32) = 1#1 := by
  revert t; decide

/-- The row's surface type as a `[rows, 1, 1]` array. -/
private theorem R_v11_row (A : RArgs Ideal) (a : Fin 262144) :
    R_v11 A (ix3 a (0 : Fin 1) (0 : Fin 1)) = A.a1 (ix1 a) := by
  refine bcastInDim_apply _ _ _ _ (ix1 a) fun ax => ?_
  obtain rfl : ax = 0 := Subsingleton.elim _ _
  rfl

/-- The index the take along the type axis gathers by, at a row of type `t`: `t`. -/
private theorem R_call0_v4_row (A : RArgs Ideal) (a : Fin 262144) (t : Fin 5) (hs : A.a1 (ix1 a) = BitVec.ofNat 32 t.val) :
    R_call0_v4 A (ix3 a (0 : Fin 1) (0 : Fin 1)) = BitVec.ofNat 32 t.val := by
  show Scalar.select (IntOp.cmpi .slt (R_v11 A (ix3 a 0 0)) (R_call0_v0 A (ix3 a 0 0))) (R_call0_v3 A (ix3 a 0 0))
    (R_v11 A (ix3 a 0 0)) = _
  have h0 : R_call0_v0 A (ix3 a (0 : Fin 1) (0 : Fin 1)) = 0#32 := rfl
  rw [h0, R_v11_row, hs, slt_zero_small, select_zero]

/-- Its range test at that row: true. -/
private theorem R_call0_v10_row (A : RArgs Ideal) (a : Fin 262144) (t : Fin 5) (hs : A.a1 (ix1 a) = BitVec.ofNat 32 t.val) :
    R_call0_v10 A (ix3 a (0 : Fin 1) (0 : Fin 1)) = 1#1 := by
  show IntOp.andi (IntOp.cmpi .sge (R_call0_v4 A (ix3 a 0 0)) (R_call0_v5 A (ix3 a 0 0)))
    (IntOp.cmpi .sle (R_call0_v4 A (ix3 a 0 0)) (R_call0_v8 A (ix3 a 0 0))) = 1#1
  have h5 : R_call0_v5 A (ix3 a (0 : Fin 1) (0 : Fin 1)) = 0#32 := rfl
  have h8 : R_call0_v8 A (ix3 a (0 : Fin 1) (0 : Fin 1)) = 4#32 := rfl
  rw [h5, h8, R_call0_v4_row A a t hs]
  exact in_range_small t

/-- The test reduced over the unit axis: true. -/
private theorem R_call0_v11_row (A : RArgs Ideal) (a : Fin 262144) (t : Fin 5) (hs : A.a1 (ix1 a) = BitVec.ofNat 32 t.val) :
    R_call0_v11 A (ix2 a (0 : Fin 1)) = 1#1 := by
  show Host.reduce IntOp.andi (R_call0_v10 A) (R_call0_c_3 A) reducesTo_S262144x1x1_S262144x1_d2 h_S_ (ix2 a (0 : Fin 1)) = 1#1
  rw [Host.reduce_eq_foldl]
  have hinit : R_call0_c_3 A (Shape.Idx.first h_S_) = 1#1 := rfl
  rw [hinit]
  refine foldl_andi_one _ _ fun i hi => ?_
  rw [List.mem_filter] at hi
  have hd : reducesTo_S262144x1x1_S262144x1_d2.drop i = ix2 a (0 : Fin 1) := by simpa using hi.2
  have h0 : (i 0).val = a.val := by
    have := Shape.ReducesTo.drop_apply_val_of_eq reducesTo_S262144x1x1_S262144x1_d2 i 0 0
    rw [hd] at this; exact this.symm
  obtain ⟨i0, i1, i2, rfl⟩ : ∃ (i0 : Fin 262144) (i1 : Fin 1) (i2 : Fin 1), i = ix3 i0 i1 i2 := ⟨i 0, i 1, i 2, eq_ix3 i⟩
  obtain rfl : i0 = a := Fin.ext h0
  obtain rfl : i1 = 0 := Subsingleton.elim _ _
  obtain rfl : i2 = 0 := Subsingleton.elim _ _
  exact R_call0_v10_row A i0 t hs

private theorem g12_ax0 (A : RArgs Ideal) (a : Fin 262144) (p : Fin 32) :
    (gather_S262144x5x32_S262144x1x1_S262144x1x32_2_1_0_0_1_2_1132.operandIdx (ix3 a (0 : Fin 1) p) (R_call0_v4 A) 0).val = a.val := by
  show gather_S262144x5x32_S262144x1x1_S262144x1x32_2_1_0_0_1_2_1132.start (ix3 a (0 : Fin 1) p) (R_call0_v4 A) 0
    + gather_S262144x5x32_S262144x1x1_S262144x1x32_2_1_0_0_1_2_1132.batchCoord (ix3 a (0 : Fin 1) p) 0
    + gather_S262144x5x32_S262144x1x1_S262144x1x32_2_1_0_0_1_2_1132.offCoord (ix3 a (0 : Fin 1) p) 0 = _
  rw [GatherDims.offCoord_eq_zero _ _ _ (by decide)]
  unfold GatherDims.start
  rw [dif_neg (by decide)]
  unfold GatherDims.batchCoord
  rw [dif_pos (by decide)]
  simp only [Nat.zero_add, Nat.add_zero]
  rfl

private theorem g12_ax1 (A : RArgs Ideal) (a : Fin 262144) (t : Fin 5) (hs : A.a1 (ix1 a) = BitVec.ofNat 32 t.val) (p : Fin 32) :
    (gather_S262144x5x32_S262144x1x1_S262144x1x32_2_1_0_0_1_2_1132.operandIdx (ix3 a (0 : Fin 1) p) (R_call0_v4 A) 1).val = t.val := by
  show gather_S262144x5x32_S262144x1x1_S262144x1x32_2_1_0_0_1_2_1132.start (ix3 a (0 : Fin 1) p) (R_call0_v4 A) 1
    + gather_S262144x5x32_S262144x1x1_S262144x1x32_2_1_0_0_1_2_1132.batchCoord (ix3 a (0 : Fin 1) p) 1
    + gather_S262144x5x32_S262144x1x1_S262144x1x32_2_1_0_0_1_2_1132.offCoord (ix3 a (0 : Fin 1) p) 1 = _
  rw [GatherDims.batchCoord_eq_zero _ _ _ (by decide), GatherDims.offCoord_eq_zero _ _ _ (by decide)]
  unfold GatherDims.start
  rw [dif_pos (by decide)]
  have hsi : gather_S262144x5x32_S262144x1x1_S262144x1x32_2_1_0_0_1_2_1132.siIdx (ix3 a (0 : Fin 1) p)
      ⟨List.idxOf (1 : Fin 3) gather_S262144x5x32_S262144x1x1_S262144x1x32_2_1_0_0_1_2_1132.startIndexMap,
        List.idxOf_lt_length_iff.2 (by decide)⟩ = ix3 a (0 : Fin 1) (0 : Fin 1) := by
    funext b; refine Fin.ext ?_
    match b with
    | ⟨0, _⟩ => rfl
    | ⟨1, _⟩ => rfl
    | ⟨2, _⟩ => rfl
  rw [hsi, R_call0_v4_row A a t hs]
  exact clamp_small t

private theorem g12_ax2 (A : RArgs Ideal) (a : Fin 262144) (p : Fin 32) :
    (gather_S262144x5x32_S262144x1x1_S262144x1x32_2_1_0_0_1_2_1132.operandIdx (ix3 a (0 : Fin 1) p) (R_call0_v4 A) 2).val = p.val := by
  show gather_S262144x5x32_S262144x1x1_S262144x1x32_2_1_0_0_1_2_1132.start (ix3 a (0 : Fin 1) p) (R_call0_v4 A) 2
    + gather_S262144x5x32_S262144x1x1_S262144x1x32_2_1_0_0_1_2_1132.batchCoord (ix3 a (0 : Fin 1) p) 2
    + gather_S262144x5x32_S262144x1x1_S262144x1x32_2_1_0_0_1_2_1132.offCoord (ix3 a (0 : Fin 1) p) 2 = _
  rw [GatherDims.batchCoord_eq_zero _ _ _ (by decide)]
  unfold GatherDims.start
  rw [dif_neg (by decide)]
  unfold GatherDims.offCoord
  rw [dif_pos (by decide)]
  simp only [Nat.zero_add, Nat.add_zero]
  rfl

/-- The gathered slice at a row of type `t`: type `t`'s slice of the all-types array. -/
private theorem R_call0_v12_row (A : RArgs Ideal) (a : Fin 262144) (t : Fin 5) (hs : A.a1 (ix1 a) = BitVec.ofNat 32 t.val) (p : Fin 32) :
    R_call0_v12 A (ix3 a (0 : Fin 1) p) = R_v10 A (ix3 a t p) := by
  show R_v10 A (gather_S262144x5x32_S262144x1x1_S262144x1x32_2_1_0_0_1_2_1132.operandIdx (ix3 a (0 : Fin 1) p) (R_call0_v4 A)) = _
  congr 1
  funext ax
  apply Fin.ext
  match ax with
  | ⟨0, _⟩ => exact g12_ax0 A a p
  | ⟨1, _⟩ => exact g12_ax1 A a t hs p
  | ⟨2, _⟩ => exact g12_ax2 A a p

/-- The take along the type axis at a row of type `t`: the validity mask is set, so the gathered value is kept. -/
private theorem R_v12_row (A : RArgs Ideal) (a : Fin 262144) (t : Fin 5) (hs : A.a1 (ix1 a) = BitVec.ofNat 32 t.val) (p : Fin 32) :
    R_v12 A (ix3 a (0 : Fin 1) p) = R_v10 A (ix3 a t p) := by
  show Scalar.select (R_call0_v13 A (ix3 a (0 : Fin 1) p)) (R_call0_v12 A (ix3 a (0 : Fin 1) p)) (R_call0_v14 A (ix3 a (0 : Fin 1) p)) = _
  have hm : R_call0_v13 A (ix3 a (0 : Fin 1) p) = 1#1 := by
    rw [← R_call0_v11_row A a t hs]
    refine bcastInDim_apply _ _ _ _ (ix2 a (0 : Fin 1)) fun ax => ?_
    match ax with
    | ⟨0, _⟩ => rfl
    | ⟨1, _⟩ => rfl
  rw [hm, select_one, R_call0_v12_row A a t hs]

/-- The row's parameter embedding: type `t`'s affine map of the row's parameters. -/
private theorem R_v13_row (A : RArgs Ideal) (a : Fin 262144) (t : Fin 5) (hs : A.a1 (ix1 a) = BitVec.ofNat 32 t.val) (p : Fin 32) :
    R_v13 A (ix2 a p) = peR (WofA A) (rowOf A.a0 a) t p := by
  show shapeCast S262144x32 (R_v12 A) shapeCasts_S262144x1x32_S262144x32 (ix2 a p) = _
  rw [shapeCast_apply (R_v12 A) shapeCasts_S262144x1x32_S262144x32 (ix2 a p) (ix3 a (0 : Fin 1) p) (by
    rw [Shape.rowMajor_val_three, Shape.rowMajor_val_two]
    show (a.val * 1 + 0) * 32 + p.val = a.val * 32 + p.val
    rw [Nat.mul_one, Nat.add_zero])]
  rw [R_v12_row A a t hs, R_v10_apply]
  rfl

/-- The first 32 columns of the concatenation: the parameter embedding. -/
private theorem R_v14_left (A : RArgs Ideal) (a : Fin 262144) (k : Fin 32) :
    R_v14 A (ix2 a (⟨k.val, by omega⟩ : Fin 48)) = R_v13 A (ix2 a k) := by
  show concatenate S262144x48 1 [⟨S262144x32, R_v13 A⟩, ⟨S262144x16, R_v6 A⟩] concatenates_S262144x32_S262144x16_S262144x48_d1
    (ix2 a (⟨k.val, by omega⟩ : Fin 48)) = _
  exact concatenate_pair_apply_left (t := S262144x48) (s₁ := S262144x32) (s₂ := S262144x16) 1 (R_v13 A) (R_v6 A) concatenates_S262144x32_S262144x16_S262144x48_d1
    (ix2 a (⟨k.val, by omega⟩ : Fin 48)) rfl (ix2 a k) (fun b => by
      match b with
      | ⟨0, _⟩ => rfl
      | ⟨1, _⟩ => rfl)

/-- The last 16 columns of the concatenation: the type embedding. -/
private theorem R_v14_right (A : RArgs Ideal) (a : Fin 262144) (k : Fin 16) :
    R_v14 A (ix2 a (⟨32 + k.val, by omega⟩ : Fin 48)) = R_v6 A (ix2 a k) := by
  show concatenate S262144x48 1 [⟨S262144x32, R_v13 A⟩, ⟨S262144x16, R_v6 A⟩] concatenates_S262144x32_S262144x16_S262144x48_d1
    (ix2 a (⟨32 + k.val, by omega⟩ : Fin 48)) = _
  exact concatenate_pair_apply_right (t := S262144x48) (s₁ := S262144x32) (s₂ := S262144x16) 1 (R_v13 A) (R_v6 A) concatenates_S262144x32_S262144x16_S262144x48_d1
    (ix2 a (⟨32 + k.val, by omega⟩ : Fin 48)) rfl rfl (ix2 a k) (fun b hb => by
      match b with
      | ⟨0, _⟩ => rfl
      | ⟨1, _⟩ => exact absurd rfl hb)
    (by show k.val + 32 = 32 + k.val; omega)

/-- A bias vector laid along every row reads, at row `r` and column `j`, its entry `j`. -/
private theorem bias_apply {α : Type} {m n : Nat} (h1 : (⟨1, ![n]⟩ : Shape).BroadcastsInDim ⟨2, ![1, n]⟩ ![1])
    (h2 : (⟨2, ![1, n]⟩ : Shape).BroadcastsInDim ⟨2, ![m, n]⟩ ![0, 1]) (v : (⟨1, ![n]⟩ : Shape).Idx → α) (r : Fin m) (j : Fin n) :
    broadcastInDim ⟨2, ![m, n]⟩ ![0, 1] h2 (broadcastInDim ⟨2, ![1, n]⟩ ![1] h1 v) (ix2 r j) = v (ix1 j) := by
  rw [bcastInDim_apply _ h2 _ (ix2 r j) (ix2 (0 : Fin 1) j) (fun ax => by
    match ax with
    | ⟨0, _⟩ => rfl
    | ⟨1, _⟩ =>
      show j.val = if n = 1 then 0 else j.val
      split
      · have := j.isLt; omega
      · rfl)]
  exact bcastInDim_apply _ h1 v _ (ix1 j) (fun ax => by
    obtain rfl : ax = 0 := Subsingleton.elim _ _
    show j.val = if n = 1 then 0 else j.val
    split
    · have := j.isLt; omega
    · rfl)

/-- An affine layer of the reference at a row whose input is `x`: `lin` of Proof/Spec.lean. -/
private theorem layer_apply {m K N : Nat}
    (w : DotDims.WF ⟨2, ![m, K]⟩ ⟨2, ![K, N]⟩ ⟨2, ![m, N]⟩ [1] [0] [0] [1] [] [])
    (h1 : (⟨1, ![N]⟩ : Shape).BroadcastsInDim ⟨2, ![1, N]⟩ ![1])
    (h2 : (⟨2, ![1, N]⟩ : Shape).BroadcastsInDim ⟨2, ![m, N]⟩ ![0, 1])
    (X : FVec Ideal ⟨2, ![m, K]⟩ .f32) (M : FVec Ideal ⟨2, ![K, N]⟩ .f32) (b : FVec Ideal ⟨1, ![N]⟩ .f32)
    (a : Fin m) (x : Fin K → EReal) (hx : ∀ k, X (ix2 a k) = x k) (j : Fin N) :
    addf (Host.dotGeneral (⟨[1], [0], [0], [1], [], [], w⟩ : DotDims ⟨2, ![m, K]⟩ ⟨2, ![K, N]⟩ ⟨2, ![m, N]⟩) none X M)
        (broadcastInDim ⟨2, ![m, N]⟩ ![0, 1] h2 (broadcastInDim ⟨2, ![1, N]⟩ ![1] h1 b)) (ix2 a j)
      = lin x M b j := by
  rw [addf_apply, dot_plain_apply, bias_apply]
  unfold lin
  refine congrArg (· + b (ix1 j)) (Finset.sum_congr rfl fun k _ => ?_)
  rw [hx k]

/-- A maximum against the zero splat is the maximum against 0. -/
private theorem relu_apply {s : Shape} (h : (⟨0, ![]⟩ : Shape).BroadcastsInDim s ![]) (X : FVec Ideal s .f32) (i : s.Idx) :
    maximumf X (broadcastInDim s ![] h (constant (F := Ideal) ⟨0, ![]⟩ .f32 0x00000000#32)) i = max (X i) 0 := by
  rw [maximumf_apply]
  show max (X i) (Ideal.ofBits .f32 0x00000000#32) = _
  rw [Ideal.ofBits_zero_f32]

/-- Encoder layer 1 at a row of type `t`. -/
private theorem R_v19_row (A : RArgs Ideal) (a : Fin 262144) (t : Fin 5) (hs : A.a1 (ix1 a) = BitVec.ofNat 32 t.val) (j : Fin 512) :
    R_v19 A (ix2 a j) = h1R (WofA A) (rowOf A.a0 a) t j := by
  show maximumf (R_v18 A) (broadcastInDim S262144x512 ![] bcast_S_S262144x512 (constant (F := Ideal) S_ .f32 0x00000000#32)) (ix2 a j) = _
  rw [relu_apply]
  unfold h1R
  refine congrArg (fun z => max z 0) ?_
  show R_v15 A (ix2 a j) + R_v17 A (ix2 a j) = _
  have hb : R_v17 A (ix2 a j) = A.a6 (ix1 j) := bias_apply bcast_S512_S1x512_1 bcast_S1x512_S262144x512_0_1 A.a6 a j
  rw [hb]
  refine congrArg (· + A.a6 (ix1 j)) ?_
  have hd : R_v15 A (ix2 a j) = ∑ c : Fin (32 + 16), R_v14 A (ix2 a c) * A.a5 (ix2 c j) :=
    dot_plain_apply dot_S262144x48_S48x512_S262144x512_1_0_0_1_n_n_wf none (R_v14 A) A.a5 a j
  rw [hd, Fin.sum_univ_add]
  refine congrArg₂ (· + ·) (Finset.sum_congr rfl fun k _ => ?_) (Finset.sum_congr rfl fun k _ => ?_)
  · show R_v14 A (ix2 a (⟨k.val, by omega⟩ : Fin 48)) * A.a5 (ix2 (⟨k.val, by omega⟩ : Fin 48) j) = _
    rw [R_v14_left, R_v13_row A a t hs]
    rfl
  · show R_v14 A (ix2 a (⟨32 + k.val, by omega⟩ : Fin 48)) * A.a5 (ix2 (⟨32 + k.val, by omega⟩ : Fin 48) j) = _
    rw [R_v14_right, R_v6_row A a t hs]
    rfl

/-- Encoder layer 2 at a row of type `t`. -/
private theorem R_v24_row (A : RArgs Ideal) (a : Fin 262144) (t : Fin 5) (hs : A.a1 (ix1 a) = BitVec.ofNat 32 t.val) (j : Fin 256) :
    R_v24 A (ix2 a j) = h2R (WofA A) (rowOf A.a0 a) t j := by
  show maximumf (R_v23 A) (broadcastInDim S262144x256 ![] bcast_S_S262144x256 (constant (F := Ideal) S_ .f32 0x00000000#32)) (ix2 a j) = _
  rw [relu_apply]
  unfold h2R
  refine congrArg (fun z => max z 0) ?_
  exact layer_apply dot_S262144x512_S512x256_S262144x256_1_0_0_1_n_n_wf bcast_S256_S1x256_1 bcast_S1x256_S262144x256_0_1
    (R_v19 A) A.a7 A.a8 a _ (fun k => R_v19_row A a t hs k) j

/-- Encoder layer 3 at a row of type `t`. -/
private theorem R_v29_row (A : RArgs Ideal) (a : Fin 262144) (t : Fin 5) (hs : A.a1 (ix1 a) = BitVec.ofNat 32 t.val) (j : Fin 128) :
    R_v29 A (ix2 a j) = h3R (WofA A) (rowOf A.a0 a) t j := by
  show maximumf (R_v28 A) (broadcastInDim S262144x128 ![] bcast_S_S262144x128 (constant (F := Ideal) S_ .f32 0x00000000#32)) (ix2 a j) = _
  rw [relu_apply]
  unfold h3R
  refine congrArg (fun z => max z 0) ?_
  exact layer_apply dot_S262144x256_S256x128_S262144x128_1_0_0_1_n_n_wf bcast_S128_S1x128_1 bcast_S1x128_S262144x128_0_1
    (R_v24 A) A.a9 A.a10 a _ (fun k => R_v24_row A a t hs k) j

/-- The latent vector at a row of type `t`. -/
private theorem R_v33_row (A : RArgs Ideal) (a : Fin 262144) (t : Fin 5) (hs : A.a1 (ix1 a) = BitVec.ofNat 32 t.val) (j : Fin 128) :
    R_v33 A (ix2 a j) = zR (WofA A) (rowOf A.a0 a) t j :=
  layer_apply dot_S262144x128_S128x128_S262144x128_1_0_0_1_n_n_wf bcast_S128_S1x128_1 bcast_S1x128_S262144x128_0_1
    (R_v29 A) A.a11 A.a12 a _ (fun k => R_v29_row A a t hs k) j

/-- The quantiser's channels at a row of type `t`: the encoder of Proof/Spec.lean on the row's parameters. -/
theorem R_v37_row (A : RArgs Ideal) (a : Fin 262144) (t : Fin 5) (hs : A.a1 (ix1 a) = BitVec.ofNat 32 t.val) (j : Fin 4) :
    R_v37 A (ix2 a j) = zpR (WofA A) (rowOf A.a0 a) t j :=
  layer_apply dot_S262144x128_S128x4_S262144x4_1_0_0_1_n_n_wf bcast_S4_S1x4_1 bcast_S1x4_S262144x4_0_1
    (R_v33 A) A.a13 A.a14 a _ (fun k => R_v33_row A a t hs k) j

end Cert.ReferenceIdeal.RT

end
-- ==== Proof.RDec1.lean ====
/-
  The reference's quantiser and heads at one row, from its channels `R_v37`: the bounded value is a real number (a `tanh`
  scaled and shifted by finite constants), so adding back the difference between it and its rounding gives the rounding.
-/
import proofs.«425746_j43550968382251_1_alg».proof.Proof.RIface
import Idealize.ShloMosaic.PureOps.Ideal.Laws
import Idealize.ShloMosaic.Lib.Pipeline.Value

noncomputable section

namespace Cert.ReferenceIdeal.RT

open Idealize.ShloMosaic Idealize.ShloMosaic.ValueIdx Idealize.SL.Sem
open Cert.ReferenceIdeal Cert.ReferenceIdeal.Gen Cert.Spec

/-! ## Layout: a vector along every row -/

/-- A vector of four broadcast to every row, read at a row. -/
private theorem bc4 (v : (⟨S4, .f32⟩ : BufTy).Contents (Elt Ideal)) (a : Fin 262144) (k : Fin 4) :
    (broadcastInDim S262144x4 ![0, 1] bcast_S1x4_S262144x4_0_1 (broadcastInDim S1x4 ![1] bcast_S4_S1x4_1 v)) (ix2 a k) = v (ix1 k) := by
  refine (broadcastInDim_apply _ _ _ (ix2 a k) (ix2 (0 : Fin 1) k) (fun b => by match b with | ⟨0, _⟩ => rfl | ⟨1, _⟩ => rfl)).trans ?_
  exact broadcastInDim_apply _ _ _ (ix2 (0 : Fin 1) k) (ix1 k) (fun b => by match b with | ⟨0, _⟩ => rfl)

/-- A vector of 128 broadcast to every row, read at a row. -/
private theorem bc128 (v : (⟨S128, .f32⟩ : BufTy).Contents (Elt Ideal)) (a : Fin 262144) (k : Fin 128) :
    (broadcastInDim S262144x128 ![0, 1] bcast_S1x128_S262144x128_0_1 (broadcastInDim S1x128 ![1] bcast_S128_S1x128_1 v)) (ix2 a k) = v (ix1 k) := by
  refine (broadcastInDim_apply _ _ _ (ix2 a k) (ix2 (0 : Fin 1) k) (fun b => by match b with | ⟨0, _⟩ => rfl | ⟨1, _⟩ => rfl)).trans ?_
  exact broadcastInDim_apply _ _ _ (ix2 (0 : Fin 1) k) (ix1 k) (fun b => by match b with | ⟨0, _⟩ => rfl)

/-- A vector of five broadcast to every row, read at a row. -/
private theorem bc5 (v : (⟨S5, .f32⟩ : BufTy).Contents (Elt Ideal)) (a : Fin 262144) (k : Fin 5) :
    (broadcastInDim S262144x5 ![0, 1] bcast_S1x5_S262144x5_0_1 (broadcastInDim S1x5 ![1] bcast_S5_S1x5_1 v)) (ix2 a k) = v (ix1 k) := by
  refine (broadcastInDim_apply _ _ _ (ix2 a k) (ix2 (0 : Fin 1) k) (fun b => by match b with | ⟨0, _⟩ => rfl | ⟨1, _⟩ => rfl)).trans ?_
  exact broadcastInDim_apply _ _ _ (ix2 (0 : Fin 1) k) (ix1 k) (fun b => by match b with | ⟨0, _⟩ => rfl)

/-- A vector of two broadcast to every row, read at a row. -/
private theorem bc2 (v : (⟨S2, .f32⟩ : BufTy).Contents (Elt Ideal)) (a : Fin 262144) (k : Fin 2) :
    (broadcastInDim S262144x2 ![0, 1] bcast_S1x2_S262144x2_0_1 (broadcastInDim S1x2 ![1] bcast_S2_S1x2_1 v)) (ix2 a k) = v (ix1 k) := by
  refine (broadcastInDim_apply _ _ _ (ix2 a k) (ix2 (0 : Fin 1) k) (fun b => by match b with | ⟨0, _⟩ => rfl | ⟨1, _⟩ => rfl)).trans ?_
  exact broadcastInDim_apply _ _ _ (ix2 (0 : Fin 1) k) (ix1 k) (fun b => by match b with | ⟨0, _⟩ => rfl)

/-- The position of entry `k` of a vector of four is `k`. -/
private theorem rowMajor4 (k : Fin 4) : S4.rowMajor (ix1 k) = k := Fin.ext (Shape.rowMajor_val_one _)

/-! ## A plain matrix product at an index -/

/-- The product of an m×k by a k×n matrix, read at an index: the sum over the contracted coordinate of the products of
    the entries. -/
private theorem dot_plain_apply {m k n : Nat}
    (w : DotDims.WF ⟨2, ![m, k]⟩ ⟨2, ![k, n]⟩ ⟨2, ![m, n]⟩ [1] [0] [0] [1] [] [])
    (prec : Option ContractPrecision) (X : FVec Ideal ⟨2, ![m, k]⟩ .f32) (Y : FVec Ideal ⟨2, ![k, n]⟩ .f32)
    (a : Fin m) (b : Fin n) :
    Host.dotGeneral (⟨[1], [0], [0], [1], [], [], w⟩ : DotDims ⟨2, ![m, k]⟩ ⟨2, ![k, n]⟩ ⟨2, ![m, n]⟩) prec X Y (ix2 a b)
      = ∑ c : Fin k, X (ix2 a c) * Y (ix2 c b) := by
  show FloatOps.dotGeneral _ prec .single X Y (ix2 a b) = _
  rw [Ideal.dotGeneral_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-! ## The quantiser's numbers are real -/

/-- `tanh` of an extended real is a real number. -/
private theorem tanh_real (x : EReal) : ∃ r : ℝ, Ideal.tanh x = (r : EReal) := by
  induction x using EReal.rec with
  | bot => exact ⟨-1, by rw [Ideal.tanh_bot]; simp⟩
  | coe r => exact ⟨Real.tanh r, rfl⟩
  | top => exact ⟨1, by rw [Ideal.tanh_top]; simp⟩

/-- A word whose exponent field is not all ones reads as a real number. -/
private theorem ieee_real (e m : Nat) {w : Nat} (b : BitVec w) (h : (b.extractLsb' m e).toNat ≠ 2 ^ e - 1) :
    ∃ x : ℝ, Ideal.ieee e m b = (x : EReal) := by
  unfold Ideal.ieee
  dsimp only
  rw [if_neg h]
  split_ifs <;> exact ⟨_, rfl⟩

/-- Each half length is a real number. -/
private theorem halfL_real (k : Fin 4) : ∃ x : ℝ, CR.halfL k = (x : EReal) :=
  ieee_real 8 23 (lit1 k) ((by decide : ∀ k : Fin 4, ((lit1 k).extractLsb' 23 8).toNat ≠ 2 ^ 8 - 1) k)

/-- Each offset is a real number. -/
private theorem offset_real (k : Fin 4) : ∃ x : ℝ, CR.offset k = (x : EReal) :=
  ieee_real 8 23 (lit2 k) ((by decide : ∀ k : Fin 4, ((lit2 k).extractLsb' 23 8).toNat ≠ 2 ^ 8 - 1) k)

/-- The bounded value of a channel is a real number. -/
private theorem bnd_real (zp : Fin 4 → EReal) (k : Fin 4) : ∃ β : ℝ, bndOf CR zp k = (β : EReal) := by
  obtain ⟨t, ht⟩ := tanh_real (zp k + CR.shift k)
  obtain ⟨h, hh⟩ := halfL_real k
  obtain ⟨o, ho⟩ := offset_real k
  refine ⟨t * h - o, ?_⟩
  unfold bndOf
  rw [ht, hh, ho, EReal.coe_sub, EReal.coe_mul]

/-- A real number plus the difference between its rounding and itself is its rounding. -/
private theorem add_round_sub (f : ℝ → ℤ) (b : EReal) (β : ℝ) (hb : b = (β : EReal)) :
    b + (Ideal.liftRound f b - b) = Ideal.liftRound f b := by
  subst hb
  rw [Ideal.liftRound_coe, ← EReal.coe_sub, ← EReal.coe_add]
  congr 1; ring

/-! ## The reference's values at an index -/

/-- The bounded value, entry by entry. -/
private theorem R_v47_apply (A : RArgs Ideal) (i : S262144x4.Idx) :
    R_v47 A i = FloatOps.hostUnary (F := Ideal) (φ := .f32) .tanh (R_v37 A i + R_v39 A i) * R_v43 A i - R_v46 A i := rfl

/-- The bounded value at a row. -/
private theorem R_v47_at (A : RArgs Ideal) (a : Fin 262144) (k : Fin 4) :
    R_v47 A (ix2 a k) = bndOf CR (fun j => R_v37 A (ix2 a j)) k := by
  rw [R_v47_apply, Ideal.hostUnary_tanh_def]
  unfold R_v39 R_v38 R_v43 R_v42 R_v46 R_v45
  rw [bc4, bc4, bc4]
  unfold R_cst R_cst_0 R_cst_1 bndOf CR
  simp only [rowMajor4]

/-- The code, entry by entry: the bounded value plus the difference between its rounding and itself, over the half width. -/
private theorem R_v53_apply (A : RArgs Ideal) (i : S262144x4.Idx) :
    R_v53 A i = FloatOps.hostDivf (F := Ideal) (φ := .f32) (R_v47 A i + (FloatOps.hostUnary (F := Ideal) (φ := .f32) .roundeven (R_v47 A i) - R_v47 A i)) (R_v52 A i) := rfl

/-- The code at a row. -/
private theorem R_v53_at (A : RArgs Ideal) (a : Fin 262144) (k : Fin 4) :
    R_v53 A (ix2 a k) = codeOf CR (fun j => R_v37 A (ix2 a j)) k := by
  rw [R_v53_apply, Ideal.hostDivf_def, Ideal.hostUnary_roundeven_def, R_v47_at]
  obtain ⟨β, hβ⟩ := bnd_real (fun j => R_v37 A (ix2 a j)) k
  rw [add_round_sub _ _ β hβ]
  unfold R_v52 R_v51
  rw [bc4]
  unfold R_cst_2 codeOf CR
  simp only [rowMajor4]

/-- Each result below is a product plus a bias, entry by entry. -/
private theorem R_v68_apply (A : RArgs Ideal) (i : S262144x128.Idx) : R_v68 A i = R_v65 A i + R_v67 A i := rfl
private theorem R_v72_apply (A : RArgs Ideal) (i : S262144x5.Idx) : R_v72 A i = R_v69 A i + R_v71 A i := rfl
private theorem R_v76_apply (A : RArgs Ideal) (i : S262144x2.Idx) : R_v76 A i = R_v73 A i + R_v75 A i := rfl

/-- The quantised latent at a row. -/
theorem R_v68_row (A : RArgs Ideal) (a : Fin 262144) (j : Fin 128) :
    R_v68 A (ix2 a j) = zqOf (WofA A) CR (fun j => R_v37 A (ix2 a j)) j := by
  show _ = (∑ k : Fin 4, codeOf CR (fun j => R_v37 A (ix2 a j)) k * A.a15 (ix2 k j)) + A.a16 (ix1 j)
  rw [R_v68_apply]
  refine congrArg₂ (· + ·) ?_ ?_
  · unfold R_v65
    refine (dot_plain_apply dot_S262144x4_S4x128_S262144x128_1_0_0_1_n_n_wf none _ _ a j).trans ?_
    refine Finset.sum_congr rfl fun c _ => ?_
    rw [R_v53_at]
  · unfold R_v67 R_v66
    exact bc128 _ a j

/-- The class logits at a row. -/
theorem R_v72_row (A : RArgs Ideal) (a : Fin 262144) (j : Fin 5) :
    R_v72 A (ix2 a j) = clsOf (WofA A) (fun k => R_v68 A (ix2 a k)) j := by
  show _ = (∑ k : Fin 128, R_v68 A (ix2 a k) * A.a23 (ix2 k j)) + A.a24 (ix1 j)
  rw [R_v72_apply]
  refine congrArg₂ (· + ·) ?_ ?_
  · unfold R_v69
    exact dot_plain_apply dot_S262144x128_S128x5_S262144x5_1_0_0_1_n_n_wf none _ _ a j
  · unfold R_v71 R_v70
    exact bc5 _ a j

/-- The closedness logits at a row. -/
theorem R_v76_row (A : RArgs Ideal) (a : Fin 262144) (j : Fin 2) :
    R_v76 A (ix2 a j) = cloOf (WofA A) (fun k => R_v68 A (ix2 a k)) j := by
  show _ = (∑ k : Fin 128, R_v68 A (ix2 a k) * A.a25 (ix2 k j)) + A.a26 (ix1 j)
  rw [R_v76_apply]
  refine congrArg₂ (· + ·) ?_ ?_
  · unfold R_v73
    exact dot_plain_apply dot_S262144x128_S128x2_S262144x2_1_0_0_1_n_n_wf none _ _ a j
  · unfold R_v75 R_v74
    exact bc2 _ a j

/-- A term of the code index, entry by entry: the code moved back to a level number and weighed by the basis. -/
private theorem R_v62_apply (A : RArgs Ideal) (i : S262144x4.Idx) :
    R_v62 A i = (R_v53 A i * R_v55 A i + R_v58 A i) * R_v61 A i := rfl

/-- The code index is the conversion of its number, entry by entry. -/
private theorem R_v64_apply (A : RArgs Ideal) (i : S262144.Idx) :
    R_v64 A i = FloatOps.fptosi (F := Ideal) (φ := .f32) 32 (R_v63 A i) := rfl

/-- Over the extended reals the conversion to a 32-bit integer is the clamped truncation. -/
private theorem fptosi_ideal (w : Nat) (x : Ideal .f32) : FloatOps.fptosi (F := Ideal) (φ := .f32) w x = Ideal.fptosi w x := rfl

/-- The code index as a number, at a row. -/
private theorem R_v63_at (A : RArgs Ideal) (a : Fin 262144) :
    R_v63 A (ix1 a) = idxfOf CR (fun j => R_v37 A (ix2 a j)) := by
  have hR : S262144x4.Reduces [1] S262144 := by decide
  have h0 : R_cst_6 A (Shape.Idx.first h_S_) = 0 := by
    unfold R_cst_6; rw [constant_apply]; exact Ideal.ofBits_zero_f32
  unfold R_v63
  simp only [Host.reduceAdd, Ideal.hostReduceAdd_def]
  rw [Ideal.hostReduceAdd_single reducesTo_S262144x4_S262144_d1 hR, h0, zero_add]
  unfold idxfOf
  show ∑ k : Fin 4, _ = ∑ k : Fin 4, _
  refine Finset.sum_congr rfl fun k _ => ?_
  have hl : hR.lift (ix1 a) k = ix2 a k :=
    funext fun b => Fin.ext (by match b with | ⟨0, _⟩ => rfl | ⟨1, _⟩ => rfl)
  rw [hl, R_v62_apply, R_v53_at]
  unfold R_v55 R_v54 R_v58 R_v57 R_v61 R_v60
  rw [bc4, bc4]
  unfold R_cst_2 R_cst_3 CR
  simp only [rowMajor4]

/-- The code index at a row. -/
theorem R_v64_row (A : RArgs Ideal) (a : Fin 262144) :
    R_v64 A (ix1 a) = idxOf CR (fun j => R_v37 A (ix2 a j)) := by
  rw [R_v64_apply, fptosi_ideal, R_v63_at]
  rfl

end Cert.ReferenceIdeal.RT

end
-- ==== Proof.RDec2.lean ====
/-
  The reference's decoder and reconstruction at one row, from its quantised latent `R_v68` and type embedding `R_v6`: the
  first layer's product with the concatenation of the two splits into the two sums of Proof/Spec.lean; with the row's
  surface type `t` in range the take along the type axis is type `t`'s slice of the all-types product.
-/
import proofs.«425746_j43550968382251_1_alg».proof.Proof.RIface
import Idealize.ShloMosaic.Lib.Pipeline.Value
import Idealize.ShloMosaic.PureOps.Ideal.Laws

noncomputable section

namespace Cert.ReferenceIdeal.RT

open Idealize.ShloMosaic Idealize.ShloMosaic.ValueIdx Idealize.SL.Sem
open Cert.ReferenceIdeal Cert.ReferenceIdeal.Gen Cert.Spec
open scoped BigOperators

/-- A product of an [m,k] by a [k,n] matrix at an index. -/
private theorem dot2_apply {m k n : Nat} {φ₁ φ₂ : FTy}
    (w : DotDims.WF ⟨2, ![m, k]⟩ ⟨2, ![k, n]⟩ ⟨2, ![m, n]⟩ [1] [0] [0] [1] [] [])
    (prec : Option ContractPrecision) (X : FVec Ideal ⟨2, ![m, k]⟩ φ₁) (Y : FVec Ideal ⟨2, ![k, n]⟩ φ₂)
    (a : Fin m) (b : Fin n) :
    Host.dotGeneral (⟨[1], [0], [0], [1], [], [], w⟩ : DotDims _ _ _) prec X Y (ix2 a b)
      = ∑ c : Fin k, X (ix2 a c) * Y (ix2 c b) := by
  show FloatOps.dotGeneral _ prec _ X Y (ix2 a b) = _
  rw [Ideal.dotGeneral_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A bias row laid under every row of an [m,n] array reads, at (a, b), the bias at b. -/
private theorem bias_apply {α : Type} {m n : Nat} (h₁ : (⟨1, ![n]⟩ : Shape).BroadcastsInDim ⟨2, ![1, n]⟩ ![1])
    (h₂ : (⟨2, ![1, n]⟩ : Shape).BroadcastsInDim ⟨2, ![m, n]⟩ ![0, 1]) (v : (⟨1, ![n]⟩ : Shape).Idx → α) (a : Fin m) (b : Fin n) :
    broadcastInDim ⟨2, ![m, n]⟩ ![0, 1] h₂ (broadcastInDim ⟨2, ![1, n]⟩ ![1] h₁ v) (ix2 a b) = v (ix1 b) := by
  simp only [broadcastInDim]
  congr 1
  funext ax
  have ha : ax = 0 := Subsingleton.elim _ _
  subst ha
  apply Fin.ext
  have hq := b.isLt
  split
  · next h1 => change n = 1 at h1; show (0 : Nat) = b.val; omega
  · split
    · next h2 => change n = 1 at h2; show (0 : Nat) = b.val; omega
    · rfl

/-- An affine layer of the reference at a row. -/
private theorem layer_apply {m k n : Nat}
    (w : DotDims.WF ⟨2, ![m, k]⟩ ⟨2, ![k, n]⟩ ⟨2, ![m, n]⟩ [1] [0] [0] [1] [] [])
    (h₁ : (⟨1, ![n]⟩ : Shape).BroadcastsInDim ⟨2, ![1, n]⟩ ![1])
    (h₂ : (⟨2, ![1, n]⟩ : Shape).BroadcastsInDim ⟨2, ![m, n]⟩ ![0, 1])
    (X : FVec Ideal ⟨2, ![m, k]⟩ .f32) (M : FVec Ideal ⟨2, ![k, n]⟩ .f32) (v : FVec Ideal ⟨1, ![n]⟩ .f32)
    (a : Fin m) (b : Fin n) :
    addf (Host.dotGeneral (⟨[1], [0], [0], [1], [], [], w⟩ : DotDims _ _ _) none X M)
      (broadcastInDim ⟨2, ![m, n]⟩ ![0, 1] h₂ (broadcastInDim ⟨2, ![1, n]⟩ ![1] h₁ v)) (ix2 a b)
      = lin (fun c => X (ix2 a c)) M v b := by
  rw [addf_apply, dot2_apply, bias_apply]
  rfl

/-- The reference's relu at an index. -/
private theorem relu_apply {t : Shape} (h : (⟨0, ![]⟩ : Shape).BroadcastsInDim t ![]) (X : FVec Ideal t .f32) (j : t.Idx) :
    maximumf X (broadcastInDim t ![] h (constant (F := Ideal) ⟨0, ![]⟩ .f32 0x00000000#32)) j = max (X j) 0 := by
  rw [maximumf_apply]
  show max (X j) (Ideal.ofBits .f32 0x00000000#32) = _
  rw [Ideal.ofBits_zero_f32]

/-- The left piece of a two-piece concatenation along the columns. -/
private theorem concat_left {α : Type} {m n₁ n₂ n : Nat}
    (h : Shape.Concatenates [(⟨2, ![m, n₁]⟩ : Shape), ⟨2, ![m, n₂]⟩] ⟨2, ![m, n]⟩ 1)
    (x₁ : (⟨2, ![m, n₁]⟩ : Shape).Idx → α) (x₂ : (⟨2, ![m, n₂]⟩ : Shape).Idx → α) (a : Fin m) (c : Fin n₁) (hc : c.val < n) :
    concatenate ⟨2, ![m, n]⟩ 1 [⟨_, x₁⟩, ⟨_, x₂⟩] h (ix2 a ⟨c.val, hc⟩) = x₁ (ix2 a c) :=
  concatenate_pair_apply_left 1 x₁ x₂ h (ix2 a ⟨c.val, hc⟩) rfl (ix2 a c)
    (fun b => match b with | ⟨0, _⟩ => rfl | ⟨1, _⟩ => rfl)

/-- The right piece of a two-piece concatenation along the columns. -/
private theorem concat_right {α : Type} {m n₁ n₂ n : Nat}
    (h : Shape.Concatenates [(⟨2, ![m, n₁]⟩ : Shape), ⟨2, ![m, n₂]⟩] ⟨2, ![m, n]⟩ 1)
    (x₁ : (⟨2, ![m, n₁]⟩ : Shape).Idx → α) (x₂ : (⟨2, ![m, n₂]⟩ : Shape).Idx → α) (a : Fin m) (c : Fin n₂) (hc : n₁ + c.val < n) :
    concatenate ⟨2, ![m, n]⟩ 1 [⟨_, x₁⟩, ⟨_, x₂⟩] h (ix2 a ⟨n₁ + c.val, hc⟩) = x₂ (ix2 a c) :=
  concatenate_pair_apply_right 1 x₁ x₂ h (ix2 a ⟨n₁ + c.val, hc⟩) rfl rfl (ix2 a c)
    (fun b => match b with | ⟨0, _⟩ => fun _ => rfl | ⟨1, _⟩ => fun hb => absurd rfl hb)
    (by show c.val + n₁ = n₁ + c.val; omega)

/-- A sum over 144 terms is the sum of its first 128 and of its last 16. -/
private theorem sum_split_144 (f : Fin 144 → EReal) :
    ∑ c : Fin 144, f c = (∑ k : Fin 128, f ⟨k.val, by omega⟩) + ∑ k : Fin 16, f ⟨128 + k.val, by omega⟩ :=
  Fin.sum_univ_add (a := 128) (b := 16) f

private theorem R_v91_lin (A : RArgs Ideal) (a : Fin 262144) (j : Fin 32) :
    R_v91 A (ix2 a j) = lin (fun c => R_v87 A (ix2 a c)) A.a21 A.a22 j := by
  unfold R_v91 R_v88 R_v90 R_v89 dot_S262144x512_S512x32_S262144x32_1_0_0_1_n_n
  exact layer_apply _ _ _ _ _ _ a j

private theorem R_v87_relu (A : RArgs Ideal) (a : Fin 262144) (j : Fin 512) :
    R_v87 A (ix2 a j) = max (R_v86 A (ix2 a j)) 0 := by
  unfold R_v87 R_call6_v0 R_call6_cst
  exact relu_apply _ _ _

private theorem R_v86_lin (A : RArgs Ideal) (a : Fin 262144) (j : Fin 512) :
    R_v86 A (ix2 a j) = lin (fun c => R_v82 A (ix2 a c)) A.a19 A.a20 j := by
  unfold R_v86 R_v83 R_v85 R_v84 dot_S262144x256_S256x512_S262144x512_1_0_0_1_n_n
  exact layer_apply _ _ _ _ _ _ a j

private theorem R_v82_relu (A : RArgs Ideal) (a : Fin 262144) (j : Fin 256) :
    R_v82 A (ix2 a j) = max (R_v81 A (ix2 a j)) 0 := by
  unfold R_v82 R_call5_v0 R_call5_cst
  exact relu_apply _ _ _

private theorem R_v77_left (A : RArgs Ideal) (a : Fin 262144) (c : Fin 128) :
    R_v77 A (ix2 a (⟨c.val, by omega⟩ : Fin 144)) = R_v68 A (ix2 a c) := by
  unfold R_v77
  exact concat_left _ _ _ a c _

private theorem R_v77_right (A : RArgs Ideal) (a : Fin 262144) (c : Fin 16) :
    R_v77 A (ix2 a (⟨128 + c.val, by omega⟩ : Fin 144)) = R_v6 A (ix2 a c) := by
  unfold R_v77
  exact concat_right _ _ _ a c _

private theorem R_v81_eq (A : RArgs Ideal) (a : Fin 262144) (j : Fin 256) :
    R_v81 A (ix2 a j)
      = ((∑ k : Fin 128, R_v68 A (ix2 a k) * A.a17 (ix2 (⟨k.val, by omega⟩ : Fin 144) j))
        + (∑ k : Fin 16, R_v6 A (ix2 a k) * A.a17 (ix2 (⟨128 + k.val, by omega⟩ : Fin 144) j))) + A.a18 (ix1 j) := by
  have e : R_v81 A (ix2 a j) = lin (fun c => R_v77 A (ix2 a c)) A.a17 A.a18 j := by
    unfold R_v81 R_v78 R_v80 R_v79 dot_S262144x144_S144x256_S262144x256_1_0_0_1_n_n
    exact layer_apply _ _ _ _ _ _ a j
  rw [e]
  unfold lin
  rw [sum_split_144]
  simp only [R_v77_left, R_v77_right]

/-- The decoder's output at a row. -/
theorem R_v91_row (A : RArgs Ideal) (a : Fin 262144) (j : Fin 32) :
    R_v91 A (ix2 a j)
      = pdOf (WofA A) (hd2Of (WofA A) (hd1Of (WofA A) (fun k => R_v68 A (ix2 a k)) (fun e => R_v6 A (ix2 a e)))) j := by
  have h1 : (fun d => R_v82 A (ix2 a d))
      = hd1Of (WofA A) (fun k => R_v68 A (ix2 a k)) (fun e => R_v6 A (ix2 a e)) := by
    funext d
    rw [R_v82_relu, R_v81_eq]
    rfl
  have h2 : (fun c => R_v87 A (ix2 a c))
      = hd2Of (WofA A) (hd1Of (WofA A) (fun k => R_v68 A (ix2 a k)) (fun e => R_v6 A (ix2 a e))) := by
    funext c
    rw [R_v87_relu, R_v86_lin, h1]
    rfl
  rw [R_v91_lin, h2]
  rfl

/-- The product of an [m,k] matrix with every [n,k] matrix of a stack of g, each contracted on its last axis, at an index. -/
private theorem dot3_apply {m k g n : Nat} {φ₁ φ₂ : FTy}
    (w : DotDims.WF ⟨2, ![m, k]⟩ ⟨3, ![g, n, k]⟩ ⟨3, ![m, g, n]⟩ [1] [2] [0] [0, 1] [] [])
    (prec : Option ContractPrecision) (X : FVec Ideal ⟨2, ![m, k]⟩ φ₁) (Y : FVec Ideal ⟨3, ![g, n, k]⟩ φ₂)
    (a : Fin m) (u : Fin g) (r : Fin n) :
    Host.dotGeneral (⟨[1], [2], [0], [0, 1], [], [], w⟩ : DotDims _ _ _) prec X Y (ix3 a u r)
      = ∑ c : Fin k, X (ix2 a c) * Y (ix3 u r c) := by
  show FloatOps.dotGeneral _ prec _ X Y (ix3 a u r) = _
  rw [Ideal.dotGeneral_apply,
    ← Equiv.sum_comp (contrEquiv1 (⟨[1], [2], [0], [0, 1], [], [], w⟩ : DotDims _ _ _) k rfl rfl).symm]
  refine Finset.sum_congr rfl fun c _ => ?_
  have c2 := contrEquiv1_symm_val
    (⟨[1], [2], [0], [0, 1], [], [], w⟩ : DotDims ⟨2, ![m, k]⟩ ⟨3, ![g, n, k]⟩ ⟨3, ![m, g, n]⟩) k rfl rfl c
  have l2 : (⟨[1], [2], [0], [0, 1], [], [], w⟩ : DotDims ⟨2, ![m, k]⟩ ⟨3, ![g, n, k]⟩ ⟨3, ![m, g, n]⟩).lhsIdx (ix3 a u r)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [2], [0], [0, 1], [], [], w⟩ : DotDims ⟨2, ![m, k]⟩ ⟨3, ![g, n, k]⟩ ⟨3, ![m, g, n]⟩).rhsIdx (ix3 a u r)
      ((contrEquiv1 _ k rfl rfl).symm c) = ix3 u r c := by
    funext ax; apply Fin.ext
    match ax with
    | ⟨0, _⟩ => simp [DotDims.rhsIdx]; rfl
    | ⟨1, _⟩ => simp [DotDims.rhsIdx]; rfl
    | ⟨2, _⟩ => simp [DotDims.rhsIdx]; exact c2
  rw [l2, r2]

/-- A [g,n] table laid under every row of an [m,g,n] array reads, at (a, u, r), the table at (u, r). -/
private theorem bias3_apply {α : Type} {m g n : Nat} (h₁ : (⟨2, ![g, n]⟩ : Shape).BroadcastsInDim ⟨3, ![1, g, n]⟩ ![1, 2])
    (h₂ : (⟨3, ![1, g, n]⟩ : Shape).BroadcastsInDim ⟨3, ![m, g, n]⟩ ![0, 1, 2]) (v : (⟨2, ![g, n]⟩ : Shape).Idx → α)
    (a : Fin m) (u : Fin g) (r : Fin n) :
    broadcastInDim ⟨3, ![m, g, n]⟩ ![0, 1, 2] h₂ (broadcastInDim ⟨3, ![1, g, n]⟩ ![1, 2] h₁ v) (ix3 a u r) = v (ix2 u r) := by
  have hu := u.isLt
  have hr := r.isLt
  rw [broadcastInDim_apply _ h₂ _ (ix3 a u r) (ix3 (0 : Fin 1) u r) (fun ax => by
    match ax with
    | ⟨0, _⟩ => rfl
    | ⟨1, _⟩ => show u.val = if g = 1 then 0 else u.val; split <;> omega
    | ⟨2, _⟩ => show r.val = if n = 1 then 0 else r.val; split <;> omega)]
  exact broadcastInDim_apply _ h₁ v (ix3 (0 : Fin 1) u r) (ix2 u r) (fun ax => by
    match ax with
    | ⟨0, _⟩ => show u.val = if g = 1 then 0 else u.val; split <;> omega
    | ⟨1, _⟩ => show r.val = if n = 1 then 0 else r.val; split <;> omega)

private theorem R_v95_apply (A : RArgs Ideal) (a : Fin 262144) (u : Fin 5) (r : Fin 11) :
    R_v95 A (ix3 a u r) = (∑ p : Fin 32, R_v91 A (ix2 a p) * A.a27 (ix3 u r p)) + A.a28 (ix2 u r) := by
  unfold R_v95 R_v92 R_v94 R_v93 dot_S262144x32_S5x11x32_S262144x5x11_1_2_0_01_n_n
  exact congrArg₂ (· + ·) (dot3_apply _ none (R_v91 A) A.a27 a u r) (bias3_apply _ _ A.a28 a u r)

/-- The reshape [262144,1,11] → [262144,11] keeps row and column. -/
private theorem R_v98_reshape (A : RArgs Ideal) (a : Fin 262144) (j : Fin 11) :
    R_v98 A (ix2 a j) = R_v97 A (ix3 a (0 : Fin 1) j) := by
  unfold R_v98
  refine shapeCast_apply _ _ (ix2 a j) (ix3 a (0 : Fin 1) j) ?_
  rw [Shape.rowMajor_val_three, Shape.rowMajor_val_two]
  show (a.val * 1 + 0) * 11 + j.val = a.val * 11 + j.val
  omega

/-- A left fold by `and` from 1 over words that are all 1 is 1. -/
private theorem foldl_andi_one {ι : Type} (f : ι → BitVec 1) :
    ∀ l : List ι, (∀ n ∈ l, f n = 1#1) → l.foldl (fun r n => IntOp.andi r (f n)) 1#1 = 1#1
  | [], _ => rfl
  | b :: l, h => by
    rw [List.foldl_cons, h b List.mem_cons_self]
    exact foldl_andi_one f l (fun n hn => h n (List.mem_cons_of_mem _ hn))

/-- A reduction by `and` over two unit axes' last one, from 1: at row a it is 1 when the operand at (a, 0, 0) is. -/
private theorem reduce_andi_unit {N : Nat} {u : Shape} (x : IVec ⟨3, ![N, 1, 1]⟩ 1) (init : u.Idx → BitVec 1)
    (h : (⟨3, ![N, 1, 1]⟩ : Shape).ReducesTo [2] ⟨2, ![N, 1]⟩) (hu : 0 < u.numel) (a : Fin N)
    (hx : x (ix3 a (0 : Fin 1) (0 : Fin 1)) = 1#1) (hinit : init (Shape.Idx.first hu) = 1#1) :
    Host.reduce IntOp.andi x init h hu (ix2 a (0 : Fin 1)) = 1#1 := by
  rw [Host.reduce_eq_foldl, hinit]
  apply foldl_andi_one
  intro i hi
  have hd : h.drop i = ix2 a (0 : Fin 1) := of_decide_eq_true (List.mem_filter.1 hi).2
  have h0 : (i 0).val = a.val := by
    have e : ((h.drop i) (0 : Fin 2) : Nat) = (i (0 : Fin 3)).val := rfl
    rw [hd] at e
    exact e.symm
  have h1 : (i 1).val < 1 := (i 1).isLt
  have h2 : (i 2).val < 1 := (i 2).isLt
  have e : i = ix3 a (0 : Fin 1) (0 : Fin 1) := by
    funext b; apply Fin.ext
    match b with
    | ⟨0, _⟩ => exact h0
    | ⟨1, _⟩ => show (i 1).val = 0; omega
    | ⟨2, _⟩ => show (i 2).val = 0; omega
  rw [e, hx]

/-- The dimension numbers of a take along the middle axis of an [N,G,C] array by one start index per row: the row axis is
    a batching axis, the middle axis is collapsed and start-indexed, the last axis is the offset axis. -/
private abbrev take3Dims (N G C : Nat)
    (wf : GatherDims.WF ⟨3, ![N, G, C]⟩ ⟨3, ![N, 1, 1]⟩ ⟨3, ![N, 1, C]⟩ [2] [1] [0] [1] [0] 2 ![1, 1, C]) :
    GatherDims ⟨3, ![N, G, C]⟩ ⟨3, ![N, 1, 1]⟩ ⟨3, ![N, 1, C]⟩ :=
  ⟨[2], [1], [0], [0], [1], 2, ![1, 1, C], wf⟩

section Take3
variable {N G C w : Nat}
  (wf : GatherDims.WF ⟨3, ![N, G, C]⟩ ⟨3, ![N, 1, 1]⟩ ⟨3, ![N, 1, C]⟩ [2] [1] [0] [1] [0] 2 ![1, 1, C])
  (idx : IVec ⟨3, ![N, 1, 1]⟩ w) (a : Fin N) (r : Fin C)

/-- On the row axis the operand index is the row. -/
private theorem take3_ax0 :
    (take3Dims N G C wf).start (ix3 a (0 : Fin 1) r) idx (0 : Fin 3) + (take3Dims N G C wf).batchCoord (ix3 a (0 : Fin 1) r) (0 : Fin 3)
      + (take3Dims N G C wf).offCoord (ix3 a (0 : Fin 1) r) (0 : Fin 3) = a.val := by
  rw [GatherDims.start_batching _ _ _ _ (List.mem_singleton.mpr rfl),
    GatherDims.offCoord_eq_zero _ _ _ (fun h => ((GatherDims.mem_sKept _ _).mp h).2 (List.mem_singleton.mpr rfl))]
  simp only [Nat.zero_add, Nat.add_zero]
  unfold GatherDims.batchCoord
  rw [dif_pos (show (0 : Fin 3) ∈ (take3Dims N G C wf).operandBatchingDims from List.mem_singleton.mpr rfl)]
  rfl

/-- On the middle axis the operand index is the start index, read signed and clamped. -/
private theorem take3_ax1 :
    (take3Dims N G C wf).start (ix3 a (0 : Fin 1) r) idx (1 : Fin 3) + (take3Dims N G C wf).batchCoord (ix3 a (0 : Fin 1) r) (1 : Fin 3)
      + (take3Dims N G C wf).offCoord (ix3 a (0 : Fin 1) r) (1 : Fin 3)
      = min (idx (ix3 a (0 : Fin 1) (0 : Fin 1))).toInt.toNat (G - 1) := by
  have h10 : (1 : Fin 3) ∉ ([0] : List (Fin 3)) := by decide
  rw [GatherDims.batchCoord_eq_zero (take3Dims N G C wf) _ (1 : Fin 3) h10,
    GatherDims.offCoord_eq_zero _ _ _ (fun h => ((GatherDims.mem_sKept _ _).mp h).1 (List.mem_singleton.mpr rfl))]
  simp only [Nat.add_zero]
  unfold GatherDims.start
  rw [dif_pos (show (1 : Fin 3) ∈ (take3Dims N G C wf).startIndexMap from List.mem_singleton.mpr rfl)]
  have hsi : (take3Dims N G C wf).siIdx (ix3 a (0 : Fin 1) r) ⟨List.idxOf (1 : Fin 3) (take3Dims N G C wf).startIndexMap,
      List.idxOf_lt_length_iff.2 (List.mem_singleton.mpr rfl)⟩ = ix3 a (0 : Fin 1) (0 : Fin 1) := by
    funext b; refine Fin.ext ?_
    match b with
    | ⟨0, _⟩ => rfl
    | ⟨1, _⟩ => rfl
    | ⟨2, _⟩ => rfl
  rw [hsi]
  rfl

/-- On the last axis the operand index is the column. -/
private theorem take3_ax2 :
    (take3Dims N G C wf).start (ix3 a (0 : Fin 1) r) idx (2 : Fin 3) + (take3Dims N G C wf).batchCoord (ix3 a (0 : Fin 1) r) (2 : Fin 3)
      + (take3Dims N G C wf).offCoord (ix3 a (0 : Fin 1) r) (2 : Fin 3) = r.val := by
  have h20 : (2 : Fin 3) ∉ ([0] : List (Fin 3)) := by decide
  have h21 : (2 : Fin 3) ∉ ([1] : List (Fin 3)) := by decide
  rw [GatherDims.batchCoord_eq_zero (take3Dims N G C wf) _ (2 : Fin 3) h20]
  unfold GatherDims.start
  rw [dif_neg (show (2 : Fin 3) ∉ (take3Dims N G C wf).startIndexMap from h21)]
  simp only [Nat.zero_add, Nat.add_zero]
  unfold GatherDims.offCoord
  rw [dif_pos ((GatherDims.mem_sKept (take3Dims N G C wf) (2 : Fin 3)).mpr ⟨h21, h20⟩)]
  rfl

/-- The take read at (a, 0, r): the operand at row a, at the start index of row a read signed and clamped into the
    middle axis, at column r. -/
private theorem take3_apply {α : Type} (hG : 0 < G) (x : (⟨3, ![N, G, C]⟩ : Shape).Idx → α) :
    Host.gather (take3Dims N G C wf) x idx (ix3 a (0 : Fin 1) r)
      = x (ix3 a (⟨min (idx (ix3 a (0 : Fin 1) (0 : Fin 1))).toInt.toNat (G - 1), by omega⟩ : Fin G) r) := by
  unfold Host.gather
  congr 1
  funext b
  refine Fin.ext ?_
  match b with
  | ⟨0, _⟩ => exact take3_ax0 wf idx a r
  | ⟨1, _⟩ => exact take3_ax1 wf idx a r
  | ⟨2, _⟩ => exact take3_ax2 wf idx a r

end Take3

/-- A surface-type word in range is not negative: the wrap keeps it. -/
private theorem word_kept (t : Fin 5) :
    Scalar.select (IntOp.cmpi .slt (BitVec.ofNat 32 t.val) 0#32) (IntOp.addi (BitVec.ofNat 32 t.val) 5#32)
      (BitVec.ofNat 32 t.val) = BitVec.ofNat 32 t.val := by
  revert t; decide

/-- A surface-type word in range is at least 0 and at most 4. -/
private theorem word_in_range (t : Fin 5) :
    IntOp.andi (IntOp.cmpi .sge (BitVec.ofNat 32 t.val) 0#32) (IntOp.cmpi .sle (BitVec.ofNat 32 t.val) 4#32) = 1#1 := by
  revert t; decide

/-- A surface-type word in range, read signed and clamped into the five types, is itself. -/
private theorem word_clamped (t : Fin 5) : min (BitVec.ofNat 32 t.val).toInt.toNat (5 - 1) = t.val := by
  revert t; decide

section Recon
variable (A : RArgs Ideal) (a : Fin 262144) (t : Fin 5) (hs : A.a1 (ix1 a) = BitVec.ofNat 32 t.val)
include hs

/-- The start index of row a is its surface type. -/
private theorem R_call7_v4_apply : R_call7_v4 A (ix3 a (0 : Fin 1) (0 : Fin 1)) = BitVec.ofNat 32 t.val := by
  have h96 : R_v96 A (ix3 a (0 : Fin 1) (0 : Fin 1)) = BitVec.ofNat 32 t.val := by
    refine Eq.trans ?_ hs
    unfold R_v96
    exact broadcastInDim_apply _ _ A.a1 (ix3 a (0 : Fin 1) (0 : Fin 1)) (ix1 a) (fun ax => by
      match ax with
      | ⟨0, _⟩ => rfl)
  show Scalar.select (IntOp.cmpi .slt (R_v96 A (ix3 a (0 : Fin 1) (0 : Fin 1))) 0#32)
    (IntOp.addi (R_v96 A (ix3 a (0 : Fin 1) (0 : Fin 1))) 5#32) (R_v96 A (ix3 a (0 : Fin 1) (0 : Fin 1))) = _
  rw [h96]
  exact word_kept t

/-- The take's validity mask is set at row a. -/
private theorem R_call7_v13_apply (j : Fin 11) : R_call7_v13 A (ix3 a (0 : Fin 1) j) = 1#1 := by
  have h10 : R_call7_v10 A (ix3 a (0 : Fin 1) (0 : Fin 1)) = 1#1 := by
    show IntOp.andi (IntOp.cmpi .sge (R_call7_v4 A (ix3 a (0 : Fin 1) (0 : Fin 1))) 0#32)
      (IntOp.cmpi .sle (R_call7_v4 A (ix3 a (0 : Fin 1) (0 : Fin 1))) 4#32) = 1#1
    rw [R_call7_v4_apply A a t hs]
    exact word_in_range t
  have h11 : R_call7_v11 A (ix2 a (0 : Fin 1)) = 1#1 := by
    unfold R_call7_v11
    exact reduce_andi_unit _ _ _ _ a h10 rfl
  refine Eq.trans ?_ h11
  unfold R_call7_v13
  exact broadcastInDim_apply _ _ _ (ix3 a (0 : Fin 1) j) (ix2 a (0 : Fin 1)) (fun ax => by
    match ax with
    | ⟨0, _⟩ => rfl
    | ⟨1, _⟩ => rfl)

/-- The take reads type t's slice of the all-types reconstruction. -/
private theorem R_call7_v12_apply (j : Fin 11) : R_call7_v12 A (ix3 a (0 : Fin 1) j) = R_v95 A (ix3 a t j) := by
  have hidx : (ix3 a (⟨min (R_call7_v4 A (ix3 a (0 : Fin 1) (0 : Fin 1))).toInt.toNat (5 - 1), by omega⟩ : Fin 5) j
      : S262144x5x11.Idx) = ix3 a t j := by
    funext b; refine Fin.ext ?_
    match b with
    | ⟨0, _⟩ => rfl
    | ⟨1, _⟩ =>
      show min (R_call7_v4 A (ix3 a (0 : Fin 1) (0 : Fin 1))).toInt.toNat (5 - 1) = t.val
      rw [R_call7_v4_apply A a t hs]
      exact word_clamped t
    | ⟨2, _⟩ => rfl
  refine Eq.trans ?_ (congrArg (R_v95 A) hidx)
  unfold R_call7_v12 gather_S262144x5x11_S262144x1x1_S262144x1x11_2_1_0_0_1_2_1111
  exact take3_apply _ (R_call7_v4 A) a j (by decide) (R_v95 A)

end Recon

/-- The reconstruction at a row of type `t`. -/
theorem R_v98_row (A : RArgs Ideal) (a : Fin 262144) (t : Fin 5) (hs : A.a1 (ix1 a) = BitVec.ofNat 32 t.val) (j : Fin 11) :
    R_v98 A (ix2 a j) = reconOf (WofA A) (fun p => R_v91 A (ix2 a p)) t j := by
  rw [R_v98_reshape]
  have h97 : R_v97 A (ix3 a (0 : Fin 1) j) = R_call7_v12 A (ix3 a (0 : Fin 1) j) := by
    show Scalar.select (R_call7_v13 A (ix3 a (0 : Fin 1) j)) (R_call7_v12 A (ix3 a (0 : Fin 1) j))
      (R_call7_v14 A (ix3 a (0 : Fin 1) j)) = _
    rw [R_call7_v13_apply A a t hs j, select_one]
  rw [h97, R_call7_v12_apply A a t hs j, R_v95_apply]
  rfl

end Cert.ReferenceIdeal.RT

end
-- ==== Proof.RRow.lean ====
/-
  The reference's five float and index results as whole arrays: Proof/Spec.lean's arrays of the arguments, when every
  surface type is in range.
-/
import proofs.«425746_j43550968382251_1_alg».proof.Proof.REnc
import proofs.«425746_j43550968382251_1_alg».proof.Proof.RDec1
import proofs.«425746_j43550968382251_1_alg».proof.Proof.RDec2

noncomputable section

namespace Cert.ReferenceIdeal.RT

open Idealize.ShloMosaic Idealize.ShloMosaic.ValueIdx Idealize.SL.Sem
open Cert.ReferenceIdeal Cert.ReferenceIdeal.Gen Cert.Spec

variable (A : RArgs Ideal) (hpre : ∀ a : Fin 262144, ∃ t : Fin 5, A.a1 (ix1 a) = BitVec.ofNat 32 t.val)

include hpre

theorem zq_at (a : Fin 262144) (t : Fin 5) (ht : A.a1 (ix1 a) = BitVec.ofNat 32 t.val) (j : Fin 128) :
    R_v68 A (ix2 a j) = zqR (WofA A) CR (rowOf A.a0 a) t j := by
  rw [R_v68_row A a j]
  have h : (fun j => R_v37 A (ix2 a j)) = zpR (WofA A) (rowOf A.a0 a) t := funext fun k => R_v37_row A a t ht k
  rw [h]; rfl

theorem R_v68_eq : R_v68 A = zqG (WofA A) CR A.a0 A.a1 := by
  funext i
  obtain ⟨a, b, rfl⟩ : ∃ a b, i = ix2 a b := ⟨i 0, i 1, eq_ix2 i⟩
  obtain ⟨t, ht⟩ := hpre a
  rw [zqG_apply, ht, tOf_ofNat]
  exact zq_at A hpre a t ht b

theorem R_v72_eq : R_v72 A = clsG (WofA A) CR A.a0 A.a1 := by
  funext i
  obtain ⟨a, b, rfl⟩ : ∃ a b, i = ix2 a b := ⟨i 0, i 1, eq_ix2 i⟩
  obtain ⟨t, ht⟩ := hpre a
  rw [clsG_apply, ht, tOf_ofNat, R_v72_row A a b]
  have h : (fun k => R_v68 A (ix2 a k)) = zqR (WofA A) CR (rowOf A.a0 a) t := funext fun k => zq_at A hpre a t ht k
  rw [h]; rfl

theorem R_v76_eq : R_v76 A = cloG (WofA A) CR A.a0 A.a1 := by
  funext i
  obtain ⟨a, b, rfl⟩ : ∃ a b, i = ix2 a b := ⟨i 0, i 1, eq_ix2 i⟩
  obtain ⟨t, ht⟩ := hpre a
  rw [cloG_apply, ht, tOf_ofNat, R_v76_row A a b]
  have h : (fun k => R_v68 A (ix2 a k)) = zqR (WofA A) CR (rowOf A.a0 a) t := funext fun k => zq_at A hpre a t ht k
  rw [h]; rfl

theorem R_v64_eq : R_v64 A = idxG (WofA A) CR A.a0 A.a1 := by
  funext i
  obtain ⟨a, rfl⟩ : ∃ a, i = ix1 a := ⟨i 0, eq_ix1 i⟩
  obtain ⟨t, ht⟩ := hpre a
  rw [idxG_apply, ht, tOf_ofNat, R_v64_row A a]
  have h : (fun j => R_v37 A (ix2 a j)) = zpR (WofA A) (rowOf A.a0 a) t := funext fun k => R_v37_row A a t ht k
  rw [h]; rfl

theorem R_v98_eq : R_v98 A = reconG (WofA A) CR A.a0 A.a1 := by
  funext i
  obtain ⟨a, b, rfl⟩ : ∃ a b, i = ix2 a b := ⟨i 0, i 1, eq_ix2 i⟩
  obtain ⟨t, ht⟩ := hpre a
  rw [reconG_apply, ht, tOf_ofNat, R_v98_row A a t ht b]
  have h1 : (fun k => R_v68 A (ix2 a k)) = zqR (WofA A) CR (rowOf A.a0 a) t := funext fun k => zq_at A hpre a t ht k
  have h2 : (fun e => R_v6 A (ix2 a e)) = embR (WofA A) t := funext fun e => R_v6_row A a t ht e
  have h3 : (fun p => R_v91 A (ix2 a p)) = pdR (WofA A) CR (rowOf A.a0 a) t := funext fun p => by
    rw [R_v91_row A a p, h1, h2]; rfl
  rw [h3]; rfl

end Cert.ReferenceIdeal.RT

end
-- ==== Proof.PreMask.lean ====
/-
  Two facts the assembly needs.  The precondition's last conjunct says every surface type is at least 0 and below 5: so
  each is the word of some `t : Fin 5`.  And the two programs compute the mask output by the same chain of host
  operations of the surface types.
-/
import proofs.«425746_j43550968382251_1_alg».proof.Defs
import proofs.«425746_j43550968382251_1_alg».proof.Proof.Gen.Pre_finite_inputs
import proofs.«425746_j43550968382251_1_alg».proof.Proof.Gen.KernelIdeal
import proofs.«425746_j43550968382251_1_alg».proof.Proof.Gen.ReferenceIdeal
import proofs.«425746_j43550968382251_1_alg».proof.Proof.KMaskDef
import proofs.«425746_j43550968382251_1_alg».proof.Proof.RefTerms
import Idealize.ShloMosaic.Lib.ValueIdx
import Idealize.ShloMosaic.Lib.ReduceAll
import Idealize.ShloMosaic.Lib.StableHlo.Predicate

noncomputable section

namespace Cert.Proof.PM

open Idealize.ShloMosaic Idealize.ShloMosaic.ValueIdx Idealize.SL.Sem

/-- A 32-bit word that reads, signed, at least 0 and below 5 is the word of some `t : Fin 5`: a nonnegative signed
    reading is the unsigned one, so the unsigned reading is below 5. -/
theorem word_of_range (s : BitVec 32) (hge : (0#32 : BitVec 32).toInt ≤ s.toInt) (hlt : s.toInt < (5#32 : BitVec 32).toInt) :
    ∃ t : Fin 5, s = BitVec.ofNat 32 t.val := by
  have h0 : (0#32 : BitVec 32).toInt = 0 := by decide
  have h5 : (5#32 : BitVec 32).toInt = 5 := by decide
  rw [h0] at hge
  rw [h5] at hlt
  have hn : 2 * s.toNat < 2 ^ 32 := BitVec.toInt_pos_iff.1 hge
  have he : s.toInt = (s.toNat : Int) := BitVec.toInt_eq_toNat_of_lt hn
  have hs : s.toNat < 5 := by omega
  refine ⟨⟨s.toNat, hs⟩, BitVec.eq_of_toNat_eq ?_⟩
  rw [BitVec.toNat_ofNat]
  exact (Nat.mod_eq_of_lt s.isLt).symm

/-- Under the precondition every surface type is the word of a table row. -/
theorem styp_range (m : (ℓ : Loc Cert.KernelIdeal.nD Cert.KernelIdeal.τ Cert.KernelIdeal.sig) → Buf (Elt Ideal) ℓ)
    (h : Cert.Pre_KernelIdeal m) (c : Dev Cert.KernelIdeal.nD) (a : Fin 262144) :
    ∃ t : Fin 5, m ((c.tc : Thread Cert.KernelIdeal.nD Cert.KernelIdeal.τ).loc Cert.KernelIdeal.main_arg1) (ix1 a)
      = BitVec.ofNat 32 t.val := by
  haveI : Subsingleton Cert.Pre_finite_inputs.S_.Idx := ⟨fun x y => funext fun d => d.elim0⟩
  -- the precondition's scalar, read at its one index, is the conjunction whose last factor is the range test
  have h8 : Cert.Pre_finite_inputs.fn_part8 (F := Ideal)
      (m ((c.tc : Thread Cert.KernelIdeal.nD Cert.KernelIdeal.τ).loc Cert.KernelIdeal.main_arg1)) _ _ ValueIdx.ix0 = 1#1 :=
    congrFun (h c) ValueIdx.ix0
  unfold Cert.Pre_finite_inputs.fn_part8 at h8
  -- the last factor: the conjunction over all rows of (0 ≤ s) ∧ (s < 5) is 1, so it is 1 at row a
  have hall := (IntOp.andi_eq_one.1 h8).2
  clear h8
  have hrow := IntOp.andi_eq_one.1 (Host.reduce_andi_all _ _ _ _ _ hall (ix1 a))
  exact word_of_range _ (IntOp.cmpi_sge.1 hrow.1) (IntOp.cmpi_slt.1 hrow.2)

/-- The kernel program's mask function of the surface types is the reference's mask value. -/
theorem mask_eq (A : Cert.ReferenceIdeal.RT.RArgs Ideal) :
    Cert.KernelIdeal.KV.KMask (F := Ideal) A.a1 = Cert.ReferenceIdeal.RT.R_v111 A := by
  -- both sides are the same composition of the same operations on the same operands; the two programs' shapes are the
  -- same literals and their side conditions are proofs, so the two terms agree by unfolding
  rfl

end Cert.Proof.PM

end
-- ==== Proof.lean ====
/-
  The certificate: a row-wise auto-encoder with a finite-scalar quantiser, as a Pallas kernel over blocks of 1024 rows, against
  its jnp reference, over the extended reals.

  Both programs compute, for each of the 262144 rows, the functions of Proof/Spec.lean of the row's 11 parameters, its surface
  type and the weights.  The kernel selects the type's embedding and the type's two affine maps by multiplying with a 0/1
  indicator of the surface type and summing over the five types; the reference gathers by the surface type.  The two agree
  when the surface type is one of the five table rows, which the precondition says (its added conjunct
  0 ≤ surface_type < 5: the reference indexes its tables by it); outside that range the indicator is all zero while the
  gather clamps.  No finiteness is used: `0 · x = 0`, `1 · x = x` and `0 + x = x` hold for every extended real, sums may be
  regrouped freely, and the one cancellation (the reference adds to the bounded value the difference between its rounding and
  itself) is between real numbers, the bounded value being a scaled and shifted `tanh`.

  The kernel program's run with its results named is Proof/KVal.lean (blocks to arrays over the frame of
  Proof/FrameKernelIdeal.lean), the reference's Proof/RefRun.lean with Proof/RRow.lean; the frames of the two kernel programs
  are the patched copies Proof/FrameKernel.lean and Proof/FrameKernelIdeal.lean of the generated frame modules.
-/
import proofs.«425746_j43550968382251_1_alg».proof.Defs
import proofs.«425746_j43550968382251_1_alg».proof.Proof.Gen.Kernel
import proofs.«425746_j43550968382251_1_alg».proof.Proof.Gen.KernelIdeal
import proofs.«425746_j43550968382251_1_alg».proof.Proof.Gen.ReferenceIdeal
import proofs.«425746_j43550968382251_1_alg».proof.Proof.Gen.Pre_finite_inputs
import proofs.«425746_j43550968382251_1_alg».proof.Proof.FrameKernel
import proofs.«425746_j43550968382251_1_alg».proof.Proof.KVal
import proofs.«425746_j43550968382251_1_alg».proof.Proof.RefRun
import proofs.«425746_j43550968382251_1_alg».proof.Proof.RRow
import proofs.«425746_j43550968382251_1_alg».proof.Proof.PreMask
import Idealize.ShloMosaic.Adequacy
import Idealize.ShloMosaic.Init

noncomputable section

namespace Cert.Proof

open Idealize.ShloMosaic Idealize.ShloMosaic.ValueIdx Idealize.SL.Sem Cert.Spec

/-- The two programs' literal tables are the same words, so the quantiser's constants are the same. -/
theorem consts_eq : Cert.ReferenceIdeal.RT.CR = Cert.KernelIdeal.KV.CK := by
  unfold Cert.ReferenceIdeal.RT.CR Cert.KernelIdeal.KV.CK
  congr 1 <;> (funext j; fin_cases j <;> rfl)

theorem frame_k : Cert.frame_Kernel := fun m ρ _ => Cert.Kernel.GenP.frame m ρ

theorem frame_ki : Cert.frame_KernelIdeal := fun m ρ _ => Cert.KernelIdeal.GenP.frame m ρ

/-- The reference's frame is its run with the results dropped. -/
theorem frame_ri : Cert.frame_ReferenceIdeal := fun m ρ _ =>
  (θ_run Cert.ReferenceIdeal.defs _ _).mono (fun _ h c => (h c).2.2.2.2.2.2) (Cert.ReferenceIdeal.RT.run (F := Ideal) m ρ)

theorem preserves : Cert.preserves_Kernel_KernelIdeal := trivial

/-- With every surface type in range both programs end with Proof/Spec.lean's arrays of the (agreeing) arguments, and
    with the same mask. -/
theorem algebraic : Cert.algebraic_KernelIdeal_ReferenceIdeal := by
  intro m ρ m' ρ' hpre hagree
  have hr := PM.styp_range m hpre
  refine ⟨_, _, _, _, _, _, Cert.KernelIdeal.KV.run m ρ hr, ?_⟩
  refine (θ_run Cert.ReferenceIdeal.defs _ _).mono (fun _ h c => ?_) (Cert.ReferenceIdeal.RT.run (F := Ideal) m' ρ')
  obtain ⟨r98, r111, r72, r76, r68, r64, rargs⟩ := h c
  obtain ⟨h0, h1, h2, h3, h4, h5, h6, h7, h8, h9, h10, h11, h12, h13, h14, h15, h16, h17, h18, h19, h20, h21, h22, h23, h24, h25, h26, h27, h28⟩ := hagree c
  have hW : Cert.ReferenceIdeal.RT.WofA (Cert.ReferenceIdeal.RT.argsOf m' c) = Cert.KernelIdeal.KV.WofM m c := by
    unfold Cert.ReferenceIdeal.RT.WofA Cert.ReferenceIdeal.RT.argsOf Cert.KernelIdeal.KV.WofM
    simp only [h2, h3, h4, h5, h6, h7, h8, h9, h10, h11, h12, h13, h14, h15, h16, h17, h18, h19, h20, h21, h22, h23, h24, h25, h26, h27, h28]
  have ha0 : (Cert.ReferenceIdeal.RT.argsOf m' c).a0 = m ((c.tc : Thread Cert.KernelIdeal.nD Cert.KernelIdeal.τ).loc Cert.KernelIdeal.main_arg0) := h0
  have ha1 : (Cert.ReferenceIdeal.RT.argsOf m' c).a1 = m ((c.tc : Thread Cert.KernelIdeal.nD Cert.KernelIdeal.τ).loc Cert.KernelIdeal.main_arg1) := h1
  have hA : ∀ a : Fin 262144, ∃ t : Fin 5, (Cert.ReferenceIdeal.RT.argsOf m' c).a1 (ix1 a) = BitVec.ofNat 32 t.val := by
    intro a; rw [ha1]; exact hr c a
  refine ⟨r98.trans ?_, r111.trans ?_, r72.trans ?_, r76.trans ?_, r68.trans ?_, r64.trans ?_, rargs⟩
  · rw [Cert.ReferenceIdeal.RT.R_v98_eq _ hA, hW, consts_eq, ha0, ha1]
  · rw [← PM.mask_eq, ha1]
  · rw [Cert.ReferenceIdeal.RT.R_v72_eq _ hA, hW, consts_eq, ha0, ha1]
  · rw [Cert.ReferenceIdeal.RT.R_v76_eq _ hA, hW, consts_eq, ha0, ha1]
  · rw [Cert.ReferenceIdeal.RT.R_v68_eq _ hA, hW, consts_eq, ha0, ha1]
  · rw [Cert.ReferenceIdeal.RT.R_v64_eq _ hA, hW, consts_eq, ha0, ha1]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
